-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8x16 : Shape := ⟨2, ![8, 16]⟩
abbrev S256x256 : Shape := ⟨2, ![256, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S8x16 : S_.BroadcastsInDim S8x16 (![] : Fin 0 → Fin S8x16.rank)
  reducesTo_S8x16_S_d0_1 : S8x16.ReducesTo [0, 1] S_
  bcast_S_S256x256 : S_.BroadcastsInDim S256x256 (![] : Fin 0 → Fin S256x256.rank)
  reducesTo_S256x256_S_d0_1 : S256x256.ReducesTo [0, 1] S_

variable [Facts]

def fn_part7 {F : FTy → Type} [FloatOps F] (main_arg25 : FVec F S256x256 .f32) (main_arg26 : FVec F S256 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256x256 .f32 := Host.absf main_arg25
  let main_cst_48 : FVec F S_ .f32 := constant S_ .f32 0x7F800000#32
  let main_v125 : FVec F S256x256 .f32 := broadcastInDim S256x256 ![] bcast_S_S256x256 main_cst_48
  let main_v126 : IVec S256x256 1 := cmpf .olt main_v124 main_v125
  let main_c_49 : IVec S_ 1 := constantI S_ 1 1#1
  let main_v127 : IVec S_ 1 := (fun x v => Host.reduce IntOp.andi x v reducesTo_S256x256_S_d0_1 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  main_v133

def fn_part6 {F : FTy → Type} [FloatOps F] (main_arg21 : FVec F S8x16 .f32) (main_arg22 : FVec F S128 .f32) (main_arg23 : FVec F S256 .f32) (main_arg24 : FVec F S256 .f32) (main_arg25 : FVec F S256x256 .f32) (main_arg26 : FVec F S256 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S8x16 .f32 := Host.absf main_arg21
  let main_cst_40 : FVec F S_ .f32 := constant S_ .f32 0x7F800000#32
  let main_v105 : FVec F S8x16 .f32 := broadcastInDim S8x16 ![] bcast_S_S8x16 main_cst_40
  let main_v106 : IVec S8x16 1 := cmpf .olt main_v104 main_v105
  let main_c_41 : IVec S_ 1 := constantI S_ 1 1#1
  let main_v107 : IVec S_ 1 := (fun x v => Host.reduce IntOp.andi x v reducesTo_S8x16_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg24
  fn_part7 (F := F) main_arg25 main_arg26 main_v118 main_v119

def fn_part5 {F : FTy → Type} [FloatOps F] (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S8x16 .f32 := Host.absf main_arg11
  let main_cst_20 : FVec F S_ .f32 := constant S_ .f32 0x7F800000#32
  let main_v55 : FVec F S8x16 .f32 := broadcastInDim S8x16 ![] bcast_S_S8x16 main_cst_20
  let main_v56 : IVec S8x16 1 := cmpf .olt main_v54 main_v55
  let main_c_21 : IVec S_ 1 := constantI S_ 1 1#1
  let main_v57 : IVec S_ 1 := (fun x v => Host.reduce IntOp.andi x v reducesTo_S8x16_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S256 .f32) (main_arg5 : FVec F S256x128 .f32) (main_arg6 : FVec F S128 .f32) (main_arg7 : FVec F S128x128 .f32) (main_arg8 : FVec F S128 .f32) (main_arg9 : FVec F S128x128 .f32) (main_arg10 : FVec F S128 .f32) (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x128 .f32) (main_arg1 : FVec F S100000x128 .f32) (main_arg2 : FVec F S1x256 .f32) (main_arg3 : FVec F S256 .f32) (main_arg4 : FVec F S256 .f32) (main_arg5 : FVec F S256x128 .f32) (main_arg6 : FVec F S128 .f32) (main_arg7 : FVec F S128x128 .f32) (main_arg8 : FVec F S128 .f32) (main_arg9 : FVec F S128x128 .f32) (main_arg10 : FVec F S128 .f32) (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x128 : Shape := ⟨2, ![100000, 128]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8x16 : Shape := ⟨2, ![8, 16]⟩
abbrev S256x256 : Shape := ⟨2, ![256, 256]⟩
abbrev S_ : Shape := ⟨0, ![]⟩
abbrev S128x1 : Shape := ⟨2, ![128, 1]⟩
abbrev S1x128 : Shape := ⟨2, ![1, 128]⟩
abbrev S1x4000 : Shape := ⟨2, ![1, 4000]⟩
abbrev S4000x128 : Shape := ⟨2, ![4000, 128]⟩
abbrev S1 : Shape := ⟨1, ![1]⟩
abbrev S1x1 : Shape := ⟨2, ![1, 1]⟩

abbrev nBuf : Space → Nat
  | .hbm => 80
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1x256, .f32⟩
  | .hbm, ⟨3, _⟩ => ⟨S256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S8x16, .f32⟩
  | .hbm, ⟨12, _⟩ => ⟨S128, .f32⟩
  | .hbm, ⟨13, _⟩ => ⟨S256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S8x16, .f32⟩
  | .hbm, ⟨22, _⟩ => ⟨S128, .f32⟩
  | .hbm, ⟨23, _⟩ => ⟨S256, .f32⟩
  | .hbm, ⟨24, _⟩ => ⟨S256, .f32⟩
  | .hbm, ⟨25, _⟩ => ⟨S256x256, .f32⟩
  | .hbm, ⟨26, _⟩ => ⟨S256, .f32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S128x1, .i32⟩
  | .hbm, ⟨47, _⟩ => ⟨S1x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S128x128, .f32⟩
  | .hbm, ⟨52, _⟩ => ⟨S128, .f32⟩
  | .hbm, ⟨53, _⟩ => ⟨S128x1, .f32⟩
  | .hbm, ⟨54, _⟩ => ⟨S128x128, .f32⟩
  | .hbm, ⟨55, _⟩ => ⟨S128x128, .f32⟩
  | .hbm, ⟨56, _⟩ => ⟨S128, .f32⟩
  | .hbm, ⟨57, _⟩ => ⟨S128x1, .f32⟩
  | .hbm, ⟨58, _⟩ => ⟨S128x128, .f32⟩
  | .hbm, ⟨59, _⟩ => ⟨S128x128, .f32⟩
  | .hbm, ⟨60, _⟩ => ⟨S128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S1x256, .f32⟩
  | .hbm, ⟨65, _⟩ => ⟨S1x256, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x256, .f32⟩
  | .hbm, ⟨70, _⟩ => ⟨S1x256, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S_, .f32⟩
  | .hbm, ⟨78, _⟩ => ⟨S1x4000, .f32⟩
  | .hbm, ⟨79, _⟩ => ⟨S1x256, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S1x256, .f32⟩
  | .local _ .vmem, ⟨16, _⟩ => ⟨S1x256, .f32⟩
  | .local _ .vmem, ⟨17, _⟩ => ⟨S256x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1x256, .f32⟩
  | .local _ .vmem, ⟨26, _⟩ => ⟨S1x256, .f32⟩
  | .local _ .vmem, ⟨27, _⟩ => ⟨S256x256, .f32⟩
  | .local _ .vmem, ⟨28, _⟩ => ⟨S1x256, .f32⟩
  | .local _ .vmem, ⟨29, _⟩ => ⟨S1x4000, .f32⟩
  | .local _ .vmem, ⟨30, _⟩ => ⟨S1x256, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst : Ref sig .tc := ⟨.hbm, 77, rfl⟩
abbrev main_v33 : Ref sig .tc := ⟨.hbm, 78, rfl⟩
abbrev main_v34 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v85 : BitVec 1 := Scalar.cmpi .eq arg0 c24_i32
  let v86 : BitVec 32 := Scalar.extui v85
  let c0_i32_55 : BitVec 32 := 0#32
  let v87 : BitVec 1 := Scalar.cmpi .ne v86 c0_i32_55
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S256x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x4000 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  shapeCasts_S8x16_S128 : S8x16.ShapeCasts S128
  shapeCasts_S128_S1x128 : S128.ShapeCasts S1x128
  shapeCasts_S256_S1x256 : S256.ShapeCasts S1x256
  bcast_S_S1x4000 : S_.BroadcastsInDim S1x4000 (![] : Fin 0 → Fin S1x4000.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S1x256_S1 : S1x256.Reduces [1] S1
  shapeCasts_S1_S1x1 : S1.ShapeCasts S1x1
  broadcasts_S1x1_S1x256 : S1x1.Broadcasts S1x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  inb_S1x4000_S1x4000_0_0 : ∀ a, (![0, 0] : Fin 2 → Nat) a + S1x4000.size a ≤ S1x4000.size a
  h_S1x4000 : 0 < S1x4000.numel
  shapeCasts_S1x4000_S1x4000 : S1x4000.ShapeCasts S1x4000
  broadcasts_S1x128_S4000x128 : S1x128.Broadcasts S4000x128
  shapeCasts_S128x128_S128x128 : S128x128.ShapeCasts S128x128
  reduces_S4000x128_S128 : S4000x128.Reduces [0] S128
  concatenates_S1x128_S1x128_S1x256_d1 : Shape.Concatenates [S1x128, S1x128] S1x256 1
  inb_S256x256_S256x256_0_0 : ∀ a, (![0, 0] : Fin 2 → Nat) a + S256x256.size a ≤ S256x256.size a
  h_S256x256 : 0 < S256x256.numel
  dot_S1x256_S256x128_S1x128_1_0_0_1_n_n_wf : DotDims.WF S1x256 S256x128 S1x128 [1] [0] [0] [1] [] []
  dot_S1x128_S128x128_S1x128_1_0_0_1_n_n_wf : DotDims.WF S1x128 S128x128 S1x128 [1] [0] [0] [1] [] []
  dot_S4000x128_S128x128_S4000x128_1_0_0_1_n_n_wf : DotDims.WF S4000x128 S128x128 S4000x128 [1] [0] [0] [1] [] []
  dot_S1x4000_S4000x128_S1x128_1_0_0_1_n_n_wf : DotDims.WF S1x4000 S4000x128 S1x128 [1] [0] [0] [1] [] []
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x128.size a
  hwx0_15 : ∀ i : grid0.Coords, EltTy.bits .f32 = 32 ∨ (Rect.block (s := S256x128) S256x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x128.size a ≤ S128x128.size a
  hwx0_19 : ∀ i : grid0.Coords, EltTy.bits .f32 = 32 ∨ (Rect.block (s := S128x128) S128x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .f32 = 32 ∨ (Rect.block (s := S128x128) S128x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x128.size a
  hwx0_22 : ∀ i : grid0.Coords, EltTy.bits .f32 = 32 ∨ (Rect.block (s := S1x128) S1x128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x256.size a ≤ S1x256.size a
  hwx0_23 : ∀ i : grid0.Coords, EltTy.bits .f32 = 32 ∨ (Rect.block (s := S1x256) S1x256.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x256.size a ≤ S1x256.size a
  hwx0_24 : ∀ i : grid0.Coords, EltTy.bits .f32 = 32 ∨ (Rect.block (s := S1x256) S1x256.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S256x256.size a ≤ S256x256.size a
  hwx0_25 : ∀ i : grid0.Coords, EltTy.bits .f32 = 32 ∨ (Rect.block (s := S256x256) S256x256.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x256.size a ≤ S1x256.size a
  hwx0_26 : ∀ i : grid0.Coords, EltTy.bits .f32 = 32 ∨ (Rect.block (s := S1x256) S1x256.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x4000.size a ≤ S1x4000.size a
  hwx0_27 : ∀ i : grid0.Coords, EltTy.bits .f32 = 32 ∨ (Rect.block (s := S1x4000) S1x4000.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x256.size a ≤ S1x256.size a
  hwx0_28 : ∀ i : grid0.Coords, EltTy.bits .f32 = 32 ∨ (Rect.block (s := S1x256) S1x256.size (cc0_transform_28 i) (hinb0_28 i)).WholeWords (EltTy.packing .f32)

variable [Facts₀]

def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S1x4000_S4000x128_S1x128_1_0_0_1_n_n : DotDims S1x4000 S4000x128 S1x128 where
  lhsContracting := [1]
  rhsContracting := [0]
  lhsNonContracting := [0]
  rhsNonContracting := [1]
  lhsBatch := []
  rhsBatch := []
  wf := dot_S1x4000_S4000x128_S1x128_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v26) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v27) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v28) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v29) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v15) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v19) S1x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v30) S1x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v31) S1x256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S256x256.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v32) S1x256.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v33) S1x4000.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v34) S1x256.size cc0_transform_28 reads0_28 true true 1 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

abbrev idle0 : Fin 29 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun _ => false | 26 => fun _ => false | 27 => fun _ => false | 28 => fun i => !(k0_cond2 i == 1#1) | ⟨_ + 29, h⟩ => absurd h (Nat.not_lt.2 (Nat.le_add_left _ _))

class Facts : Prop extends Facts₀ where

variable [Facts]
-- ==== ReferenceIdeal.lean ====
abbrev S100000x128 : Shape := ⟨2, ![100000, 128]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8x16 : Shape := ⟨2, ![8, 16]⟩
abbrev S256x256 : Shape := ⟨2, ![256, 256]⟩
abbrev S_ : Shape := ⟨0, ![]⟩
abbrev S1 : Shape := ⟨1, ![1]⟩
abbrev S1x1 : Shape := ⟨2, ![1, 1]⟩
abbrev S1x128 : Shape := ⟨2, ![1, 128]⟩
abbrev S100000x8x16 : Shape := ⟨3, ![100000, 8, 16]⟩
abbrev S1x8x16 : Shape := ⟨3, ![1, 8, 16]⟩
abbrev S100000x8 : Shape := ⟨2, ![100000, 8]⟩
abbrev S8 : Shape := ⟨1, ![8]⟩
abbrev S1x8 : Shape := ⟨2, ![1, 8]⟩
abbrev S100000x8x1 : Shape := ⟨3, ![100000, 8, 1]⟩

abbrev nBuf : Space → Nat
  | .hbm => 266
  | .vmem => 0
  | .smem => 0
  | _ => 0

abbrev hbmTy0_0 (i : Nat) : BufTy := match i % 128 with
  | 0 => ⟨S100000x128, .f32⟩
  | 1 => ⟨S100000x128, .f32⟩
  | 2 => ⟨S1x256, .f32⟩
  | 3 => ⟨S256, .f32⟩
  | 4 => ⟨S256, .f32⟩
  | 5 => ⟨S256x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S8x16, .f32⟩
  | 12 => ⟨S128, .f32⟩
  | 13 => ⟨S256, .f32⟩
  | 14 => ⟨S256, .f32⟩
  | 15 => ⟨S256x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S8x16, .f32⟩
  | 22 => ⟨S128, .f32⟩
  | 23 => ⟨S256, .f32⟩
  | 24 => ⟨S256, .f32⟩
  | 25 => ⟨S256x256, .f32⟩
  | 26 => ⟨S256, .f32⟩
  | 27 => ⟨S_, .f32⟩
  | 28 => ⟨S1, .f32⟩
  | 29 => ⟨S1x1, .f32⟩
  | 30 => ⟨S_, .f32⟩
  | 31 => ⟨S1x1, .f32⟩
  | 32 => ⟨S1x1, .f32⟩
  | 33 => ⟨S_, .i32⟩
  | 34 => ⟨S_, .f32⟩
  | 35 => ⟨S1, .f32⟩
  | 36 => ⟨S1x1, .f32⟩
  | 37 => ⟨S_, .f32⟩
  | 38 => ⟨S1x1, .f32⟩
  | 39 => ⟨S1x1, .f32⟩
  | 40 => ⟨S1x256, .f32⟩
  | 41 => ⟨S1x256, .f32⟩
  | 42 => ⟨S1x256, .f32⟩
  | 43 => ⟨S_, .f32⟩
  | 44 => ⟨S_, .f32⟩
  | 45 => ⟨S_, .f32⟩
  | 46 => ⟨S_, .f32⟩
  | 47 => ⟨S1, .f32⟩
  | 48 => ⟨S1x1, .f32⟩
  | 49 => ⟨S1x1, .f32⟩
  | 50 => ⟨S1x1, .f32⟩
  | 51 => ⟨S_, .f32⟩
  | 52 => ⟨S_, .i1⟩
  | 53 => ⟨S_, .f32⟩
  | 54 => ⟨S_, .f32⟩
  | 55 => ⟨S1x1, .f32⟩
  | 56 => ⟨S1x1, .f32⟩
  | 57 => ⟨S1x256, .f32⟩
  | 58 => ⟨S1x256, .f32⟩
  | 59 => ⟨S_, .f32⟩
  | 60 => ⟨S1x1, .f32⟩
  | 61 => ⟨S1x1, .f32⟩
  | 62 => ⟨S1x1, .f32⟩
  | 63 => ⟨S1x256, .f32⟩
  | 64 => ⟨S1x256, .f32⟩
  | 65 => ⟨S1x256, .f32⟩
  | 66 => ⟨S1x256, .f32⟩
  | 67 => ⟨S1x256, .f32⟩
  | 68 => ⟨S1x256, .f32⟩
  | 69 => ⟨S_, .f32⟩
  | 70 => ⟨S1x256, .f32⟩
  | 71 => ⟨S1x256, .f32⟩
  | 72 => ⟨S1x128, .f32⟩
  | 73 => ⟨S1x128, .f32⟩
  | 74 => ⟨S1x128, .f32⟩
  | 75 => ⟨S100000x128, .f32⟩
  | 76 => ⟨S1x128, .f32⟩
  | 77 => ⟨S100000x128, .f32⟩
  | 78 => ⟨S100000x128, .f32⟩
  | 79 => ⟨S100000x8x16, .f32⟩
  | 80 => ⟨S1x128, .f32⟩
  | 81 => ⟨S1x128, .f32⟩
  | 82 => ⟨S1x128, .f32⟩
  | 83 => ⟨S1x8x16, .f32⟩
  | 84 => ⟨S100000x8x16, .f32⟩
  | 85 => ⟨S100000x8x16, .f32⟩
  | 86 => ⟨S_, .f32⟩
  | 87 => ⟨S_, .f32⟩
  | 88 => ⟨S100000x8x16, .f32⟩
  | 89 => ⟨S100000x8x16, .i1⟩
  | 90 => ⟨S_, .f32⟩
  | 91 => ⟨S100000x8x16, .f32⟩
  | 92 => ⟨S100000x8x16, .f32⟩
  | 93 => ⟨S100000x8x16, .f32⟩
  | 94 => ⟨S1x8x16, .f32⟩
  | 95 => ⟨S100000x8x16, .f32⟩
  | 96 => ⟨S100000x8x16, .f32⟩
  | 97 => ⟨S_, .f32⟩
  | 98 => ⟨S100000x8, .f32⟩
  | 99 => ⟨S_, .f32⟩
  | 100 => ⟨S8, .f32⟩
  | 101 => ⟨S_, .f32⟩
  | 102 => ⟨S8, .f32⟩
  | 103 => ⟨S8, .f32⟩
  | 104 => ⟨S1x8, .f32⟩
  | 105 => ⟨S100000x8, .f32⟩
  | 106 => ⟨S100000x8, .f32⟩
  | 107 => ⟨S100000x8, .f32⟩
  | 108 => ⟨S_, .f32⟩
  | 109 => ⟨S8, .f32⟩
  | 110 => ⟨S1x8, .f32⟩
  | 111 => ⟨S100000x8, .f32⟩
  | 112 => ⟨S100000x8, .f32⟩
  | 113 => ⟨S100000x8x1, .f32⟩
  | 114 => ⟨S100000x8x16, .f32⟩
  | 115 => ⟨S100000x8x16, .f32⟩
  | 116 => ⟨S_, .f32⟩
  | 117 => ⟨S8x16, .f32⟩
  | 118 => ⟨S1x128, .f32⟩
  | 119 => ⟨S1x128, .f32⟩
  | 120 => ⟨S1x128, .f32⟩
  | 121 => ⟨S_, .f32⟩
  | 122 => ⟨S1, .f32⟩
  | 123 => ⟨S1x1, .f32⟩
  | 124 => ⟨S_, .f32⟩
  | 125 => ⟨S1x1, .f32⟩
  | 126 => ⟨S1x1, .f32⟩
  | 127 => ⟨S_, .i32⟩
  | _ => ⟨S100000x128, .f32⟩

abbrev hbmTy0_1 (i : Nat) : BufTy := match i % 128 with
  | 0 => ⟨S_, .f32⟩
  | 1 => ⟨S1, .f32⟩
  | 2 => ⟨S1x1, .f32⟩
  | 3 => ⟨S_, .f32⟩
  | 4 => ⟨S1x1, .f32⟩
  | 5 => ⟨S1x1, .f32⟩
  | 6 => ⟨S1x256, .f32⟩
  | 7 => ⟨S1x256, .f32⟩
  | 8 => ⟨S1x256, .f32⟩
  | 9 => ⟨S_, .f32⟩
  | 10 => ⟨S_, .f32⟩
  | 11 => ⟨S_, .f32⟩
  | 12 => ⟨S_, .f32⟩
  | 13 => ⟨S1, .f32⟩
  | 14 => ⟨S1x1, .f32⟩
  | 15 => ⟨S1x1, .f32⟩
  | 16 => ⟨S1x1, .f32⟩
  | 17 => ⟨S_, .f32⟩
  | 18 => ⟨S_, .i1⟩
  | 19 => ⟨S_, .f32⟩
  | 20 => ⟨S_, .f32⟩
  | 21 => ⟨S1x1, .f32⟩
  | 22 => ⟨S1x1, .f32⟩
  | 23 => ⟨S1x256, .f32⟩
  | 24 => ⟨S1x256, .f32⟩
  | 25 => ⟨S_, .f32⟩
  | 26 => ⟨S1x1, .f32⟩
  | 27 => ⟨S1x1, .f32⟩
  | 28 => ⟨S1x1, .f32⟩
  | 29 => ⟨S1x256, .f32⟩
  | 30 => ⟨S1x256, .f32⟩
  | 31 => ⟨S1x256, .f32⟩
  | 32 => ⟨S1x256, .f32⟩
  | 33 => ⟨S1x256, .f32⟩
  | 34 => ⟨S1x256, .f32⟩
  | 35 => ⟨S_, .f32⟩
  | 36 => ⟨S1x256, .f32⟩
  | 37 => ⟨S1x256, .f32⟩
  | 38 => ⟨S1x128, .f32⟩
  | 39 => ⟨S1x128, .f32⟩
  | 40 => ⟨S1x128, .f32⟩
  | 41 => ⟨S100000x128, .f32⟩
  | 42 => ⟨S1x128, .f32⟩
  | 43 => ⟨S100000x128, .f32⟩
  | 44 => ⟨S100000x128, .f32⟩
  | 45 => ⟨S100000x8x16, .f32⟩
  | 46 => ⟨S1x128, .f32⟩
  | 47 => ⟨S1x128, .f32⟩
  | 48 => ⟨S1x128, .f32⟩
  | 49 => ⟨S1x8x16, .f32⟩
  | 50 => ⟨S100000x8x16, .f32⟩
  | 51 => ⟨S100000x8x16, .f32⟩
  | 52 => ⟨S_, .f32⟩
  | 53 => ⟨S_, .f32⟩
  | 54 => ⟨S100000x8x16, .f32⟩
  | 55 => ⟨S100000x8x16, .i1⟩
  | 56 => ⟨S_, .f32⟩
  | 57 => ⟨S100000x8x16, .f32⟩
  | 58 => ⟨S100000x8x16, .f32⟩
  | 59 => ⟨S100000x8x16, .f32⟩
  | 60 => ⟨S1x8x16, .f32⟩
  | 61 => ⟨S100000x8x16, .f32⟩
  | 62 => ⟨S100000x8x16, .f32⟩
  | 63 => ⟨S_, .f32⟩
  | 64 => ⟨S100000x8, .f32⟩
  | 65 => ⟨S_, .f32⟩
  | 66 => ⟨S8, .f32⟩
  | 67 => ⟨S_, .f32⟩
  | 68 => ⟨S8, .f32⟩
  | 69 => ⟨S8, .f32⟩
  | 70 => ⟨S1x8, .f32⟩
  | 71 => ⟨S100000x8, .f32⟩
  | 72 => ⟨S100000x8, .f32⟩
  | 73 => ⟨S100000x8, .f32⟩
  | 74 => ⟨S_, .f32⟩
  | 75 => ⟨S8, .f32⟩
  | 76 => ⟨S1x8, .f32⟩
  | 77 => ⟨S100000x8, .f32⟩
  | 78 => ⟨S100000x8, .f32⟩
  | 79 => ⟨S100000x8x1, .f32⟩
  | 80 => ⟨S100000x8x16, .f32⟩
  | 81 => ⟨S100000x8x16, .f32⟩
  | 82 => ⟨S_, .f32⟩
  | 83 => ⟨S8x16, .f32⟩
  | 84 => ⟨S1x128, .f32⟩
  | 85 => ⟨S1x128, .f32⟩
  | 86 => ⟨S1x128, .f32⟩
  | 87 => ⟨S1x256, .f32⟩
  | 88 => ⟨S1x256, .f32⟩
  | 89 => ⟨S_, .f32⟩
  | 90 => ⟨S1, .f32⟩
  | 91 => ⟨S1x1, .f32⟩
  | 92 => ⟨S_, .f32⟩
  | 93 => ⟨S1x1, .f32⟩
  | 94 => ⟨S1x1, .f32⟩
  | 95 => ⟨S_, .i32⟩
  | 96 => ⟨S_, .f32⟩
  | 97 => ⟨S1, .f32⟩
  | 98 => ⟨S1x1, .f32⟩
  | 99 => ⟨S_, .f32⟩
  | 100 => ⟨S1x1, .f32⟩
  | 101 => ⟨S1x1, .f32⟩
  | 102 => ⟨S1x256, .f32⟩
  | 103 => ⟨S1x256, .f32⟩
  | 104 => ⟨S1x256, .f32⟩
  | 105 => ⟨S_, .f32⟩
  | 106 => ⟨S_, .f32⟩
  | 107 => ⟨S_, .f32⟩
  | 108 => ⟨S_, .f32⟩
  | 109 => ⟨S1, .f32⟩
  | 110 => ⟨S1x1, .f32⟩
  | 111 => ⟨S1x1, .f32⟩
  | 112 => ⟨S1x1, .f32⟩
  | 113 => ⟨S_, .f32⟩
  | 114 => ⟨S_, .i1⟩
  | 115 => ⟨S_, .f32⟩
  | 116 => ⟨S_, .f32⟩
  | 117 => ⟨S1x1, .f32⟩
  | 118 => ⟨S1x1, .f32⟩
  | 119 => ⟨S1x256, .f32⟩
  | 120 => ⟨S1x256, .f32⟩
  | 121 => ⟨S_, .f32⟩
  | 122 => ⟨S1x1, .f32⟩
  | 123 => ⟨S1x1, .f32⟩
  | 124 => ⟨S1x1, .f32⟩
  | 125 => ⟨S1x256, .f32⟩
  | 126 => ⟨S1x256, .f32⟩
  | 127 => ⟨S1x256, .f32⟩
  | _ => ⟨S100000x128, .f32⟩

abbrev hbmTy0_2 (i : Nat) : BufTy := match i % 128 with
  | 0 => ⟨S1x256, .f32⟩
  | 1 => ⟨S1x256, .f32⟩
  | 2 => ⟨S1x256, .f32⟩
  | 3 => ⟨S_, .f32⟩
  | 4 => ⟨S1x256, .f32⟩
  | 5 => ⟨S1x256, .f32⟩
  | 6 => ⟨S1x256, .f32⟩
  | 7 => ⟨S1x256, .f32⟩
  | 8 => ⟨S1x256, .f32⟩
  | 9 => ⟨S1x256, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_v1 : Ref sig .tc := ⟨.hbm, 29, rfl⟩
abbrev main_cst_0 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_cst_1 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_call1_cst : Ref sig .tc := ⟨.hbm, 69, rfl⟩
abbrev main_call1_v0 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_cst_2 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_cst_3 : Ref sig .tc := ⟨.hbm, 97, rfl⟩
abbrev main_v35 : Ref sig .tc := ⟨.hbm, 98, rfl⟩
abbrev main_cst_4 : Ref sig .tc := ⟨.hbm, 99, rfl⟩
abbrev main_v36 : Ref sig .tc := ⟨.hbm, 100, rfl⟩
abbrev main_cst_5 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_cst_6 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_cst_7 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_cst_8 : Ref sig .tc := ⟨.hbm, 121, rfl⟩
abbrev main_v54 : Ref sig .tc := ⟨.hbm, 122, rfl⟩
abbrev main_v55 : Ref sig .tc := ⟨.hbm, 123, rfl⟩
abbrev main_cst_9 : Ref sig .tc := ⟨.hbm, 124, rfl⟩
abbrev main_v56 : Ref sig .tc := ⟨.hbm, 125, rfl⟩
abbrev main_v57 : Ref sig .tc := ⟨.hbm, 126, rfl⟩
abbrev main_c_10 : Ref sig .tc := ⟨.hbm, 127, rfl⟩
abbrev main_call3_cst : Ref sig .tc := ⟨.hbm, 128, rfl⟩
abbrev main_call3_v0 : Ref sig .tc := ⟨.hbm, 129, rfl⟩
abbrev main_call3_v1 : Ref sig .tc := ⟨.hbm, 130, rfl⟩
abbrev main_call3_cst_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_v7 : Ref sig .tc := ⟨.hbm, 137, rfl⟩
abbrev main_call3_cst_1 : Ref sig .tc := ⟨.hbm, 138, rfl⟩
abbrev main_call3_v8 : Ref sig .tc := ⟨.hbm, 139, rfl⟩
abbrev main_call3_cst_2 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_v12 : Ref sig .tc := ⟨.hbm, 144, rfl⟩
abbrev main_call3_cst_3 : Ref sig .tc := ⟨.hbm, 145, rfl⟩
abbrev main_call3_v13 : Ref sig .tc := ⟨.hbm, 146, rfl⟩
abbrev main_call3_cst_4 : Ref sig .tc := ⟨.hbm, 147, rfl⟩
abbrev main_call3_call0_v0 : Ref sig .tc := ⟨.hbm, 148, rfl⟩
abbrev main_call3_call0_v1 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_cst_11 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_call4_cst : Ref sig .tc := ⟨.hbm, 163, rfl⟩
abbrev main_call4_v0 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_cst_12 : Ref sig .tc := ⟨.hbm, 180, rfl⟩
abbrev main_call5_cst : Ref sig .tc := ⟨.hbm, 181, rfl⟩
abbrev main_call5_v0 : Ref sig .tc := ⟨.hbm, 182, rfl⟩
abbrev main_call5_v1 : Ref sig .tc := ⟨.hbm, 183, rfl⟩
abbrev main_call5_v2 : Ref sig .tc := ⟨.hbm, 184, rfl⟩
abbrev main_call5_v3 : Ref sig .tc := ⟨.hbm, 185, rfl⟩
abbrev main_call5_v4 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_cst_13 : Ref sig .tc := ⟨.hbm, 191, rfl⟩
abbrev main_v89 : Ref sig .tc := ⟨.hbm, 192, rfl⟩
abbrev main_cst_14 : Ref sig .tc := ⟨.hbm, 193, rfl⟩
abbrev main_v90 : Ref sig .tc := ⟨.hbm, 194, rfl⟩
abbrev main_cst_15 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_cst_16 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_cst_17 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_cst_18 : Ref sig .tc := ⟨.hbm, 217, rfl⟩
abbrev main_v110 : Ref sig .tc := ⟨.hbm, 218, rfl⟩
abbrev main_v111 : Ref sig .tc := ⟨.hbm, 219, rfl⟩
abbrev main_cst_19 : Ref sig .tc := ⟨.hbm, 220, rfl⟩
abbrev main_v112 : Ref sig .tc := ⟨.hbm, 221, rfl⟩
abbrev main_v113 : Ref sig .tc := ⟨.hbm, 222, rfl⟩
abbrev main_c_20 : Ref sig .tc := ⟨.hbm, 223, rfl⟩
abbrev main_call6_cst : Ref sig .tc := ⟨.hbm, 224, rfl⟩
abbrev main_call6_v0 : Ref sig .tc := ⟨.hbm, 225, rfl⟩
abbrev main_call6_v1 : Ref sig .tc := ⟨.hbm, 226, rfl⟩
abbrev main_call6_cst_0 : Ref sig .tc := ⟨.hbm, 227, rfl⟩
abbrev main_call6_v2 : Ref sig .tc := ⟨.hbm, 228, rfl⟩
abbrev main_call6_v3 : Ref sig .tc := ⟨.hbm, 229, rfl⟩
abbrev main_call6_v4 : Ref sig .tc := ⟨.hbm, 230, rfl⟩
abbrev main_call6_v5 : Ref sig .tc := ⟨.hbm, 231, rfl⟩
abbrev main_call6_v6 : Ref sig .tc := ⟨.hbm, 232, rfl⟩
abbrev main_call6_v7 : Ref sig .tc := ⟨.hbm, 233, rfl⟩
abbrev main_call6_cst_1 : Ref sig .tc := ⟨.hbm, 234, rfl⟩
abbrev main_call6_v8 : Ref sig .tc := ⟨.hbm, 235, rfl⟩
abbrev main_call6_cst_2 : Ref sig .tc := ⟨.hbm, 236, rfl⟩
abbrev main_call6_v9 : Ref sig .tc := ⟨.hbm, 237, rfl⟩
abbrev main_call6_v10 : Ref sig .tc := ⟨.hbm, 238, rfl⟩
abbrev main_call6_v11 : Ref sig .tc := ⟨.hbm, 239, rfl⟩
abbrev main_call6_v12 : Ref sig .tc := ⟨.hbm, 240, rfl⟩
abbrev main_call6_cst_3 : Ref sig .tc := ⟨.hbm, 241, rfl⟩
abbrev main_call6_v13 : Ref sig .tc := ⟨.hbm, 242, rfl⟩
abbrev main_call6_cst_4 : Ref sig .tc := ⟨.hbm, 243, rfl⟩
abbrev main_call6_call0_v0 : Ref sig .tc := ⟨.hbm, 244, rfl⟩
abbrev main_call6_call0_v1 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_cst_21 : Ref sig .tc := ⟨.hbm, 249, rfl⟩
abbrev main_v117 : Ref sig .tc := ⟨.hbm, 250, rfl⟩
abbrev main_v118 : Ref sig .tc := ⟨.hbm, 251, rfl⟩
abbrev main_v119 : Ref sig .tc := ⟨.hbm, 252, rfl⟩
abbrev main_v120 : Ref sig .tc := ⟨.hbm, 253, rfl⟩
abbrev main_v121 : Ref sig .tc := ⟨.hbm, 254, rfl⟩
abbrev main_v122 : Ref sig .tc := ⟨.hbm, 255, rfl⟩
abbrev main_v123 : Ref sig .tc := ⟨.hbm, 256, rfl⟩
abbrev main_v124 : Ref sig .tc := ⟨.hbm, 257, rfl⟩
abbrev main_v125 : Ref sig .tc := ⟨.hbm, 258, rfl⟩
abbrev main_call7_cst : Ref sig .tc := ⟨.hbm, 259, rfl⟩
abbrev main_call7_v0 : Ref sig .tc := ⟨.hbm, 260, rfl⟩
abbrev main_v126 : Ref sig .tc := ⟨.hbm, 261, rfl⟩
abbrev main_v127 : Ref sig .tc := ⟨.hbm, 262, rfl⟩
abbrev main_v128 : Ref sig .tc := ⟨.hbm, 263, rfl⟩
abbrev main_v129 : Ref sig .tc := ⟨.hbm, 264, rfl⟩
abbrev main_v130 : Ref sig .tc := ⟨.hbm, 265, rfl⟩

abbrev nD : Nat := 1
abbrev τ : Topo := Topo.v7x

variable {F : FTy → Type} [FloatOps F]

class Facts₀ : Prop where
  reducesTo_S1x256_S1_d1 : S1x256.ReducesTo [1] S1
  h_S_ : 0 < S_.numel
  bcast_S1_S1x1_0 : S1.BroadcastsInDim S1x1 (![0] : Fin 1 → Fin S1x1.rank)
  bcast_S_S1x1 : S_.BroadcastsInDim S1x1 (![] : Fin 0 → Fin S1x1.rank)
  bcast_S1x1_S1x256_0_1 : S1x1.BroadcastsInDim S1x256 (![0, 1] : Fin 2 → Fin S1x256.rank)
  bcast_S256_S1x256_1 : S256.BroadcastsInDim S1x256 (![1] : Fin 1 → Fin S1x256.rank)
  bcast_S_S1x256 : S_.BroadcastsInDim S1x256 (![] : Fin 0 → Fin S1x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S100000x8x16 : S100000x128.ShapeCasts S100000x8x16
  shapeCasts_S1x128_S1x8x16 : S1x128.ShapeCasts S1x8x16
  bcast_S1x8x16_S100000x8x16_0_1_2 : S1x8x16.BroadcastsInDim S100000x8x16 (![0, 1, 2] : Fin 3 → Fin S100000x8x16.rank)
  bcast_S_S100000x8x16 : S_.BroadcastsInDim S100000x8x16 (![] : Fin 0 → Fin S100000x8x16.rank)
  bcast_S8x16_S1x8x16_1_2 : S8x16.BroadcastsInDim S1x8x16 (![1, 2] : Fin 2 → Fin S1x8x16.rank)
  reducesTo_S100000x8x16_S100000x8_d2 : S100000x8x16.ReducesTo [2] S100000x8
  reducesTo_S100000x8_S8_d0 : S100000x8.ReducesTo [0] S8
  bcast_S_S8 : S_.BroadcastsInDim S8 (![] : Fin 0 → Fin S8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S100000x8_S100000x8x1_0_1 : S100000x8.BroadcastsInDim S100000x8x1 (![0, 1] : Fin 2 → Fin S100000x8x1.rank)
  bcast_S100000x8x1_S100000x8x16_0_1_2 : S100000x8x1.BroadcastsInDim S100000x8x16 (![0, 1, 2] : Fin 3 → Fin S100000x8x16.rank)
  reducesTo_S100000x8x16_S8x16_d0 : S100000x8x16.ReducesTo [0] S8x16
  shapeCasts_S8x16_S1x128 : S8x16.ShapeCasts S1x128
  concatenates_S1x128_S1x128_S1x256_d1 : Shape.Concatenates [S1x128, S1x128] S1x256 1
  dot_S1x256_S256x128_S1x128_1_0_0_1_n_n_wf : DotDims.WF S1x256 S256x128 S1x128 [1] [0] [0] [1] [] []
  dot_S100000x128_S128x128_S100000x128_1_0_0_1_n_n_wf : DotDims.WF S100000x128 S128x128 S100000x128 [1] [0] [0] [1] [] []
  dot_S1x128_S128x128_S1x128_1_0_0_1_n_n_wf : DotDims.WF S1x128 S128x128 S1x128 [1] [0] [0] [1] [] []
  dot_S1x256_S256x256_S1x256_1_0_0_1_n_n_wf : DotDims.WF S1x256 S256x256 S1x256 [1] [0] [0] [1] [] []

variable [Facts₀]

def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

class Facts : Prop extends Facts₀ where

variable [Facts]
-- ==== Proof.KPieces.lean ====
/-
  What each case of the kernel's body leaves in the carried scratch and in the result's staging buffer, as the
  body's arithmetic applied to the values it loaded.

  The first grid step stores the two target terms, resets the running maxima to −∞ and the sums to 0, and then runs
  the two streams on what it has just stored; every later step runs the two streams on what the step before left;
  the last step also writes the result row from the sums it has just stored.
-/
import proofs.«162155_g33088428049086_cont_sun_c4_530_7_alg».proof.Proof.Patched.KernelIdeal.Frame
import Idealize.ShloMosaic.Lib.Pipeline.Value

set_option maxRecDepth 16384

noncomputable section

namespace Cert.KernelIdeal.Hand

open Cert.KernelIdeal Cert.KernelIdeal.Gen Cert.KernelIdeal.GenP Idealize.ShloMosaic Idealize.ShloMosaic.TcCoe Idealize.ShloMosaic.Tactic
open Idealize.SL Idealize.SL.Sem

variable {F : FTy → Type} [FloatOps F]

/-- The zero offsets of a whole-buffer rectangle, however they are spelt. -/
theorem hz2 : (![0, 0] : Fin 2 → Nat) = fun _ => 0 := funext fun a => by fin_cases a <;> rfl

variable (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x4000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole)
  (x0 : Vec F S4000x128 .f32) (x1 : Vec F S4000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x4000 .f32)

/-! ## The first grid step -/

theorem sout0_A_0_eq (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = k0_pay32 (k0_pay27 x0 x7 (k0_pay7 (k0_pay5 x8) (k0_pay6 x2 x3 x4 x5 x6 x9) x10) x11 k0_pay11) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2, View.readCov_unit_zero (S := S1x128) _ hz2, View.readCov_unit_zero (S := S1x256) _ hz2]

theorem sout0_A_1_eq (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = k0_pay30 x0 x27 x7 (k0_pay7 (k0_pay5 x8) (k0_pay6 x2 x3 x4 x5 x6 x9) x10) x11 k0_pay11 k0_pay14 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2, View.readCov_unit_zero (S := S1x128) _ hz2, View.readCov_unit_zero (S := S1x256) _ hz2]

theorem sout0_A_2_eq (hc0 : cond0_0 i) (hc1 : ¬cond0_1 i) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = k0_pay31 (k0_pay24 x27) (k0_pay25 x0 x7) (k0_pay28 x0 x7 (k0_pay7 (k0_pay5 x8) (k0_pay6 x2 x3 x4 x5 x6 x9) x10) x11 k0_pay11) (k0_pay29 x0 x7 (k0_pay7 (k0_pay5 x8) (k0_pay6 x2 x3 x4 x5 x6 x9) x10) x11 k0_pay11) k0_pay16 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2, View.readCov_unit_zero (S := S1x128) _ hz2, View.readCov_unit_zero (S := S1x256) _ hz2]

theorem sout0_A_3_eq (hc0 : cond0_0 i) (hc1 : ¬cond0_1 i) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = (k0_pay7 (k0_pay5 x8) (k0_pay6 x2 x3 x4 x5 x6 x9) x10) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

theorem sout0_A_4_eq (hc0 : cond0_0 i) (hc1 : ¬cond0_1 i) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = k0_pay3 (k0_pay36 x1 x17 (k0_pay9 (k0_pay8 x2 x13 x14 x15 x16) x18 x19 x20) x21 k0_pay12) := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2, View.readCov_unit_zero (S := S1x128) _ hz2, View.readCov_unit_zero (S := S1x256) _ hz2]

theorem sout0_A_5_eq (hc0 : cond0_0 i) (hc1 : ¬cond0_1 i) :
    sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = k0_pay1 (k0_pay33 x27) (k0_pay37 x1 x17 (k0_pay9 (k0_pay8 x2 x13 x14 x15 x16) x18 x19 x20) x21 k0_pay12) (k0_pay38 x1 x17 (k0_pay9 (k0_pay8 x2 x13 x14 x15 x16) x18 x19 x20) x21 k0_pay12) k0_pay15 := by
  unfold sout0_A_5
  rw [View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2, View.readCov_unit_zero (S := S1x128) _ hz2, View.readCov_unit_zero (S := S1x256) _ hz2]

theorem sout0_A_6_eq (hc0 : cond0_0 i) (hc1 : ¬cond0_1 i) :
    sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = k0_pay2 (k0_pay33 x27) (k0_pay34 x1 x17) (k0_pay37 x1 x17 (k0_pay9 (k0_pay8 x2 x13 x14 x15 x16) x18 x19 x20) x21 k0_pay12) (k0_pay38 x1 x17 (k0_pay9 (k0_pay8 x2 x13 x14 x15 x16) x18 x19 x20) x21 k0_pay12) k0_pay17 := by
  unfold sout0_A_6
  rw [View.read_writes_eq_canon _ _ _ (scover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2, View.readCov_unit_zero (S := S1x128) _ hz2, View.readCov_unit_zero (S := S1x256) _ hz2]

theorem sout0_A_7_eq (hc0 : cond0_0 i) (hc1 : ¬cond0_1 i) :
    sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = (k0_pay9 (k0_pay8 x2 x13 x14 x15 x16) x18 x19 x20) := by
  unfold sout0_A_7
  rw [View.read_writes_eq_canon _ _ _ (scover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

/-- The carried scratch after a step of this case, all eight buffers. -/
theorem outs_A (hc0 : cond0_0 i) (hc1 : ¬cond0_1 i) :
    (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27,
      sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27,
      sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27,
      sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27,
      sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27,
      sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27,
      sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27,
      sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)
    = (k0_pay32 (k0_pay27 x0 x7 (k0_pay7 (k0_pay5 x8) (k0_pay6 x2 x3 x4 x5 x6 x9) x10) x11 k0_pay11),
      k0_pay30 x0 x27 x7 (k0_pay7 (k0_pay5 x8) (k0_pay6 x2 x3 x4 x5 x6 x9) x10) x11 k0_pay11 k0_pay14,
      k0_pay31 (k0_pay24 x27) (k0_pay25 x0 x7) (k0_pay28 x0 x7 (k0_pay7 (k0_pay5 x8) (k0_pay6 x2 x3 x4 x5 x6 x9) x10) x11 k0_pay11) (k0_pay29 x0 x7 (k0_pay7 (k0_pay5 x8) (k0_pay6 x2 x3 x4 x5 x6 x9) x10) x11 k0_pay11) k0_pay16,
      (k0_pay7 (k0_pay5 x8) (k0_pay6 x2 x3 x4 x5 x6 x9) x10),
      k0_pay3 (k0_pay36 x1 x17 (k0_pay9 (k0_pay8 x2 x13 x14 x15 x16) x18 x19 x20) x21 k0_pay12),
      k0_pay1 (k0_pay33 x27) (k0_pay37 x1 x17 (k0_pay9 (k0_pay8 x2 x13 x14 x15 x16) x18 x19 x20) x21 k0_pay12) (k0_pay38 x1 x17 (k0_pay9 (k0_pay8 x2 x13 x14 x15 x16) x18 x19 x20) x21 k0_pay12) k0_pay15,
      k0_pay2 (k0_pay33 x27) (k0_pay34 x1 x17) (k0_pay37 x1 x17 (k0_pay9 (k0_pay8 x2 x13 x14 x15 x16) x18 x19 x20) x21 k0_pay12) (k0_pay38 x1 x17 (k0_pay9 (k0_pay8 x2 x13 x14 x15 x16) x18 x19 x20) x21 k0_pay12) k0_pay17,
      (k0_pay9 (k0_pay8 x2 x13 x14 x15 x16) x18 x19 x20)) := by
  rw [sout0_A_0_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 hc0 hc1,
    sout0_A_1_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 hc0 hc1,
    sout0_A_2_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 hc0 hc1,
    sout0_A_3_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 hc0 hc1,
    sout0_A_4_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 hc0 hc1,
    sout0_A_5_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 hc0 hc1,
    sout0_A_6_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 hc0 hc1,
    sout0_A_7_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 hc0 hc1]

variable (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32)

/-! ## A middle grid step -/

theorem sout0_B_0_eq (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = k0_pay32 (k0_pay27 x0 x7 xs3 x11 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

theorem sout0_B_1_eq (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = k0_pay30 x0 x27 x7 xs3 x11 xs0 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

theorem sout0_B_2_eq (hc0 : ¬cond0_0 i) (hc1 : ¬cond0_1 i) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = k0_pay31 (k0_pay24 x27) (k0_pay25 x0 x7) (k0_pay28 x0 x7 xs3 x11 xs0) (k0_pay29 x0 x7 xs3 x11 xs0) xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

theorem sout0_B_3_eq (hc0 : ¬cond0_0 i) (hc1 : ¬cond0_1 i) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = xs3 := by
  rfl

theorem sout0_B_4_eq (hc0 : ¬cond0_0 i) (hc1 : ¬cond0_1 i) :
    sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = k0_pay3 (k0_pay36 x1 x17 xs7 x21 xs4) := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

theorem sout0_B_5_eq (hc0 : ¬cond0_0 i) (hc1 : ¬cond0_1 i) :
    sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = k0_pay1 (k0_pay33 x27) (k0_pay37 x1 x17 xs7 x21 xs4) (k0_pay38 x1 x17 xs7 x21 xs4) xs5 := by
  unfold sout0_B_5
  rw [View.read_writes_eq_canon _ _ _ (scover0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

theorem sout0_B_6_eq (hc0 : ¬cond0_0 i) (hc1 : ¬cond0_1 i) :
    sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = k0_pay2 (k0_pay33 x27) (k0_pay34 x1 x17) (k0_pay37 x1 x17 xs7 x21 xs4) (k0_pay38 x1 x17 xs7 x21 xs4) xs6 := by
  unfold sout0_B_6
  rw [View.read_writes_eq_canon _ _ _ (scover0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

theorem sout0_B_7_eq (hc0 : ¬cond0_0 i) (hc1 : ¬cond0_1 i) :
    sout0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = xs7 := by
  rfl

/-- The carried scratch after a step of this case, all eight buffers. -/
theorem outs_B (hc0 : ¬cond0_0 i) (hc1 : ¬cond0_1 i) :
    (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)
    = (k0_pay32 (k0_pay27 x0 x7 xs3 x11 xs0),
      k0_pay30 x0 x27 x7 xs3 x11 xs0 xs1,
      k0_pay31 (k0_pay24 x27) (k0_pay25 x0 x7) (k0_pay28 x0 x7 xs3 x11 xs0) (k0_pay29 x0 x7 xs3 x11 xs0) xs2,
      xs3,
      k0_pay3 (k0_pay36 x1 x17 xs7 x21 xs4),
      k0_pay1 (k0_pay33 x27) (k0_pay37 x1 x17 xs7 x21 xs4) (k0_pay38 x1 x17 xs7 x21 xs4) xs5,
      k0_pay2 (k0_pay33 x27) (k0_pay34 x1 x17) (k0_pay37 x1 x17 xs7 x21 xs4) (k0_pay38 x1 x17 xs7 x21 xs4) xs6,
      xs7) := by
  rw [sout0_B_0_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_B_1_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_B_2_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_B_3_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_B_4_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_B_5_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_B_6_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_B_7_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1]

/-! ## The last grid step -/

theorem sout0_C_0_eq (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = k0_pay32 (k0_pay27 x0 x7 xs3 x11 xs0) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

theorem sout0_C_1_eq (hc0 : ¬cond0_0 i) (hc1 : cond0_1 i) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = k0_pay30 x0 x27 x7 xs3 x11 xs0 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

theorem sout0_C_2_eq (hc0 : ¬cond0_0 i) (hc1 : cond0_1 i) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = k0_pay31 (k0_pay24 x27) (k0_pay25 x0 x7) (k0_pay28 x0 x7 xs3 x11 xs0) (k0_pay29 x0 x7 xs3 x11 xs0) xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

theorem sout0_C_3_eq (hc0 : ¬cond0_0 i) (hc1 : cond0_1 i) :
    sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = xs3 := by
  rfl

theorem sout0_C_4_eq (hc0 : ¬cond0_0 i) (hc1 : cond0_1 i) :
    sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = k0_pay3 (k0_pay36 x1 x17 xs7 x21 xs4) := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

theorem sout0_C_5_eq (hc0 : ¬cond0_0 i) (hc1 : cond0_1 i) :
    sout0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = k0_pay1 (k0_pay33 x27) (k0_pay37 x1 x17 xs7 x21 xs4) (k0_pay38 x1 x17 xs7 x21 xs4) xs5 := by
  unfold sout0_C_5
  rw [View.read_writes_eq_canon _ _ _ (scover0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

theorem sout0_C_6_eq (hc0 : ¬cond0_0 i) (hc1 : cond0_1 i) :
    sout0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = k0_pay2 (k0_pay33 x27) (k0_pay34 x1 x17) (k0_pay37 x1 x17 xs7 x21 xs4) (k0_pay38 x1 x17 xs7 x21 xs4) xs6 := by
  unfold sout0_C_6
  rw [View.read_writes_eq_canon _ _ _ (scover0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2]

theorem sout0_C_7_eq (hc0 : ¬cond0_0 i) (hc1 : cond0_1 i) :
    sout0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = xs7 := by
  rfl

/-- The carried scratch after a step of this case, all eight buffers. -/
theorem outs_C (hc0 : ¬cond0_0 i) (hc1 : cond0_1 i) :
    (sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7,
      sout0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)
    = (k0_pay32 (k0_pay27 x0 x7 xs3 x11 xs0),
      k0_pay30 x0 x27 x7 xs3 x11 xs0 xs1,
      k0_pay31 (k0_pay24 x27) (k0_pay25 x0 x7) (k0_pay28 x0 x7 xs3 x11 xs0) (k0_pay29 x0 x7 xs3 x11 xs0) xs2,
      xs3,
      k0_pay3 (k0_pay36 x1 x17 xs7 x21 xs4),
      k0_pay1 (k0_pay33 x27) (k0_pay37 x1 x17 xs7 x21 xs4) (k0_pay38 x1 x17 xs7 x21 xs4) xs5,
      k0_pay2 (k0_pay33 x27) (k0_pay34 x1 x17) (k0_pay37 x1 x17 xs7 x21 xs4) (k0_pay38 x1 x17 xs7 x21 xs4) xs6,
      xs7) := by
  rw [sout0_C_0_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_C_1_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_C_2_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_C_3_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_C_4_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_C_5_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_C_6_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1,
    sout0_C_7_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 xs0 xs1 xs2 xs3 xs4 xs5 xs6 xs7 hc0 hc1]

theorem out0_C_28_eq (hc0 : ¬cond0_0 i) (hc1 : cond0_1 i) :
    out0_C_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7
      = k0_pay4 (k0_pay18 (k0_pay31 (k0_pay24 x27) (k0_pay25 x0 x7) (k0_pay28 x0 x7 xs3 x11 xs0) (k0_pay29 x0 x7 xs3 x11 xs0) xs2) (k0_pay30 x0 x27 x7 xs3 x11 xs0 xs1) x12 (k0_pay2 (k0_pay33 x27) (k0_pay34 x1 x17) (k0_pay37 x1 x17 xs7 x21 xs4) (k0_pay38 x1 x17 xs7 x21 xs4) xs6) (k0_pay1 (k0_pay33 x27) (k0_pay37 x1 x17 xs7 x21 xs4) (k0_pay38 x1 x17 xs7 x21 xs4) xs5) x22 x2) (k0_pay19 x23) (k0_pay20 x24)
          (k0_pay22 (k0_pay31 (k0_pay24 x27) (k0_pay25 x0 x7) (k0_pay28 x0 x7 xs3 x11 xs0) (k0_pay29 x0 x7 xs3 x11 xs0) xs2) (k0_pay30 x0 x27 x7 xs3 x11 xs0 xs1) x12 (k0_pay2 (k0_pay33 x27) (k0_pay34 x1 x17) (k0_pay37 x1 x17 xs7 x21 xs4) (k0_pay38 x1 x17 xs7 x21 xs4) xs6) (k0_pay1 (k0_pay33 x27) (k0_pay37 x1 x17 xs7 x21 xs4) (k0_pay38 x1 x17 xs7 x21 xs4) xs5) x22 x2)
          (k0_pay23 (k0_pay31 (k0_pay24 x27) (k0_pay25 x0 x7) (k0_pay28 x0 x7 xs3 x11 xs0) (k0_pay29 x0 x7 xs3 x11 xs0) xs2) (k0_pay30 x0 x27 x7 xs3 x11 xs0 xs1) x12 (k0_pay2 (k0_pay33 x27) (k0_pay34 x1 x17) (k0_pay37 x1 x17 xs7 x21 xs4) (k0_pay38 x1 x17 xs7 x21 xs4) xs6) (k0_pay1 (k0_pay33 x27) (k0_pay37 x1 x17 xs7 x21 xs4) (k0_pay38 x1 x17 xs7 x21 xs4) xs5) x22 x2) x25 x26 := by
  unfold out0_C_28
  rw [View.read_writes_eq_canon _ _ _ (cover0_C_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S4000x128) hz2, View.ld_unit_zero (S := S1x4000) hz2, View.ld_unit_zero (S := S128x128) hz2, View.ld_unit_zero (S := S1x128) hz2, View.ld_unit_zero (S := S1x256) hz2, View.ld_unit_zero (S := S256x128) hz2, View.ld_unit_zero (S := S256x256) hz2, View.readCov_unit_zero (S := S1x128) _ hz2, View.readCov_unit_zero (S := S1x256) _ hz2]

end Cert.KernelIdeal.Hand

end
-- ==== Proof.Spec.lean ====
/-
  What both programs compute, written once over the extended reals.

  Two attention aggregations over star graphs feed one global feature row g of 256 entries. For each stream
  (view nodes, scene-point nodes) the row g is layer-normalised, rectified and projected to 128 entries (proj);
  that projection, through the right-hand linear map, is the target term xr; every source row n is sent through
  the left-hand linear map (rowLin); per head h the logit of row n is the sum over the head's sixteen channels of
  leaky(xl + xr) · att; the logits are soft-maxed over the 100000 rows (alpha) and the rows averaged with those
  weights (gatOut). The two 128-entry results are laid side by side, added to g, and the sum x goes through a last
  layer norm, rectifier and 256 × 256 linear map with a skip connection (out).

  The three float literals both programs share (256, the f32 neighbour of 1e-5, the f32 neighbour of 0.2) are kept
  as the words they are printed as; nothing below looks inside them.
-/
import Idealize.ShloMosaic.PureOps.Ideal
import Mathlib.Algebra.BigOperators.Fin

noncomputable section

namespace Cert.Hand.Spec

open Idealize.ShloMosaic

/-- The divisor 256 of a mean over a row of 256. -/
def c256 : EReal := Ideal.ofBits .f32 0x43800000#32
/-- The layer norm's epsilon. -/
def ceps : EReal := Ideal.ofBits .f32 0x3727C5AC#32
/-- The leaky rectifier's slope. -/
def cslope : EReal := Ideal.ofBits .f32 0x3E4CCCCD#32

/-- The mean of a row of 256. -/
def mean (x : Fin 256 → EReal) : EReal := Ideal.div (∑ k, x k) c256

/-- The (biased) variance of a row of 256. -/
def var (x : Fin 256 → EReal) : EReal := Ideal.div (∑ k, (x k - mean x) * (x k - mean x)) c256

/-- Layer norm of the row x with scale s and offset b, at entry k. -/
def lnorm (x s b : Fin 256 → EReal) (k : Fin 256) : EReal :=
  (x k - mean x) * Ideal.rsqrt (var x + ceps) * s k + b k

/-- Layer norm followed by the rectifier. -/
def lnRelu (x s b : Fin 256 → EReal) (k : Fin 256) : EReal := max (lnorm x s b k) 0

/-- Layer norm, rectifier, then a linear map from 256 to n entries with offset bw. -/
def proj {n : ℕ} (x s b : Fin 256 → EReal) (W : Fin 256 → Fin n → EReal) (bw : Fin n → EReal) (j : Fin n) : EReal :=
  (∑ k, lnRelu x s b k * W k j) + bw j

/-- A linear map on a row of 128 with offset. -/
def lin (x : Fin 128 → EReal) (W : Fin 128 → Fin 128 → EReal) (bw : Fin 128 → EReal) (j : Fin 128) : EReal :=
  (∑ k, x k * W k j) + bw j

/-- The same linear map applied to each of the 100000 rows. -/
def rowLin (X : Fin 100000 → Fin 128 → EReal) (W : Fin 128 → Fin 128 → EReal) (bw : Fin 128 → EReal)
    (n : Fin 100000) (j : Fin 128) : EReal :=
  (∑ k, X n k * W k j) + bw j

/-- Channel c of head h among the 128 flat channels. -/
def hc (h : Fin 8) (c : Fin 16) : Fin 128 := ⟨16 * h.val + c.val, by omega⟩

/-- The head a flat channel belongs to. -/
def hd (j : Fin 128) : Fin 8 := ⟨j.val / 16, by omega⟩

/-- The leaky rectifier: z where z is nonnegative, slope · z elsewhere. -/
def leaky (z : EReal) : EReal := if 0 ≤ z then z else cslope * z

/-- The attention logit of source row n at head h. -/
def logit (xl : Fin 100000 → Fin 128 → EReal) (xr : Fin 128 → EReal) (att : Fin 8 → Fin 16 → EReal)
    (n : Fin 100000) (h : Fin 8) : EReal :=
  ∑ c : Fin 16, leaky (xl n (hc h c) + xr (hc h c)) * att h c

/-- The largest logit of head h over all rows (from −∞). -/
def lmax (lg : Fin 100000 → Fin 8 → EReal) (h : Fin 8) : EReal :=
  (Finset.univ : Finset (Fin 100000)).fold max ⊥ (fun n => lg n h)

/-- The shifted exponential of a logit. -/
def pexp (lg : Fin 100000 → Fin 8 → EReal) (n : Fin 100000) (h : Fin 8) : EReal := Ideal.exp (lg n h - lmax lg h)

/-- The soft-max normaliser of head h. -/
def psum (lg : Fin 100000 → Fin 8 → EReal) (h : Fin 8) : EReal := ∑ n, pexp lg n h

/-- The soft-max weight of row n at head h. -/
def alpha (lg : Fin 100000 → Fin 8 → EReal) (n : Fin 100000) (h : Fin 8) : EReal :=
  Ideal.div (pexp lg n h) (psum lg h)

/-- The attention-weighted average of the rows at flat channel j, plus the output offset. -/
def gatOut (xl : Fin 100000 → Fin 128 → EReal) (lg : Fin 100000 → Fin 8 → EReal) (bias : Fin 128 → EReal)
    (j : Fin 128) : EReal :=
  (∑ n, alpha lg n (hd j) * xl n j) + bias j

/-- Source row r of block t, the rows taken 4000 at a time. -/
def row (t : Fin 25) (r : Fin 4000) : Fin 100000 := ⟨t.val * 4000 + r.val, by omega⟩

/-- An extended real that is a real number. -/
def IsReal (x : EReal) : Prop := ∃ r : ℝ, x = (r : EReal)

/-- One stream's arrays: the 100000 source rows and the parameters of its projection and attention layer. -/
structure Gat where
  X : Fin 100000 → Fin 128 → EReal
  lnS : Fin 256 → EReal
  lnB : Fin 256 → EReal
  Wg : Fin 256 → Fin 128 → EReal
  bg : Fin 128 → EReal
  Wl : Fin 128 → Fin 128 → EReal
  bl : Fin 128 → EReal
  Wr : Fin 128 → Fin 128 → EReal
  br : Fin 128 → EReal
  att : Fin 8 → Fin 16 → EReal
  bias : Fin 128 → EReal

namespace Gat

/-- Every entry of every array of the stream is a real number. -/
structure Real (P : Gat) : Prop where
  X : ∀ n k, IsReal (P.X n k)
  lnS : ∀ k, IsReal (P.lnS k)
  lnB : ∀ k, IsReal (P.lnB k)
  Wg : ∀ k j, IsReal (P.Wg k j)
  bg : ∀ j, IsReal (P.bg j)
  Wl : ∀ k j, IsReal (P.Wl k j)
  bl : ∀ j, IsReal (P.bl j)
  Wr : ∀ k j, IsReal (P.Wr k j)
  br : ∀ j, IsReal (P.br j)
  att : ∀ h c, IsReal (P.att h c)
  bias : ∀ j, IsReal (P.bias j)

/-- The source rows through the left-hand map. -/
def xl (P : Gat) : Fin 100000 → Fin 128 → EReal := rowLin P.X P.Wl P.bl
/-- The global row, normalised, rectified and projected. -/
def xt (P : Gat) (g : Fin 256 → EReal) : Fin 128 → EReal := proj g P.lnS P.lnB P.Wg P.bg
/-- The target term: that projection through the right-hand map. -/
def xr (P : Gat) (g : Fin 256 → EReal) : Fin 128 → EReal := lin (P.xt g) P.Wr P.br
/-- The logits. -/
def lg (P : Gat) (g : Fin 256 → EReal) : Fin 100000 → Fin 8 → EReal := logit P.xl (P.xr g) P.att
/-- The stream's 128 aggregated entries. -/
def agg (P : Gat) (g : Fin 256 → EReal) : Fin 128 → EReal := gatOut P.xl (P.lg g) P.bias

end Gat

/-- All 27 argument arrays. -/
structure Args where
  g : Fin 256 → EReal
  v : Gat
  s : Gat
  lnS : Fin 256 → EReal
  lnB : Fin 256 → EReal
  Wm : Fin 256 → Fin 256 → EReal
  bm : Fin 256 → EReal

namespace Args

/-- Every entry of every argument array is a real number. -/
structure Real (A : Args) : Prop where
  g : ∀ k, IsReal (A.g k)
  v : A.v.Real
  s : A.s.Real
  lnS : ∀ k, IsReal (A.lnS k)
  lnB : ∀ k, IsReal (A.lnB k)
  Wm : ∀ k j, IsReal (A.Wm k j)
  bm : ∀ j, IsReal (A.bm j)

/-- The two aggregated rows side by side. -/
def cat (A : Args) (j : Fin 256) : EReal :=
  if h : j.val < 128 then A.v.agg A.g ⟨j.val, h⟩ else A.s.agg A.g ⟨j.val - 128, by omega⟩

/-- The updated global row before the last block. -/
def x (A : Args) (j : Fin 256) : EReal := A.g j + A.cat j

/-- The result row. -/
def out (A : Args) (j : Fin 256) : EReal := A.x j + proj A.x A.lnS A.lnB A.Wm A.bm j

end Args

end Cert.Hand.Spec

end
-- ==== Proof.KBlocks.lean ====
/-
  What each input window stages at a grid point, read off the array it stages.

  Windows 0 and 1 stage 4000 consecutive rows of the two source arrays: block t holds rows 4000·t … 4000·t + 3999
  (row r of the block is source row 4000·t + r). Every other input window stages its whole array at every point.
-/
import proofs.«162155_g33088428049086_cont_sun_c4_530_7_alg».proof.Proof.Gen.KernelIdeal.Frame.Runs
import proofs.«162155_g33088428049086_cont_sun_c4_530_7_alg».proof.Proof.Spec
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx
open Cert.Hand.Spec

open Idealize.SL.Sem

variable (m : (ℓ : Loc nD τ sig) → Buf (Elt Ideal) ℓ) (c : Dev nD)

/-- A value at its literal vector type. -/
abbrev asVec (S : Shape) (x : Vec Ideal S .f32) : Vec Ideal S .f32 := x

/-- Block t of window 0, read off any array of the window's shape: the block index is (t, 0) and the block is 4000 rows
    by all 128 columns, so its entry (r, j) is the array's entry (4000·t + r, j). -/
theorem read_blk_0 (A : Vec Ideal S100000x128 .f32) (t : Fin cfg0.N) (ht : t.val < 25) (r : Fin 4000) (j : Fin 128) :
    ((cfg0.win 0).blk t).view.read (Elt Ideal) A (ix2 r j) = A (ix2 (row ⟨t.val, ht⟩ r) j) := by
  show A (((cfg0.win 0).blk t).view.emb (ix2 r j)) = A (ix2 (row ⟨t.val, ht⟩ r) j)
  congr 1
  funext a; apply Fin.ext
  have h := (by decide +kernel : ∀ t : Fin grid0.N, win0_0.index t (0 : Fin 2) = t.val ∧ win0_0.index t (1 : Fin 2) = 0) t
  match a with
  | ⟨0, _⟩ => show win0_0.index t (0 : Fin 2) * 4000 + 1 * r.val = t.val * 4000 + r.val; omega
  | ⟨1, _⟩ => show win0_0.index t (1 : Fin 2) * 128 + 1 * j.val = j.val; omega

/-- Window 0: row r of block t is source row 4000·t + r of the view rows. -/
theorem iblk_0 (t : Fin cfg0.N) (ht : t.val < 25) (r : Fin 4000) (j : Fin 128) :
    asVec S4000x128 (iblk m c 0 t) (ix2 r j) = asVec S100000x128 (V m c main_arg0) (ix2 (row ⟨t.val, ht⟩ r) j) := by
  exact read_blk_0 (V m c main_arg0) t ht r j

/-- Block t of window 1, read off any array of the window's shape: the block index is (t, 0) and the block is 4000 rows
    by all 128 columns, so its entry (r, j) is the array's entry (4000·t + r, j). -/
theorem read_blk_1 (A : Vec Ideal S100000x128 .f32) (t : Fin cfg0.N) (ht : t.val < 25) (r : Fin 4000) (j : Fin 128) :
    ((cfg0.win 1).blk t).view.read (Elt Ideal) A (ix2 r j) = A (ix2 (row ⟨t.val, ht⟩ r) j) := by
  show A (((cfg0.win 1).blk t).view.emb (ix2 r j)) = A (ix2 (row ⟨t.val, ht⟩ r) j)
  congr 1
  funext a; apply Fin.ext
  have h := (by decide +kernel : ∀ t : Fin grid0.N, win0_1.index t (0 : Fin 2) = t.val ∧ win0_1.index t (1 : Fin 2) = 0) t
  match a with
  | ⟨0, _⟩ => show win0_1.index t (0 : Fin 2) * 4000 + 1 * r.val = t.val * 4000 + r.val; omega
  | ⟨1, _⟩ => show win0_1.index t (1 : Fin 2) * 128 + 1 * j.val = j.val; omega

/-- Window 1: the same for the scene-point rows. -/
theorem iblk_1 (t : Fin cfg0.N) (ht : t.val < 25) (r : Fin 4000) (j : Fin 128) :
    asVec S4000x128 (iblk m c 1 t) (ix2 r j) = asVec S100000x128 (V m c main_arg1) (ix2 (row ⟨t.val, ht⟩ r) j) := by
  exact read_blk_1 (V m c main_arg1) t ht r j

/-- Block t of window 2, read off any array of the window's shape, is that array: the block index is (0, 0) at every
    point and the block has the array's extents. -/
theorem read_blk_2 (A : Vec Ideal S1x256 .f32) (t : Fin cfg0.N) (y : S1x256.Idx) :
    ((cfg0.win 2).blk t).view.read (Elt Ideal) A y = A y := by
  show A (((cfg0.win 2).blk t).view.emb y) = A y
  congr 1
  funext a; apply Fin.ext
  have h := (by decide +kernel : ∀ t : Fin grid0.N, win0_2.index t (0 : Fin 2) = 0 ∧ win0_2.index t (1 : Fin 2) = 0) t
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- Window 2 stages its whole array. -/
theorem iblk_2 (t : Fin cfg0.N) : asVec S1x256 (iblk m c 2 t) = asVec S1x256 (V m c main_arg2) := by
  funext y
  exact read_blk_2 (V m c main_arg2) t y

/-- Block t of window 3, read off any array of the window's shape, is that array: the block index is (0, 0) at every
    point and the block has the array's extents. -/
theorem read_blk_3 (A : Vec Ideal S1x256 .f32) (t : Fin cfg0.N) (y : S1x256.Idx) :
    ((cfg0.win 3).blk t).view.read (Elt Ideal) A y = A y := by
  show A (((cfg0.win 3).blk t).view.emb y) = A y
  congr 1
  funext a; apply Fin.ext
  have h := (by decide +kernel : ∀ t : Fin grid0.N, win0_3.index t (0 : Fin 2) = 0 ∧ win0_3.index t (1 : Fin 2) = 0) t
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- Window 3 stages its whole array. -/
theorem iblk_3 (t : Fin cfg0.N) : asVec S1x256 (iblk m c 3 t) = asVec S1x256 (V m c main_v20) := by
  funext y
  exact read_blk_3 (V m c main_v20) t y

/-- Block t of window 4, read off any array of the window's shape, is that array: the block index is (0, 0) at every
    point and the block has the array's extents. -/
theorem read_blk_4 (A : Vec Ideal S1x256 .f32) (t : Fin cfg0.N) (y : S1x256.Idx) :
    ((cfg0.win 4).blk t).view.read (Elt Ideal) A y = A y := by
  show A (((cfg0.win 4).blk t).view.emb y) = A y
  congr 1
  funext a; apply Fin.ext
  have h := (by decide +kernel : ∀ t : Fin grid0.N, win0_4.index t (0 : Fin 2) = 0 ∧ win0_4.index t (1 : Fin 2) = 0) t
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Window 4 stages its whole array. -/
theorem iblk_4 (t : Fin cfg0.N) : asVec S1x256 (iblk m c 4 t) = asVec S1x256 (V m c main_v21) := by
  funext y
  exact read_blk_4 (V m c main_v21) t y

/-- Block t of window 5, read off any array of the window's shape, is that array: the block index is (0, 0) at every
    point and the block has the array's extents. -/
theorem read_blk_5 (A : Vec Ideal S256x128 .f32) (t : Fin cfg0.N) (y : S256x128.Idx) :
    ((cfg0.win 5).blk t).view.read (Elt Ideal) A y = A y := by
  show A (((cfg0.win 5).blk t).view.emb y) = A y
  congr 1
  funext a; apply Fin.ext
  have h := (by decide +kernel : ∀ t : Fin grid0.N, win0_5.index t (0 : Fin 2) = 0 ∧ win0_5.index t (1 : Fin 2) = 0) t
  match a with
  | ⟨0, _⟩ => show win0_5.index t (0 : Fin 2) * 256 + 1 * (y 0).val = (y 0).val; omega
  | ⟨1, _⟩ => show win0_5.index t (1 : Fin 2) * 128 + 1 * (y 1).val = (y 1).val; omega

/-- Window 5 stages its whole array. -/
theorem iblk_5 (t : Fin cfg0.N) : asVec S256x128 (iblk m c 5 t) = asVec S256x128 (V m c main_arg5) := by
  funext y
  exact read_blk_5 (V m c main_arg5) t y

/-- Block t of window 6, read off any array of the window's shape, is that array: the block index is (0, 0) at every
    point and the block has the array's extents. -/
theorem read_blk_6 (A : Vec Ideal S1x128 .f32) (t : Fin cfg0.N) (y : S1x128.Idx) :
    ((cfg0.win 6).blk t).view.read (Elt Ideal) A y = A y := by
  show A (((cfg0.win 6).blk t).view.emb y) = A y
  congr 1
  funext a; apply Fin.ext
  have h := (by decide +kernel : ∀ t : Fin grid0.N, win0_6.index t (0 : Fin 2) = 0 ∧ win0_6.index t (1 : Fin 2) = 0) t
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 6 stages its whole array. -/
theorem iblk_6 (t : Fin cfg0.N) : asVec S1x128 (iblk m c 6 t) = asVec S1x128 (V m c main_v22) := by
  funext y
  exact read_blk_6 (V m c main_v22) t y

/-- Block t of window 7, read off any array of the window's shape, is that array: the block index is (0, 0) at every
    point and the block has the array's extents. -/
theorem read_blk_7 (A : Vec Ideal S128x128 .f32) (t : Fin cfg0.N) (y : S128x128.Idx) :
    ((cfg0.win 7).blk t).view.read (Elt Ideal) A y = A y := by
  show A (((cfg0.win 7).blk t).view.emb y) = A y
  congr 1
  funext a; apply Fin.ext
  have h := (by decide +kernel : ∀ t : Fin grid0.N, win0_7.index t (0 : Fin 2) = 0 ∧ win0_7.index t (1 : Fin 2) = 0) t
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 7 stages its whole array. -/
theorem iblk_7 (t : Fin cfg0.N) : asVec S128x128 (iblk m c 7 t) = asVec S128x128 (V m c main_arg7) := by
  funext y
  exact read_blk_7 (V m c main_arg7) t y

/-- Block t of window 8, read off any array of the window's shape, is that array: the block index is (0, 0) at every
    point and the block has the array's extents. -/
theorem read_blk_8 (A : Vec Ideal S1x128 .f32) (t : Fin cfg0.N) (y : S1x128.Idx) :
    ((cfg0.win 8).blk t).view.read (Elt Ideal) A y = A y := by
  show A (((cfg0.win 8).blk t).view.emb y) = A y
  congr 1
  funext a; apply Fin.ext
  have h := (by decide +kernel : ∀ t : Fin grid0.N, win0_8.index t (0 : Fin 2) = 0 ∧ win0_8.index t (1 : Fin 2) = 0) t
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 8 stages its whole array. -/
theorem iblk_8 (t : Fin cfg0.N) : asVec S1x128 (iblk m c 8 t) = asVec S1x128 (V m c main_v23) := by
  funext y
  exact read_blk_8 (V m c main_v23) t y

/-- Block t of window 9, read off any array of the window's shape, is that array: the block index is (0, 0) at every
    point and the block has the array's extents. -/
theorem read_blk_9 (A : Vec Ideal S128x128 .f32) (t : Fin cfg0.N) (y : S128x128.Idx) :
    ((cfg0.win 9).blk t).view.read (Elt Ideal) A y = A y := by
  show A (((cfg0.win 9).blk t).view.emb y) = A y
  congr 1
  funext a; apply Fin.ext
  have h := (by decide +kernel : ∀ t : Fin grid0.N, win0_9.index t (0 : Fin 2) = 0 ∧ win0_9.index t (1 : Fin 2) = 0) t
  match a with
  | ⟨0, _⟩ => show win0_9.index t (0 : Fin 2) * 128 + 1 * (y 0).val = (y 0).val; omega
  | ⟨1, _⟩ => show win0_9.index t (1 : Fin 2) * 128 + 1 * (y 1).val = (y 1).val; omega

/-- Window 9 stages its whole array. -/
theorem iblk_9 (t : Fin cfg0.N) : asVec S128x128 (iblk m c 9 t) = asVec S128x128 (V m c main_arg9) := by
  funext y
  exact read_blk_9 (V m c main_arg9) t y

/-- Block t of window 10, read off any array of the window's shape, is that array: the block index is (0, 0) at every
    point and the block has the array's extents. -/
theorem read_blk_10 (A : Vec Ideal S1x128 .f32) (t : Fin cfg0.N) (y : S1x128.Idx) :
    ((cfg0.win 10).blk t).view.read (Elt Ideal) A y = A y := by
  show A (((cfg0.win 10).blk t).view.emb y) = A y
  congr 1
  funext a; apply Fin.ext
  have h := (by decide +kernel : ∀ t : Fin grid0.N, win0_10.index t (0 : Fin 2) = 0 ∧ win0_10.index t (1 : Fin 2) = 0) t
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- Window 10 stages its whole array. -/
theorem iblk_10 (t : Fin cfg0.N) : asVec S1x128 (iblk m c 10 t) = asVec S1x128 (V m c main_v24) := by
  funext y
  exact read_blk_10 (V m c main_v24) t y

/-- Block t of window 11, read off any array of the window's shape, is that array: the block index is (0, 0) at every
    point and the block has the array's extents. -/
theorem read_blk_11 (A : Vec Ideal S128x128 .f32) (t : Fin cfg0.N) (y : S128x128.Idx) :
    ((cfg0.win 11).blk t).view.read (Elt Ideal) A y = A y := by
  show A (((cfg0.win 11).blk t).view.emb y) = A y
  congr 1
  funext a; apply Fin.ext
  have h := (by decide +kernel : ∀ t : Fin grid0.N, win0_11.index t (0 : Fin 2) = 0 ∧ win0_11.index t (1 : Fin 2) = 0) t
  match a with
  | ⟨0, _⟩ => show win0_11.index t (0 : Fin 2) * 128 + 1 * (y 0).val = (y 0).val; omega
  | ⟨1, _⟩ => show win0_11.index t (1 : Fin 2) * 128 + 1 * (y 1).val = (y 1).val; omega

/-- Window 11 stages its whole array. -/
theorem iblk_11 (t : Fin cfg0.N) : asVec S128x128 (iblk m c 11 t) = asVec S128x128 (V m c main_v11) := by
  funext y
  exact read_blk_11 (V m c main_v11) t y

/-- Block t of window 12, read off any array of the window's shape, is that array: the block index is (0, 0) at every
    point and the block has the array's extents. -/
theorem read_blk_12 (A : Vec Ideal S1x128 .f32) (t : Fin cfg0.N) (y : S1x128.Idx) :
    ((cfg0.win 12).blk t).view.read (Elt Ideal) A y = A y := by
  show A (((cfg0.win 12).blk t).view.emb y) = A y
  congr 1
  funext a; apply Fin.ext
  have h := (by decide +kernel : ∀ t : Fin grid0.N, win0_12.index t (0 : Fin 2) = 0 ∧ win0_12.index t (1 : Fin 2) = 0) t
  match a with
  | ⟨0, _⟩ => show win0_12.index t (0 : Fin 2) * 1 + 1 * (y 0).val = (y 0).val; omega
  | ⟨1, _⟩ => show win0_12.index t (1 : Fin 2) * 128 + 1 * (y 1).val = (y 1).val; omega

/-- Window 12 stages its whole array. -/
theorem iblk_12 (t : Fin cfg0.N) : asVec S1x128 (iblk m c 12 t) = asVec S1x128 (V m c main_v17) := by
  funext y
  exact read_blk_12 (V m c main_v17) t y

/-- Block t of window 13, read off any array of the window's shape, is that array: the block index is (0, 0) at every
    point and the block has the array's extents. -/
theorem read_blk_13 (A : Vec Ideal S1x256 .f32) (t : Fin cfg0.N) (y : S1x256.Idx) :
    ((cfg0.win 13).blk t).view.read (Elt Ideal) A y = A y := by
  show A (((cfg0.win 13).blk t).view.emb y) = A y
  congr 1
  funext a; apply Fin.ext
  have h := (by decide +kernel : ∀ t : Fin grid0.N, win0_13.index t (0 : Fin 2) = 0 ∧ win0_13.index t (1 : Fin 2) = 0) t
  match a with
  | ⟨0, _⟩ => show win0_13.index t (0 : Fin 2) * 1 + 1 * (y 0).val = (y 0).val; omega
  | ⟨1, _⟩ => show win0_13.index t (1 : Fin 2) * 256 + 1 * (y 1).val = (y 1).val; omega

/-- Window 13 stages its whole array. -/
theorem iblk_13 (t : Fin cfg0.N) : asVec S1x256 (iblk m c 13 t) = asVec S1x256 (V m c main_v25) := by
  funext y
  exact read_blk_13 (V m c main_v25) t y

/-- Block t of window 14, read off any array of the window's shape, is that array: the block index is (0, 0) at every
    point and the block has the array's extents. -/
theorem read_blk_14 (A : Vec Ideal S1x256 .f32) (t : Fin cfg0.N) (y : S1x256.Idx) :
    ((cfg0.win 14).blk t).view.read (Elt Ideal) A y = A y := by
  show A (((cfg0.win 14).blk t).view.emb y) = A y
  congr 1
  funext a; apply Fin.ext
  have h := (by decide +kernel : ∀ t : Fin grid0.N, win0_14.index t (0 : Fin 2) = 0 ∧ win0_14.index t (1 : Fin 2) = 0) t
  match a with
  | ⟨0, _⟩ => show win0_14.index t (0 : Fin 2) * 1 + 1 * (y 0).val = (y 0).val; omega
  | ⟨1, _⟩ => show win0_14.index t (1 : Fin 2) * 256 + 1 * (y 1).val = (y 1).val; omega

/-- Window 14 stages its whole array. -/
theorem iblk_14 (t : Fin cfg0.N) : asVec S1x256 (iblk m c 14 t) = asVec S1x256 (V m c main_v26) := by
  funext y
  exact read_blk_14 (V m c main_v26) t y

/-- Block t of window 15, read off any array of the window's shape, is that array: the block index is (0, 0) at every
    point and the block has the array's extents. -/
theorem read_blk_15 (A : Vec Ideal S256x128 .f32) (t : Fin cfg0.N) (y : S256x128.Idx) :
    ((cfg0.win 15).blk t).view.read (Elt Ideal) A y = A y := by
  show A (((cfg0.win 15).blk t).view.emb y) = A y
  congr 1
  funext a; apply Fin.ext
  have h := (by decide +kernel : ∀ t : Fin grid0.N, win0_15.index t (0 : Fin 2) = 0 ∧ win0_15.index t (1 : Fin 2) = 0) t
  match a with
  | ⟨0, _⟩ => show win0_15.index t (0 : Fin 2) * 256 + 1 * (y 0).val = (y 0).val; omega
  | ⟨1, _⟩ => show win0_15.index t (1 : Fin 2) * 128 + 1 * (y 1).val = (y 1).val; omega

/-- Window 15 stages its whole array. -/
theorem iblk_15 (t : Fin cfg0.N) : asVec S256x128 (iblk m c 15 t) = asVec S256x128 (V m c main_arg15) := by
  funext y
  exact read_blk_15 (V m c main_arg15) t y

/-- Block t of window 16, read off any array of the window's shape, is that array: the block index is (0, 0) at every
    point and the block has the array's extents. -/
theorem read_blk_16 (A : Vec Ideal S1x128 .f32) (t : Fin cfg0.N) (y : S1x128.Idx) :
    ((cfg0.win 16).blk t).view.read (Elt Ideal) A y = A y := by
  show A (((cfg0.win 16).blk t).view.emb y) = A y
  congr 1
  funext a; apply Fin.ext
  have h := (by decide +kernel : ∀ t : Fin grid0.N, win0_16.index t (0 : Fin 2) = 0 ∧ win0_16.index t (1 : Fin 2) = 0) t
  match a with
  | ⟨0, _⟩ => show win0_16.index t (0 : Fin 2) * 1 + 1 * (y 0).val = (y 0).val; omega
  | ⟨1, _⟩ => show win0_16.index t (1 : Fin 2) * 128 + 1 * (y 1).val = (y 1).val; omega

/-- Window 16 stages its whole array. -/
theorem iblk_16 (t : Fin cfg0.N) : asVec S1x128 (iblk m c 16 t) = asVec S1x128 (V m c main_v27) := by
  funext y
  exact read_blk_16 (V m c main_v27) t y

/-- Block t of window 17, read off any array of the window's shape, is that array: the block index is (0, 0) at every
    point and the block has the array's extents. -/
theorem read_blk_17 (A : Vec Ideal S128x128 .f32) (t : Fin cfg0.N) (y : S128x128.Idx) :
    ((cfg0.win 17).blk t).view.read (Elt Ideal) A y = A y := by
  show A (((cfg0.win 17).blk t).view.emb y) = A y
  congr 1
  funext a; apply Fin.ext
  have h := (by decide +kernel : ∀ t : Fin grid0.N, win0_17.index t (0 : Fin 2) = 0 ∧ win0_17.index t (1 : Fin 2) = 0) t
  match a with
  | ⟨0, _⟩ => show win0_17.index t (0 : Fin 2) * 128 + 1 * (y 0).val = (y 0).val; omega
  | ⟨1, _⟩ => show win0_17.index t (1 : Fin 2) * 128 + 1 * (y 1).val = (y 1).val; omega

/-- Window 17 stages its whole array. -/
theorem iblk_17 (t : Fin cfg0.N) : asVec S128x128 (iblk m c 17 t) = asVec S128x128 (V m c main_arg17) := by
  funext y
  exact read_blk_17 (V m c main_arg17) t y

/-- Block t of window 18, read off any array of the window's shape, is that array: the block index is (0, 0) at every
    point and the block has the array's extents. -/
theorem read_blk_18 (A : Vec Ideal S1x128 .f32) (t : Fin cfg0.N) (y : S1x128.Idx) :
    ((cfg0.win 18).blk t).view.read (Elt Ideal) A y = A y := by
  show A (((cfg0.win 18).blk t).view.emb y) = A y
  congr 1
  funext a; apply Fin.ext
  have h := (by decide +kernel : ∀ t : Fin grid0.N, win0_18.index t (0 : Fin 2) = 0 ∧ win0_18.index t (1 : Fin 2) = 0) t
  match a with
  | ⟨0, _⟩ => show win0_18.index t (0 : Fin 2) * 1 + 1 * (y 0).val = (y 0).val; omega
  | ⟨1, _⟩ => show win0_18.index t (1 : Fin 2) * 128 + 1 * (y 1).val = (y 1).val; omega

/-- Window 18 stages its whole array. -/
theorem iblk_18 (t : Fin cfg0.N) : asVec S1x128 (iblk m c 18 t) = asVec S1x128 (V m c main_v28) := by
  funext y
  exact read_blk_18 (V m c main_v28) t y

/-- Block t of window 19, read off any array of the window's shape, is that array: the block index is (0, 0) at every
    point and the block has the array's extents. -/
theorem read_blk_19 (A : Vec Ideal S128x128 .f32) (t : Fin cfg0.N) (y : S128x128.Idx) :
    ((cfg0.win 19).blk t).view.read (Elt Ideal) A y = A y := by
  show A (((cfg0.win 19).blk t).view.emb y) = A y
  congr 1
  funext a; apply Fin.ext
  have h := (by decide +kernel : ∀ t : Fin grid0.N, win0_19.index t (0 : Fin 2) = 0 ∧ win0_19.index t (1 : Fin 2) = 0) t
  match a with
  | ⟨0, _⟩ => show win0_19.index t (0 : Fin 2) * 128 + 1 * (y 0).val = (y 0).val; omega
  | ⟨1, _⟩ => show win0_19.index t (1 : Fin 2) * 128 + 1 * (y 1).val = (y 1).val; omega

/-- Window 19 stages its whole array. -/
theorem iblk_19 (t : Fin cfg0.N) : asVec S128x128 (iblk m c 19 t) = asVec S128x128 (V m c main_arg19) := by
  funext y
  exact read_blk_19 (V m c main_arg19) t y

/-- Block t of window 20, read off any array of the window's shape, is that array: the block index is (0, 0) at every
    point and the block has the array's extents. -/
theorem read_blk_20 (A : Vec Ideal S1x128 .f32) (t : Fin cfg0.N) (y : S1x128.Idx) :
    ((cfg0.win 20).blk t).view.read (Elt Ideal) A y = A y := by
  show A (((cfg0.win 20).blk t).view.emb y) = A y
  congr 1
  funext a; apply Fin.ext
  have h := (by decide +kernel : ∀ t : Fin grid0.N, win0_20.index t (0 : Fin 2) = 0 ∧ win0_20.index t (1 : Fin 2) = 0) t
  match a with
  | ⟨0, _⟩ => show win0_20.index t (0 : Fin 2) * 1 + 1 * (y 0).val = (y 0).val; omega
  | ⟨1, _⟩ => show win0_20.index t (1 : Fin 2) * 128 + 1 * (y 1).val = (y 1).val; omega

/-- Window 20 stages its whole array. -/
theorem iblk_20 (t : Fin cfg0.N) : asVec S1x128 (iblk m c 20 t) = asVec S1x128 (V m c main_v29) := by
  funext y
  exact read_blk_20 (V m c main_v29) t y

/-- Block t of window 21, read off any array of the window's shape, is that array: the block index is (0, 0) at every
    point and the block has the array's extents. -/
theorem read_blk_21 (A : Vec Ideal S128x128 .f32) (t : Fin cfg0.N) (y : S128x128.Idx) :
    ((cfg0.win 21).blk t).view.read (Elt Ideal) A y = A y := by
  show A (((cfg0.win 21).blk t).view.emb y) = A y
  congr 1
  funext a; apply Fin.ext
  have h := (by decide +kernel : ∀ t : Fin grid0.N, win0_21.index t (0 : Fin 2) = 0 ∧ win0_21.index t (1 : Fin 2) = 0) t
  match a with
  | ⟨0, _⟩ => show win0_21.index t (0 : Fin 2) * 128 + 1 * (y 0).val = (y 0).val; omega
  | ⟨1, _⟩ => show win0_21.index t (1 : Fin 2) * 128 + 1 * (y 1).val = (y 1).val; omega

/-- Window 21 stages its whole array. -/
theorem iblk_21 (t : Fin cfg0.N) : asVec S128x128 (iblk m c 21 t) = asVec S128x128 (V m c main_v15) := by
  funext y
  exact read_blk_21 (V m c main_v15) t y

/-- Block t of window 22, read off any array of the window's shape, is that array: the block index is (0, 0) at every
    point and the block has the array's extents. -/
theorem read_blk_22 (A : Vec Ideal S1x128 .f32) (t : Fin cfg0.N) (y : S1x128.Idx) :
    ((cfg0.win 22).blk t).view.read (Elt Ideal) A y = A y := by
  show A (((cfg0.win 22).blk t).view.emb y) = A y
  congr 1
  funext a; apply Fin.ext
  have h := (by decide +kernel : ∀ t : Fin grid0.N, win0_22.index t (0 : Fin 2) = 0 ∧ win0_22.index t (1 : Fin 2) = 0) t
  match a with
  | ⟨0, _⟩ => show win0_22.index t (0 : Fin 2) * 1 + 1 * (y 0).val = (y 0).val; omega
  | ⟨1, _⟩ => show win0_22.index t (1 : Fin 2) * 128 + 1 * (y 1).val = (y 1).val; omega

/-- Window 22 stages its whole array. -/
theorem iblk_22 (t : Fin cfg0.N) : asVec S1x128 (iblk m c 22 t) = asVec S1x128 (V m c main_v19) := by
  funext y
  exact read_blk_22 (V m c main_v19) t y

/-- Block t of window 23, read off any array of the window's shape, is that array: the block index is (0, 0) at every
    point and the block has the array's extents. -/
theorem read_blk_23 (A : Vec Ideal S1x256 .f32) (t : Fin cfg0.N) (y : S1x256.Idx) :
    ((cfg0.win 23).blk t).view.read (Elt Ideal) A y = A y := by
  show A (((cfg0.win 23).blk t).view.emb y) = A y
  congr 1
  funext a; apply Fin.ext
  have h := (by decide +kernel : ∀ t : Fin grid0.N, win0_23.index t (0 : Fin 2) = 0 ∧ win0_23.index t (1 : Fin 2) = 0) t
  match a with
  | ⟨0, _⟩ => show win0_23.index t (0 : Fin 2) * 1 + 1 * (y 0).val = (y 0).val; omega
  | ⟨1, _⟩ => show win0_23.index t (1 : Fin 2) * 256 + 1 * (y 1).val = (y 1).val; omega

/-- Window 23 stages its whole array. -/
theorem iblk_23 (t : Fin cfg0.N) : asVec S1x256 (iblk m c 23 t) = asVec S1x256 (V m c main_v30) := by
  funext y
  exact read_blk_23 (V m c main_v30) t y

/-- Block t of window 24, read off any array of the window's shape, is that array: the block index is (0, 0) at every
    point and the block has the array's extents. -/
theorem read_blk_24 (A : Vec Ideal S1x256 .f32) (t : Fin cfg0.N) (y : S1x256.Idx) :
    ((cfg0.win 24).blk t).view.read (Elt Ideal) A y = A y := by
  show A (((cfg0.win 24).blk t).view.emb y) = A y
  congr 1
  funext a; apply Fin.ext
  have h := (by decide +kernel : ∀ t : Fin grid0.N, win0_24.index t (0 : Fin 2) = 0 ∧ win0_24.index t (1 : Fin 2) = 0) t
  match a with
  | ⟨0, _⟩ => show win0_24.index t (0 : Fin 2) * 1 + 1 * (y 0).val = (y 0).val; omega
  | ⟨1, _⟩ => show win0_24.index t (1 : Fin 2) * 256 + 1 * (y 1).val = (y 1).val; omega

/-- Window 24 stages its whole array. -/
theorem iblk_24 (t : Fin cfg0.N) : asVec S1x256 (iblk m c 24 t) = asVec S1x256 (V m c main_v31) := by
  funext y
  exact read_blk_24 (V m c main_v31) t y

/-- Block t of window 25, read off any array of the window's shape, is that array: the block index is (0, 0) at every
    point and the block has the array's extents. -/
theorem read_blk_25 (A : Vec Ideal S256x256 .f32) (t : Fin cfg0.N) (y : S256x256.Idx) :
    ((cfg0.win 25).blk t).view.read (Elt Ideal) A y = A y := by
  show A (((cfg0.win 25).blk t).view.emb y) = A y
  congr 1
  funext a; apply Fin.ext
  have h := (by decide +kernel : ∀ t : Fin grid0.N, win0_25.index t (0 : Fin 2) = 0 ∧ win0_25.index t (1 : Fin 2) = 0) t
  match a with
  | ⟨0, _⟩ => show win0_25.index t (0 : Fin 2) * 256 + 1 * (y 0).val = (y 0).val; omega
  | ⟨1, _⟩ => show win0_25.index t (1 : Fin 2) * 256 + 1 * (y 1).val = (y 1).val; omega

/-- Window 25 stages its whole array. -/
theorem iblk_25 (t : Fin cfg0.N) : asVec S256x256 (iblk m c 25 t) = asVec S256x256 (V m c main_arg25) := by
  funext y
  exact read_blk_25 (V m c main_arg25) t y

/-- Block t of window 26, read off any array of the window's shape, is that array: the block index is (0, 0) at every
    point and the block has the array's extents. -/
theorem read_blk_26 (A : Vec Ideal S1x256 .f32) (t : Fin cfg0.N) (y : S1x256.Idx) :
    ((cfg0.win 26).blk t).view.read (Elt Ideal) A y = A y := by
  show A (((cfg0.win 26).blk t).view.emb y) = A y
  congr 1
  funext a; apply Fin.ext
  have h := (by decide +kernel : ∀ t : Fin grid0.N, win0_26.index t (0 : Fin 2) = 0 ∧ win0_26.index t (1 : Fin 2) = 0) t
  match a with
  | ⟨0, _⟩ => show win0_26.index t (0 : Fin 2) * 1 + 1 * (y 0).val = (y 0).val; omega
  | ⟨1, _⟩ => show win0_26.index t (1 : Fin 2) * 256 + 1 * (y 1).val = (y 1).val; omega

/-- Window 26 stages its whole array. -/
theorem iblk_26 (t : Fin cfg0.N) : asVec S1x256 (iblk m c 26 t) = asVec S1x256 (V m c main_v32) := by
  funext y
  exact read_blk_26 (V m c main_v32) t y

/-- Block t of window 27, read off any array of the window's shape, is that array: the block index is (0, 0) at every
    point and the block has the array's extents. -/
theorem read_blk_27 (A : Vec Ideal S1x4000 .f32) (t : Fin cfg0.N) (y : S1x4000.Idx) :
    ((cfg0.win 27).blk t).view.read (Elt Ideal) A y = A y := by
  show A (((cfg0.win 27).blk t).view.emb y) = A y
  congr 1
  funext a; apply Fin.ext
  have h := (by decide +kernel : ∀ t : Fin grid0.N, win0_27.index t (0 : Fin 2) = 0 ∧ win0_27.index t (1 : Fin 2) = 0) t
  match a with
  | ⟨0, _⟩ => show win0_27.index t (0 : Fin 2) * 1 + 1 * (y 0).val = (y 0).val; omega
  | ⟨1, _⟩ => show win0_27.index t (1 : Fin 2) * 4000 + 1 * (y 1).val = (y 1).val; omega

/-- Window 27 stages its whole array. -/
theorem iblk_27 (t : Fin cfg0.N) : asVec S1x4000 (iblk m c 27 t) = asVec S1x4000 (V m c main_v33) := by
  funext y
  exact read_blk_27 (V m c main_v33) t y

end Cert.KernelIdeal.Hand

end
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.KStream.lean ====
/-
  One grid step of the kernel's running soft-max, read at an index.

  From a block x of 4000 source rows the step forms y = x · Wl (no offset), z = y + xr, e = max(z, slope · z),
  the head-replicated logits lb = e · AE, the new running maximum max(m, column maxima of lb), the correction
  exp(m − m'), the shifted exponentials exp(lb − m'), and the updated normaliser and weighted sum
  s' = s · corr + 1ᵀ · p,  w' = w · corr + 1ᵀ · (p ∘ y)   (1 the row of ones).
  The view stream and the scene-point stream run the same arithmetic through differently named values.
-/
import proofs.«162155_g33088428049086_cont_sun_c4_530_7_alg».proof.Proof.Gen.KernelIdeal.Skeleton
import proofs.«162155_g33088428049086_cont_sun_c4_530_7_alg».proof.Proof.Spec
import proofs.«162155_g33088428049086_cont_sun_c4_530_7_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx
open Cert.Hand.Spec

/-- The block through the left-hand map, without offset. -/
def yb (x : Vec Ideal S4000x128 .f32) (Wl : Vec Ideal S128x128 .f32) (r : Fin 4000) (k : Fin 128) : EReal :=
  ∑ j : Fin 128, x (ix2 r j) * Wl (ix2 j k)

/-- The head-replicated logits of the block. -/
def lbb (x : Vec Ideal S4000x128 .f32) (Wl : Vec Ideal S128x128 .f32) (xr : Vec Ideal S1x128 .f32)
    (AE : Vec Ideal S128x128 .f32) (r : Fin 4000) (k : Fin 128) : EReal :=
  ∑ j : Fin 128, max (yb x Wl r j + xr (ix2 (0 : Fin 1) j)) (cslope * (yb x Wl r j + xr (ix2 (0 : Fin 1) j))) * AE (ix2 j k)

/-- The running maximum after the block. -/
def mnew (x : Vec Ideal S4000x128 .f32) (Wl : Vec Ideal S128x128 .f32) (xr : Vec Ideal S1x128 .f32)
    (AE : Vec Ideal S128x128 .f32) (mo : Vec Ideal S1x128 .f32) (k : Fin 128) : EReal :=
  max (mo (ix2 (0 : Fin 1) k)) ((Finset.univ : Finset (Fin 4000)).fold max ⊥ (fun r => lbb x Wl xr AE r k))

variable (x : Vec Ideal S4000x128 .f32) (ones : Vec Ideal S1x4000 .f32) (Wl AE : Vec Ideal S128x128 .f32)
  (xr mo so wo : Vec Ideal S1x128 .f32)

/-! ## The pieces at an index -/

/-- The word 0xFF800000 is minus infinity, the bottom of the extended reals. -/
theorem ofBits_neg_inf : Ideal.ofBits .f32 0xFF800000#32 = (⊥ : EReal) := by
  simp [Ideal.ofBits, Ideal.ieee]

/-- The block product's dimension numbers are the plain ones. -/
theorem plain_big : PlainDot.IsPlain (M := 4000) (K := 128) (N := 128) dot_S4000x128_S128x128_S4000x128_1_0_0_1_n_n :=
  ⟨rfl, rfl, rfl, rfl, rfl, rfl⟩

/-- The row-of-ones product's dimension numbers are the plain ones. -/
theorem plain_row : PlainDot.IsPlain (M := 1) (K := 4000) (N := 128) dot_S1x4000_S4000x128_S1x128_1_0_0_1_n_n :=
  ⟨rfl, rfl, rfl, rfl, rfl, rfl⟩

/-- y at an entry. -/
theorem pay25_apply (r : Fin 4000) (k : Fin 128) : k0_pay25 x Wl (ix2 r k) = yb x Wl r k :=
  plain_big.matmul_zero_apply none x Wl r k

/-- The head-replicated logits at an entry. -/
theorem pay26_apply (r : Fin 4000) (k : Fin 128) : k0_pay26 x Wl xr AE (ix2 r k) = lbb x Wl xr AE r k := by
  refine (plain_big.matmul_zero_apply none _ _ r k).trans ?_
  refine Finset.sum_congr rfl fun j _ => ?_
  show max (k0_pay25 x Wl (ix2 r j) + broadcastTo S4000x128 xr broadcasts_S1x128_S4000x128 (ix2 r j))
      (cslope * (k0_pay25 x Wl (ix2 r j) + broadcastTo S4000x128 xr broadcasts_S1x128_S4000x128 (ix2 r j)))
      * shapeCast S128x128 AE shapeCasts_S128x128_S128x128 (ix2 j k) = _
  rw [pay25_apply, broadcastTo_1b_ab_apply, shapeCast_self]

/-- The index over a column with the row inserted. -/
theorem lift_col (k : Fin 128) (r : Fin 4000) : reduces_S4000x128_S128.lift (ix1 k) r = ix2 r k :=
  funext fun a => Fin.ext (by match a with | ⟨0, _⟩ => rfl | ⟨1, _⟩ => rfl)

/-- An exponential at an index is the exponential of the element. -/
theorem exp_apply {s : Shape} {φ : FTy} (v : FVec Ideal s φ) (i : s.Idx) : exp v i = Ideal.exp (v i) := rfl

/-- Two folds of max over one range agree when their starts and their terms do. -/
theorem fold_max_congr {n : Nat} {b b' : EReal} {f g : Fin n → EReal} (hb : b = b') (hfg : ∀ r, f r = g r) :
    (Finset.univ : Finset (Fin n)).fold max b f = (Finset.univ : Finset (Fin n)).fold max b' g := by
  subst hb
  exact congrArg (fun h => (Finset.univ : Finset (Fin n)).fold max b h) (funext hfg)

/-- The new running maximum, its operations spelled. -/
theorem pay27_eq : k0_pay27 x Wl xr AE mo
    = maximumf mo (shapeCast S1x128 (multiReduction (F := Ideal) .maximumf [0] S128 (k0_pay26 x Wl xr AE) 0xFF800000#32
        reduces_S4000x128_S128 (.inl rfl) rfl) shapeCasts_S128_S1x128) := rfl

/-- The new running maximum at a column. -/
theorem pay27_apply (k : Fin 128) : k0_pay27 x Wl xr AE mo (ix2 (0 : Fin 1) k) = mnew x Wl xr AE mo k := by
  rw [pay27_eq, maximumf_apply, shapeCast_a_1a_apply]
  refine congrArg (max _) ?_
  refine (Ideal.multiReduction_maximumf_single (k0_pay26 x Wl xr AE) _ reduces_S4000x128_S128 (.inl rfl) rfl (ix1 k)).trans ?_
  exact fold_max_congr (n := 4000) ofBits_neg_inf fun r =>
    (congrArg (k0_pay26 x Wl xr AE) (lift_col k r)).trans (pay26_apply x Wl AE xr r k)

/-- The correction factor, its operations spelled. -/
theorem pay28_eq : k0_pay28 x Wl xr AE mo = exp (subf mo (k0_pay27 x Wl xr AE mo)) := rfl

/-- The correction factor at a column. -/
theorem pay28_apply (k : Fin 128) :
    k0_pay28 x Wl xr AE mo (ix2 (0 : Fin 1) k) = Ideal.exp (mo (ix2 (0 : Fin 1) k) - mnew x Wl xr AE mo k) := by
  rw [pay28_eq, exp_apply, subf_apply, pay27_apply]

/-- The shifted exponentials, their operations spelled. -/
theorem pay29_eq : k0_pay29 x Wl xr AE mo
    = exp (subf (k0_pay26 x Wl xr AE) (broadcastTo S4000x128 (k0_pay27 x Wl xr AE mo) broadcasts_S1x128_S4000x128)) := rfl

/-- The shifted exponentials at an entry. -/
theorem pay29_apply (r : Fin 4000) (k : Fin 128) :
    k0_pay29 x Wl xr AE mo (ix2 r k) = Ideal.exp (lbb x Wl xr AE r k - mnew x Wl xr AE mo k) := by
  rw [pay29_eq, exp_apply, subf_apply, pay26_apply, broadcastTo_1b_ab_apply, pay27_apply]

/-- A cast of the row of ones to its own shape is the row. -/
theorem pay24_eq : k0_pay24 ones = ones := shapeCast_self ones _

/-- A cast of the stored maximum to its own shape is the maximum. -/
theorem pay32_eq (v : FVec Ideal S1x128 .f32) : k0_pay32 v = v := shapeCast_self v _

/-- The same in the scene-point stream. -/
theorem pay3_eq (v : FVec Ideal S1x128 .f32) : k0_pay3 v = v := shapeCast_self v _

/-- The updated normaliser, its operations spelled, over any values of its parts. -/
theorem pay1_eq (o : FVec Ideal S1x4000 .f32) (c : FVec Ideal S1x128 .f32) (p : FVec Ideal S4000x128 .f32)
    (s : Vec Ideal S1x128 .f32) :
    k0_pay1 o c p s = shapeCast S1x128 (addf (mulf s c)
      (matmul dot_S1x4000_S4000x128_S1x128_1_0_0_1_n_n none o p (constant S1x128 .f32 0x00000000#32)))
      shapeCasts_S1x128_S1x128 := rfl

/-- The updated normaliser at a column: s · c + o · p. -/
theorem pay1_apply (o : FVec Ideal S1x4000 .f32) (c : FVec Ideal S1x128 .f32) (p : FVec Ideal S4000x128 .f32)
    (s : Vec Ideal S1x128 .f32) (k : Fin 128) :
    k0_pay1 o c p s (ix2 (0 : Fin 1) k)
      = s (ix2 (0 : Fin 1) k) * c (ix2 (0 : Fin 1) k) + ∑ r : Fin 4000, o (ix2 (0 : Fin 1) r) * p (ix2 r k) := by
  rw [pay1_eq, shapeCast_self, addf_apply, mulf_apply]
  exact congrArg (_ + ·) (plain_row.matmul_zero_apply none o p 0 k)

/-- The updated weighted sum, its operations spelled, over any values of its parts. -/
theorem pay2_eq (o : FVec Ideal S1x4000 .f32) (y : FVec Ideal S4000x128 .f32) (c : FVec Ideal S1x128 .f32)
    (p : FVec Ideal S4000x128 .f32) (w : Vec Ideal S1x128 .f32) :
    k0_pay2 o y c p w = shapeCast S1x128 (addf (mulf w c)
      (matmul dot_S1x4000_S4000x128_S1x128_1_0_0_1_n_n none o (mulf p y) (constant S1x128 .f32 0x00000000#32)))
      shapeCasts_S1x128_S1x128 := rfl

/-- The updated weighted sum at a column: w · c + o · (p ∘ y). -/
theorem pay2_apply (o : FVec Ideal S1x4000 .f32) (y : FVec Ideal S4000x128 .f32) (c : FVec Ideal S1x128 .f32)
    (p : FVec Ideal S4000x128 .f32) (w : Vec Ideal S1x128 .f32) (k : Fin 128) :
    k0_pay2 o y c p w (ix2 (0 : Fin 1) k)
      = w (ix2 (0 : Fin 1) k) * c (ix2 (0 : Fin 1) k)
        + ∑ r : Fin 4000, o (ix2 (0 : Fin 1) r) * (p (ix2 r k) * y (ix2 r k)) := by
  rw [pay2_eq, shapeCast_self, addf_apply, mulf_apply]
  exact congrArg (_ + ·) (plain_row.matmul_zero_apply none o (mulf p y) 0 k)

/-- The view stream's normaliser is the same term over its parts. -/
theorem pay30_eq : k0_pay30 x ones Wl xr AE mo so
    = k0_pay1 (k0_pay24 ones) (k0_pay28 x Wl xr AE mo) (k0_pay29 x Wl xr AE mo) so := rfl

/-- The view stream's weighted sum is the same term over its parts. -/
theorem pay31_eq (o : FVec Ideal S1x4000 .f32) (y : FVec Ideal S4000x128 .f32) (c : FVec Ideal S1x128 .f32)
    (p : FVec Ideal S4000x128 .f32) (w : Vec Ideal S1x128 .f32) : k0_pay31 o y c p w = k0_pay2 o y c p w := rfl

/-- The scene-point stream's parts are the view stream's terms. -/
theorem pay33_eq : k0_pay33 ones = k0_pay24 ones := rfl
theorem pay34_eq : k0_pay34 x Wl = k0_pay25 x Wl := rfl
theorem pay36_eq : k0_pay36 x Wl xr AE mo = k0_pay27 x Wl xr AE mo := rfl
theorem pay37_eq : k0_pay37 x Wl xr AE mo = k0_pay28 x Wl xr AE mo := rfl
theorem pay38_eq : k0_pay38 x Wl xr AE mo = k0_pay29 x Wl xr AE mo := rfl

/-! ## The view stream -/

theorem v_m (k : Fin 128) : k0_pay32 (k0_pay27 x Wl xr AE mo) (ix2 (0 : Fin 1) k) = mnew x Wl xr AE mo k := by
  rw [pay32_eq, pay27_apply]

theorem v_s (hones : ∀ r : Fin 4000, ones (ix2 (0 : Fin 1) r) = (1 : EReal)) (k : Fin 128) :
    k0_pay30 x ones Wl xr AE mo so (ix2 (0 : Fin 1) k)
      = so (ix2 (0 : Fin 1) k) * Ideal.exp (mo (ix2 (0 : Fin 1) k) - mnew x Wl xr AE mo k)
        + ∑ r : Fin 4000, Ideal.exp (lbb x Wl xr AE r k - mnew x Wl xr AE mo k) := by
  rw [pay30_eq, pay1_apply, pay28_apply]
  refine congrArg (_ + ·) (Finset.sum_congr rfl fun r _ => ?_)
  rw [pay24_eq, hones, one_mul, pay29_apply]

theorem v_w (hones : ∀ r : Fin 4000, ones (ix2 (0 : Fin 1) r) = (1 : EReal)) (k : Fin 128) :
    k0_pay31 (k0_pay24 ones) (k0_pay25 x Wl) (k0_pay28 x Wl xr AE mo) (k0_pay29 x Wl xr AE mo) wo (ix2 (0 : Fin 1) k)
      = wo (ix2 (0 : Fin 1) k) * Ideal.exp (mo (ix2 (0 : Fin 1) k) - mnew x Wl xr AE mo k)
        + ∑ r : Fin 4000, Ideal.exp (lbb x Wl xr AE r k - mnew x Wl xr AE mo k) * yb x Wl r k := by
  rw [pay31_eq, pay2_apply, pay28_apply]
  refine congrArg (_ + ·) (Finset.sum_congr rfl fun r _ => ?_)
  rw [pay24_eq, hones, one_mul, pay29_apply, pay25_apply]

/-! ## The scene-point stream -/

theorem s_m (k : Fin 128) : k0_pay3 (k0_pay36 x Wl xr AE mo) (ix2 (0 : Fin 1) k) = mnew x Wl xr AE mo k := by
  rw [pay3_eq, pay36_eq, pay27_apply]

theorem s_s (hones : ∀ r : Fin 4000, ones (ix2 (0 : Fin 1) r) = (1 : EReal)) (k : Fin 128) :
    k0_pay1 (k0_pay33 ones) (k0_pay37 x Wl xr AE mo) (k0_pay38 x Wl xr AE mo) so (ix2 (0 : Fin 1) k)
      = so (ix2 (0 : Fin 1) k) * Ideal.exp (mo (ix2 (0 : Fin 1) k) - mnew x Wl xr AE mo k)
        + ∑ r : Fin 4000, Ideal.exp (lbb x Wl xr AE r k - mnew x Wl xr AE mo k) := by
  rw [pay33_eq, pay37_eq, pay38_eq, pay1_apply, pay28_apply]
  refine congrArg (_ + ·) (Finset.sum_congr rfl fun r _ => ?_)
  rw [pay24_eq, hones, one_mul, pay29_apply]

theorem s_w (hones : ∀ r : Fin 4000, ones (ix2 (0 : Fin 1) r) = (1 : EReal)) (k : Fin 128) :
    k0_pay2 (k0_pay33 ones) (k0_pay34 x Wl) (k0_pay37 x Wl xr AE mo) (k0_pay38 x Wl xr AE mo) wo (ix2 (0 : Fin 1) k)
      = wo (ix2 (0 : Fin 1) k) * Ideal.exp (mo (ix2 (0 : Fin 1) k) - mnew x Wl xr AE mo k)
        + ∑ r : Fin 4000, Ideal.exp (lbb x Wl xr AE r k - mnew x Wl xr AE mo k) * yb x Wl r k := by
  rw [pay33_eq, pay34_eq, pay37_eq, pay38_eq, pay2_apply, pay28_apply]
  refine congrArg (_ + ·) (Finset.sum_congr rfl fun r _ => ?_)
  rw [pay24_eq, hones, one_mul, pay29_apply, pay25_apply]

end Cert.KernelIdeal.Hand

end
-- ==== Proof.KInit.lean ====
/-
  What the kernel's first grid step stores before it streams, read at an index.

  The global row is layer-normalised, rectified and projected (the specification's proj), sent through the
  right-hand map, and stored with both offsets added: xr' = (bl + proj · Wr) + br, per stream. The running maximum
  starts at −∞, the normaliser and the weighted sum at 0.
-/
import proofs.«162155_g33088428049086_cont_sun_c4_530_7_alg».proof.Proof.Gen.KernelIdeal.Skeleton
import proofs.«162155_g33088428049086_cont_sun_c4_530_7_alg».proof.Proof.Spec
import proofs.«162155_g33088428049086_cont_sun_c4_530_7_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx
open Cert.Hand.Spec

/-! ## Layout operations of a single row, read at an index -/

section Rows
variable {α : Type}

/-- A `[1, 1]` array broadcast to `[1, b]` reads, at every entry, the operand's one entry. -/
private theorem broadcastTo_11_1b_apply {b : ℕ} (v : (⟨2, ![1, 1]⟩ : Shape).Idx → α)
    (h : (⟨2, ![1, 1]⟩ : Shape).Broadcasts ⟨2, ![1, b]⟩) (p : Fin 1) (c : Fin b) :
    broadcastTo ⟨2, ![1, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The sum over the 256 lanes of a row, read at the one entry of the result. -/
private theorem laneSum_apply (v : FVec Ideal S1x256 .f32) :
    multiReduction (F := Ideal) .add [1] S1 v 0x00000000#32 Facts₀.reduces_S1x256_S1 (.inl rfl) rfl (ix1 (0 : Fin 1))
      = ∑ k : Fin 256, v (ix2 (0 : Fin 1) k) := by
  refine (Ideal.multiReduction_add_single v _ Facts₀.reduces_S1x256_S1 (.inl rfl) rfl (ix1 (0 : Fin 1))).trans ?_
  refine Finset.sum_congr rfl fun k _ => congrArg v ?_
  funext a
  match a with
  | ⟨0, _⟩ => exact Fin.ext rfl
  | ⟨1, _⟩ => exact Fin.ext rfl

end Rows

/-! ## The layer norm, the rectifier and the projection of the global row, stage by stage -/

section LayerNorm
variable (g s b : Vec Ideal S1x256 .f32)

/-- The mean of the row, a `[1, 1]` value: the lane sum divided by 256. -/
private def kMean : FVec Ideal S1x1 .f32 :=
  divf (shapeCast S1x1 (multiReduction .add [1] S1 g 0x00000000#32 Facts₀.reduces_S1x256_S1 (.inl rfl) rfl) Facts₀.shapeCasts_S1_S1x1)
    (broadcast S1x1 (Scalar.ofBits .f32 0x43800000#32 : Ideal .f32))

/-- The centred row: each entry minus the mean. -/
private def kCent : FVec Ideal S1x256 .f32 := subf g (broadcastTo S1x256 (kMean g) Facts₀.broadcasts_S1x1_S1x256)

/-- The variance, a `[1, 1]` value: the lane sum of the squared centred entries divided by 256. -/
private def kVar : FVec Ideal S1x1 .f32 :=
  divf (shapeCast S1x1 (multiReduction .add [1] S1 (mulf (kCent g) (kCent g)) 0x00000000#32 Facts₀.reduces_S1x256_S1 (.inl rfl) rfl)
      Facts₀.shapeCasts_S1_S1x1)
    (broadcast S1x1 (Scalar.ofBits .f32 0x43800000#32 : Ideal .f32))

/-- The reciprocal square root of the variance plus epsilon. -/
private def kRs : FVec Ideal S1x1 .f32 := rsqrt (addf (kVar g) (broadcast S1x1 (Scalar.ofBits .f32 0x3727C5AC#32 : Ideal .f32)))

/-- The normalised row: centred, scaled by the reciprocal deviation and by s, offset by b. -/
private def kLn : FVec Ideal S1x256 .f32 :=
  addf (mulf (mulf (kCent g) (broadcastTo S1x256 (kRs g) Facts₀.broadcasts_S1x1_S1x256)) (shapeCast S1x256 s Facts₀.shapeCasts_S1x256_S1x256))
    (shapeCast S1x256 b Facts₀.shapeCasts_S1x256_S1x256)

/-- The normalised row through the rectifier. -/
private def kRelu : FVec Ideal S1x256 .f32 := maximumf (kLn g s b) (broadcast S1x256 (Scalar.ofBits .f32 0x00000000#32 : Ideal .f32))

private theorem kMean_apply : kMean g (ix2 (0 : Fin 1) (0 : Fin 1)) = mean (fun i => g (ix2 (0 : Fin 1) i)) := by
  show Ideal.div (shapeCast S1x1 (multiReduction (F := Ideal) .add [1] S1 g 0x00000000#32 Facts₀.reduces_S1x256_S1 (.inl rfl) rfl)
      Facts₀.shapeCasts_S1_S1x1 (ix2 (0 : Fin 1) (0 : Fin 1))) (Ideal.ofBits .f32 0x43800000#32) = _
  rw [shapeCast_a_1a_apply, laneSum_apply]
  rfl

private theorem kCent_apply (k : Fin 256) :
    kCent g (ix2 (0 : Fin 1) k) = g (ix2 (0 : Fin 1) k) - mean (fun i => g (ix2 (0 : Fin 1) i)) := by
  show g (ix2 (0 : Fin 1) k) - broadcastTo S1x256 (kMean g) Facts₀.broadcasts_S1x1_S1x256 (ix2 (0 : Fin 1) k) = _
  rw [broadcastTo_11_1b_apply, kMean_apply]

private theorem kVar_apply : kVar g (ix2 (0 : Fin 1) (0 : Fin 1)) = var (fun i => g (ix2 (0 : Fin 1) i)) := by
  show Ideal.div (shapeCast S1x1 (multiReduction (F := Ideal) .add [1] S1 (mulf (kCent g) (kCent g)) 0x00000000#32
      Facts₀.reduces_S1x256_S1 (.inl rfl) rfl) Facts₀.shapeCasts_S1_S1x1 (ix2 (0 : Fin 1) (0 : Fin 1))) (Ideal.ofBits .f32 0x43800000#32) = _
  rw [shapeCast_a_1a_apply, laneSum_apply]
  refine congrArg (fun t => Ideal.div t c256) (Finset.sum_congr rfl fun k _ => ?_)
  show kCent g (ix2 (0 : Fin 1) k) * kCent g (ix2 (0 : Fin 1) k) = _
  rw [kCent_apply]

private theorem kRs_apply :
    kRs g (ix2 (0 : Fin 1) (0 : Fin 1)) = Ideal.rsqrt (var (fun i => g (ix2 (0 : Fin 1) i)) + ceps) := by
  show Ideal.rsqrt (kVar g (ix2 (0 : Fin 1) (0 : Fin 1)) + Ideal.ofBits .f32 0x3727C5AC#32) = _
  rw [kVar_apply]
  rfl

private theorem kLn_apply (k : Fin 256) :
    kLn g s b (ix2 (0 : Fin 1) k)
      = lnorm (fun i => g (ix2 (0 : Fin 1) i)) (fun i => s (ix2 (0 : Fin 1) i)) (fun i => b (ix2 (0 : Fin 1) i)) k := by
  show kCent g (ix2 (0 : Fin 1) k) * broadcastTo S1x256 (kRs g) Facts₀.broadcasts_S1x1_S1x256 (ix2 (0 : Fin 1) k)
      * shapeCast S1x256 s Facts₀.shapeCasts_S1x256_S1x256 (ix2 (0 : Fin 1) k)
      + shapeCast S1x256 b Facts₀.shapeCasts_S1x256_S1x256 (ix2 (0 : Fin 1) k) = _
  rw [shapeCast_self, shapeCast_self, broadcastTo_11_1b_apply, kRs_apply, kCent_apply]
  rfl

private theorem kRelu_apply (k : Fin 256) :
    kRelu g s b (ix2 (0 : Fin 1) k)
      = lnRelu (fun i => g (ix2 (0 : Fin 1) i)) (fun i => s (ix2 (0 : Fin 1) i)) (fun i => b (ix2 (0 : Fin 1) i)) k := by
  show max (kLn g s b (ix2 (0 : Fin 1) k)) (Ideal.ofBits .f32 0x00000000#32) = _
  rw [kLn_apply, Ideal.ofBits_zero_f32]
  rfl

end LayerNorm

variable (g lnS lnB : Vec Ideal S1x256 .f32) (Wg : Vec Ideal S256x128 .f32) (bg bl br : Vec Ideal S1x128 .f32)
  (Wr : Vec Ideal S128x128 .f32)

/-- The projected row is the rectified normalised row through the 256 × 128 matrix, plus the offset. -/
private theorem k0_pay8_eq :
    k0_pay8 g lnS lnB Wg bg
      = addf (matmul (φ₂ := .f32) dot_S1x256_S256x128_S1x128_1_0_0_1_n_n none (kRelu g lnS lnB) Wg (constant S1x128 .f32 0x00000000#32))
          (shapeCast S1x128 bg Facts₀.shapeCasts_S1x128_S1x128) := rfl

/-- The view stream's product is the projected row through the right-hand matrix. -/
private theorem k0_pay6_eq :
    k0_pay6 g lnS lnB Wg bg Wr
      = matmul (φ₂ := .f32) dot_S1x128_S128x128_S1x128_1_0_0_1_n_n none (k0_pay8 g lnS lnB Wg bg) Wr (constant S1x128 .f32 0x00000000#32) := rfl

/-- The `[1, 128]` row before the right-hand map is the specification's projection. -/
theorem ln_proj (j : Fin 128) :
    k0_pay8 g lnS lnB Wg bg (ix2 (0 : Fin 1) j)
      = proj (fun i => g (ix2 (0 : Fin 1) i)) (fun i => lnS (ix2 (0 : Fin 1) i)) (fun i => lnB (ix2 (0 : Fin 1) i)) (fun i j => Wg (ix2 i j)) (fun i => bg (ix2 (0 : Fin 1) i)) j := by
  have hp : PlainDot.IsPlain dot_S1x256_S256x128_S1x128_1_0_0_1_n_n := ⟨rfl, rfl, rfl, rfl, rfl, rfl⟩
  rw [k0_pay8_eq]
  show matmul (φ₂ := .f32) dot_S1x256_S256x128_S1x128_1_0_0_1_n_n none (kRelu g lnS lnB) Wg (constant S1x128 .f32 0x00000000#32) (ix2 (0 : Fin 1) j)
      + shapeCast S1x128 bg Facts₀.shapeCasts_S1x128_S1x128 (ix2 (0 : Fin 1) j) = _
  rw [shapeCast_self]
  refine congrArg (· + bg (ix2 (0 : Fin 1) j)) ((hp.matmul_zero_apply none (kRelu g lnS lnB) Wg 0 j).trans ?_)
  refine Finset.sum_congr rfl fun k _ => ?_
  rw [kRelu_apply]

/-- The view stream's stored target term. -/
theorem init_xr_v (k : Fin 128) :
    k0_pay7 (k0_pay5 bl) (k0_pay6 g lnS lnB Wg bg Wr) br (ix2 (0 : Fin 1) k)
      = (bl (ix2 (0 : Fin 1) k)
          + ∑ j : Fin 128, proj (fun i => g (ix2 (0 : Fin 1) i)) (fun i => lnS (ix2 (0 : Fin 1) i)) (fun i => lnB (ix2 (0 : Fin 1) i)) (fun i j => Wg (ix2 i j)) (fun i => bg (ix2 (0 : Fin 1) i)) j * Wr (ix2 j k))
        + br (ix2 (0 : Fin 1) k) := by
  have hp : PlainDot.IsPlain dot_S1x128_S128x128_S1x128_1_0_0_1_n_n := ⟨rfl, rfl, rfl, rfl, rfl, rfl⟩
  show shapeCast S1x128 (addf (addf (shapeCast S1x128 bl Facts₀.shapeCasts_S1x128_S1x128) (k0_pay6 g lnS lnB Wg bg Wr))
      (shapeCast S1x128 br Facts₀.shapeCasts_S1x128_S1x128)) Facts₀.shapeCasts_S1x128_S1x128 (ix2 (0 : Fin 1) k) = _
  rw [shapeCast_self]
  show shapeCast S1x128 bl Facts₀.shapeCasts_S1x128_S1x128 (ix2 (0 : Fin 1) k) + k0_pay6 g lnS lnB Wg bg Wr (ix2 (0 : Fin 1) k)
      + shapeCast S1x128 br Facts₀.shapeCasts_S1x128_S1x128 (ix2 (0 : Fin 1) k) = _
  rw [shapeCast_self, shapeCast_self, k0_pay6_eq]
  refine congrArg (· + br (ix2 (0 : Fin 1) k)) (congrArg (bl (ix2 (0 : Fin 1) k) + ·)
    ((hp.matmul_zero_apply none (k0_pay8 g lnS lnB Wg bg) Wr 0 k).trans ?_))
  refine Finset.sum_congr rfl fun j _ => ?_
  rw [ln_proj]

/-- The scene-point stream's stored target term. -/
theorem init_xr_s (k : Fin 128) :
    k0_pay9 (k0_pay8 g lnS lnB Wg bg) bl Wr br (ix2 (0 : Fin 1) k)
      = (bl (ix2 (0 : Fin 1) k)
          + ∑ j : Fin 128, proj (fun i => g (ix2 (0 : Fin 1) i)) (fun i => lnS (ix2 (0 : Fin 1) i)) (fun i => lnB (ix2 (0 : Fin 1) i)) (fun i j => Wg (ix2 i j)) (fun i => bg (ix2 (0 : Fin 1) i)) j * Wr (ix2 j k))
        + br (ix2 (0 : Fin 1) k) := by
  have hp : PlainDot.IsPlain dot_S1x128_S128x128_S1x128_1_0_0_1_n_n := ⟨rfl, rfl, rfl, rfl, rfl, rfl⟩
  show shapeCast S1x128 (addf (addf (shapeCast S1x128 bl Facts₀.shapeCasts_S1x128_S1x128)
        (matmul (φ₂ := .f32) dot_S1x128_S128x128_S1x128_1_0_0_1_n_n none (k0_pay8 g lnS lnB Wg bg) Wr (constant S1x128 .f32 0x00000000#32)))
      (shapeCast S1x128 br Facts₀.shapeCasts_S1x128_S1x128)) Facts₀.shapeCasts_S1x128_S1x128 (ix2 (0 : Fin 1) k) = _
  rw [shapeCast_self]
  show shapeCast S1x128 bl Facts₀.shapeCasts_S1x128_S1x128 (ix2 (0 : Fin 1) k)
      + matmul (φ₂ := .f32) dot_S1x128_S128x128_S1x128_1_0_0_1_n_n none (k0_pay8 g lnS lnB Wg bg) Wr (constant S1x128 .f32 0x00000000#32) (ix2 (0 : Fin 1) k)
      + shapeCast S1x128 br Facts₀.shapeCasts_S1x128_S1x128 (ix2 (0 : Fin 1) k) = _
  rw [shapeCast_self, shapeCast_self]
  refine congrArg (· + br (ix2 (0 : Fin 1) k)) (congrArg (bl (ix2 (0 : Fin 1) k) + ·)
    ((hp.matmul_zero_apply none (k0_pay8 g lnS lnB Wg bg) Wr 0 k).trans ?_))
  refine Finset.sum_congr rfl fun j _ => ?_
  rw [ln_proj]

theorem init_m_v (k : Fin 128) : k0_pay11 (F := Ideal) (ix2 (0 : Fin 1) k) = (⊥ : EReal) := by
  show shapeCast S1x128 (k0_pay10 (F := Ideal)) Facts₀.shapeCasts_S1x128_S1x128 (ix2 (0 : Fin 1) k) = ⊥
  rw [shapeCast_self]
  show Ideal.ofBits .f32 0xFF800000#32 = ⊥
  simp [Ideal.ofBits, Ideal.ieee]
theorem init_m_s (k : Fin 128) : k0_pay12 (F := Ideal) (ix2 (0 : Fin 1) k) = (⊥ : EReal) := by
  show shapeCast S1x128 (k0_pay10 (F := Ideal)) Facts₀.shapeCasts_S1x128_S1x128 (ix2 (0 : Fin 1) k) = ⊥
  rw [shapeCast_self]
  show Ideal.ofBits .f32 0xFF800000#32 = ⊥
  simp [Ideal.ofBits, Ideal.ieee]
theorem init_s_v (k : Fin 128) : k0_pay14 (F := Ideal) (ix2 (0 : Fin 1) k) = (0 : EReal) := by
  show shapeCast S1x128 (k0_pay13 (F := Ideal)) Facts₀.shapeCasts_S1x128_S1x128 (ix2 (0 : Fin 1) k) = 0
  rw [shapeCast_self]
  exact Ideal.ofBits_zero_f32
theorem init_s_s (k : Fin 128) : k0_pay15 (F := Ideal) (ix2 (0 : Fin 1) k) = (0 : EReal) := by
  show shapeCast S1x128 (k0_pay13 (F := Ideal)) Facts₀.shapeCasts_S1x128_S1x128 (ix2 (0 : Fin 1) k) = 0
  rw [shapeCast_self]
  exact Ideal.ofBits_zero_f32
theorem init_w_v (k : Fin 128) : k0_pay16 (F := Ideal) (ix2 (0 : Fin 1) k) = (0 : EReal) := by
  show shapeCast S1x128 (k0_pay13 (F := Ideal)) Facts₀.shapeCasts_S1x128_S1x128 (ix2 (0 : Fin 1) k) = 0
  rw [shapeCast_self]
  exact Ideal.ofBits_zero_f32
theorem init_w_s (k : Fin 128) : k0_pay17 (F := Ideal) (ix2 (0 : Fin 1) k) = (0 : EReal) := by
  show shapeCast S1x128 (k0_pay13 (F := Ideal)) Facts₀.shapeCasts_S1x128_S1x128 (ix2 (0 : Fin 1) k) = 0
  rw [shapeCast_self]
  exact Ideal.ofBits_zero_f32

end Cert.KernelIdeal.Hand

end
-- ==== Proof.KFin.lean ====
/-
  What the kernel's last grid step writes to the result row, read at an index.

  Each stream's weighted sum is divided by its normaliser and the combined offset added; the two rows are laid side
  by side and added to the global row (x); x is layer-normalised, rectified, sent through the last linear map, and
  added back to x.
-/
import proofs.«162155_g33088428049086_cont_sun_c4_530_7_alg».proof.Proof.Gen.KernelIdeal.Skeleton
import proofs.«162155_g33088428049086_cont_sun_c4_530_7_alg».proof.Proof.Spec
import proofs.«162155_g33088428049086_cont_sun_c4_530_7_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx
open Cert.Hand.Spec

/-! ## Two rows of 128 laid side by side, read at an entry -/

/-- An entry below 128 of the side-by-side row is the first row's entry. -/
theorem cat_left (a b : FVec Ideal S1x128 .f32) (j : Fin 256) (h : j.val < 128) :
    concatenate S1x256 1 [⟨S1x128, a⟩, ⟨S1x128, b⟩] concatenates_S1x128_S1x128_S1x256_d1 (ix2 (0 : Fin 1) j)
      = a (ix2 (0 : Fin 1) (⟨j.val, h⟩ : Fin 128)) :=
  concatenate_pair_apply_left (t := S1x256) (s₁ := S1x128) (s₂ := S1x128) 1 a b
    concatenates_S1x128_S1x128_S1x256_d1 (ix2 (0 : Fin 1) j) rfl (ix2 (0 : Fin 1) (⟨j.val, h⟩ : Fin 128)) (fun c => by
    match c with
    | ⟨0, _⟩ => rfl
    | ⟨1, _⟩ => rfl)

/-- An entry from 128 on of the side-by-side row is the second row's entry 128 places earlier. -/
theorem cat_right (a b : FVec Ideal S1x128 .f32) (j : Fin 256) (h : ¬ j.val < 128) :
    concatenate S1x256 1 [⟨S1x128, a⟩, ⟨S1x128, b⟩] concatenates_S1x128_S1x128_S1x256_d1 (ix2 (0 : Fin 1) j)
      = b (ix2 (0 : Fin 1) (⟨j.val - 128, by omega⟩ : Fin 128)) :=
  concatenate_pair_apply_right (t := S1x256) (s₁ := S1x128) (s₂ := S1x128) 1 a b
    concatenates_S1x128_S1x128_S1x256_d1 (ix2 (0 : Fin 1) j) rfl rfl (ix2 (0 : Fin 1) (⟨j.val - 128, by omega⟩ : Fin 128))
    (fun c hc => by
      match c with
      | ⟨0, _⟩ => rfl
      | ⟨1, _⟩ => exact absurd rfl hc)
    (by show j.val - 128 + 128 = j.val; omega)

/-! ## A row of 256 summed along its lanes, and one number spread along a row -/

/-- The lane sum of a row of 256, kept as a 1 × 1 array, is the sum of the row's 256 entries. -/
theorem rowSum_apply (x : FVec Ideal S1x256 .f32) :
    shapeCast S1x1 (multiReduction (F := Ideal) .add [1] S1 x 0x00000000#32 reduces_S1x256_S1 (.inl rfl) rfl)
        shapeCasts_S1_S1x1 (ix2 (0 : Fin 1) (0 : Fin 1))
      = ∑ k : Fin 256, x (ix2 (0 : Fin 1) k) := by
  rw [shapeCast_a_1a_apply]
  refine (Ideal.multiReduction_add_single x 0x00000000#32 reduces_S1x256_S1 (.inl rfl) rfl (ix1 (0 : Fin 1))).trans ?_
  refine Finset.sum_congr rfl fun k _ => ?_
  refine congrArg x (funext fun c => Fin.ext ?_)
  match c with
  | ⟨0, _⟩ => rfl
  | ⟨1, _⟩ => rfl

/-- A 1 × 1 array spread along a row of 256 reads its one entry everywhere. -/
theorem spread_apply (v : FVec Ideal S1x1 .f32) (k : Fin 256) :
    broadcastTo S1x256 v broadcasts_S1x1_S1x256 (ix2 (0 : Fin 1) k) = v (ix2 (0 : Fin 1) (0 : Fin 1)) := by
  refine broadcastTo_apply v broadcasts_S1x1_S1x256 (ix2 (0 : Fin 1) k) (ix2 (0 : Fin 1) (0 : Fin 1)) fun c => ?_
  match c with
  | ⟨0, _⟩ => rfl
  | ⟨1, _⟩ => rfl

variable (wv sv bbv ws ss bbs : Vec Ideal S1x128 .f32) (g lnS lnB bm : Vec Ideal S1x256 .f32) (Wm : Vec Ideal S256x256 .f32)

/-- The updated global row: g plus the two normalised aggregates side by side. -/
def xfin (j : Fin 256) : EReal :=
  g (ix2 (0 : Fin 1) j)
    + (if h : j.val < 128 then
        Ideal.div (wv (ix2 (0 : Fin 1) (⟨j.val, h⟩ : Fin 128))) (sv (ix2 (0 : Fin 1) (⟨j.val, h⟩ : Fin 128))) + bbv (ix2 (0 : Fin 1) (⟨j.val, h⟩ : Fin 128))
       else
        Ideal.div (ws (ix2 (0 : Fin 1) (⟨j.val - 128, by omega⟩ : Fin 128))) (ss (ix2 (0 : Fin 1) (⟨j.val - 128, by omega⟩ : Fin 128)))
          + bbs (ix2 (0 : Fin 1) (⟨j.val - 128, by omega⟩ : Fin 128)))

theorem fin_x (j : Fin 256) : k0_pay18 wv sv bbv ws ss bbs g (ix2 (0 : Fin 1) j) = xfin wv sv bbv ws ss bbs g j := by
  unfold xfin
  show g (ix2 (0 : Fin 1) j)
      + concatenate S1x256 1
          [⟨S1x128, (addf (divf wv sv) (shapeCast S1x128 bbv shapeCasts_S1x128_S1x128) : FVec Ideal S1x128 .f32)⟩,
           ⟨S1x128, (addf (divf ws ss) (shapeCast S1x128 bbs shapeCasts_S1x128_S1x128) : FVec Ideal S1x128 .f32)⟩]
          concatenates_S1x128_S1x128_S1x256_d1 (ix2 (0 : Fin 1) j) = _
  congr 1
  by_cases h : j.val < 128
  · rw [dif_pos h, cat_left _ _ j h, shapeCast_self]; rfl
  · rw [dif_neg h, cat_right _ _ j h, shapeCast_self]; rfl

/-! ## The layer norm's pieces -/

/-- The row's mean. -/
theorem fin_mean : k0_pay21 wv sv bbv ws ss bbs g (ix2 (0 : Fin 1) (0 : Fin 1)) = mean (xfin wv sv bbv ws ss bbs g) := by
  show Ideal.div (shapeCast S1x1 (multiReduction (F := Ideal) .add [1] S1 (k0_pay18 wv sv bbv ws ss bbs g) 0x00000000#32
      reduces_S1x256_S1 (.inl rfl) rfl) shapeCasts_S1_S1x1 (ix2 (0 : Fin 1) (0 : Fin 1))) c256 = _
  rw [rowSum_apply]
  unfold mean
  refine congrArg (fun t => Ideal.div t c256) ?_
  exact Finset.sum_congr rfl fun k _ => fin_x wv sv bbv ws ss bbs g k

/-- The centred row. -/
theorem fin_centred (k : Fin 256) :
    k0_pay22 wv sv bbv ws ss bbs g (ix2 (0 : Fin 1) k)
      = xfin wv sv bbv ws ss bbs g k - mean (xfin wv sv bbv ws ss bbs g) := by
  show k0_pay18 wv sv bbv ws ss bbs g (ix2 (0 : Fin 1) k)
      - broadcastTo S1x256 (k0_pay21 wv sv bbv ws ss bbs g) broadcasts_S1x1_S1x256 (ix2 (0 : Fin 1) k) = _
  rw [spread_apply, fin_mean, fin_x]

/-- The reciprocal square root of the variance plus epsilon. -/
theorem fin_rstd :
    k0_pay23 wv sv bbv ws ss bbs g (ix2 (0 : Fin 1) (0 : Fin 1))
      = Ideal.rsqrt (var (xfin wv sv bbv ws ss bbs g) + ceps) := by
  show Ideal.rsqrt (Ideal.div (shapeCast S1x1 (multiReduction (F := Ideal) .add [1] S1
      (mulf (k0_pay22 wv sv bbv ws ss bbs g) (k0_pay22 wv sv bbv ws ss bbs g)) 0x00000000#32
      reduces_S1x256_S1 (.inl rfl) rfl) shapeCasts_S1_S1x1 (ix2 (0 : Fin 1) (0 : Fin 1))) c256 + ceps) = _
  rw [rowSum_apply]
  unfold var
  refine congrArg (fun t => Ideal.rsqrt (Ideal.div t c256 + ceps)) ?_
  refine Finset.sum_congr rfl fun k _ => ?_
  show k0_pay22 wv sv bbv ws ss bbs g (ix2 (0 : Fin 1) k) * k0_pay22 wv sv bbv ws ss bbs g (ix2 (0 : Fin 1) k) = _
  rw [fin_centred]

/-- The normalised, scaled, shifted and rectified row that the last product reads. -/
def hrow : FVec Ideal S1x256 .f32 :=
  maximumf
    (addf
      (mulf
        (mulf (k0_pay22 wv sv bbv ws ss bbs g)
          (broadcastTo S1x256 (k0_pay23 wv sv bbv ws ss bbs g) broadcasts_S1x1_S1x256))
        (k0_pay19 lnS))
      (k0_pay20 lnB))
    (broadcast S1x256 (Scalar.ofBits (F := Ideal) .f32 0x00000000#32))

theorem hrow_apply (k : Fin 256) :
    hrow wv sv bbv ws ss bbs g lnS lnB (ix2 (0 : Fin 1) k)
      = lnRelu (xfin wv sv bbv ws ss bbs g) (fun i => lnS (ix2 (0 : Fin 1) i)) (fun i => lnB (ix2 (0 : Fin 1) i)) k := by
  show max (k0_pay22 wv sv bbv ws ss bbs g (ix2 (0 : Fin 1) k)
        * broadcastTo S1x256 (k0_pay23 wv sv bbv ws ss bbs g) broadcasts_S1x1_S1x256 (ix2 (0 : Fin 1) k)
        * shapeCast S1x256 lnS shapeCasts_S1x256_S1x256 (ix2 (0 : Fin 1) k)
        + shapeCast S1x256 lnB shapeCasts_S1x256_S1x256 (ix2 (0 : Fin 1) k))
      (Ideal.ofBits .f32 0x00000000#32) = _
  rw [spread_apply, fin_rstd, fin_centred, shapeCast_self, shapeCast_self, Ideal.ofBits_zero_f32]
  rfl

/-- The stored result row. -/
theorem fin_out (j : Fin 256) :
    k0_pay4 (k0_pay18 wv sv bbv ws ss bbs g) (k0_pay19 lnS) (k0_pay20 lnB) (k0_pay22 wv sv bbv ws ss bbs g)
        (k0_pay23 wv sv bbv ws ss bbs g) Wm bm (ix2 (0 : Fin 1) j)
      = xfin wv sv bbv ws ss bbs g j
        + proj (xfin wv sv bbv ws ss bbs g) (fun i => lnS (ix2 (0 : Fin 1) i)) (fun i => lnB (ix2 (0 : Fin 1) i)) (fun i j => Wm (ix2 i j)) (fun i => bm (ix2 (0 : Fin 1) i)) j := by
  have e : k0_pay4 (k0_pay18 wv sv bbv ws ss bbs g) (k0_pay19 lnS) (k0_pay20 lnB) (k0_pay22 wv sv bbv ws ss bbs g)
        (k0_pay23 wv sv bbv ws ss bbs g) Wm bm (ix2 (0 : Fin 1) j)
      = k0_pay18 wv sv bbv ws ss bbs g (ix2 (0 : Fin 1) j)
        + (FloatOps.matmul dot_S1x256_S256x256_S1x256_1_0_0_1_n_n none (hrow wv sv bbv ws ss bbs g lnS lnB) Wm
              (constant S1x256 .f32 0x00000000#32) (ix2 (0 : Fin 1) j)
            + shapeCast S1x256 bm shapeCasts_S1x256_S1x256 (ix2 (0 : Fin 1) j)) := rfl
  rw [e, fin_x, shapeCast_self]
  unfold proj
  refine congrArg (fun t => xfin wv sv bbv ws ss bbs g j + (t + bm (ix2 (0 : Fin 1) j))) ?_
  have hp : PlainDot.IsPlain dot_S1x256_S256x256_S1x256_1_0_0_1_n_n := ⟨rfl, rfl, rfl, rfl, rfl, rfl⟩
  refine (hp.matmul_zero_apply none (hrow wv sv bbv ws ss bbs g lnS lnB) Wm (0 : Fin 1) j).trans ?_
  refine Finset.sum_congr rfl fun k _ => ?_
  rw [hrow_apply]

end Cert.KernelIdeal.Hand

end
-- ==== Proof.LibReal.lean ====
/-
  Real-valuedness of everything the two programs compute, and three small identities.

  The inputs are real numbers (the precondition). Sums, differences, products and maxima of reals are real; a quotient
  by 256 is real; the exponential of a real is real; the reciprocal square root of (variance + ε) is real because a
  variance is nonnegative and ε is positive. So every intermediate value of the specification is a real number.
  The identities: the shared literals' values (256; ε > 0; the slope strictly between 0 and 1; 1; −∞); for a real z
  and a slope a in (0, 1), max z (a·z) is z where z ≥ 0 and a·z elsewhere (the leaky rectifier written as a maximum);
  and a sum over the 128 flat channels against the block-diagonal head mask is the sum over the sixteen channels of
  one head.
-/
import proofs.«162155_g33088428049086_cont_sun_c4_530_7_alg».proof.Proof.Spec

noncomputable section

namespace Cert.Hand.Spec

open Idealize.ShloMosaic

/-! ## The literals -/

theorem c256_eq : c256 = ((256 : ℝ) : EReal) := by
  simp [c256, Ideal.ofBits, Ideal.ieee, -EReal.coe_mul]; norm_num
theorem ceps_pos : ∃ e : ℝ, 0 < e ∧ ceps = (e : EReal) := by
  have h : ceps = ((10995116 / 2 ^ 40 : ℝ) : EReal) := by
    simp [ceps, Ideal.ofBits, Ideal.ieee, -EReal.coe_mul]; norm_num
  exact ⟨_, by norm_num, h⟩
theorem cslope_mem : ∃ a : ℝ, 0 < a ∧ a < 1 ∧ cslope = (a : EReal) := by
  have h : cslope = ((13421773 / 2 ^ 26 : ℝ) : EReal) := by
    simp [cslope, Ideal.ofBits, Ideal.ieee, -EReal.coe_mul]; norm_num
  exact ⟨_, by norm_num, by norm_num, h⟩
theorem ofBits_one_f32 : Ideal.ofBits .f32 0x3F800000#32 = (1 : EReal) := by
  simp [Ideal.ofBits, Ideal.ieee, -EReal.coe_mul]; norm_num
theorem ofBits_neg_inf_f32 : Ideal.ofBits .f32 0xFF800000#32 = (⊥ : EReal) := by
  simp [Ideal.ofBits, Ideal.ieee]

/-! ## Real numbers are closed under the operations -/

theorem IsReal.coe (r : ℝ) : IsReal (r : EReal) := ⟨r, rfl⟩
theorem IsReal.zero : IsReal (0 : EReal) := by
  exact ⟨0, EReal.coe_zero.symm⟩
theorem IsReal.one : IsReal (1 : EReal) := by
  exact ⟨1, EReal.coe_one.symm⟩
theorem IsReal.add {x y : EReal} (hx : IsReal x) (hy : IsReal y) : IsReal (x + y) := by
  obtain ⟨a, rfl⟩ := hx
  obtain ⟨b, rfl⟩ := hy
  exact ⟨a + b, EReal.coe_add a b⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  obtain ⟨a, rfl⟩ := hx
  obtain ⟨b, rfl⟩ := hy
  exact ⟨Max.max a b, (EReal.coe_strictMono.monotone.map_max).symm⟩
theorem IsReal.sum {ι : Type} [Fintype ι] (f : ι → EReal) (h : ∀ i, IsReal (f i)) : IsReal (∑ i, f i) := by
  classical
  have hs : ∀ s : Finset ι, IsReal (∑ i ∈ s, f i) := by
    intro s
    induction s using Finset.induction_on with
    | empty => rw [Finset.sum_empty]; exact IsReal.zero
    | insert a s ha ih => rw [Finset.sum_insert ha]; exact (h a).add ih
  exact hs _
theorem IsReal.div_c256 {x : EReal} (hx : IsReal x) : IsReal (Ideal.div x c256) := by
  obtain ⟨a, rfl⟩ := hx
  rw [c256_eq, Ideal.div_coe (by norm_num : (256 : ℝ) ≠ 0), ← EReal.coe_mul]
  exact ⟨_, rfl⟩
theorem IsReal.exp {x : EReal} (hx : IsReal x) : IsReal (Ideal.exp x) := by
  obtain ⟨a, rfl⟩ := hx
  exact ⟨Real.exp a, rfl⟩
theorem IsReal.ne_bot {x : EReal} (hx : IsReal x) : x ≠ ⊥ := by
  obtain ⟨a, rfl⟩ := hx
  exact EReal.coe_ne_bot a
theorem IsReal.ne_top {x : EReal} (hx : IsReal x) : x ≠ ⊤ := by
  obtain ⟨a, rfl⟩ := hx
  exact EReal.coe_ne_top a
/-- A sum of squares over 256, nonnegative. -/
theorem var_nonneg (x : Fin 256 → EReal) (hx : ∀ k, IsReal (x k)) : 0 ≤ var x := by
  obtain ⟨m, hm⟩ : IsReal (Spec.mean x) := IsReal.div_c256 (IsReal.sum x hx)
  have hterm : ∀ k, ∃ r : ℝ, 0 ≤ r ∧ (x k - Spec.mean x) * (x k - Spec.mean x) = (r : EReal) := by
    intro k
    obtain ⟨a, ha⟩ := hx k
    refine ⟨(a - m) * (a - m), mul_self_nonneg _, ?_⟩
    rw [ha, hm, ← EReal.coe_sub, ← EReal.coe_mul]
  have hS0 : 0 ≤ ∑ k, (x k - Spec.mean x) * (x k - Spec.mean x) := by
    apply Finset.sum_nonneg
    intro k _
    obtain ⟨r, hr, he⟩ := hterm k
    rw [he]; exact EReal.coe_nonneg.mpr hr
  obtain ⟨s, hs⟩ : IsReal (∑ k, (x k - Spec.mean x) * (x k - Spec.mean x)) :=
    IsReal.sum _ (fun k => by obtain ⟨r, _, he⟩ := hterm k; exact ⟨r, he⟩)
  unfold Spec.var
  rw [hs] at hS0 ⊢
  rw [c256_eq, Ideal.div_coe (by norm_num : (256 : ℝ) ≠ 0), ← EReal.coe_mul]
  have hs0 : 0 ≤ s := EReal.coe_nonneg.mp hS0
  exact EReal.coe_nonneg.mpr (by positivity)
theorem IsReal.rsqrt_add_eps {v : EReal} (hv : IsReal v) (h0 : 0 ≤ v) : IsReal (Ideal.rsqrt (v + ceps)) := by
  obtain ⟨a, rfl⟩ := hv
  obtain ⟨e, he0, he⟩ := ceps_pos
  have ha : 0 ≤ a := EReal.coe_nonneg.mp h0
  rw [he, ← EReal.coe_add, Ideal.rsqrt_coe, if_neg (not_lt.mpr (by linarith)), if_neg (by linarith : ¬ a + e = 0)]
  exact ⟨_, rfl⟩
theorem IsReal.leaky {z : EReal} (hz : IsReal z) : IsReal (leaky z) := by
  obtain ⟨a, _, _, ha⟩ := cslope_mem
  unfold Spec.leaky
  split_ifs
  · exact hz
  · rw [ha]; exact (IsReal.coe a).mul hz
/-- The largest of finitely many (at least one) reals, taken from −∞, is one of them. -/
theorem IsReal.fold_max {ι : Type} [Fintype ι] [Nonempty ι] (f : ι → EReal) (h : ∀ i, IsReal (f i)) :
    IsReal ((Finset.univ : Finset ι).fold Max.max ⊥ f) := by
  have hsup : (Finset.univ : Finset ι).fold Max.max ⊥ f = (Finset.univ : Finset ι).sup f := rfl
  obtain ⟨i, _, hi⟩ := Finset.exists_mem_eq_sup (Finset.univ : Finset ι) Finset.univ_nonempty f
  rw [hsup, hi]
  exact h i

/-! ## The specification's values are real -/

theorem IsReal.mean (x : Fin 256 → EReal) (hx : ∀ k, IsReal (x k)) : IsReal (mean x) := by
  exact IsReal.div_c256 (IsReal.sum x hx)
theorem IsReal.var (x : Fin 256 → EReal) (hx : ∀ k, IsReal (x k)) : IsReal (var x) := by
  have hm : IsReal (Spec.mean x) := IsReal.mean x hx
  exact IsReal.div_c256 (IsReal.sum _ (fun k => ((hx k).sub hm).mul ((hx k).sub hm)))
theorem IsReal.lnorm (x s b : Fin 256 → EReal) (hx : ∀ k, IsReal (x k)) (hs : ∀ k, IsReal (s k)) (hb : ∀ k, IsReal (b k))
    (k : Fin 256) : IsReal (lnorm x s b k) := by
  exact ((((hx k).sub (IsReal.mean x hx)).mul
    (IsReal.rsqrt_add_eps (IsReal.var x hx) (var_nonneg x hx))).mul (hs k)).add (hb k)
theorem IsReal.lnRelu (x s b : Fin 256 → EReal) (hx : ∀ k, IsReal (x k)) (hs : ∀ k, IsReal (s k)) (hb : ∀ k, IsReal (b k))
    (k : Fin 256) : IsReal (lnRelu x s b k) := by
  exact IsReal.max (IsReal.lnorm x s b hx hs hb k) IsReal.zero
theorem IsReal.proj {n : ℕ} (x s b : Fin 256 → EReal) (W : Fin 256 → Fin n → EReal) (bw : Fin n → EReal)
    (hx : ∀ k, IsReal (x k)) (hs : ∀ k, IsReal (s k)) (hb : ∀ k, IsReal (b k)) (hW : ∀ k j, IsReal (W k j))
    (hbw : ∀ j, IsReal (bw j)) (j : Fin n) : IsReal (proj x s b W bw j) := by
  exact (IsReal.sum _ (fun k => (IsReal.lnRelu x s b hx hs hb k).mul (hW k j))).add (hbw j)
theorem IsReal.lin (x : Fin 128 → EReal) (W : Fin 128 → Fin 128 → EReal) (bw : Fin 128 → EReal)
    (hx : ∀ k, IsReal (x k)) (hW : ∀ k j, IsReal (W k j)) (hbw : ∀ j, IsReal (bw j)) (j : Fin 128) :
    IsReal (lin x W bw j) := by
  exact (IsReal.sum _ (fun k => (hx k).mul (hW k j))).add (hbw j)
theorem Gat.Real.isReal_xl {P : Gat} (hP : P.Real) (n : Fin 100000) (j : Fin 128) : IsReal (P.xl n j) := by
  exact (IsReal.sum _ (fun k => (hP.X n k).mul (hP.Wl k j))).add (hP.bl j)
/-- The rows through the left-hand map WITHOUT its offset are real too. -/
theorem Gat.Real.isReal_rowDot {P : Gat} (hP : P.Real) (n : Fin 100000) (j : Fin 128) :
    IsReal (∑ k, P.X n k * P.Wl k j) := by
  exact IsReal.sum _ (fun k => (hP.X n k).mul (hP.Wl k j))
theorem Gat.Real.isReal_xt {P : Gat} (hP : P.Real) (g : Fin 256 → EReal) (hg : ∀ k, IsReal (g k)) (j : Fin 128) :
    IsReal (P.xt g j) := by
  exact IsReal.proj g P.lnS P.lnB P.Wg P.bg hg hP.lnS hP.lnB hP.Wg hP.bg j
theorem Gat.Real.isReal_xr {P : Gat} (hP : P.Real) (g : Fin 256 → EReal) (hg : ∀ k, IsReal (g k)) (j : Fin 128) :
    IsReal (P.xr g j) := by
  exact IsReal.lin (P.xt g) P.Wr P.br (hP.isReal_xt g hg) hP.Wr hP.br j
theorem Gat.Real.isReal_lg {P : Gat} (hP : P.Real) (g : Fin 256 → EReal) (hg : ∀ k, IsReal (g k))
    (n : Fin 100000) (h : Fin 8) : IsReal (P.lg g n h) := by
  exact IsReal.sum _ (fun c =>
    (IsReal.leaky ((hP.isReal_xl n (hc h c)).add (hP.isReal_xr g hg (hc h c)))).mul (hP.att h c))

/-! ## The leaky rectifier as a maximum -/

theorem leaky_eq_max (z : EReal) (hz : IsReal z) : max z (cslope * z) = leaky z := by
  obtain ⟨r, rfl⟩ := hz
  obtain ⟨a, ha0, ha1, ha⟩ := cslope_mem
  unfold leaky
  rw [ha, ← EReal.coe_mul]
  by_cases h : 0 ≤ r
  · rw [if_pos (EReal.coe_nonneg.mpr h)]
    exact max_eq_left (EReal.coe_le_coe_iff.mpr (by nlinarith [mul_nonneg (sub_nonneg.mpr ha1.le) h]))
  · rw [if_neg (fun h' => h (EReal.coe_nonneg.mp h'))]
    exact max_eq_right (EReal.coe_le_coe_iff.mpr
      (by nlinarith [mul_pos (sub_pos.mpr ha1) (neg_pos.mpr (not_le.mp h))]))

/-! ## The block-diagonal head mask -/

/-- Channel c of the head of channel k is a channel of that head. -/
theorem hd_hc (h : Fin 8) (c : Fin 16) : hd (hc h c) = h := by
  apply Fin.ext
  show (16 * h.val + c.val) / 16 = h.val
  omega
theorem hc_hd (j : Fin 128) : hc (hd j) ⟨j.val % 16, Nat.mod_lt _ (by decide)⟩ = j := by
  apply Fin.ext
  show 16 * (j.val / 16) + j.val % 16 = j.val
  omega

/-- Against the mask that is 1 where two flat channels share a head and 0 elsewhere, a sum over all 128 flat
    channels keeps the sixteen channels of the head of k. -/
theorem head_sum (e a : Fin 128 → EReal) (k : Fin 128) :
    ∑ j : Fin 128, e j * ((if hd j = hd k then (1 : EReal) else 0) * a j)
      = ∑ c : Fin 16, e (hc (hd k) c) * a (hc (hd k) c) := by
  have h1 : ∀ j : Fin 128, e j * ((if hd j = hd k then (1 : EReal) else 0) * a j)
      = if hd j = hd k then e j * a j else 0 := by
    intro j
    split_ifs
    · rw [one_mul]
    · rw [zero_mul, mul_zero]
  rw [Finset.sum_congr rfl (fun j _ => h1 j), ← Finset.sum_filter]
  symm
  refine Finset.sum_nbij' (fun c => hc (hd k) c)
    (fun j => (⟨j.val % 16, Nat.mod_lt _ (by decide)⟩ : Fin 16)) ?_ ?_ ?_ ?_ ?_
  · intro c _
    exact Finset.mem_filter.mpr ⟨Finset.mem_univ _, hd_hc (hd k) c⟩
  · intro j _
    exact Finset.mem_univ _
  · intro c _
    apply Fin.ext
    show (16 * (hd k).val + c.val) % 16 = c.val
    omega
  · intro j hj
    have hjk : hd j = hd k := (Finset.mem_filter.mp hj).2
    show hc (hd k) ⟨j.val % 16, _⟩ = j
    rw [← hjk]
    exact hc_hd j
  · intro c _
    rfl

end Cert.Hand.Spec

end
-- ==== Proof.LibBlockSum.lean ====
import Mathlib.Algebra.BigOperators.Fin
import Mathlib.Data.Fintype.BigOperators
import Mathlib.Logic.Equiv.Fin.Basic

/-! # Sums accumulated step by step, and a contraction cut into blocks

A block-wise matrix product accumulates, over KB steps, the partial sums of one entry: step `kb` adds the sum over
the TK contraction positions of block `kb`. Here: an accumulator defined by "first term, then add the next term" is
the sum of the terms so far; a sum over KB blocks of TK positions each is the sum over all KB · TK positions; and,
together, the accumulator after the last step is the whole contraction sum. All in any commutative additive monoid
(the extended reals are one: no finiteness is used). -/

namespace Cert.Hand.BlockSum

variable {M : Type*} [AddCommMonoid M]

/-! ## The accumulator is the sum of the terms so far -/

/-- An accumulator that starts at the first term and adds the next term at each step holds, after step `n`, the sum
    of the terms `0 … n`. The recurrence is asked only below a bound `K` (the number of steps). -/
theorem acc_eq_sum_range_of_lt (K : ℕ) (p acc : ℕ → M) (h0 : acc 0 = p 0)
    (hs : ∀ n, n + 1 < K → acc (n + 1) = acc n + p (n + 1)) (n : ℕ) (hn : n < K) :
    acc n = ∑ i ∈ Finset.range (n + 1), p i := by
  induction n with
  | zero => rw [h0, Finset.sum_range_one]
  | succ n ih => rw [hs n hn, ih (Nat.lt_of_succ_lt hn), Finset.sum_range_succ p (n + 1)]

/-- The same with the recurrence at every step. -/
theorem acc_eq_sum_range (p acc : ℕ → M) (h0 : acc 0 = p 0)
    (hs : ∀ n, acc (n + 1) = acc n + p (n + 1)) (n : ℕ) :
    acc n = ∑ i ∈ Finset.range (n + 1), p i :=
  acc_eq_sum_range_of_lt (n + 1) p acc h0 (fun m _ => hs m) n (Nat.lt_succ_self n)

/-- The same for an accumulator reset to zero before the first term is added: `acc 0 = 0 + p 0`. -/
theorem acc_eq_sum_range_of_lt_zero_add (K : ℕ) (p acc : ℕ → M) (h0 : acc 0 = 0 + p 0)
    (hs : ∀ n, n + 1 < K → acc (n + 1) = acc n + p (n + 1)) (n : ℕ) (hn : n < K) :
    acc n = ∑ i ∈ Finset.range (n + 1), p i :=
  acc_eq_sum_range_of_lt K p acc (h0.trans (zero_add _)) hs n hn

theorem acc_eq_sum_range_zero_add (p acc : ℕ → M) (h0 : acc 0 = 0 + p 0)
    (hs : ∀ n, acc (n + 1) = acc n + p (n + 1)) (n : ℕ) :
    acc n = ∑ i ∈ Finset.range (n + 1), p i :=
  acc_eq_sum_range p acc (h0.trans (zero_add _)) hs n

/-- A sum over the first `n` naturals is the sum over `Fin n`. -/
theorem sum_range_eq_sum_fin (p : ℕ → M) (n : ℕ) : ∑ i ∈ Finset.range n, p i = ∑ i : Fin n, p i.val :=
  (Fin.sum_univ_eq_sum_range p n).symm

/-- The accumulator after step `n` as a sum over `Fin (n + 1)`. -/
theorem acc_eq_sum_fin_of_lt (K : ℕ) (p acc : ℕ → M) (h0 : acc 0 = p 0)
    (hs : ∀ n, n + 1 < K → acc (n + 1) = acc n + p (n + 1)) (n : ℕ) (hn : n < K) :
    acc n = ∑ i : Fin (n + 1), p i.val :=
  (acc_eq_sum_range_of_lt K p acc h0 hs n hn).trans (sum_range_eq_sum_fin p (n + 1))

theorem acc_eq_sum_fin (p acc : ℕ → M) (h0 : acc 0 = p 0)
    (hs : ∀ n, acc (n + 1) = acc n + p (n + 1)) (n : ℕ) :
    acc n = ∑ i : Fin (n + 1), p i.val :=
  (acc_eq_sum_range p acc h0 hs n).trans (sum_range_eq_sum_fin p (n + 1))

theorem acc_eq_sum_fin_of_lt_zero_add (K : ℕ) (p acc : ℕ → M) (h0 : acc 0 = 0 + p 0)
    (hs : ∀ n, n + 1 < K → acc (n + 1) = acc n + p (n + 1)) (n : ℕ) (hn : n < K) :
    acc n = ∑ i : Fin (n + 1), p i.val :=
  acc_eq_sum_fin_of_lt K p acc (h0.trans (zero_add _)) hs n hn

/-- After the last of `K` steps: the sum of all `K` terms. -/
theorem acc_last_eq_sum_fin (K : ℕ) (hK : 0 < K) (p acc : ℕ → M) (h0 : acc 0 = p 0)
    (hs : ∀ n, n + 1 < K → acc (n + 1) = acc n + p (n + 1)) :
    acc (K - 1) = ∑ i : Fin K, p i.val := by
  obtain ⟨k, rfl⟩ : ∃ k, K = k + 1 := ⟨K - 1, by omega⟩
  exact acc_eq_sum_fin_of_lt (k + 1) p acc h0 hs k (Nat.lt_succ_self k)

/-! ## A contraction cut into blocks -/

/-- Position `kk` of block `kb` is a position of the whole contraction. -/
theorem block_lt {KB TK : ℕ} (kb : Fin KB) (kk : Fin TK) : kb.val * TK + kk.val < KB * TK :=
  calc kb.val * TK + kk.val < kb.val * TK + TK := Nat.add_lt_add_left kk.isLt _
    _ = (kb.val + 1) * TK := (Nat.succ_mul _ _).symm
    _ ≤ KB * TK := Nat.mul_le_mul_right _ kb.isLt

/-- Summing block by block is summing over all positions: position `kk` of block `kb` is `kb · TK + kk`. -/
theorem sum_blocks (KB TK : ℕ) (f : Fin (KB * TK) → M) :
    ∑ kb : Fin KB, ∑ kk : Fin TK, f ⟨kb.val * TK + kk.val, block_lt kb kk⟩ = ∑ k : Fin (KB * TK), f k := by
  rw [← Equiv.sum_comp (finProdFinEquiv (m := KB) (n := TK)) f, Fintype.sum_prod_type]
  refine Finset.sum_congr rfl fun kb _ => Finset.sum_congr rfl fun kk _ => congrArg f (Fin.ext ?_)
  show kb.val * TK + kk.val = kk.val + TK * kb.val
  rw [Nat.mul_comm, Nat.add_comm]

/-- The same at a literal extent `N = KB · TK` (for example 4 blocks of 512 at `Fin 2048`, 8 blocks of 512 at
    `Fin 4096`: `hN` is `rfl` or `by decide`); the bound on `kb · TK + kk` may be any proof `hlt`. -/
theorem sum_blocks_cast (KB TK N : ℕ) (hN : KB * TK = N) (f : Fin N → M)
    (hlt : ∀ (kb : Fin KB) (kk : Fin TK), kb.val * TK + kk.val < N := fun kb kk => hN ▸ block_lt kb kk) :
    ∑ kb : Fin KB, ∑ kk : Fin TK, f ⟨kb.val * TK + kk.val, hlt kb kk⟩ = ∑ k : Fin N, f k := by
  subst hN
  exact sum_blocks KB TK f

/-- The same for a function of the position as a natural number. -/
theorem sum_blocks_nat (KB TK : ℕ) (g : ℕ → M) :
    ∑ kb : Fin KB, ∑ kk : Fin TK, g (kb.val * TK + kk.val) = ∑ k : Fin (KB * TK), g k.val :=
  sum_blocks KB TK fun k => g k.val

theorem sum_blocks_nat_cast (KB TK N : ℕ) (hN : KB * TK = N) (g : ℕ → M) :
    ∑ kb : Fin KB, ∑ kk : Fin TK, g (kb.val * TK + kk.val) = ∑ k : Fin N, g k.val := by
  subst hN
  exact sum_blocks_nat KB TK g

/-- Four blocks of 512 positions are the 2048 positions. -/
theorem sum_blocks_4_512 (f : Fin 2048 → M) (hlt : ∀ (kb : Fin 4) (kk : Fin 512), kb.val * 512 + kk.val < 2048 := fun kb kk => by omega) :
    ∑ kb : Fin 4, ∑ kk : Fin 512, f ⟨kb.val * 512 + kk.val, hlt kb kk⟩ = ∑ k : Fin 2048, f k :=
  sum_blocks_cast 4 512 2048 rfl f hlt

/-- Eight blocks of 512 positions are the 4096 positions. -/
theorem sum_blocks_8_512 (f : Fin 4096 → M) (hlt : ∀ (kb : Fin 8) (kk : Fin 512), kb.val * 512 + kk.val < 4096 := fun kb kk => by omega) :
    ∑ kb : Fin 8, ∑ kk : Fin 512, f ⟨kb.val * 512 + kk.val, hlt kb kk⟩ = ∑ k : Fin 4096, f k :=
  sum_blocks_cast 8 512 4096 rfl f hlt

/-! ## Both: the accumulator after the last step is the whole contraction sum -/

/-- An accumulator whose step `kb` adds the sum over block `kb`'s TK positions (`hp`), started at the first
    block's sum, holds after the last of the KB steps the sum over all `N = KB · TK` positions. -/
theorem acc_last_eq_sum_blocks (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = p 0) (hs : ∀ n, n + 1 < KB → acc (n + 1) = acc n + p (n + 1)) :
    acc (KB - 1) = ∑ k : Fin N, f k := by
  rw [acc_last_eq_sum_fin KB hKB p acc h0 hs, ← sum_blocks_cast KB TK N hN f hlt]
  exact Finset.sum_congr rfl fun kb _ => hp kb

/-- The same for an accumulator reset to zero before the first block's sum is added. -/
theorem acc_last_eq_sum_blocks_zero_add (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = 0 + p 0) (hs : ∀ n, n + 1 < KB → acc (n + 1) = acc n + p (n + 1)) :
    acc (KB - 1) = ∑ k : Fin N, f k :=
  acc_last_eq_sum_blocks KB TK N hN hKB f p acc hlt hp (h0.trans (zero_add _)) hs

/-- The same with the block sums written out in the recurrence: no intermediate `p`. -/
theorem acc_last_eq_sum_blocks' (KB TK N : ℕ) (hN : KB * TK = N) (hKB : 0 < KB) (f : Fin N → M) (acc : ℕ → M)
    (hlt : ∀ (kb : Fin KB) (kk : Fin TK), kb.val * TK + kk.val < N)
    (h0 : acc 0 = ∑ kk : Fin TK, f ⟨(⟨0, hKB⟩ : Fin KB).val * TK + kk.val, hlt ⟨0, hKB⟩ kk⟩)
    (hs : ∀ n (h : n + 1 < KB), acc (n + 1) = acc n + ∑ kk : Fin TK, f ⟨(⟨n + 1, h⟩ : Fin KB).val * TK + kk.val, hlt ⟨n + 1, h⟩ kk⟩) :
    acc (KB - 1) = ∑ k : Fin N, f k := by
  refine acc_last_eq_sum_blocks KB TK N hN hKB f
    (fun n => if h : n < KB then ∑ kk : Fin TK, f ⟨(⟨n, h⟩ : Fin KB).val * TK + kk.val, hlt ⟨n, h⟩ kk⟩ else 0) acc hlt
    (fun kb => by rw [dif_pos kb.isLt]) (by rw [h0, dif_pos hKB]) (fun n h => by rw [hs n h, dif_pos h])

/-! ## Steps numbered through all blocks

The grid numbers its points through: point `t` is step `t % K` of block `t / K`. At a block's first step the
accumulator restarts, at the others it adds to what the point before left. -/

/-- With K steps per block, the accumulator restarted at each block's first step (`t % K = 0`) and adding the
    step's term to what step `t - 1` left otherwise holds, after step `t`, the sum of the terms from the block's
    first step `K · (t / K)` up to `t`. The two rules are asked only of the steps below `N`. -/
theorem seg_acc_eq_sum_range (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) :
    a t = ∑ i ∈ Finset.range (t % K + 1), p (K * (t / K) + i) := by
  have hr : t % K < K := Nat.mod_lt _ hK
  have key := acc_eq_sum_range_of_lt (t % K + 1) (fun n => p (K * (t / K) + n)) (fun n => a (K * (t / K) + n))
    (hA (K * (t / K)) (lt_of_le_of_lt (Nat.mul_div_le t K) ht) (Nat.mul_mod_right K (t / K)))
    (fun n hn => by
      have hn' : n + 1 < K := lt_of_lt_of_le hn hr
      have hle : K * (t / K) + (n + 1) ≤ t := by
        have := Nat.div_add_mod t K
        omega
      have hm : (K * (t / K) + (n + 1)) % K ≠ 0 := by
        rw [Nat.mul_add_mod, Nat.mod_eq_of_lt hn']; exact Nat.succ_ne_zero n
      exact hB (K * (t / K) + (n + 1)) (lt_of_le_of_lt hle ht) hm)
    (t % K) (Nat.lt_succ_self _)
  have e : K * (t / K) + t % K = t := Nat.div_add_mod t K
  simpa only [e] using key

/-- The same for an accumulator reset to zero before the first term is added. -/
theorem seg_acc_eq_sum_range_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) :
    a t = ∑ i ∈ Finset.range (t % K + 1), p (K * (t / K) + i) :=
  seg_acc_eq_sum_range K hK a p N (fun t h h0 => (hA t h h0).trans (zero_add _)) hB t ht

/-- After a block's last step (`t % K = K - 1`): the sum of the block's K terms. -/
theorem seg_acc_last (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) (hl : t % K = K - 1) :
    a t = ∑ i : Fin K, p (K * (t / K) + i.val) := by
  rw [seg_acc_eq_sum_range K hK a p N hA hB t ht, hl, Nat.sub_add_cancel hK]
  exact sum_range_eq_sum_fin (fun i => p (K * (t / K) + i)) K

theorem seg_acc_last_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) (hl : t % K = K - 1) :
    a t = ∑ i : Fin K, p (K * (t / K) + i.val) :=
  seg_acc_last K hK a p N (fun t h h0 => (hA t h h0).trans (zero_add _)) hB t ht hl

/-- After a block's last step, when step `kb` of the block adds the sum over the TK positions of contraction block
    `kb` (`hp`): the sum over all `Nc = KB · TK` contraction positions. -/
theorem seg_acc_last_eq_sum_blocks (KB TK Nc : ℕ) (hN : KB * TK = Nc) (hKB : 0 < KB) (f : Fin Nc → M) (a p : ℕ → M) (N : ℕ)
    (hA : ∀ t, t < N → t % KB = 0 → a t = 0 + p t)
    (hB : ∀ t, t < N → t % KB ≠ 0 → a t = a (t - 1) + p t)
    (t : ℕ) (ht : t < N) (hl : t % KB = KB - 1)
    (hlt : ∀ (kb : Fin KB) (kk : Fin TK), kb.val * TK + kk.val < Nc)
    (hp : ∀ kb : Fin KB, p (KB * (t / KB) + kb.val) = ∑ kk : Fin TK, f ⟨kb.val * TK + kk.val, hlt kb kk⟩) :
    a t = ∑ k : Fin Nc, f k := by
  rw [seg_acc_last_zero_add KB hKB a p N hA hB t ht hl, ← sum_blocks_cast KB TK Nc hN f hlt]
  exact Finset.sum_congr rfl fun kb _ => hp kb

end Cert.Hand.BlockSum
-- ==== Proof.OnlineSoftmax.lean ====
/-
  The running ("online") soft-max over blocks of rows equals the plain soft-max over all rows.

  One output channel is fixed. Row n has a real logit lg n and a real feature y n. The rows come in 25 blocks of 4000
  (Spec.row t r is row 4000·t + r). A running state (m, s, w) starts at (−∞, 0, 0); block t replaces it by
      m' = max m (largest logit of the block),
      s' = s · exp(m − m') + Σ_r exp(lg(t,r) − m'),
      w' = w · exp(m − m') + Σ_r exp(lg(t,r) − m') · y(t,r).
  After the last block w/s is the soft-max-weighted average of the features, Σ_n α_n · y_n with
  α_n = exp(lg n − M) / Σ_n' exp(lg n' − M), M the largest logit. Because the weights α_n sum to one, adding an
  offset b to every feature adds b to the average: Σ_n α_n (y_n + b) = w/s + b.
  Everything is stated over the extended reals with the hypothesis that the data are real numbers.
-/
import proofs.«162155_g33088428049086_cont_sun_c4_530_7_alg».proof.Proof.Spec
import proofs.«162155_g33088428049086_cont_sun_c4_530_7_alg».proof.Proof.LibBlockSum

noncomputable section

namespace Cert.Hand.Softmax

open Idealize.ShloMosaic Cert.Hand.Spec

/-! ## The real-number core

Over the reals: shifted exponentials can be re-based from one shift to another, the sums over the first t blocks
follow the running recurrence, and a weighted average with weights summing to one carries an offset through. -/

/-- Re-basing a shifted exponential from the shift M to the shift M'. -/
theorem exp_rebase (x M M' : ℝ) : Real.exp (x - M) * Real.exp (M - M') = Real.exp (x - M') := by
  rw [← Real.exp_add]
  congr 1
  ring

/-- The sum, over the rows of the first t blocks, of the exponentials shifted by M. -/
def Ssum {K : ℕ} (a : ℕ → Fin K → ℝ) (t : ℕ) (M : ℝ) : ℝ :=
  ∑ t' ∈ Finset.range t, ∑ r : Fin K, Real.exp (a t' r - M)

/-- The same sum weighted by the features. -/
def Wsum {K : ℕ} (a v : ℕ → Fin K → ℝ) (t : ℕ) (M : ℝ) : ℝ :=
  ∑ t' ∈ Finset.range t, ∑ r : Fin K, Real.exp (a t' r - M) * v t' r

theorem Ssum_rebase {K : ℕ} (a : ℕ → Fin K → ℝ) (t : ℕ) (M M' : ℝ) :
    Ssum a t M * Real.exp (M - M') = Ssum a t M' := by
  unfold Ssum
  rw [Finset.sum_mul]
  refine Finset.sum_congr rfl fun t' _ => ?_
  rw [Finset.sum_mul]
  exact Finset.sum_congr rfl fun r _ => exp_rebase _ _ _

theorem Wsum_rebase {K : ℕ} (a v : ℕ → Fin K → ℝ) (t : ℕ) (M M' : ℝ) :
    Wsum a v t M * Real.exp (M - M') = Wsum a v t M' := by
  unfold Wsum
  rw [Finset.sum_mul]
  refine Finset.sum_congr rfl fun t' _ => ?_
  rw [Finset.sum_mul]
  refine Finset.sum_congr rfl fun r _ => ?_
  rw [mul_right_comm, exp_rebase]

theorem Ssum_zero {K : ℕ} (a : ℕ → Fin K → ℝ) (M : ℝ) : Ssum a 0 M = 0 := by
  unfold Ssum
  rw [Finset.sum_range_zero]

theorem Wsum_zero {K : ℕ} (a v : ℕ → Fin K → ℝ) (M : ℝ) : Wsum a v 0 M = 0 := by
  unfold Wsum
  rw [Finset.sum_range_zero]

theorem Ssum_succ {K : ℕ} (a : ℕ → Fin K → ℝ) (t : ℕ) (M : ℝ) :
    Ssum a (t + 1) M = Ssum a t M + ∑ r : Fin K, Real.exp (a t r - M) := by
  unfold Ssum
  rw [Finset.sum_range_succ]

theorem Wsum_succ {K : ℕ} (a v : ℕ → Fin K → ℝ) (t : ℕ) (M : ℝ) :
    Wsum a v (t + 1) M = Wsum a v t M + ∑ r : Fin K, Real.exp (a t r - M) * v t r := by
  unfold Wsum
  rw [Finset.sum_range_succ]

/-- One step of the running recurrence over the reals: re-base the old sum to the new shift and add the block. -/
theorem Ssum_step {K : ℕ} (a : ℕ → Fin K → ℝ) (t : ℕ) (M M' : ℝ) :
    Ssum a t M * Real.exp (M - M') + ∑ r : Fin K, Real.exp (a t r - M') = Ssum a (t + 1) M' := by
  rw [Ssum_rebase, Ssum_succ]

theorem Wsum_step {K : ℕ} (a v : ℕ → Fin K → ℝ) (t : ℕ) (M M' : ℝ) :
    Wsum a v t M * Real.exp (M - M') + ∑ r : Fin K, Real.exp (a t r - M') * v t r = Wsum a v (t + 1) M' := by
  rw [Wsum_rebase, Wsum_succ]

/-- A weighted average whose weights p n / S sum to one carries an offset b of every feature through: with
    S = Σ p ≠ 0, (Σ p·y)/S + (b + c) = Σ (p/S)·(y + b) + c. -/
theorem avg_offset {N : ℕ} (p yv : Fin N → ℝ) (b c : ℝ) (hS : (∑ n, p n) ≠ 0) :
    (∑ n, p n * yv n) * (1 / ∑ n, p n) + (b + c)
      = (∑ n, p n * (1 / ∑ n', p n') * (yv n + b)) + c := by
  have h1 : ∀ n, p n * (1 / ∑ n', p n') * (yv n + b)
      = (p n * yv n) * (1 / ∑ n', p n') + p n * (b * (1 / ∑ n', p n')) := fun n => by ring
  have h2 : (∑ n, p n) * (b * (1 / ∑ n', p n')) = b := by
    field_simp
  rw [Finset.sum_congr rfl fun n _ => h1 n, Finset.sum_add_distrib, ← Finset.sum_mul, ← Finset.sum_mul, h2]
  ring

/-! ## Extended reals that are reals

Sums, shifted exponentials and block maxima of real data are real, and are the coercions of the real expressions. -/

/-- A finite sum of coerced reals is the coercion of the real sum. -/
theorem coe_sum {ι : Type*} (s : Finset ι) (f : ι → ℝ) :
    ∑ i ∈ s, ((f i : ℝ) : EReal) = ((∑ i ∈ s, f i : ℝ) : EReal) := by
  classical
  refine Finset.induction_on s ?_ ?_
  · rw [Finset.sum_empty, Finset.sum_empty, EReal.coe_zero]
  · intro i s hi ih
    rw [Finset.sum_insert hi, Finset.sum_insert hi, ih, EReal.coe_add]

/-- The exponential of a difference of reals. -/
theorem exp_coe_sub (x M : ℝ) : Ideal.exp ((x : EReal) - (M : EReal)) = ((Real.exp (x - M) : ℝ) : EReal) := by
  rw [← EReal.coe_sub, Ideal.exp_coe]

/-- A maximum folded from −∞ is the finite supremum. -/
theorem fold_max_eq_sup {ι : Type*} (s : Finset ι) (f : ι → EReal) : s.fold max ⊥ f = s.sup f := rfl

/-- The largest of finitely many (at least one) reals is one of them, so a real. -/
theorem fold_max_coe {K : ℕ} (hK : 0 < K) (f : Fin K → ℝ) :
    ∃ B : ℝ, (Finset.univ : Finset (Fin K)).fold max ⊥ (fun r => ((f r : ℝ) : EReal)) = (B : EReal) := by
  obtain ⟨i, -, hi⟩ := Finset.exists_mem_eq_sup (Finset.univ : Finset (Fin K)) ⟨⟨0, hK⟩, Finset.mem_univ _⟩
    (fun r => ((f r : ℝ) : EReal))
  exact ⟨f i, (fold_max_eq_sup _ _).trans hi⟩

/-- The maximum of a real-or-−∞ and a real is a real. -/
theorem max_coe_real (m : EReal) (hm : m = ⊥ ∨ ∃ M : ℝ, m = (M : EReal)) (B : ℝ) :
    ∃ M' : ℝ, max m (B : EReal) = (M' : EReal) := by
  rcases max_choice m (B : EReal) with h | h
  · rcases hm with hm | ⟨M, hM⟩
    · refine ⟨B, ?_⟩
      rw [hm]
      exact max_eq_right bot_le
    · exact ⟨M, h.trans hM⟩
  · exact ⟨B, h⟩

/-! ## The running state

With real block data a (logits) and v (features), the state after t + 1 blocks is real: the running maximum is
some real M, and the two running sums are the real sums over the first t + 1 blocks shifted by that M. Which real M
is does not matter here. -/

theorem running_state {K : ℕ} (hK : 0 < K) (T : ℕ) (a v : ℕ → Fin K → ℝ) (mS sS wS : ℕ → EReal)
    (hm0 : mS 0 = ⊥) (hs0 : sS 0 = 0) (hw0 : wS 0 = 0)
    (hm : ∀ t, t < T → mS (t + 1)
        = max (mS t) ((Finset.univ : Finset (Fin K)).fold max ⊥ (fun r => ((a t r : ℝ) : EReal))))
    (hs : ∀ t, t < T → sS (t + 1)
        = sS t * Ideal.exp (mS t - mS (t + 1)) + ∑ r : Fin K, Ideal.exp (((a t r : ℝ) : EReal) - mS (t + 1)))
    (hw : ∀ t, t < T → wS (t + 1)
        = wS t * Ideal.exp (mS t - mS (t + 1))
          + ∑ r : Fin K, Ideal.exp (((a t r : ℝ) : EReal) - mS (t + 1)) * ((v t r : ℝ) : EReal))
    (t : ℕ) (ht : t < T) :
    ∃ M : ℝ, mS (t + 1) = (M : EReal) ∧ sS (t + 1) = ((Ssum a (t + 1) M : ℝ) : EReal)
      ∧ wS (t + 1) = ((Wsum a v (t + 1) M : ℝ) : EReal) := by
  induction t with
  | zero =>
    obtain ⟨B, hB⟩ := fold_max_coe hK (a 0)
    have hM : mS 1 = (B : EReal) := by
      rw [hm 0 ht, hB, hm0]
      exact max_eq_right bot_le
    refine ⟨B, hM, ?_, ?_⟩
    · rw [hs 0 ht, hs0, zero_mul, zero_add, hM, Ssum_succ, Ssum_zero, zero_add, ← coe_sum]
      exact Finset.sum_congr rfl fun r _ => exp_coe_sub _ _
    · rw [hw 0 ht, hw0, zero_mul, zero_add, hM, Wsum_succ, Wsum_zero, zero_add, ← coe_sum]
      refine Finset.sum_congr rfl fun r _ => ?_
      rw [exp_coe_sub, EReal.coe_mul]
  | succ t ih =>
    obtain ⟨M, hM, hS, hW⟩ := ih (Nat.lt_of_succ_lt ht)
    obtain ⟨B, hB⟩ := fold_max_coe hK (a (t + 1))
    obtain ⟨M', hM'⟩ := max_coe_real (mS (t + 1)) (Or.inr ⟨M, hM⟩) B
    have hMn : mS (t + 1 + 1) = (M' : EReal) := by
      rw [hm (t + 1) ht, hB, hM']
    refine ⟨M', hMn, ?_, ?_⟩
    · rw [hs (t + 1) ht, hS, hMn, hM, exp_coe_sub, ← Ssum_step a (t + 1) M M', EReal.coe_add, EReal.coe_mul,
        ← coe_sum]
      refine congrArg (_ + ·) (Finset.sum_congr rfl fun r _ => exp_coe_sub _ _)
    · rw [hw (t + 1) ht, hW, hMn, hM, exp_coe_sub, ← Wsum_step a v (t + 1) M M', EReal.coe_add, EReal.coe_mul,
        ← coe_sum]
      refine congrArg (_ + ·) (Finset.sum_congr rfl fun r _ => ?_)
      rw [exp_coe_sub, EReal.coe_mul]

/-! ## The running maximum is the largest logit -/

/-- Row n is row n % 4000 of block n / 4000. -/
theorem row_div_mod (n : Fin 100000) :
    row ⟨n.val / 4000, by omega⟩ ⟨n.val % 4000, Nat.mod_lt _ (by norm_num)⟩ = n := by
  apply Fin.ext
  show n.val / 4000 * 4000 + n.val % 4000 = n.val
  omega

/-- After the last block the running maximum is the maximum over all rows: it is below it at every step, and every
    row of a block already taken is below the running maximum. -/
theorem running_max_eq (lg : Fin 100000 → EReal) (mS : ℕ → EReal) (hm0 : mS 0 = ⊥)
    (hm : ∀ t (h : t < 25), mS (t + 1)
        = max (mS t) ((Finset.univ : Finset (Fin 4000)).fold max ⊥ (fun r => lg (row ⟨t, h⟩ r)))) :
    mS 25 = (Finset.univ : Finset (Fin 100000)).fold max ⊥ lg := by
  rw [fold_max_eq_sup]
  have hup : ∀ t, t ≤ 25 → mS t ≤ (Finset.univ : Finset (Fin 100000)).sup lg := by
    intro t
    induction t with
    | zero =>
      intro _
      rw [hm0]
      exact bot_le
    | succ t ih =>
      intro ht
      rw [hm t (Nat.lt_of_succ_le ht), fold_max_eq_sup]
      exact max_le (ih (Nat.le_of_succ_le ht)) (Finset.sup_le fun r _ => Finset.le_sup (Finset.mem_univ _))
  have hlow : ∀ t, t ≤ 25 → ∀ t' (h' : t' < 25), t' < t → ∀ r, lg (row ⟨t', h'⟩ r) ≤ mS t := by
    intro t
    induction t with
    | zero =>
      intro _ t' _ h
      exact absurd h (Nat.not_lt_zero _)
    | succ t ih =>
      intro ht t' h' hlt r
      rw [hm t (Nat.lt_of_succ_le ht)]
      rcases Nat.lt_succ_iff_lt_or_eq.mp hlt with h | h
      · exact le_trans (ih (Nat.le_of_succ_le ht) t' h' h r) (le_max_left _ _)
      · subst h
        refine le_trans ?_ (le_max_right _ _)
        rw [fold_max_eq_sup]
        exact Finset.le_sup (f := fun r => lg (row ⟨t', h'⟩ r)) (Finset.mem_univ r)
  refine le_antisymm (hup 25 le_rfl) (Finset.sup_le fun n _ => ?_)
  have h := hlow 25 le_rfl (n.val / 4000) (by omega) (by omega) ⟨n.val % 4000, Nat.mod_lt _ (by norm_num)⟩
  rwa [row_div_mod] at h

/-! ## From blocks to all rows -/

/-- Data of the rows, block by block, the block numbered by a natural number (zero past the last block). -/
def blk (f : Fin 100000 → ℝ) (t : ℕ) (r : Fin 4000) : ℝ := if h : t < 25 then f (row ⟨t, h⟩ r) else 0

theorem blk_eq (f : Fin 100000 → ℝ) (t : ℕ) (h : t < 25) (r : Fin 4000) : blk f t r = f (row ⟨t, h⟩ r) :=
  dif_pos h

/-- A sum over the 25 blocks of 4000 rows is the sum over the 100000 rows. -/
theorem sum_blk (g : ℕ → Fin 4000 → ℝ) (f : Fin 100000 → ℝ)
    (hg : ∀ t (h : t < 25) r, g t r = f (row ⟨t, h⟩ r)) :
    ∑ t' ∈ Finset.range 25, ∑ r : Fin 4000, g t' r = ∑ n : Fin 100000, f n := by
  rw [BlockSum.sum_range_eq_sum_fin (fun t' => ∑ r : Fin 4000, g t' r) 25,
    ← BlockSum.sum_blocks_cast 25 4000 100000 rfl f]
  exact Finset.sum_congr rfl fun t' _ => Finset.sum_congr rfl fun r _ => hg t'.val t'.isLt r

theorem Ssum_all (l : Fin 100000 → ℝ) (M : ℝ) :
    Ssum (blk l) 25 M = ∑ n : Fin 100000, Real.exp (l n - M) := by
  unfold Ssum
  exact sum_blk (fun t r => Real.exp (blk l t r - M)) (fun n => Real.exp (l n - M))
    (fun t h r => by rw [blk_eq l t h r])

theorem Wsum_all (l yr : Fin 100000 → ℝ) (M : ℝ) :
    Wsum (blk l) (blk yr) 25 M = ∑ n : Fin 100000, Real.exp (l n - M) * yr n := by
  unfold Wsum
  exact sum_blk (fun t r => Real.exp (blk l t r - M) * blk yr t r) (fun n => Real.exp (l n - M) * yr n)
    (fun t h r => by rw [blk_eq l t h r, blk_eq yr t h r])

/-! ## The statement -/

/-- The running state after the last block gives the soft-max-weighted average of the offset features, plus the
    output offset: the statement the two programs' equality rests on. -/
theorem online_softmax (lg y : Fin 100000 → EReal) (b bias : EReal)
    (hlg : ∀ n, IsReal (lg n)) (hy : ∀ n, IsReal (y n)) (hb : IsReal b) (hbias : IsReal bias)
    (mS sS wS : ℕ → EReal)
    (hm0 : mS 0 = ⊥) (hs0 : sS 0 = 0) (hw0 : wS 0 = 0)
    (hm : ∀ t (h : t < 25), mS (t + 1)
        = max (mS t) ((Finset.univ : Finset (Fin 4000)).fold max ⊥ (fun r => lg (row ⟨t, h⟩ r))))
    (hs : ∀ t (h : t < 25), sS (t + 1)
        = sS t * Ideal.exp (mS t - mS (t + 1)) + ∑ r : Fin 4000, Ideal.exp (lg (row ⟨t, h⟩ r) - mS (t + 1)))
    (hw : ∀ t (h : t < 25), wS (t + 1)
        = wS t * Ideal.exp (mS t - mS (t + 1))
          + ∑ r : Fin 4000, Ideal.exp (lg (row ⟨t, h⟩ r) - mS (t + 1)) * y (row ⟨t, h⟩ r)) :
    Ideal.div (wS 25) (sS 25) + (b + bias)
      = (∑ n : Fin 100000,
          Ideal.div (Ideal.exp (lg n - (Finset.univ : Finset (Fin 100000)).fold max ⊥ lg))
            (∑ n' : Fin 100000, Ideal.exp (lg n' - (Finset.univ : Finset (Fin 100000)).fold max ⊥ lg)) * (y n + b))
        + bias := by
  choose l hl using hlg
  choose yr hyr using hy
  obtain ⟨br, rfl⟩ := hb
  obtain ⟨cr, rfl⟩ := hbias
  -- the running state after the last block is real
  obtain ⟨M, hM, hS, hW⟩ := running_state (K := 4000) (by norm_num) 25 (blk l) (blk yr) mS sS wS hm0 hs0 hw0
    (fun t h => by simp only [blk_eq _ t h, ← hl]; exact hm t h)
    (fun t h => by simp only [blk_eq _ t h, ← hl]; exact hs t h)
    (fun t h => by simp only [blk_eq _ t h, ← hl, ← hyr]; exact hw t h)
    24 (by norm_num)
  have hM : mS 25 = (M : EReal) := hM
  have hS : sS 25 = ((Ssum (blk l) 25 M : ℝ) : EReal) := hS
  have hW : wS 25 = ((Wsum (blk l) (blk yr) 25 M : ℝ) : EReal) := hW
  -- the running maximum is the largest logit
  have hG : (Finset.univ : Finset (Fin 100000)).fold max ⊥ lg = (M : EReal) :=
    (running_max_eq lg mS hm0 hm).symm.trans hM
  -- the normaliser is a positive real
  have hden : (∑ n' : Fin 100000, Ideal.exp (lg n' - (M : EReal)))
      = ((∑ n' : Fin 100000, Real.exp (l n' - M) : ℝ) : EReal) := by
    rw [← coe_sum]
    exact Finset.sum_congr rfl fun n _ => by rw [hl, exp_coe_sub]
  have hpos : (∑ n' : Fin 100000, Real.exp (l n' - M)) ≠ 0 :=
    ne_of_gt (Finset.sum_pos (fun n _ => Real.exp_pos _) ⟨⟨0, by norm_num⟩, Finset.mem_univ _⟩)
  have hterm : ∀ n : Fin 100000,
      Ideal.div (Ideal.exp (lg n - (M : EReal))) (∑ n' : Fin 100000, Ideal.exp (lg n' - (M : EReal)))
          * (y n + (br : EReal))
        = ((Real.exp (l n - M) * (1 / ∑ n' : Fin 100000, Real.exp (l n' - M)) * (yr n + br) : ℝ) : EReal) := by
    intro n
    rw [hden, Ideal.div_coe hpos, hl, hyr, exp_coe_sub, EReal.coe_mul, EReal.coe_mul, EReal.coe_add]
  rw [hG, hS, hW, Ssum_all, Wsum_all, Finset.sum_congr rfl fun n _ => hterm n, coe_sum, Ideal.div_coe hpos,
    ← EReal.coe_mul, ← EReal.coe_add, ← EReal.coe_add, ← EReal.coe_add]
  exact congrArg (fun x : ℝ => (x : EReal))
    (avg_offset (fun n => Real.exp (l n - M)) yr br cr hpos)

end Cert.Hand.Softmax

end
-- ==== Proof.SpecBridge.lean ====
/-
  The kernel's arrangement of one attention stream against the specification's.

  The kernel keeps the target term with the left offset folded in, xr' = (bl + xt · Wr) + br, and streams the rows
  WITHOUT the left offset, y = X · Wl; so z = y + xr' is the specification's xl + xr by re-association. It writes the
  leaky rectifier as max(z, slope · z), and takes the logits by one product with the block-diagonal matrix
  AE[j, k] = [j, k in one head] · att[j]; against that mask the sum over the 128 flat channels is the sum over the
  sixteen channels of the head of k. So the kernel's head-replicated logit at flat channel k is the specification's
  logit of head hd k. With the running soft-max equal to the plain one, the kernel's w/s + (bl + bias) is the
  specification's aggregate.
-/
import proofs.«162155_g33088428049086_cont_sun_c4_530_7_alg».proof.Proof.LibReal
import proofs.«162155_g33088428049086_cont_sun_c4_530_7_alg».proof.Proof.OnlineSoftmax

noncomputable section

namespace Cert.Hand.Spec

open Idealize.ShloMosaic

namespace Gat

/-- The rows through the left-hand map, without its offset. -/
def yK (P : Gat) (n : Fin 100000) (k : Fin 128) : EReal := ∑ j : Fin 128, P.X n j * P.Wl j k

/-- The target term as the kernel stores it: left offset, product, right offset. -/
def xrK (P : Gat) (g : Fin 256 → EReal) (k : Fin 128) : EReal := (P.bl k + ∑ j : Fin 128, P.xt g j * P.Wr j k) + P.br k

/-- The block-diagonal logit matrix: the attention entry of flat channel j where j and k share a head, 0 elsewhere. -/
def aeK (P : Gat) (j k : Fin 128) : EReal :=
  (if hd j = hd k then (1 : EReal) else 0) * P.att (hd j) (⟨j.val % 16, Nat.mod_lt _ (by decide)⟩ : Fin 16)

/-- The kernel's head-replicated logit. -/
def lbK (P : Gat) (g : Fin 256 → EReal) (n : Fin 100000) (k : Fin 128) : EReal :=
  ∑ j : Fin 128, max (P.yK n j + P.xrK g j) (cslope * (P.yK n j + P.xrK g j)) * P.aeK j k

theorem xl_eq (P : Gat) (n : Fin 100000) (k : Fin 128) : P.xl n k = P.yK n k + P.bl k := by
  rfl

theorem Real.isReal_yK {P : Gat} (hP : P.Real) (n : Fin 100000) (k : Fin 128) : IsReal (P.yK n k) := by
  exact hP.isReal_rowDot n k

theorem Real.isReal_xrK {P : Gat} (hP : P.Real) (g : Fin 256 → EReal) (hg : ∀ k, IsReal (g k)) (k : Fin 128) :
    IsReal (P.xrK g k) := by
  exact ((hP.bl k).add (IsReal.sum _ (fun j => (hP.isReal_xt g hg j).mul (hP.Wr j k)))).add (hP.br k)

/-- Source term plus target term, in the kernel's arrangement and in the specification's. -/
theorem z_eq (P : Gat) (g : Fin 256 → EReal) (n : Fin 100000) (j : Fin 128) :
    P.yK n j + P.xrK g j = P.xl n j + P.xr g j := by
  show P.yK n j + ((P.bl j + ∑ i : Fin 128, P.xt g i * P.Wr i j) + P.br j)
    = (P.yK n j + P.bl j) + ((∑ i : Fin 128, P.xt g i * P.Wr i j) + P.br j)
  rw [add_assoc (P.bl j), add_assoc (P.yK n j)]

/-- The kernel's head-replicated logit at flat channel k is the logit of the head of k. -/
theorem lbK_eq_lg {P : Gat} (hP : P.Real) (g : Fin 256 → EReal) (hg : ∀ k, IsReal (g k)) (n : Fin 100000) (k : Fin 128) :
    P.lbK g n k = P.lg g n (hd k) := by
  have hsum : ∀ j : Fin 128,
      max (P.yK n j + P.xrK g j) (cslope * (P.yK n j + P.xrK g j)) * P.aeK j k
        = leaky (P.xl n j + P.xr g j) * ((if hd j = hd k then (1 : EReal) else 0)
            * P.att (hd j) (⟨j.val % 16, Nat.mod_lt _ (by decide)⟩ : Fin 16)) := by
    intro j
    rw [z_eq, leaky_eq_max _ ((hP.isReal_xl n j).add (hP.isReal_xr g hg j))]
    rfl
  show ∑ j : Fin 128, max (P.yK n j + P.xrK g j) (cslope * (P.yK n j + P.xrK g j)) * P.aeK j k
    = ∑ c : Fin 16, leaky (P.xl n (hc (hd k) c) + P.xr g (hc (hd k) c)) * P.att (hd k) c
  rw [Finset.sum_congr rfl (fun j _ => hsum j),
    head_sum (fun j => leaky (P.xl n j + P.xr g j))
      (fun j => P.att (hd j) (⟨j.val % 16, Nat.mod_lt _ (by decide)⟩ : Fin 16)) k]
  refine Finset.sum_congr rfl (fun c _ => ?_)
  have hc16 : (⟨(hc (hd k) c).val % 16, Nat.mod_lt _ (by decide)⟩ : Fin 16) = c :=
    Fin.ext (by show (16 * (hd k).val + c.val) % 16 = c.val; omega)
  show leaky (P.xl n (hc (hd k) c) + P.xr g (hc (hd k) c))
      * P.att (hd (hc (hd k) c)) (⟨(hc (hd k) c).val % 16, Nat.mod_lt _ (by decide)⟩ : Fin 16) = _
  rw [hd_hc, hc16]

/-- The running soft-max over the 25 blocks, in the kernel's quantities, ends at the specification's aggregate. -/
theorem agg_of_online {P : Gat} (hP : P.Real) (g : Fin 256 → EReal) (hg : ∀ k, IsReal (g k)) (k : Fin 128)
    (mS sS wS : ℕ → EReal) (hm0 : mS 0 = ⊥) (hs0 : sS 0 = 0) (hw0 : wS 0 = 0)
    (hm : ∀ t (h : t < 25), mS (t + 1)
        = max (mS t) ((Finset.univ : Finset (Fin 4000)).fold max ⊥ (fun r => P.lbK g (row ⟨t, h⟩ r) k)))
    (hs : ∀ t (h : t < 25), sS (t + 1)
        = sS t * Ideal.exp (mS t - mS (t + 1)) + ∑ r : Fin 4000, Ideal.exp (P.lbK g (row ⟨t, h⟩ r) k - mS (t + 1)))
    (hw : ∀ t (h : t < 25), wS (t + 1)
        = wS t * Ideal.exp (mS t - mS (t + 1))
          + ∑ r : Fin 4000, Ideal.exp (P.lbK g (row ⟨t, h⟩ r) k - mS (t + 1)) * P.yK (row ⟨t, h⟩ r) k) :
    Ideal.div (wS 25) (sS 25) + (P.bl k + P.bias k) = P.agg g k := by
  have hlb : ∀ n, P.lbK g n k = P.lg g n (hd k) := fun n => lbK_eq_lg hP g hg n k
  simp only [hlb] at hm hs hw
  exact Softmax.online_softmax (fun n => P.lg g n (hd k)) (fun n => P.yK n k) (P.bl k) (P.bias k)
    (fun n => hP.isReal_lg g hg n (hd k)) (fun n => hP.isReal_yK n k) (hP.bl k) (hP.bias k)
    mS sS wS hm0 hs0 hw0 hm hs hw

end Gat

end Cert.Hand.Spec

end
-- ==== Proof.KMath.lean ====
/-
  The kernel's 25 streaming steps, composed, against the specification.

  A stream's running state (running maximum, normaliser, weighted sum) starts at (−∞, 0, 0) and each grid step maps
  it through the step's arithmetic on that step's block of 4000 rows. When the staged arrays are the stream's arrays
  — the blocks the source rows, the left-hand matrix, the block-diagonal logit matrix, the stored target term, the
  row of ones — the state after the 25th step gives, as weighted sum over normaliser plus the combined offset, the
  specification's aggregate (the running soft-max is the plain one). With both streams' aggregates the last step's
  result row is the specification's result.
-/
import proofs.«162155_g33088428049086_cont_sun_c4_530_7_alg».proof.Proof.KStream
import proofs.«162155_g33088428049086_cont_sun_c4_530_7_alg».proof.Proof.KInit
import proofs.«162155_g33088428049086_cont_sun_c4_530_7_alg».proof.Proof.KFin
import proofs.«162155_g33088428049086_cont_sun_c4_530_7_alg».proof.Proof.SpecBridge

noncomputable section

namespace Cert.KernelIdeal.Hand

open Cert.KernelIdeal Cert.KernelIdeal.Gen Idealize.ShloMosaic Idealize.ShloMosaic.TcCoe Idealize.ShloMosaic.ValueIdx
open Cert.Hand.Spec

/-- A stream's running state: running maximum, normaliser, weighted sum. -/
abbrev St := Vec Ideal S1x128 .f32 × Vec Ideal S1x128 .f32 × Vec Ideal S1x128 .f32

/-- One grid step on the view stream's state. -/
def stepV (x : Vec Ideal S4000x128 .f32) (ones : Vec Ideal S1x4000 .f32) (Wl AE : Vec Ideal S128x128 .f32)
    (xr : Vec Ideal S1x128 .f32) (st : St) : St :=
  (k0_pay32 (k0_pay27 x Wl xr AE st.1), k0_pay30 x ones Wl xr AE st.1 st.2.1,
    k0_pay31 (k0_pay24 ones) (k0_pay25 x Wl) (k0_pay28 x Wl xr AE st.1) (k0_pay29 x Wl xr AE st.1) st.2.2)

/-- One grid step on the scene-point stream's state. -/
def stepS (x : Vec Ideal S4000x128 .f32) (ones : Vec Ideal S1x4000 .f32) (Wl AE : Vec Ideal S128x128 .f32)
    (xr : Vec Ideal S1x128 .f32) (st : St) : St :=
  (k0_pay3 (k0_pay36 x Wl xr AE st.1), k0_pay1 (k0_pay33 ones) (k0_pay37 x Wl xr AE st.1) (k0_pay38 x Wl xr AE st.1) st.2.1,
    k0_pay2 (k0_pay33 ones) (k0_pay34 x Wl) (k0_pay37 x Wl xr AE st.1) (k0_pay38 x Wl xr AE st.1) st.2.2)

/-- The view stream's state before step t (after steps 0 … t − 1). -/
def runV (xs : ℕ → Vec Ideal S4000x128 .f32) (ones : Vec Ideal S1x4000 .f32) (Wl AE : Vec Ideal S128x128 .f32)
    (xr : Vec Ideal S1x128 .f32) : ℕ → St
  | 0 => (k0_pay11 (F := Ideal), k0_pay14 (F := Ideal), k0_pay16 (F := Ideal))
  | t + 1 => stepV (xs t) ones Wl AE xr (runV xs ones Wl AE xr t)

/-- The scene-point stream's state before step t. -/
def runS (xs : ℕ → Vec Ideal S4000x128 .f32) (ones : Vec Ideal S1x4000 .f32) (Wl AE : Vec Ideal S128x128 .f32)
    (xr : Vec Ideal S1x128 .f32) : ℕ → St
  | 0 => (k0_pay12 (F := Ideal), k0_pay15 (F := Ideal), k0_pay17 (F := Ideal))
  | t + 1 => stepS (xs t) ones Wl AE xr (runS xs ones Wl AE xr t)

section Stream

variable (P : Gat) (hP : P.Real) (g : Fin 256 → EReal) (hg : ∀ k, IsReal (g k))
  (xs : ℕ → Vec Ideal S4000x128 .f32) (ones : Vec Ideal S1x4000 .f32) (Wl AE : Vec Ideal S128x128 .f32)
  (xr : Vec Ideal S1x128 .f32)
  (hx : ∀ t (h : t < 25) (r : Fin 4000) (j : Fin 128), xs t (ix2 r j) = P.X (row ⟨t, h⟩ r) j)
  (hones : ∀ r : Fin 4000, ones (ix2 (0 : Fin 1) r) = (1 : EReal))
  (hWl : ∀ j k : Fin 128, Wl (ix2 j k) = P.Wl j k) (hAE : ∀ j k : Fin 128, AE (ix2 j k) = P.aeK j k)
  (hxr : ∀ k : Fin 128, xr (ix2 (0 : Fin 1) k) = P.xrK g k)

include hx hWl in
/-- A block through the left-hand map is the stream's rows through it. -/
theorem yb_eq (t : ℕ) (h : t < 25) (r : Fin 4000) (k : Fin 128) : yb (xs t) Wl r k = P.yK (row ⟨t, h⟩ r) k := by
  unfold yb Gat.yK
  exact Finset.sum_congr rfl fun j _ => by rw [hx t h r j, hWl j k]

include hx hWl hAE hxr in
/-- A block's head-replicated logits are the stream's. -/
theorem lbb_eq (t : ℕ) (h : t < 25) (r : Fin 4000) (k : Fin 128) :
    lbb (xs t) Wl xr AE r k = P.lbK g (row ⟨t, h⟩ r) k := by
  unfold lbb Gat.lbK
  exact Finset.sum_congr rfl fun j _ => by rw [yb_eq P xs Wl hx hWl t h r j, hxr j, hAE j k]

include hP hg hx hones hWl hAE hxr in
/-- After the 25 steps the view stream's state gives the specification's aggregate. -/
theorem agg_runV (k : Fin 128) :
    Ideal.div ((runV xs ones Wl AE xr 25).2.2 (ix2 (0 : Fin 1) k)) ((runV xs ones Wl AE xr 25).2.1 (ix2 (0 : Fin 1) k))
        + (P.bl k + P.bias k)
      = P.agg g k := by
  refine Gat.agg_of_online hP g hg k (fun t => (runV xs ones Wl AE xr t).1 (ix2 (0 : Fin 1) k))
    (fun t => (runV xs ones Wl AE xr t).2.1 (ix2 (0 : Fin 1) k)) (fun t => (runV xs ones Wl AE xr t).2.2 (ix2 (0 : Fin 1) k))
    (init_m_v k) (init_s_v k) (init_w_v k) ?_ ?_ ?_
  · intro t h
    show (stepV (xs t) ones Wl AE xr (runV xs ones Wl AE xr t)).1 (ix2 (0 : Fin 1) k) = _
    show k0_pay32 (k0_pay27 (xs t) Wl xr AE (runV xs ones Wl AE xr t).1) (ix2 (0 : Fin 1) k) = _
    rw [v_m]
    unfold mnew
    simp only [lbb_eq P g xs Wl AE xr hx hWl hAE hxr t h]
  · intro t h
    show k0_pay30 (xs t) ones Wl xr AE (runV xs ones Wl AE xr t).1 (runV xs ones Wl AE xr t).2.1 (ix2 (0 : Fin 1) k) = _
    rw [v_s _ _ _ _ _ _ _ hones]
    have hm : mnew (xs t) Wl xr AE (runV xs ones Wl AE xr t).1 k = (runV xs ones Wl AE xr (t + 1)).1 (ix2 (0 : Fin 1) k) :=
      (v_m (xs t) Wl AE xr (runV xs ones Wl AE xr t).1 k).symm
    simp only [hm, lbb_eq P g xs Wl AE xr hx hWl hAE hxr t h]
  · intro t h
    show k0_pay31 (k0_pay24 ones) (k0_pay25 (xs t) Wl) (k0_pay28 (xs t) Wl xr AE (runV xs ones Wl AE xr t).1)
      (k0_pay29 (xs t) Wl xr AE (runV xs ones Wl AE xr t).1) (runV xs ones Wl AE xr t).2.2 (ix2 (0 : Fin 1) k) = _
    rw [v_w _ _ _ _ _ _ _ hones]
    have hm : mnew (xs t) Wl xr AE (runV xs ones Wl AE xr t).1 k = (runV xs ones Wl AE xr (t + 1)).1 (ix2 (0 : Fin 1) k) :=
      (v_m (xs t) Wl AE xr (runV xs ones Wl AE xr t).1 k).symm
    simp only [hm, lbb_eq P g xs Wl AE xr hx hWl hAE hxr t h, yb_eq P xs Wl hx hWl t h]

include hP hg hx hones hWl hAE hxr in
/-- After the 25 steps the scene-point stream's state gives the specification's aggregate. -/
theorem agg_runS (k : Fin 128) :
    Ideal.div ((runS xs ones Wl AE xr 25).2.2 (ix2 (0 : Fin 1) k)) ((runS xs ones Wl AE xr 25).2.1 (ix2 (0 : Fin 1) k))
        + (P.bl k + P.bias k)
      = P.agg g k := by
  refine Gat.agg_of_online hP g hg k (fun t => (runS xs ones Wl AE xr t).1 (ix2 (0 : Fin 1) k))
    (fun t => (runS xs ones Wl AE xr t).2.1 (ix2 (0 : Fin 1) k)) (fun t => (runS xs ones Wl AE xr t).2.2 (ix2 (0 : Fin 1) k))
    (init_m_s k) (init_s_s k) (init_w_s k) ?_ ?_ ?_
  · intro t h
    show k0_pay3 (k0_pay36 (xs t) Wl xr AE (runS xs ones Wl AE xr t).1) (ix2 (0 : Fin 1) k) = _
    rw [s_m]
    unfold mnew
    simp only [lbb_eq P g xs Wl AE xr hx hWl hAE hxr t h]
  · intro t h
    show k0_pay1 (k0_pay33 ones) (k0_pay37 (xs t) Wl xr AE (runS xs ones Wl AE xr t).1)
      (k0_pay38 (xs t) Wl xr AE (runS xs ones Wl AE xr t).1) (runS xs ones Wl AE xr t).2.1 (ix2 (0 : Fin 1) k) = _
    rw [s_s _ _ _ _ _ _ _ hones]
    have hm : mnew (xs t) Wl xr AE (runS xs ones Wl AE xr t).1 k = (runS xs ones Wl AE xr (t + 1)).1 (ix2 (0 : Fin 1) k) :=
      (s_m (xs t) Wl AE xr (runS xs ones Wl AE xr t).1 k).symm
    simp only [hm, lbb_eq P g xs Wl AE xr hx hWl hAE hxr t h]
  · intro t h
    show k0_pay2 (k0_pay33 ones) (k0_pay34 (xs t) Wl) (k0_pay37 (xs t) Wl xr AE (runS xs ones Wl AE xr t).1)
      (k0_pay38 (xs t) Wl xr AE (runS xs ones Wl AE xr t).1) (runS xs ones Wl AE xr t).2.2 (ix2 (0 : Fin 1) k) = _
    rw [s_w _ _ _ _ _ _ _ hones]
    have hm : mnew (xs t) Wl xr AE (runS xs ones Wl AE xr t).1 k = (runS xs ones Wl AE xr (t + 1)).1 (ix2 (0 : Fin 1) k) :=
      (s_m (xs t) Wl AE xr (runS xs ones Wl AE xr t).1 k).symm
    simp only [hm, lbb_eq P g xs Wl AE xr hx hWl hAE hxr t h, yb_eq P xs Wl hx hWl t h]

end Stream

end Cert.KernelIdeal.Hand

end
-- ==== Proof.KDefs.lean ====
/-
  The kernel launch's staged arrays at their literal types, the two stored target terms, the two streams' running
  states step by step, and the result row the last step writes from them.
-/
import proofs.«162155_g33088428049086_cont_sun_c4_530_7_alg».proof.Proof.Gen.KernelIdeal.Frame.Runs
import proofs.«162155_g33088428049086_cont_sun_c4_530_7_alg».proof.Proof.KBlocks
import proofs.«162155_g33088428049086_cont_sun_c4_530_7_alg».proof.Proof.KMath

noncomputable section

namespace Cert.KernelIdeal.Hand

open Cert.KernelIdeal Cert.KernelIdeal.Gen
open Idealize.ShloMosaic Idealize.ShloMosaic.TcCoe Idealize.ShloMosaic.ValueIdx Idealize.SL.Sem
open Cert.Hand.Spec

variable (m : (ℓ : Loc nD τ sig) → Buf (Elt Ideal) ℓ) (c : Dev nD)

/-! ## The staged arrays, at their literal types -/

abbrev aG : Vec Ideal S1x256 .f32 := asVec S1x256 (V m c main_arg2)
abbrev aLnSv : Vec Ideal S1x256 .f32 := asVec S1x256 (V m c main_v20)
abbrev aLnBv : Vec Ideal S1x256 .f32 := asVec S1x256 (V m c main_v21)
abbrev aWgv : Vec Ideal S256x128 .f32 := asVec S256x128 (V m c main_arg5)
abbrev aBgv : Vec Ideal S1x128 .f32 := asVec S1x128 (V m c main_v22)
abbrev aWlv : Vec Ideal S128x128 .f32 := asVec S128x128 (V m c main_arg7)
abbrev aBlv : Vec Ideal S1x128 .f32 := asVec S1x128 (V m c main_v23)
abbrev aWrv : Vec Ideal S128x128 .f32 := asVec S128x128 (V m c main_arg9)
abbrev aBrv : Vec Ideal S1x128 .f32 := asVec S1x128 (V m c main_v24)
abbrev aAEv : Vec Ideal S128x128 .f32 := asVec S128x128 (V m c main_v11)
abbrev aBBv : Vec Ideal S1x128 .f32 := asVec S1x128 (V m c main_v17)
abbrev aLnSs : Vec Ideal S1x256 .f32 := asVec S1x256 (V m c main_v25)
abbrev aLnBs : Vec Ideal S1x256 .f32 := asVec S1x256 (V m c main_v26)
abbrev aWgs : Vec Ideal S256x128 .f32 := asVec S256x128 (V m c main_arg15)
abbrev aBgs : Vec Ideal S1x128 .f32 := asVec S1x128 (V m c main_v27)
abbrev aWls : Vec Ideal S128x128 .f32 := asVec S128x128 (V m c main_arg17)
abbrev aBls : Vec Ideal S1x128 .f32 := asVec S1x128 (V m c main_v28)
abbrev aWrs : Vec Ideal S128x128 .f32 := asVec S128x128 (V m c main_arg19)
abbrev aBrs : Vec Ideal S1x128 .f32 := asVec S1x128 (V m c main_v29)
abbrev aAEs : Vec Ideal S128x128 .f32 := asVec S128x128 (V m c main_v15)
abbrev aBBs : Vec Ideal S1x128 .f32 := asVec S1x128 (V m c main_v19)
abbrev aLnS : Vec Ideal S1x256 .f32 := asVec S1x256 (V m c main_v30)
abbrev aLnB : Vec Ideal S1x256 .f32 := asVec S1x256 (V m c main_v31)
abbrev aWm : Vec Ideal S256x256 .f32 := asVec S256x256 (V m c main_arg25)
abbrev aBm : Vec Ideal S1x256 .f32 := asVec S1x256 (V m c main_v32)
abbrev aOnes : Vec Ideal S1x4000 .f32 := asVec S1x4000 (V m c main_v33)

/-- The view rows' block at step t. -/
def xsV (t : ℕ) : Vec Ideal S4000x128 .f32 :=
  if h : t < cfg0.N then asVec S4000x128 (iblk m c 0 ⟨t, h⟩) else fun _ => (0 : EReal)

/-- The scene-point rows' block at step t. -/
def xsS (t : ℕ) : Vec Ideal S4000x128 .f32 :=
  if h : t < cfg0.N then asVec S4000x128 (iblk m c 1 ⟨t, h⟩) else fun _ => (0 : EReal)

/-- The view stream's stored target term. -/
def xrV : Vec Ideal S1x128 .f32 :=
  k0_pay7 (k0_pay5 (aBlv m c)) (k0_pay6 (aG m c) (aLnSv m c) (aLnBv m c) (aWgv m c) (aBgv m c) (aWrv m c)) (aBrv m c)

/-- The scene-point stream's stored target term. -/
def xrS : Vec Ideal S1x128 .f32 :=
  k0_pay9 (k0_pay8 (aG m c) (aLnSs m c) (aLnBs m c) (aWgs m c) (aBgs m c)) (aBls m c) (aWrs m c) (aBrs m c)

/-- The view stream's running state before step t. -/
abbrev stV (t : ℕ) : St := runV (xsV m c) (aOnes m c) (aWlv m c) (aAEv m c) (xrV m c) t

/-- The scene-point stream's running state before step t. -/
abbrev stS (t : ℕ) : St := runS (xsS m c) (aOnes m c) (aWls m c) (aAEs m c) (xrS m c) t

/-- The carried scratch after t steps: the two running states and the two stored target terms, in the order of the
    kernel's scratch buffers. -/
abbrev scr (t : ℕ) : Vec Ideal S1x128 .f32 × Vec Ideal S1x128 .f32 × Vec Ideal S1x128 .f32 × Vec Ideal S1x128 .f32
    × Vec Ideal S1x128 .f32 × Vec Ideal S1x128 .f32 × Vec Ideal S1x128 .f32 × Vec Ideal S1x128 .f32 :=
  ((stV m c t).1, (stV m c t).2.1, (stV m c t).2.2, xrV m c, (stS m c t).1, (stS m c t).2.1, (stS m c t).2.2, xrS m c)

/-- The result row the last step writes, from the states after all 25 steps. -/
def outRow : Vec Ideal S1x256 .f32 :=
  k0_pay4
    (k0_pay18 (stV m c 25).2.2 (stV m c 25).2.1 (aBBv m c) (stS m c 25).2.2 (stS m c 25).2.1 (aBBs m c) (aG m c))
    (k0_pay19 (aLnS m c)) (k0_pay20 (aLnB m c))
    (k0_pay22 (stV m c 25).2.2 (stV m c 25).2.1 (aBBv m c) (stS m c 25).2.2 (stS m c 25).2.1 (aBBs m c) (aG m c))
    (k0_pay23 (stV m c 25).2.2 (stV m c 25).2.1 (aBBv m c) (stS m c 25).2.2 (stS m c 25).2.1 (aBBs m c) (aG m c))
    (aWm m c) (aBm m c)

end Cert.KernelIdeal.Hand

end
-- ==== Proof.KValue.lean ====
/-
  After grid step n the kernel's carried scratch holds the two streams' running states after n + 1 steps and the two
  stored target terms; the last step's result row is written from the states after all 25 steps.

  Induction over the steps: the first step stores the target terms, resets the states and streams on them; every
  later step streams on what the step before left.
-/
import proofs.«162155_g33088428049086_cont_sun_c4_530_7_alg».proof.Proof.Patched.KernelIdeal.Value
import proofs.«162155_g33088428049086_cont_sun_c4_530_7_alg».proof.Proof.KPieces
import proofs.«162155_g33088428049086_cont_sun_c4_530_7_alg».proof.Proof.KDefs

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Cert.Hand.Spec

variable (m : (ℓ : Loc nD τ sig) → Buf (Elt Ideal) ℓ) (c : Dev nD)

/-- After step n the carried scratch is the state after n + 1 steps. -/
theorem scratch_inv : ∀ (n : ℕ) (hn : n < cfg0.N), (outsAt0 m c n hn).2 = scr m c (n + 1)
  | 0, hn => by
    let t : Fin cfg0.N := ⟨0, hn⟩
    have h0 : t.val % 25 = 0 := rfl
    have h1 : ¬t.val % 25 = 24 := by show ¬(0 % 25 = 24); decide
    show (outsAt0 m c t.val t.isLt).2 = _
    rw [outsAt0_A m c t h0 h1]
    dsimp only
    rw [outs_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) ((hcond0_0 t).mpr h0) (fun h => h1 ((hcond0_1 t).mp h))]
    have b0 : asVec S4000x128 (iblk m c 0 t) = xsV m c t.val := by unfold xsV; rw [dif_pos t.isLt]
    have b1 : asVec S4000x128 (iblk m c 1 t) = xsS m c t.val := by unfold xsS; rw [dif_pos t.isLt]
    have b2 := iblk_2 m c t
    have b3 := iblk_3 m c t
    have b4 := iblk_4 m c t
    have b5 := iblk_5 m c t
    have b6 := iblk_6 m c t
    have b7 := iblk_7 m c t
    have b8 := iblk_8 m c t
    have b9 := iblk_9 m c t
    have b10 := iblk_10 m c t
    have b11 := iblk_11 m c t
    have b12 := iblk_12 m c t
    have b13 := iblk_13 m c t
    have b14 := iblk_14 m c t
    have b15 := iblk_15 m c t
    have b16 := iblk_16 m c t
    have b17 := iblk_17 m c t
    have b18 := iblk_18 m c t
    have b19 := iblk_19 m c t
    have b20 := iblk_20 m c t
    have b21 := iblk_21 m c t
    have b22 := iblk_22 m c t
    have b23 := iblk_23 m c t
    have b24 := iblk_24 m c t
    have b25 := iblk_25 m c t
    have b26 := iblk_26 m c t
    have b27 := iblk_27 m c t
    simp only [asVec] at b0 b1 b2 b3 b4 b5 b6 b7 b8 b9 b10 b11 b12 b13 b14 b15 b16 b17 b18 b19 b20 b21 b22 b23 b24 b25 b26 b27
    simp only [b0, b1, b2, b3, b4, b5, b6, b7, b8, b9, b10, b11, b12, b13, b14, b15, b16, b17, b18, b19, b20, b21, b22, b23, b24, b25, b26, b27]
    rfl
  | n + 1, hn => by
    have ih := scratch_inv n (Nat.lt_of_succ_lt hn)
    have hN : n + 1 < 25 := lt_of_lt_of_eq hn N_0
    let t : Fin cfg0.N := ⟨n + 1, hn⟩
    have h0 : ¬t.val % 25 = 0 := by show ¬(n + 1) % 25 = 0; omega
    have hp : (outsAt0 m c (t.val - 1) (Nat.lt_of_le_of_lt (Nat.sub_le _ _) t.isLt)).2 = scr m c (n + 1) := ih
    have b0 : asVec S4000x128 (iblk m c 0 t) = xsV m c t.val := by unfold xsV; rw [dif_pos t.isLt]
    have b1 : asVec S4000x128 (iblk m c 1 t) = xsS m c t.val := by unfold xsS; rw [dif_pos t.isLt]
    have b2 := iblk_2 m c t
    have b3 := iblk_3 m c t
    have b4 := iblk_4 m c t
    have b5 := iblk_5 m c t
    have b6 := iblk_6 m c t
    have b7 := iblk_7 m c t
    have b8 := iblk_8 m c t
    have b9 := iblk_9 m c t
    have b10 := iblk_10 m c t
    have b11 := iblk_11 m c t
    have b12 := iblk_12 m c t
    have b13 := iblk_13 m c t
    have b14 := iblk_14 m c t
    have b15 := iblk_15 m c t
    have b16 := iblk_16 m c t
    have b17 := iblk_17 m c t
    have b18 := iblk_18 m c t
    have b19 := iblk_19 m c t
    have b20 := iblk_20 m c t
    have b21 := iblk_21 m c t
    have b22 := iblk_22 m c t
    have b23 := iblk_23 m c t
    have b24 := iblk_24 m c t
    have b25 := iblk_25 m c t
    have b26 := iblk_26 m c t
    have b27 := iblk_27 m c t
    simp only [asVec] at b0 b1 b2 b3 b4 b5 b6 b7 b8 b9 b10 b11 b12 b13 b14 b15 b16 b17 b18 b19 b20 b21 b22 b23 b24 b25 b26 b27
    by_cases h1 : t.val % 25 = 24
    · show (outsAt0 m c t.val t.isLt).2 = _
      rw [outsAt0_C m c t h0 h1]
      dsimp only
      rw [outs_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (fun h => h0 ((hcond0_0 t).mp h)) ((hcond0_1 t).mpr h1)]
      simp only [b0, b1, b2, b3, b4, b5, b6, b7, b8, b9, b10, b11, b12, b13, b14, b15, b16, b17, b18, b19, b20, b21, b22, b23, b24, b25, b26, b27, hp]
      rfl
    · show (outsAt0 m c t.val t.isLt).2 = _
      rw [outsAt0_B m c t h0 h1]
      dsimp only
      rw [outs_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (fun h => h0 ((hcond0_0 t).mp h)) (fun h => h1 ((hcond0_1 t).mp h))]
      simp only [b0, b1, b2, b3, b4, b5, b6, b7, b8, b9, b10, b11, b12, b13, b14, b15, b16, b17, b18, b19, b20, b21, b22, b23, b24, b25, b26, b27, hp]
      rfl

/-- The last step writes the result row from the states after all 25 steps. -/
theorem out_last (hn : 24 < cfg0.N) : (outsAt0 m c 24 hn).1 = outRow m c := by
  have ih := scratch_inv m c 23 (Nat.lt_of_succ_lt hn)
  let t : Fin cfg0.N := ⟨24, hn⟩
  have h0 : ¬t.val % 25 = 0 := by show ¬(24 % 25 = 0); decide
  have h1 : t.val % 25 = 24 := rfl
  have hp : (outsAt0 m c (t.val - 1) (Nat.lt_of_le_of_lt (Nat.sub_le _ _) t.isLt)).2 = scr m c 24 := ih
  have b0 : asVec S4000x128 (iblk m c 0 t) = xsV m c t.val := by unfold xsV; rw [dif_pos t.isLt]
  have b1 : asVec S4000x128 (iblk m c 1 t) = xsS m c t.val := by unfold xsS; rw [dif_pos t.isLt]
  have b2 := iblk_2 m c t
  have b3 := iblk_3 m c t
  have b4 := iblk_4 m c t
  have b5 := iblk_5 m c t
  have b6 := iblk_6 m c t
  have b7 := iblk_7 m c t
  have b8 := iblk_8 m c t
  have b9 := iblk_9 m c t
  have b10 := iblk_10 m c t
  have b11 := iblk_11 m c t
  have b12 := iblk_12 m c t
  have b13 := iblk_13 m c t
  have b14 := iblk_14 m c t
  have b15 := iblk_15 m c t
  have b16 := iblk_16 m c t
  have b17 := iblk_17 m c t
  have b18 := iblk_18 m c t
  have b19 := iblk_19 m c t
  have b20 := iblk_20 m c t
  have b21 := iblk_21 m c t
  have b22 := iblk_22 m c t
  have b23 := iblk_23 m c t
  have b24 := iblk_24 m c t
  have b25 := iblk_25 m c t
  have b26 := iblk_26 m c t
  have b27 := iblk_27 m c t
  simp only [asVec] at b0 b1 b2 b3 b4 b5 b6 b7 b8 b9 b10 b11 b12 b13 b14 b15 b16 b17 b18 b19 b20 b21 b22 b23 b24 b25 b26 b27
  show (outsAt0 m c t.val t.isLt).1 = _
  rw [outsAt0_C m c t h0 h1]
  dsimp only
  rw [out0_C_28_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (fun h => h0 ((hcond0_0 t).mp h)) ((hcond0_1 t).mpr h1)]
  simp only [b0, b1, b2, b3, b4, b5, b6, b7, b8, b9, b10, b11, b12, b13, b14, b15, b16, b17, b18, b19, b20, b21, b22, b23, b24, b25, b26, b27, hp]
  rfl

end Cert.KernelIdeal.Hand

end
-- ==== Proof.KHost.lean ====
/-
  The arrays the kernel's windows stage, as the host operations before the launch leave them, read at an index.

  Before the launch the program reshapes the rank-one parameters to rows, adds the left offset and the output offset
  of each stream (bb = bl + bias), builds the row of ones, and builds the block-diagonal logit matrices: with
  head(j) = ⌊j / 16⌋ computed on integers (an iota, a floor division written with sign and remainder corrections
  that never fire for nonnegative operands), same[j, k] = [head(j) = head(k)] converted to a float 1 or 0, and
  AE[j, k] = same[j, k] · att_flat[j], att_flat the 8 × 16 attention array flattened (flat channel j is entry
  (⌊j / 16⌋, j mod 16)).
-/
import proofs.«162155_g33088428049086_cont_sun_c4_530_7_alg».proof.Proof.Gen.KernelIdeal.Frame.Runs
import proofs.«162155_g33088428049086_cont_sun_c4_530_7_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.IdealHost

noncomputable section

namespace Cert.KernelIdeal.Hand

open Cert.KernelIdeal Cert.KernelIdeal.Gen Idealize.ShloMosaic Idealize.ShloMosaic.TcCoe Idealize.ShloMosaic.ValueIdx
open Cert.Hand.Spec

open Idealize.SL.Sem

/-- An entry of a float buffer, as the extended real it is. -/
private abbrev er (x : EReal) : EReal := x

variable (m : (ℓ : Loc nD τ sig) → Buf (Elt Ideal) ℓ) (c : Dev nD)

/-- A rank-one parameter as a row. -/
theorem V_main_v20 (k : Fin 256) : V m c main_v20 (ix2 (0 : Fin 1) k) = m ((c : Thread nD τ).loc main_arg3) (ix1 k) := by
  dsimp only [Gen.V]
  simp only [hostOps0, hostOps0_1, hostOps0_2, List.flatten_cons, List.flatten_nil, List.append_nil, List.cons_append,
    List.nil_append]
  after_results_simp
  exact shapeCast_a_1a_apply _ _ 0 k

/-- A rank-one parameter as a row. -/
theorem V_main_v21 (k : Fin 256) : V m c main_v21 (ix2 (0 : Fin 1) k) = m ((c : Thread nD τ).loc main_arg4) (ix1 k) := by
  dsimp only [Gen.V]
  simp only [hostOps0, hostOps0_1, hostOps0_2, List.flatten_cons, List.flatten_nil, List.append_nil, List.cons_append,
    List.nil_append]
  after_results_simp
  exact shapeCast_a_1a_apply _ _ 0 k

/-- A rank-one parameter as a row. -/
theorem V_main_v22 (k : Fin 128) : V m c main_v22 (ix2 (0 : Fin 1) k) = m ((c : Thread nD τ).loc main_arg6) (ix1 k) := by
  dsimp only [Gen.V]
  simp only [hostOps0, hostOps0_1, hostOps0_2, List.flatten_cons, List.flatten_nil, List.append_nil, List.cons_append,
    List.nil_append]
  after_results_simp
  exact shapeCast_a_1a_apply _ _ 0 k

/-- A rank-one parameter as a row. -/
theorem V_main_v23 (k : Fin 128) : V m c main_v23 (ix2 (0 : Fin 1) k) = m ((c : Thread nD τ).loc main_arg8) (ix1 k) := by
  dsimp only [Gen.V]
  simp only [hostOps0, hostOps0_1, hostOps0_2, List.flatten_cons, List.flatten_nil, List.append_nil, List.cons_append,
    List.nil_append]
  after_results_simp
  exact shapeCast_a_1a_apply _ _ 0 k

/-- A rank-one parameter as a row. -/
theorem V_main_v24 (k : Fin 128) : V m c main_v24 (ix2 (0 : Fin 1) k) = m ((c : Thread nD τ).loc main_arg10) (ix1 k) := by
  dsimp only [Gen.V]
  simp only [hostOps0, hostOps0_1, hostOps0_2, List.flatten_cons, List.flatten_nil, List.append_nil, List.cons_append,
    List.nil_append]
  after_results_simp
  exact shapeCast_a_1a_apply _ _ 0 k

/-- A rank-one parameter as a row. -/
theorem V_main_v25 (k : Fin 256) : V m c main_v25 (ix2 (0 : Fin 1) k) = m ((c : Thread nD τ).loc main_arg13) (ix1 k) := by
  dsimp only [Gen.V]
  simp only [hostOps0, hostOps0_1, hostOps0_2, List.flatten_cons, List.flatten_nil, List.append_nil, List.cons_append,
    List.nil_append]
  after_results_simp
  exact shapeCast_a_1a_apply _ _ 0 k

/-- A rank-one parameter as a row. -/
theorem V_main_v26 (k : Fin 256) : V m c main_v26 (ix2 (0 : Fin 1) k) = m ((c : Thread nD τ).loc main_arg14) (ix1 k) := by
  dsimp only [Gen.V]
  simp only [hostOps0, hostOps0_1, hostOps0_2, List.flatten_cons, List.flatten_nil, List.append_nil, List.cons_append,
    List.nil_append]
  after_results_simp
  exact shapeCast_a_1a_apply _ _ 0 k

/-- A rank-one parameter as a row. -/
theorem V_main_v27 (k : Fin 128) : V m c main_v27 (ix2 (0 : Fin 1) k) = m ((c : Thread nD τ).loc main_arg16) (ix1 k) := by
  dsimp only [Gen.V]
  simp only [hostOps0, hostOps0_1, hostOps0_2, List.flatten_cons, List.flatten_nil, List.append_nil, List.cons_append,
    List.nil_append]
  after_results_simp
  exact shapeCast_a_1a_apply _ _ 0 k

/-- A rank-one parameter as a row. -/
theorem V_main_v28 (k : Fin 128) : V m c main_v28 (ix2 (0 : Fin 1) k) = m ((c : Thread nD τ).loc main_arg18) (ix1 k) := by
  dsimp only [Gen.V]
  simp only [hostOps0, hostOps0_1, hostOps0_2, List.flatten_cons, List.flatten_nil, List.append_nil, List.cons_append,
    List.nil_append]
  after_results_simp
  exact shapeCast_a_1a_apply _ _ 0 k

/-- A rank-one parameter as a row. -/
theorem V_main_v29 (k : Fin 128) : V m c main_v29 (ix2 (0 : Fin 1) k) = m ((c : Thread nD τ).loc main_arg20) (ix1 k) := by
  dsimp only [Gen.V]
  simp only [hostOps0, hostOps0_1, hostOps0_2, List.flatten_cons, List.flatten_nil, List.append_nil, List.cons_append,
    List.nil_append]
  after_results_simp
  exact shapeCast_a_1a_apply _ _ 0 k

/-- A rank-one parameter as a row. -/
theorem V_main_v30 (k : Fin 256) : V m c main_v30 (ix2 (0 : Fin 1) k) = m ((c : Thread nD τ).loc main_arg23) (ix1 k) := by
  dsimp only [Gen.V]
  simp only [hostOps0, hostOps0_1, hostOps0_2, List.flatten_cons, List.flatten_nil, List.append_nil, List.cons_append,
    List.nil_append]
  after_results_simp
  exact shapeCast_a_1a_apply _ _ 0 k

/-- A rank-one parameter as a row. -/
theorem V_main_v31 (k : Fin 256) : V m c main_v31 (ix2 (0 : Fin 1) k) = m ((c : Thread nD τ).loc main_arg24) (ix1 k) := by
  dsimp only [Gen.V]
  simp only [hostOps0, hostOps0_1, hostOps0_2, List.flatten_cons, List.flatten_nil, List.append_nil, List.cons_append,
    List.nil_append]
  after_results_simp
  exact shapeCast_a_1a_apply _ _ 0 k

/-- A rank-one parameter as a row. -/
theorem V_main_v32 (k : Fin 256) : V m c main_v32 (ix2 (0 : Fin 1) k) = m ((c : Thread nD τ).loc main_arg26) (ix1 k) := by
  dsimp only [Gen.V]
  simp only [hostOps0, hostOps0_1, hostOps0_2, List.flatten_cons, List.flatten_nil, List.append_nil, List.cons_append,
    List.nil_append]
  after_results_simp
  exact shapeCast_a_1a_apply _ _ 0 k

/-- The view stream's combined offset. -/
theorem V_main_v17 (k : Fin 128) :
    V m c main_v17 (ix2 (0 : Fin 1) k) = er (m ((c : Thread nD τ).loc main_arg8) (ix1 k)) + er (m ((c : Thread nD τ).loc main_arg12) (ix1 k)) := by
  dsimp only [Gen.V]
  simp only [hostOps0, hostOps0_1, hostOps0_2, List.flatten_cons, List.flatten_nil, List.append_nil, List.cons_append,
    List.nil_append]
  after_results_simp
  exact shapeCast_a_1a_apply _ _ 0 k

/-- The scene-point stream's combined offset. -/
theorem V_main_v19 (k : Fin 128) :
    V m c main_v19 (ix2 (0 : Fin 1) k) = er (m ((c : Thread nD τ).loc main_arg18) (ix1 k)) + er (m ((c : Thread nD τ).loc main_arg22) (ix1 k)) := by
  dsimp only [Gen.V]
  simp only [hostOps0, hostOps0_1, hostOps0_2, List.flatten_cons, List.flatten_nil, List.append_nil, List.cons_append,
    List.nil_append]
  after_results_simp
  exact shapeCast_a_1a_apply _ _ 0 k

/-- The row of ones. -/
theorem V_main_v33 (r : Fin 4000) : V m c main_v33 (ix2 (0 : Fin 1) r) = (1 : EReal) := by
  dsimp only [Gen.V]
  simp only [hostOps0, hostOps0_1, hostOps0_2, List.flatten_cons, List.flatten_nil, List.append_nil, List.cons_append,
    List.nil_append]
  after_results_simp
  exact Ideal.ofBits_one_f32

/-! ## The two block-diagonal matrices -/

/-- The head of each flat channel as the program computes it on 32-bit integers: the channel number divided by 16,
    the quotient lowered by one where the signs of dividend and divisor differ and the remainder is not zero (never, for
    these nonnegative operands), is ⌊j / 16⌋. -/
private theorem heads_apply : ∀ j : Fin 128,
    ((select
      (andi
        (cmpi CmpIPredicate.ne (signi (iotaInDim S128 32 0))
          (broadcastInDim S128 ![] bcast_S_S128 (signi (id (constantI S_ 32 16#32)))))
        (cmpi CmpIPredicate.ne
          (Host.remsi (iotaInDim S128 32 0) (broadcastInDim S128 ![] bcast_S_S128 (id (constantI S_ 32 16#32))))
          (broadcastInDim S128 ![] bcast_S_S128 (constantI S_ 32 0#32))))
      (subi
        (Host.divsi (iotaInDim S128 32 0) (broadcastInDim S128 ![] bcast_S_S128 (id (constantI S_ 32 16#32))))
        (broadcastInDim S128 ![] bcast_S_S128 (constantI S_ 32 1#32)))
      (Host.divsi (iotaInDim S128 32 0) (broadcastInDim S128 ![] bcast_S_S128 (id (constantI S_ 32 16#32))))) : IVec S128 32) (ix1 j) = BitVec.ofNat 32 (j.val / 16) := by
  decide +kernel

/-- An integer-to-float conversion (unsigned reading) at an index: the word's value as a real. -/
private theorem uitofp_apply {s : Shape} {w : ℕ} (x : IVec s w) (i : s.Idx) :
    (uitofp .f32 x : FVec Ideal s .f32) i = (((x i).toNat : ℝ) : EReal) := rfl

/-- An integer comparison at an index. -/
private theorem cmpi_apply {s : Shape} {w : ℕ} (p : CmpIPredicate) (x y : IVec s w) (i : s.Idx) :
    cmpi p x y i = IntOp.cmpi p (x i) (y i) := rfl

/-- A vector laid down the rows of a square matrix: entry (j, k) is the vector's entry j. -/
private theorem rows_apply {α : Type} (x : S128.Idx → α) (j k : Fin 128) :
    broadcastInDim S128x128 ![0, 1] bcast_S128x1_S128x128_0_1 (broadcastInDim S128x1 ![0] bcast_S128_S128x1_0 x) (ix2 j k)
      = x (ix1 j) := by
  refine (broadcastInDim_apply _ _ _ (ix2 j k) (ix2 j (0 : Fin 1)) fun a => ?_).trans
    (broadcastInDim_apply _ _ _ _ (ix1 j) fun a => ?_)
  · match a with
    | ⟨0, _⟩ => rfl
    | ⟨1, _⟩ => rfl
  · match a with
    | ⟨0, _⟩ => rfl

/-- A vector laid along the columns of a square matrix: entry (j, k) is the vector's entry k. -/
private theorem cols_apply {α : Type} (x : S128.Idx → α) (j k : Fin 128) :
    broadcastInDim S128x128 ![0, 1] bcast_S1x128_S128x128_0_1 (broadcastInDim S1x128 ![1] bcast_S128_S1x128_1 x) (ix2 j k)
      = x (ix1 k) := by
  refine (broadcastInDim_apply _ _ _ (ix2 j k) (ix2 (0 : Fin 1) k) fun a => ?_).trans
    (broadcastInDim_apply _ _ _ _ (ix1 k) fun a => ?_)
  · match a with
    | ⟨0, _⟩ => rfl
    | ⟨1, _⟩ => rfl
  · match a with
    | ⟨0, _⟩ => rfl

/-- The comparison of two heads, converted to a float, is the indicator that the heads agree. -/
private theorem same_apply (j k : Fin 128) :
    (((IntOp.cmpi CmpIPredicate.eq (BitVec.ofNat 32 (j.val / 16)) (BitVec.ofNat 32 (k.val / 16))).toNat : ℝ) : EReal)
      = if hd j = hd k then (1 : EReal) else 0 := by
  have hiff : hd j = hd k ↔ j.val / 16 = k.val / 16 := by
    unfold hd
    exact Fin.mk.injEq _ _ _ _ ▸ Iff.rfl
  have hj := j.isLt
  have hk := k.isLt
  by_cases h : j.val / 16 = k.val / 16
  · rw [if_pos (hiff.mpr h), h]
    simp [IntOp.cmpi]
  · rw [if_neg (fun e => h (hiff.mp e))]
    have hne : BitVec.ofNat 32 (j.val / 16) ≠ BitVec.ofNat 32 (k.val / 16) := by
      intro e
      have e' := congrArg BitVec.toNat e
      rw [BitVec.toNat_ofNat, BitVec.toNat_ofNat, Nat.mod_eq_of_lt (by omega), Nat.mod_eq_of_lt (by omega)] at e'
      exact h e'
    simp [IntOp.cmpi, hne]

/-- The 8 × 16 attention array flattened: flat channel j is entry (⌊j / 16⌋, j mod 16). -/
private theorem att_flat_apply (x : S8x16.Idx → EReal) (j : Fin 128) :
    shapeCast S128 x shapeCasts_S8x16_S128 (ix1 j) = x (ix2 (hd j) (⟨j.val % 16, Nat.mod_lt _ (by decide)⟩ : Fin 16)) :=
  shapeCast_apply x _ (ix1 j) _ (by
    rw [Shape.rowMajor_val_two, Shape.rowMajor_val_one]
    show j.val / 16 * 16 + j.val % 16 = j.val
    omega)

/-- The view stream's block-diagonal logit matrix. -/
theorem V_main_v11 (j k : Fin 128) :
    V m c main_v11 (ix2 j k)
      = (if hd j = hd k then (1 : EReal) else 0) * er (m ((c : Thread nD τ).loc main_arg11) (ix2 (hd j) (⟨j.val % 16, Nat.mod_lt _ (by decide)⟩ : Fin 16))) := by
  dsimp only [Gen.V]
  simp only [hostOps0, hostOps0_1, hostOps0_2, List.flatten_cons, List.flatten_nil, List.append_nil, List.cons_append,
    List.nil_append]
  after_results_simp
  simp only [StableHlo.TRef.ofBuf, StableHlo.TRef.toBuf, cast_eq]
  rw [mulf_apply, uitofp_apply, cmpi_apply, rows_apply, rows_apply, cols_apply, heads_apply, heads_apply, same_apply]
  exact congrArg _ (att_flat_apply _ j)

/-- The scene-point stream's block-diagonal logit matrix. -/
theorem V_main_v15 (j k : Fin 128) :
    V m c main_v15 (ix2 j k)
      = (if hd j = hd k then (1 : EReal) else 0) * er (m ((c : Thread nD τ).loc main_arg21) (ix2 (hd j) (⟨j.val % 16, Nat.mod_lt _ (by decide)⟩ : Fin 16))) := by
  dsimp only [Gen.V]
  simp only [hostOps0, hostOps0_1, hostOps0_2, List.flatten_cons, List.flatten_nil, List.append_nil, List.cons_append,
    List.nil_append]
  after_results_simp
  simp only [StableHlo.TRef.ofBuf, StableHlo.TRef.toBuf, cast_eq]
  rw [mulf_apply, uitofp_apply, cmpi_apply, rows_apply, rows_apply, cols_apply, heads_apply, heads_apply, same_apply]
  exact congrArg _ (att_flat_apply _ j)

end Cert.KernelIdeal.Hand

end
-- ==== Proof.KArgs.lean ====
/-
  The kernel program's 27 argument arrays at launch, as the curried arrays the specification takes.
-/
import proofs.«162155_g33088428049086_cont_sun_c4_530_7_alg».proof.KernelIdeal
import proofs.«162155_g33088428049086_cont_sun_c4_530_7_alg».proof.Proof.Spec
import Idealize.ShloMosaic.Lib.ValueIdx

noncomputable section

namespace Cert.KernelIdeal.Hand

open Cert.KernelIdeal Idealize.ShloMosaic Idealize.ShloMosaic.TcCoe Idealize.ShloMosaic.ValueIdx Idealize.SL.Sem
open Cert.Hand.Spec

variable [Cert.KernelIdeal.Facts₀]

/-- A rank-two array, curried. -/
abbrev kd2 {a b : ℕ} (x : (⟨2, ![a, b]⟩ : Shape).Idx → EReal) (i : Fin a) (j : Fin b) : EReal := x (ix2 i j)
/-- A rank-one array. -/
abbrev kd1 {a : ℕ} (x : (⟨1, ![a]⟩ : Shape).Idx → EReal) (i : Fin a) : EReal := x (ix1 i)

variable (m : (ℓ : Loc nD τ sig) → Buf (Elt Ideal) ℓ) (c : Dev nD)

/-- The view stream's arrays. -/
def gatVK : Gat where
  X := kd2 (m ((c.tc : Thread nD τ).loc main_arg0))
  lnS := kd1 (m ((c.tc : Thread nD τ).loc main_arg3))
  lnB := kd1 (m ((c.tc : Thread nD τ).loc main_arg4))
  Wg := kd2 (m ((c.tc : Thread nD τ).loc main_arg5))
  bg := kd1 (m ((c.tc : Thread nD τ).loc main_arg6))
  Wl := kd2 (m ((c.tc : Thread nD τ).loc main_arg7))
  bl := kd1 (m ((c.tc : Thread nD τ).loc main_arg8))
  Wr := kd2 (m ((c.tc : Thread nD τ).loc main_arg9))
  br := kd1 (m ((c.tc : Thread nD τ).loc main_arg10))
  att := kd2 (m ((c.tc : Thread nD τ).loc main_arg11))
  bias := kd1 (m ((c.tc : Thread nD τ).loc main_arg12))

/-- The scene-point stream's arrays. -/
def gatSK : Gat where
  X := kd2 (m ((c.tc : Thread nD τ).loc main_arg1))
  lnS := kd1 (m ((c.tc : Thread nD τ).loc main_arg13))
  lnB := kd1 (m ((c.tc : Thread nD τ).loc main_arg14))
  Wg := kd2 (m ((c.tc : Thread nD τ).loc main_arg15))
  bg := kd1 (m ((c.tc : Thread nD τ).loc main_arg16))
  Wl := kd2 (m ((c.tc : Thread nD τ).loc main_arg17))
  bl := kd1 (m ((c.tc : Thread nD τ).loc main_arg18))
  Wr := kd2 (m ((c.tc : Thread nD τ).loc main_arg19))
  br := kd1 (m ((c.tc : Thread nD τ).loc main_arg20))
  att := kd2 (m ((c.tc : Thread nD τ).loc main_arg21))
  bias := kd1 (m ((c.tc : Thread nD τ).loc main_arg22))

/-- All the argument arrays. -/
def kerArgs : Args where
  g := fun k => (m ((c.tc : Thread nD τ).loc main_arg2)) (ix2 (0 : Fin 1) k)
  v := gatVK m c
  s := gatSK m c
  lnS := kd1 (m ((c.tc : Thread nD τ).loc main_arg23))
  lnB := kd1 (m ((c.tc : Thread nD τ).loc main_arg24))
  Wm := kd2 (m ((c.tc : Thread nD τ).loc main_arg25))
  bm := kd1 (m ((c.tc : Thread nD τ).loc main_arg26))

end Cert.KernelIdeal.Hand

end
-- ==== Proof.PreReal.lean ====
/-
  Under the precondition every entry of every argument array is a real number.

  The precondition is the conjunction, over the 27 argument arrays, of "every entry has absolute value below +∞";
  over the extended reals max(x, −x) < +∞ says x is neither infinity, that is, a real number.
-/
import proofs.«162155_g33088428049086_cont_sun_c4_530_7_alg».proof.Defs
import proofs.«162155_g33088428049086_cont_sun_c4_530_7_alg».proof.Proof.Gen.Pre_finite_inputs
import proofs.«162155_g33088428049086_cont_sun_c4_530_7_alg».proof.Proof.Spec
import Idealize.ShloMosaic.Lib.ReduceAll
import Idealize.ShloMosaic.Lib.ValueIdx
import Idealize.ShloMosaic.PureOps.Ideal.Laws

noncomputable section

namespace Cert.KernelIdeal.Hand

open Cert.KernelIdeal Idealize.ShloMosaic Idealize.ShloMosaic.TcCoe Idealize.ShloMosaic.ValueIdx Idealize.SL.Sem
open Cert.Hand.Spec

section Decode

/-- An extended real whose absolute value max(x, −x) lies below +∞ is a real number: at either infinity the
    maximum is +∞. -/
theorem isReal_of_abs_lt_top (x : EReal) (h : max x (-x) < ⊤) : IsReal x := by
  induction x using EReal.rec with
  | bot => simp at h
  | top => simp at h
  | coe r => exact ⟨r, rfl⟩

/-- The word 0x7F800000 denotes +∞. -/
theorem inf_word : Ideal.ofBits .f32 0x7F800000#32 = ⊤ := by
  simp [Ideal.ofBits, Ideal.ieee]

/-- A one-bit word made from a truth value is 1 exactly when the value is true. -/
theorem ofBool_eq_one (b : Bool) : BitVec.ofBool b = 1#1 ↔ b = true := by cases b <;> decide

/-- The element fact: |x| compared below the word of +∞ came out 1, so x is a real number. -/
theorem isReal_of_cmp (x : EReal)
    (h : FloatOps.cmpf (F := Ideal) (φ := .f32) .olt (FloatOps.hostAbsf (F := Ideal) (φ := .f32) x)
        (FloatOps.ofBits (F := Ideal) .f32 0x7F800000#32) = 1#1) : IsReal x := by
  have h' : Ideal.cmp .olt (max x (-x)) (Ideal.ofBits .f32 0x7F800000#32) = 1#1 := h
  rw [inf_word] at h'
  unfold Ideal.cmp at h'
  rw [ofBool_eq_one] at h'
  exact isReal_of_abs_lt_top x (of_decide_eq_true h')

/-- The rank-0 shape has one index. -/
instance subsingleton_scalar_idx : Subsingleton Cert.Pre_finite_inputs.S_.Idx := ⟨fun a b => funext fun d => d.elim0⟩

/-- One array: the conjunction over all its entries of "|x| is below +∞" came out 1, so every entry is real. -/
theorem real_of_all {s : Shape} {axes : List (Fin s.rank)} (x : FVec Ideal s .f32)
    (hb : Cert.Pre_finite_inputs.S_.BroadcastsInDim s (![] : Fin 0 → Fin s.rank)) (hr : s.ReducesTo axes Cert.Pre_finite_inputs.S_)
    (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1) (i : s.Idx) : IsReal (x i) :=
  isReal_of_cmp (x i) (Host.reduce_andi_all _ _ hr hu ix0 e i)

/-- A conjunction of two one-bit arrays that is 1 at an index has both 1 there. -/
theorem andi_ix {s : Shape} (x y : IVec s 1) (i : s.Idx) (h : andi x y i = 1#1) : x i = 1#1 ∧ y i = 1#1 :=
  IntOp.andi_eq_one.1 h

end Decode

section Split

variable [Cert.Pre_finite_inputs.Facts]

/-- The whole precondition read back: the printed predicate is the conjunction, array by array, of the conjunction over
    the array's entries of "|x| is below +∞"; it came out 1, so each of its 27 components did, and every entry of
    every array is a real number. -/
theorem pre_split
    (a0 : FVec Ideal Cert.Pre_finite_inputs.S100000x128 .f32) (a1 : FVec Ideal Cert.Pre_finite_inputs.S100000x128 .f32) (a2 : FVec Ideal Cert.Pre_finite_inputs.S1x256 .f32)
    (a3 : FVec Ideal Cert.Pre_finite_inputs.S256 .f32) (a4 : FVec Ideal Cert.Pre_finite_inputs.S256 .f32) (a5 : FVec Ideal Cert.Pre_finite_inputs.S256x128 .f32)
    (a6 : FVec Ideal Cert.Pre_finite_inputs.S128 .f32) (a7 : FVec Ideal Cert.Pre_finite_inputs.S128x128 .f32) (a8 : FVec Ideal Cert.Pre_finite_inputs.S128 .f32)
    (a9 : FVec Ideal Cert.Pre_finite_inputs.S128x128 .f32) (a10 : FVec Ideal Cert.Pre_finite_inputs.S128 .f32) (a11 : FVec Ideal Cert.Pre_finite_inputs.S8x16 .f32)
    (a12 : FVec Ideal Cert.Pre_finite_inputs.S128 .f32) (a13 : FVec Ideal Cert.Pre_finite_inputs.S256 .f32) (a14 : FVec Ideal Cert.Pre_finite_inputs.S256 .f32)
    (a15 : FVec Ideal Cert.Pre_finite_inputs.S256x128 .f32) (a16 : FVec Ideal Cert.Pre_finite_inputs.S128 .f32) (a17 : FVec Ideal Cert.Pre_finite_inputs.S128x128 .f32)
    (a18 : FVec Ideal Cert.Pre_finite_inputs.S128 .f32) (a19 : FVec Ideal Cert.Pre_finite_inputs.S128x128 .f32) (a20 : FVec Ideal Cert.Pre_finite_inputs.S128 .f32)
    (a21 : FVec Ideal Cert.Pre_finite_inputs.S8x16 .f32) (a22 : FVec Ideal Cert.Pre_finite_inputs.S128 .f32) (a23 : FVec Ideal Cert.Pre_finite_inputs.S256 .f32)
    (a24 : FVec Ideal Cert.Pre_finite_inputs.S256 .f32) (a25 : FVec Ideal Cert.Pre_finite_inputs.S256x256 .f32) (a26 : FVec Ideal Cert.Pre_finite_inputs.S256 .f32)
    (h : Cert.Pre_finite_inputs.fn (F := Ideal) a0 a1 a2 a3 a4 a5 a6 a7 a8 a9 a10 a11 a12 a13 a14 a15 a16 a17 a18 a19 a20 a21 a22 a23 a24 a25 a26 = fun _ => 1#1) :
      (∀ i, IsReal (a0 i)) ∧ (∀ i, IsReal (a1 i)) ∧ (∀ i, IsReal (a2 i)) ∧ (∀ i, IsReal (a3 i)) ∧
      (∀ i, IsReal (a4 i)) ∧ (∀ i, IsReal (a5 i)) ∧ (∀ i, IsReal (a6 i)) ∧ (∀ i, IsReal (a7 i)) ∧
      (∀ i, IsReal (a8 i)) ∧ (∀ i, IsReal (a9 i)) ∧ (∀ i, IsReal (a10 i)) ∧ (∀ i, IsReal (a11 i)) ∧
      (∀ i, IsReal (a12 i)) ∧ (∀ i, IsReal (a13 i)) ∧ (∀ i, IsReal (a14 i)) ∧ (∀ i, IsReal (a15 i)) ∧
      (∀ i, IsReal (a16 i)) ∧ (∀ i, IsReal (a17 i)) ∧ (∀ i, IsReal (a18 i)) ∧ (∀ i, IsReal (a19 i)) ∧
      (∀ i, IsReal (a20 i)) ∧ (∀ i, IsReal (a21 i)) ∧ (∀ i, IsReal (a22 i)) ∧ (∀ i, IsReal (a23 i)) ∧
      (∀ i, IsReal (a24 i)) ∧ (∀ i, IsReal (a25 i)) ∧ (∀ i, IsReal (a26 i)) := by
  have h := congrFun h ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Cert.Pre_finite_inputs.fn_part7] at h
  obtain ⟨h, h26⟩ := andi_ix _ _ _ h
  obtain ⟨h, h25⟩ := andi_ix _ _ _ h
  obtain ⟨h, h24⟩ := andi_ix _ _ _ h
  obtain ⟨h, h23⟩ := andi_ix _ _ _ h
  obtain ⟨h, h22⟩ := andi_ix _ _ _ h
  obtain ⟨h, h21⟩ := andi_ix _ _ _ h
  obtain ⟨h, h20⟩ := andi_ix _ _ _ h
  obtain ⟨h, h19⟩ := andi_ix _ _ _ h
  obtain ⟨h, h18⟩ := andi_ix _ _ _ h
  obtain ⟨h, h17⟩ := andi_ix _ _ _ h
  obtain ⟨h, h16⟩ := andi_ix _ _ _ h
  obtain ⟨h, h15⟩ := andi_ix _ _ _ h
  obtain ⟨h, h14⟩ := andi_ix _ _ _ h
  obtain ⟨h, h13⟩ := andi_ix _ _ _ h
  obtain ⟨h, h12⟩ := andi_ix _ _ _ h
  obtain ⟨h, h11⟩ := andi_ix _ _ _ h
  obtain ⟨h, h10⟩ := andi_ix _ _ _ h
  obtain ⟨h, h9⟩ := andi_ix _ _ _ h
  obtain ⟨h, h8⟩ := andi_ix _ _ _ h
  obtain ⟨h, h7⟩ := andi_ix _ _ _ h
  obtain ⟨h, h6⟩ := andi_ix _ _ _ h
  obtain ⟨h, h5⟩ := andi_ix _ _ _ h
  obtain ⟨h, h4⟩ := andi_ix _ _ _ h
  obtain ⟨h, h3⟩ := andi_ix _ _ _ h
  obtain ⟨h, h2⟩ := andi_ix _ _ _ h
  obtain ⟨h0, h1⟩ := andi_ix _ _ _ h
  exact ⟨real_of_all a0 _ _ _ h0, real_of_all a1 _ _ _ h1, real_of_all a2 _ _ _ h2,
    real_of_all a3 _ _ _ h3, real_of_all a4 _ _ _ h4, real_of_all a5 _ _ _ h5,
    real_of_all a6 _ _ _ h6, real_of_all a7 _ _ _ h7, real_of_all a8 _ _ _ h8,
    real_of_all a9 _ _ _ h9, real_of_all a10 _ _ _ h10, real_of_all a11 _ _ _ h11,
    real_of_all a12 _ _ _ h12, real_of_all a13 _ _ _ h13, real_of_all a14 _ _ _ h14,
    real_of_all a15 _ _ _ h15, real_of_all a16 _ _ _ h16, real_of_all a17 _ _ _ h17,
    real_of_all a18 _ _ _ h18, real_of_all a19 _ _ _ h19, real_of_all a20 _ _ _ h20,
    real_of_all a21 _ _ _ h21, real_of_all a22 _ _ _ h22, real_of_all a23 _ _ _ h23,
    real_of_all a24 _ _ _ h24, real_of_all a25 _ _ _ h25, real_of_all a26 _ _ _ h26⟩

end Split

variable [hPre_finite_inputs : Cert.Pre_finite_inputs.Facts]
variable (m : (ℓ : Loc nD τ sig) → Buf (Elt Ideal) ℓ) (hpre : Cert.Pre_KernelIdeal m) (c : Dev nD)
include hpre

theorem pre_real_arg0 : ∀ i, IsReal (m ((c.tc : Thread nD τ).loc main_arg0) i) := by
  exact (pre_split _ _ _ _ _ _ _ _ _ _ _ _ _ _ _ _ _ _ _ _ _ _ _ _ _ _ _ (hpre c)).1

theorem pre_real_arg1 : ∀ i, IsReal (m ((c.tc : Thread nD τ).loc main_arg1) i) := by
  exact (pre_split _ _ _ _ _ _ _ _ _ _ _ _ _ _ _ _ _ _ _ _ _ _ _ _ _ _ _ (hpre c)).2.1

theorem pre_real_arg2 : ∀ i, IsReal (m ((c.tc : Thread nD τ).loc main_arg2) i) := by
  exact (pre_split _ _ _ _ _ _ _ _ _ _ _ _ _ _ _ _ _ _ _ _ _ _ _ _ _ _ _ (hpre c)).2.2.1

theorem pre_real_arg3 : ∀ i, IsReal (m ((c.tc : Thread nD τ).loc main_arg3) i) := by
  exact (pre_split _ _ _ _ _ _ _ _ _ _ _ _ _ _ _ _ _ _ _ _ _ _ _ _ _ _ _ (hpre c)).2.2.2.1

theorem pre_real_arg4 : ∀ i, IsReal (m ((c.tc : Thread nD τ).loc main_arg4) i) := by
  exact (pre_split _ _ _ _ _ _ _ _ _ _ _ _ _ _ _ _ _ _ _ _ _ _ _ _ _ _ _ (hpre c)).2.2.2.2.1

theorem pre_real_arg5 : ∀ i, IsReal (m ((c.tc : Thread nD τ).loc main_arg5) i) := by
  exact (pre_split _ _ _ _ _ _ _ _ _ _ _ _ _ _ _ _ _ _ _ _ _ _ _ _ _ _ _ (hpre c)).2.2.2.2.2.1

theorem pre_real_arg6 : ∀ i, IsReal (m ((c.tc : Thread nD τ).loc main_arg6) i) := by
  exact (pre_split _ _ _ _ _ _ _ _ _ _ _ _ _ _ _ _ _ _ _ _ _ _ _ _ _ _ _ (hpre c)).2.2.2.2.2.2.1

theorem pre_real_arg7 : ∀ i, IsReal (m ((c.tc : Thread nD τ).loc main_arg7) i) := by
  exact (pre_split _ _ _ _ _ _ _ _ _ _ _ _ _ _ _ _ _ _ _ _ _ _ _ _ _ _ _ (hpre c)).2.2.2.2.2.2.2.1

theorem pre_real_arg8 : ∀ i, IsReal (m ((c.tc : Thread nD τ).loc main_arg8) i) := by
  exact (pre_split _ _ _ _ _ _ _ _ _ _ _ _ _ _ _ _ _ _ _ _ _ _ _ _ _ _ _ (hpre c)).2.2.2.2.2.2.2.2.1

theorem pre_real_arg9 : ∀ i, IsReal (m ((c.tc : Thread nD τ).loc main_arg9) i) := by
  exact (pre_split _ _ _ _ _ _ _ _ _ _ _ _ _ _ _ _ _ _ _ _ _ _ _ _ _ _ _ (hpre c)).2.2.2.2.2.2.2.2.2.1

theorem pre_real_arg10 : ∀ i, IsReal (m ((c.tc : Thread nD τ).loc main_arg10) i) := by
  exact (pre_split _ _ _ _ _ _ _ _ _ _ _ _ _ _ _ _ _ _ _ _ _ _ _ _ _ _ _ (hpre c)).2.2.2.2.2.2.2.2.2.2.1

theorem pre_real_arg11 : ∀ i, IsReal (m ((c.tc : Thread nD τ).loc main_arg11) i) := by
  exact (pre_split _ _ _ _ _ _ _ _ _ _ _ _ _ _ _ _ _ _ _ _ _ _ _ _ _ _ _ (hpre c)).2.2.2.2.2.2.2.2.2.2.2.1

theorem pre_real_arg12 : ∀ i, IsReal (m ((c.tc : Thread nD τ).loc main_arg12) i) := by
  exact (pre_split _ _ _ _ _ _ _ _ _ _ _ _ _ _ _ _ _ _ _ _ _ _ _ _ _ _ _ (hpre c)).2.2.2.2.2.2.2.2.2.2.2.2.1

theorem pre_real_arg13 : ∀ i, IsReal (m ((c.tc : Thread nD τ).loc main_arg13) i) := by
  exact (pre_split _ _ _ _ _ _ _ _ _ _ _ _ _ _ _ _ _ _ _ _ _ _ _ _ _ _ _ (hpre c)).2.2.2.2.2.2.2.2.2.2.2.2.2.1

theorem pre_real_arg14 : ∀ i, IsReal (m ((c.tc : Thread nD τ).loc main_arg14) i) := by
  exact (pre_split _ _ _ _ _ _ _ _ _ _ _ _ _ _ _ _ _ _ _ _ _ _ _ _ _ _ _ (hpre c)).2.2.2.2.2.2.2.2.2.2.2.2.2.2.1

theorem pre_real_arg15 : ∀ i, IsReal (m ((c.tc : Thread nD τ).loc main_arg15) i) := by
  exact (pre_split _ _ _ _ _ _ _ _ _ _ _ _ _ _ _ _ _ _ _ _ _ _ _ _ _ _ _ (hpre c)).2.2.2.2.2.2.2.2.2.2.2.2.2.2.2.1

theorem pre_real_arg16 : ∀ i, IsReal (m ((c.tc : Thread nD τ).loc main_arg16) i) := by
  exact (pre_split _ _ _ _ _ _ _ _ _ _ _ _ _ _ _ _ _ _ _ _ _ _ _ _ _ _ _ (hpre c)).2.2.2.2.2.2.2.2.2.2.2.2.2.2.2.2.1

theorem pre_real_arg17 : ∀ i, IsReal (m ((c.tc : Thread nD τ).loc main_arg17) i) := by
  exact (pre_split _ _ _ _ _ _ _ _ _ _ _ _ _ _ _ _ _ _ _ _ _ _ _ _ _ _ _ (hpre c)).2.2.2.2.2.2.2.2.2.2.2.2.2.2.2.2.2.1

theorem pre_real_arg18 : ∀ i, IsReal (m ((c.tc : Thread nD τ).loc main_arg18) i) := by
  exact (pre_split _ _ _ _ _ _ _ _ _ _ _ _ _ _ _ _ _ _ _ _ _ _ _ _ _ _ _ (hpre c)).2.2.2.2.2.2.2.2.2.2.2.2.2.2.2.2.2.2.1

theorem pre_real_arg19 : ∀ i, IsReal (m ((c.tc : Thread nD τ).loc main_arg19) i) := by
  exact (pre_split _ _ _ _ _ _ _ _ _ _ _ _ _ _ _ _ _ _ _ _ _ _ _ _ _ _ _ (hpre c)).2.2.2.2.2.2.2.2.2.2.2.2.2.2.2.2.2.2.2.1

theorem pre_real_arg20 : ∀ i, IsReal (m ((c.tc : Thread nD τ).loc main_arg20) i) := by
  exact (pre_split _ _ _ _ _ _ _ _ _ _ _ _ _ _ _ _ _ _ _ _ _ _ _ _ _ _ _ (hpre c)).2.2.2.2.2.2.2.2.2.2.2.2.2.2.2.2.2.2.2.2.1

theorem pre_real_arg21 : ∀ i, IsReal (m ((c.tc : Thread nD τ).loc main_arg21) i) := by
  exact (pre_split _ _ _ _ _ _ _ _ _ _ _ _ _ _ _ _ _ _ _ _ _ _ _ _ _ _ _ (hpre c)).2.2.2.2.2.2.2.2.2.2.2.2.2.2.2.2.2.2.2.2.2.1

theorem pre_real_arg22 : ∀ i, IsReal (m ((c.tc : Thread nD τ).loc main_arg22) i) := by
  exact (pre_split _ _ _ _ _ _ _ _ _ _ _ _ _ _ _ _ _ _ _ _ _ _ _ _ _ _ _ (hpre c)).2.2.2.2.2.2.2.2.2.2.2.2.2.2.2.2.2.2.2.2.2.2.1

theorem pre_real_arg23 : ∀ i, IsReal (m ((c.tc : Thread nD τ).loc main_arg23) i) := by
  exact (pre_split _ _ _ _ _ _ _ _ _ _ _ _ _ _ _ _ _ _ _ _ _ _ _ _ _ _ _ (hpre c)).2.2.2.2.2.2.2.2.2.2.2.2.2.2.2.2.2.2.2.2.2.2.2.1

theorem pre_real_arg24 : ∀ i, IsReal (m ((c.tc : Thread nD τ).loc main_arg24) i) := by
  exact (pre_split _ _ _ _ _ _ _ _ _ _ _ _ _ _ _ _ _ _ _ _ _ _ _ _ _ _ _ (hpre c)).2.2.2.2.2.2.2.2.2.2.2.2.2.2.2.2.2.2.2.2.2.2.2.2.1

theorem pre_real_arg25 : ∀ i, IsReal (m ((c.tc : Thread nD τ).loc main_arg25) i) := by
  exact (pre_split _ _ _ _ _ _ _ _ _ _ _ _ _ _ _ _ _ _ _ _ _ _ _ _ _ _ _ (hpre c)).2.2.2.2.2.2.2.2.2.2.2.2.2.2.2.2.2.2.2.2.2.2.2.2.2.1

theorem pre_real_arg26 : ∀ i, IsReal (m ((c.tc : Thread nD τ).loc main_arg26) i) := by
  exact (pre_split _ _ _ _ _ _ _ _ _ _ _ _ _ _ _ _ _ _ _ _ _ _ _ _ _ _ _ (hpre c)).2.2.2.2.2.2.2.2.2.2.2.2.2.2.2.2.2.2.2.2.2.2.2.2.2.2

end Cert.KernelIdeal.Hand

end
-- ==== Proof.KOut.lean ====
/-
  The result row the kernel's last step writes is the specification's result row.

  With real inputs each stream's state after the 25 steps gives the specification's aggregate (the running soft-max
  is the plain one); the staged parameter rows are the argument arrays (reshaped, or with the two offsets added, or
  the block-diagonal logit matrix); so the updated global row is the specification's, and the last layer norm,
  rectifier and linear map with the skip connection are the specification's.
-/
import proofs.«162155_g33088428049086_cont_sun_c4_530_7_alg».proof.Defs
import proofs.«162155_g33088428049086_cont_sun_c4_530_7_alg».proof.Proof.KDefs
import proofs.«162155_g33088428049086_cont_sun_c4_530_7_alg».proof.Proof.KHost
import proofs.«162155_g33088428049086_cont_sun_c4_530_7_alg».proof.Proof.KArgs
import proofs.«162155_g33088428049086_cont_sun_c4_530_7_alg».proof.Proof.PreReal

noncomputable section

namespace Cert.KernelIdeal.Hand

open Cert.KernelIdeal Cert.KernelIdeal.Gen
open Idealize.ShloMosaic Idealize.ShloMosaic.TcCoe Idealize.ShloMosaic.ValueIdx Idealize.SL.Sem
open Cert.Hand.Spec

variable [hPre_finite_inputs : Cert.Pre_finite_inputs.Facts]
variable (m : (ℓ : Loc nD τ sig) → Buf (Elt Ideal) ℓ) (hpre : Cert.Pre_KernelIdeal m) (c : Dev nD)

/-! ## Shared small facts -/

/-- A step below 25 is a grid point. -/
theorem lt_N {t : ℕ} (h : t < 25) : t < cfg0.N := lt_of_lt_of_eq h (N_0.symm : (25 : ℕ) = cfg0.N)

/-- The staged global row. -/
theorem aG_eq : (fun i => aG m c (ix2 (0 : Fin 1) i)) = (kerArgs m c).g := by
  funext i
  show V m c main_arg2 (ix2 (0 : Fin 1) i) = _
  rw [V_main_arg2]
  rfl

/-- The row of ones. -/
theorem aOnes_at (r : Fin 4000) : aOnes m c (ix2 (0 : Fin 1) r) = (1 : EReal) := V_main_v33 m c r

/-! ## The view stream's staged arrays are its argument arrays -/

/-- Row r of the view block at step t is source row 4000·t + r. -/
theorem xsV_eq (t : ℕ) (h : t < 25) (r : Fin 4000) (j : Fin 128) :
    xsV m c t (ix2 r j) = (gatVK m c).X (row ⟨t, h⟩ r) j := by
  unfold xsV
  rw [dif_pos (lt_N h)]
  refine (iblk_0 m c ⟨t, lt_N h⟩ h r j).trans ?_
  show V m c main_arg0 (ix2 (row ⟨t, h⟩ r) j) = _
  rw [V_main_arg0]
  rfl

/-- The staged left-hand matrix. -/
theorem aWlv_at (j k : Fin 128) : aWlv m c (ix2 j k) = (gatVK m c).Wl j k := by
  show V m c main_arg7 (ix2 j k) = _
  rw [V_main_arg7]
  rfl

/-- The staged block-diagonal logit matrix. -/
theorem aAEv_at (j k : Fin 128) : aAEv m c (ix2 j k) = (gatVK m c).aeK j k :=
  V_main_v11 m c j k

/-- The staged layer-norm scale. -/
theorem aLnSv_eq : (fun i => aLnSv m c (ix2 (0 : Fin 1) i)) = (gatVK m c).lnS := by
  funext i
  exact V_main_v20 m c i

/-- The staged layer-norm offset. -/
theorem aLnBv_eq : (fun i => aLnBv m c (ix2 (0 : Fin 1) i)) = (gatVK m c).lnB := by
  funext i
  exact V_main_v21 m c i

/-- The staged projection matrix. -/
theorem aWgv_eq : (fun i j => aWgv m c (ix2 i j)) = (gatVK m c).Wg := by
  funext i j
  show V m c main_arg5 (ix2 i j) = _
  rw [V_main_arg5]
  rfl

/-- The staged projection offset. -/
theorem aBgv_eq : (fun i => aBgv m c (ix2 (0 : Fin 1) i)) = (gatVK m c).bg := by
  funext i
  exact V_main_v22 m c i

/-- The staged left offset. -/
theorem aBlv_at (k : Fin 128) : aBlv m c (ix2 (0 : Fin 1) k) = (gatVK m c).bl k :=
  V_main_v23 m c k

/-- The staged right offset. -/
theorem aBrv_at (k : Fin 128) : aBrv m c (ix2 (0 : Fin 1) k) = (gatVK m c).br k :=
  V_main_v24 m c k

/-- The staged right-hand matrix. -/
theorem aWrv_at (j k : Fin 128) : aWrv m c (ix2 j k) = (gatVK m c).Wr j k := by
  show V m c main_arg9 (ix2 j k) = _
  rw [V_main_arg9]
  rfl

/-- The staged combined offset is the left offset plus the output offset. -/
theorem aBBv_at (k : Fin 128) : aBBv m c (ix2 (0 : Fin 1) k) = (gatVK m c).bl k + (gatVK m c).bias k :=
  V_main_v17 m c k

/-- The view stream's stored target term is the specification's, in the kernel's arrangement. -/
theorem xrV_eq (k : Fin 128) : xrV m c (ix2 (0 : Fin 1) k) = (gatVK m c).xrK (kerArgs m c).g k := by
  refine (init_xr_v (g := aG m c) (lnS := aLnSv m c) (lnB := aLnBv m c) (Wg := aWgv m c) (bg := aBgv m c)
    (bl := aBlv m c) (br := aBrv m c) (Wr := aWrv m c) k).trans ?_
  rw [aG_eq m c, aLnSv_eq m c, aLnBv_eq m c, aWgv_eq m c, aBgv_eq m c, aBlv_at m c k, aBrv_at m c k]
  unfold Gat.xrK Gat.xt
  refine congrArg (fun t => ((gatVK m c).bl k + t) + (gatVK m c).br k) (Finset.sum_congr rfl fun j _ => ?_)
  rw [aWrv_at m c j k]

/-! ## The scene-point stream's staged arrays are its argument arrays -/

/-- Row r of the scene-point block at step t is source row 4000·t + r. -/
theorem xsS_eq (t : ℕ) (h : t < 25) (r : Fin 4000) (j : Fin 128) :
    xsS m c t (ix2 r j) = (gatSK m c).X (row ⟨t, h⟩ r) j := by
  unfold xsS
  rw [dif_pos (lt_N h)]
  refine (iblk_1 m c ⟨t, lt_N h⟩ h r j).trans ?_
  show V m c main_arg1 (ix2 (row ⟨t, h⟩ r) j) = _
  rw [V_main_arg1]
  rfl

/-- The staged left-hand matrix. -/
theorem aWls_at (j k : Fin 128) : aWls m c (ix2 j k) = (gatSK m c).Wl j k := by
  show V m c main_arg17 (ix2 j k) = _
  rw [V_main_arg17]
  rfl

/-- The staged block-diagonal logit matrix. -/
theorem aAEs_at (j k : Fin 128) : aAEs m c (ix2 j k) = (gatSK m c).aeK j k :=
  V_main_v15 m c j k

/-- The staged layer-norm scale. -/
theorem aLnSs_eq : (fun i => aLnSs m c (ix2 (0 : Fin 1) i)) = (gatSK m c).lnS := by
  funext i
  exact V_main_v25 m c i

/-- The staged layer-norm offset. -/
theorem aLnBs_eq : (fun i => aLnBs m c (ix2 (0 : Fin 1) i)) = (gatSK m c).lnB := by
  funext i
  exact V_main_v26 m c i

/-- The staged projection matrix. -/
theorem aWgs_eq : (fun i j => aWgs m c (ix2 i j)) = (gatSK m c).Wg := by
  funext i j
  show V m c main_arg15 (ix2 i j) = _
  rw [V_main_arg15]
  rfl

/-- The staged projection offset. -/
theorem aBgs_eq : (fun i => aBgs m c (ix2 (0 : Fin 1) i)) = (gatSK m c).bg := by
  funext i
  exact V_main_v27 m c i

/-- The staged left offset. -/
theorem aBls_at (k : Fin 128) : aBls m c (ix2 (0 : Fin 1) k) = (gatSK m c).bl k :=
  V_main_v28 m c k

/-- The staged right offset. -/
theorem aBrs_at (k : Fin 128) : aBrs m c (ix2 (0 : Fin 1) k) = (gatSK m c).br k :=
  V_main_v29 m c k

/-- The staged right-hand matrix. -/
theorem aWrs_at (j k : Fin 128) : aWrs m c (ix2 j k) = (gatSK m c).Wr j k := by
  show V m c main_arg19 (ix2 j k) = _
  rw [V_main_arg19]
  rfl

/-- The staged combined offset is the left offset plus the output offset. -/
theorem aBBs_at (k : Fin 128) : aBBs m c (ix2 (0 : Fin 1) k) = (gatSK m c).bl k + (gatSK m c).bias k :=
  V_main_v19 m c k

/-- The scene-point stream's stored target term is the specification's, in the kernel's arrangement. -/
theorem xrS_eq (k : Fin 128) : xrS m c (ix2 (0 : Fin 1) k) = (gatSK m c).xrK (kerArgs m c).g k := by
  refine (init_xr_s (g := aG m c) (lnS := aLnSs m c) (lnB := aLnBs m c) (Wg := aWgs m c) (bg := aBgs m c)
    (bl := aBls m c) (br := aBrs m c) (Wr := aWrs m c) k).trans ?_
  rw [aG_eq m c, aLnSs_eq m c, aLnBs_eq m c, aWgs_eq m c, aBgs_eq m c, aBls_at m c k, aBrs_at m c k]
  unfold Gat.xrK Gat.xt
  refine congrArg (fun t => ((gatSK m c).bl k + t) + (gatSK m c).br k) (Finset.sum_congr rfl fun j _ => ?_)
  rw [aWrs_at m c j k]

/-! ## The last block's staged parameters -/

/-- The last layer norm's scale. -/
theorem aLnS_eq : (fun i => aLnS m c (ix2 (0 : Fin 1) i)) = (kerArgs m c).lnS := by
  funext i
  exact V_main_v30 m c i

/-- The last layer norm's offset. -/
theorem aLnB_eq : (fun i => aLnB m c (ix2 (0 : Fin 1) i)) = (kerArgs m c).lnB := by
  funext i
  exact V_main_v31 m c i

/-- The last linear map's matrix. -/
theorem aWm_eq : (fun i j => aWm m c (ix2 i j)) = (kerArgs m c).Wm := by
  funext i j
  show V m c main_arg25 (ix2 i j) = _
  rw [V_main_arg25]
  rfl

/-- The last linear map's offset. -/
theorem aBm_eq : (fun i => aBm m c (ix2 (0 : Fin 1) i)) = (kerArgs m c).bm := by
  funext i
  exact V_main_v32 m c i

include hpre in
/-- Under the precondition all the argument arrays are real. -/
theorem kerArgs_real : (kerArgs m c).Real := by
  exact
    { g := fun k => pre_real_arg2 m hpre c _
      v :=
      {
        X := fun n k => pre_real_arg0 m hpre c _
        lnS := fun k => pre_real_arg3 m hpre c _
        lnB := fun k => pre_real_arg4 m hpre c _
        Wg := fun k j => pre_real_arg5 m hpre c _
        bg := fun j => pre_real_arg6 m hpre c _
        Wl := fun k j => pre_real_arg7 m hpre c _
        bl := fun j => pre_real_arg8 m hpre c _
        Wr := fun k j => pre_real_arg9 m hpre c _
        br := fun j => pre_real_arg10 m hpre c _
        att := fun h a => pre_real_arg11 m hpre c _
        bias := fun j => pre_real_arg12 m hpre c _ }
      s :=
      {
        X := fun n k => pre_real_arg1 m hpre c _
        lnS := fun k => pre_real_arg13 m hpre c _
        lnB := fun k => pre_real_arg14 m hpre c _
        Wg := fun k j => pre_real_arg15 m hpre c _
        bg := fun j => pre_real_arg16 m hpre c _
        Wl := fun k j => pre_real_arg17 m hpre c _
        bl := fun j => pre_real_arg18 m hpre c _
        Wr := fun k j => pre_real_arg19 m hpre c _
        br := fun j => pre_real_arg20 m hpre c _
        att := fun h a => pre_real_arg21 m hpre c _
        bias := fun j => pre_real_arg22 m hpre c _ }
      lnS := fun k => pre_real_arg23 m hpre c _
      lnB := fun k => pre_real_arg24 m hpre c _
      Wm := fun k j => pre_real_arg25 m hpre c _
      bm := fun j => pre_real_arg26 m hpre c _ }

include hpre in
/-- The view stream: weighted sum over normaliser plus the combined offset is the specification's aggregate. -/
theorem aggV_eq (k : Fin 128) :
    Ideal.div ((stV m c 25).2.2 (ix2 (0 : Fin 1) k)) ((stV m c 25).2.1 (ix2 (0 : Fin 1) k)) + aBBv m c (ix2 (0 : Fin 1) k)
      = (kerArgs m c).v.agg (kerArgs m c).g k := by
  rw [aBBv_at m c k]
  exact agg_runV (gatVK m c) (kerArgs_real m hpre c).v (kerArgs m c).g (kerArgs_real m hpre c).g
    (xsV m c) (aOnes m c) (aWlv m c) (aAEv m c) (xrV m c)
    (xsV_eq m c) (aOnes_at m c) (aWlv_at m c) (aAEv_at m c) (xrV_eq m c) k

include hpre in
/-- The scene-point stream likewise. -/
theorem aggS_eq (k : Fin 128) :
    Ideal.div ((stS m c 25).2.2 (ix2 (0 : Fin 1) k)) ((stS m c 25).2.1 (ix2 (0 : Fin 1) k)) + aBBs m c (ix2 (0 : Fin 1) k)
      = (kerArgs m c).s.agg (kerArgs m c).g k := by
  rw [aBBs_at m c k]
  exact agg_runS (gatSK m c) (kerArgs_real m hpre c).s (kerArgs m c).g (kerArgs_real m hpre c).g
    (xsS m c) (aOnes m c) (aWls m c) (aAEs m c) (xrS m c)
    (xsS_eq m c) (aOnes_at m c) (aWls_at m c) (aAEs_at m c) (xrS_eq m c) k

include hpre in
/-- The updated global row the last step forms is the specification's. -/
theorem xfin_eq :
    xfin (stV m c 25).2.2 (stV m c 25).2.1 (aBBv m c) (stS m c 25).2.2 (stS m c 25).2.1 (aBBs m c) (aG m c)
      = (kerArgs m c).x := by
  funext j
  have hg : aG m c (ix2 (0 : Fin 1) j) = (kerArgs m c).g j := congrFun (aG_eq m c) j
  unfold xfin Args.x Args.cat
  by_cases h : j.val < 128
  · rw [dif_pos h, dif_pos h, hg, aggV_eq m hpre c ⟨j.val, h⟩]
  · have hlt : j.val - 128 < 128 := by omega
    rw [dif_neg h, dif_neg h, hg, aggS_eq m hpre c ⟨j.val - 128, hlt⟩]

include hpre in
/-- The row the last step writes is the specification's result row. -/
theorem outRow_eq (j : Fin 256) : outRow m c (ix2 (0 : Fin 1) j) = (kerArgs m c).out j := by
  have h1 := fin_out (wv := (stV m c 25).2.2) (sv := (stV m c 25).2.1) (bbv := aBBv m c) (ws := (stS m c 25).2.2)
    (ss := (stS m c 25).2.1) (bbs := aBBs m c) (g := aG m c) (lnS := aLnS m c) (lnB := aLnB m c) (bm := aBm m c)
    (Wm := aWm m c) j
  rw [xfin_eq m hpre c, aLnS_eq m c, aLnB_eq m c, aWm_eq m c, aBm_eq m c] at h1
  exact h1

end Cert.KernelIdeal.Hand

end
-- ==== Proof.SpecArr.lean ====
/-
  The specification's result as an array of shape [1, 256].
-/
import proofs.«162155_g33088428049086_cont_sun_c4_530_7_alg».proof.Proof.Spec
import Idealize.ShloMosaic.Lib.ValueIdx

noncomputable section

namespace Cert.Hand.Spec

open Idealize.ShloMosaic Idealize.ShloMosaic.ValueIdx

/-- The result row as a [1, 256] array. -/
def outArr (A : Args) : (⟨2, ![1, 256]⟩ : Shape).Idx → EReal := fun i => A.out ⟨(i 1).val, idx2_lt1 i⟩

theorem outArr_apply (A : Args) (j : Fin 256) : outArr A (ix2 (0 : Fin 1) j) = A.out j := rfl

/-- An array of shape [1, 256] is determined by its entries (0, j). -/
theorem eq_outArr (A : Args) (f : (⟨2, ![1, 256]⟩ : Shape).Idx → EReal)
    (h : ∀ j : Fin 256, f (ix2 (0 : Fin 1) j) = A.out j) : f = outArr A := by
  funext i
  have hi : i = ix2 (⟨(i 0).val, idx2_lt0 i⟩ : Fin 1) (⟨(i 1).val, idx2_lt1 i⟩ : Fin 256) := by
    funext d
    match d with
    | ⟨0, _⟩ => rfl
    | ⟨1, _⟩ => rfl
  have h0 : (⟨(i 0).val, idx2_lt0 i⟩ : Fin 1) = 0 := Subsingleton.elim _ _
  rw [hi, h0, h]
  rfl

end Cert.Hand.Spec

end
-- ==== Proof.KFinal.lean ====
/-
  The kernel program's run ends with the specification's result row in the result array.

  The result window's one block is the whole [1, 256] array and is written back once, at the last grid step, with the
  row that step stored; so the array ends holding that row, which is the specification's result row.
-/
import proofs.«162155_g33088428049086_cont_sun_c4_530_7_alg».proof.Proof.KValue
import proofs.«162155_g33088428049086_cont_sun_c4_530_7_alg».proof.Proof.KOut
import proofs.«162155_g33088428049086_cont_sun_c4_530_7_alg».proof.Proof.SpecArr

set_option maxRecDepth 16384

noncomputable section

namespace Cert.KernelIdeal.Hand

open Cert.KernelIdeal Cert.KernelIdeal.Gen Cert.KernelIdeal.GenP Cert.KernelIdeal.ValueP
open Idealize.ShloMosaic Idealize.ShloMosaic.TcCoe Idealize.ShloMosaic.ValueIdx Idealize.SL.Sem
open Idealize.ShloMosaic.Pipeline (Dat)
open Cert.Hand.Spec

variable [hPre_finite_inputs : Cert.Pre_finite_inputs.Facts]
variable (m : (ℓ : Loc nD τ sig) → Buf (Elt Ideal) ℓ) (hpre : Cert.Pre_KernelIdeal m) (c : Dev nD)

/-- The result window's block is the whole array: contents read through the block at a grid step are those contents,
    index by index. -/
theorem cut_read28 (t : Fin cfg0.N) (X : Vec Ideal S1x256 .f32) (G : S1x256.Idx → EReal) (hX : X = G) :
    (cfg0.win 28).cut (grid0.coords t) X = ((cfg0.win 28).blk t).view.read (Elt Ideal) G := by
  subst hX
  funext j
  have hemb : ((cfg0.win 28).blk t).view.emb j = (cfg0.win 28).xinj (grid0.coords t) j := by
    funext a; apply Fin.ext
    match a with
    | ⟨0, _⟩ =>
      show win0_28.index t (0 : Fin 2) * 1 + 1 * (j 0).val = (j 0).val
      have e : win0_28.index t (0 : Fin 2) = 0 := rfl
      omega
    | ⟨1, _⟩ =>
      show win0_28.index t (1 : Fin 2) * 256 + 1 * (j 1).val = (j 1).val
      have e : win0_28.index t (1 : Fin 2) = 0 := rfl
      omega
  show X ((cfg0.win 28).xinj (grid0.coords t) j) = X (((cfg0.win 28).blk t).view.emb j)
  rw [hemb]

include hpre in
/-- The row the last step stores is the specification's result row, as an array. -/
theorem last_row (n : ℕ) (hn : n < cfg0.N) (e : n = 24) : (outsAt0 m c n hn).1 = outArr (kerArgs m c) := by
  subst e
  exact (out_last m c hn).trans (eq_outArr (kerArgs m c) (outRow m c) (fun j => outRow_eq m hpre c j))

include hpre in
/-- What the last grid step writes back is the specification's result row read through the result window's block. -/
theorem flushed28_eq (t : Fin cfg0.N) (hf : (cfg0.win 28).flush t = true) :
    (dats m 0 c).flushed 28 t = ((cfg0.win 28).blk t).view.read (Elt Ideal) (outArr (kerArgs m c)) := by
  -- the only step that writes back is the last one
  have h24 : t.val = 24 := by
    have h := (flush0_28 t).mp hf
    have hN : t.val < 25 := lt_of_lt_of_eq t.isLt (show cfg0.N = 25 from N_0)
    omega
  rw [flushed28]
  exact cut_read28 t _ _ (last_row m hpre c t.val t.isLt h24)

/-- Every index of the result array lies in the block the last step writes back. -/
theorem cover28 (i : S1x256.Idx) :
    ∃ t : Fin cfg0.N, (cfg0.win 28).flush t = true ∧ i ∈ ((cfg0.win 28).blk t).view.set := by
  have hN : 24 < cfg0.N := lt_of_lt_of_eq (by decide : 24 < 25) (show cfg0.N = 25 from N_0).symm
  refine ⟨⟨24, hN⟩, (flush0_28 ⟨24, hN⟩).mpr rfl, ?_⟩
  show i ∈ ((View.whole main_v34).slice (win0_28.rect ⟨24, hN⟩)).set
  rw [View.set_slice_whole, Rect.mem_set_unit]
  intro a
  match a with
  | ⟨0, _⟩ =>
    show win0_28.index ⟨24, hN⟩ (0 : Fin 2) * 1 ≤ (i 0).val ∧ (i 0).val < win0_28.index ⟨24, hN⟩ (0 : Fin 2) * 1 + 1
    have e : win0_28.index ⟨24, hN⟩ (0 : Fin 2) = 0 := rfl
    have hi : (i 0).val < 1 := idx2_lt0 i
    omega
  | ⟨1, _⟩ =>
    show win0_28.index ⟨24, hN⟩ (1 : Fin 2) * 256 ≤ (i 1).val ∧ (i 1).val < win0_28.index ⟨24, hN⟩ (1 : Fin 2) * 256 + 256
    have e : win0_28.index ⟨24, hN⟩ (1 : Fin 2) = 0 := rfl
    have hi : (i 1).val < 256 := idx2_lt1 i
    omega

include hpre in
/-- The result array after the run. -/
theorem final28 : (dats m 0 c).arrAt 28 cfg0.N = outArr (kerArgs m c) :=
  (dats m 0 c).arrAt_eq_of_cover 28 (outArr (kerArgs m c)) (fun t hf => flushed28_eq m hpre c t hf) (fun i => cover28 i)

include hpre in
/-- The kernel program's run: the result array ends at the specification's result row, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c : Thread nD τ).loc main_v34) = outArr (kerArgs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨(h c).1.trans (final28 m hpre c), (h c).2⟩) (run_blocks m ρ)

end Cert.KernelIdeal.Hand

end
-- ==== Proof.RefOps.lean ====
import proofs.«162155_g33088428049086_cont_sun_c4_530_7_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The reference's operations, stretch 1 of 13 (48 operations, the last writes main_v19). -/
abbrev ops1 : List (HloOp τ sig (Elt F)) :=
  [ StableHlo.nullary main_cst (constant S_ .f32 0x00000000#32),
    StableHlo.binary main_arg2 main_cst main_v0 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    StableHlo.unary main_v0 main_v1 (broadcastInDim S1x1 ![0] bcast_S1_S1x1_0 : (⟨S1, .f32⟩ : BufTy).Contents (Elt F) → (⟨S1x1, .f32⟩ : BufTy).Contents (Elt F)),
    StableHlo.nullary main_cst_0 (constant S_ .f32 0x43800000#32),
    StableHlo.unary main_cst_0 main_v2 (broadcastInDim S1x1 ![] bcast_S_S1x1 : (⟨S_, .f32⟩ : BufTy).Contents (Elt F) → (⟨S1x1, .f32⟩ : BufTy).Contents (Elt F)),
    StableHlo.binary main_v1 main_v2 main_v3 (Host.divf : (⟨S1x1, .f32⟩ : BufTy).Contents (Elt F) → (⟨S1x1, .f32⟩ : BufTy).Contents (Elt F) → (⟨S1x1, .f32⟩ : BufTy).Contents (Elt F)),
    StableHlo.nullary main_c (constantI S_ 32 0#32),
    StableHlo.TRef.nullary main_call0.cst (constant S_ .f32 0x00000000#32),
    StableHlo.TRef.binary (.of main_arg2) main_call0.cst main_call0.v0 (fun x v => Host.reduceAdd x v reducesTo_S1x256_S1_d1 h_S_),
    StableHlo.TRef.unary main_call0.v0 main_call0.v1 (broadcastInDim S1x1 ![0] bcast_S1_S1x1_0),
    StableHlo.TRef.nullary main_call0.cst_0 (constant S_ .f32 0x43800000#32),
    StableHlo.TRef.unary main_call0.cst_0 main_call0.v2 (broadcastInDim S1x1 ![] bcast_S_S1x1),
    StableHlo.TRef.binary main_call0.v1 main_call0.v2 main_call0.v3 Host.divf,
    StableHlo.TRef.unary main_call0.v3 main_call0.v4 (broadcastInDim S1x256 ![0, 1] bcast_S1x1_S1x256_0_1),
    StableHlo.TRef.binary (.of main_arg2) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x43800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S1x256_S1_d1 h_S_),
    StableHlo.TRef.unary main_call0.v9 main_call0.v10 (broadcastInDim S1x1 ![0] bcast_S1_S1x1_0),
    StableHlo.TRef.unary main_call0.v8 main_call0.v11 (broadcastInDim S1x1 ![] bcast_S_S1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x1 ![] bcast_S_S1x1),
    StableHlo.TRef.ternary main_call0.v13 main_call0.v12 main_call0.call0.v1 main_call0.call0.v2 (fun p a b => select (broadcastInDim S1x1 ![] bcast_S_S1x1 p) a b),
    StableHlo.unary main_v3 main_v5 (broadcastInDim S1x256 ![0, 1] bcast_S1x1_S1x256_0_1 : (⟨S1x1, .f32⟩ : BufTy).Contents (Elt F) → (⟨S1x256, .f32⟩ : BufTy).Contents (Elt F)),
    StableHlo.binary main_arg2 main_v5 main_v6 (subf : (⟨S1x256, .f32⟩ : BufTy).Contents (Elt F) → (⟨S1x256, .f32⟩ : BufTy).Contents (Elt F) → (⟨S1x256, .f32⟩ : BufTy).Contents (Elt F)),
    StableHlo.nullary main_cst_1 (constant S_ .f32 0x3727C5AC#32),
    StableHlo.unary main_cst_1 main_v7 (broadcastInDim S1x1 ![] bcast_S_S1x1 : (⟨S_, .f32⟩ : BufTy).Contents (Elt F) → (⟨S1x1, .f32⟩ : BufTy).Contents (Elt F)),
    StableHlo.binary main_v4 main_v7 main_v8 (addf : (⟨S1x1, .f32⟩ : BufTy).Contents (Elt F) → (⟨S1x1, .f32⟩ : BufTy).Contents (Elt F) → (⟨S1x1, .f32⟩ : BufTy).Contents (Elt F)),
    StableHlo.unary main_v8 main_v9 (Host.rsqrt : (⟨S1x1, .f32⟩ : BufTy).Contents (Elt F) → (⟨S1x1, .f32⟩ : BufTy).Contents (Elt F)),
    StableHlo.unary main_v9 main_v10 (broadcastInDim S1x256 ![0, 1] bcast_S1x1_S1x256_0_1 : (⟨S1x1, .f32⟩ : BufTy).Contents (Elt F) → (⟨S1x256, .f32⟩ : BufTy).Contents (Elt F)),
    StableHlo.binary main_v6 main_v10 main_v11 (mulf : (⟨S1x256, .f32⟩ : BufTy).Contents (Elt F) → (⟨S1x256, .f32⟩ : BufTy).Contents (Elt F) → (⟨S1x256, .f32⟩ : BufTy).Contents (Elt F)),
    StableHlo.unary main_arg3 main_v12 (broadcastInDim S1x256 ![1] bcast_S256_S1x256_1 : (⟨S256, .f32⟩ : BufTy).Contents (Elt F) → (⟨S1x256, .f32⟩ : BufTy).Contents (Elt F)),
    StableHlo.binary main_v11 main_v12 main_v13 (mulf : (⟨S1x256, .f32⟩ : BufTy).Contents (Elt F) → (⟨S1x256, .f32⟩ : BufTy).Contents (Elt F) → (⟨S1x256, .f32⟩ : BufTy).Contents (Elt F)),
    StableHlo.unary main_arg4 main_v14 (broadcastInDim S1x256 ![1] bcast_S256_S1x256_1 : (⟨S256, .f32⟩ : BufTy).Contents (Elt F) → (⟨S1x256, .f32⟩ : BufTy).Contents (Elt F)),
    StableHlo.binary main_v13 main_v14 main_v15 (addf : (⟨S1x256, .f32⟩ : BufTy).Contents (Elt F) → (⟨S1x256, .f32⟩ : BufTy).Contents (Elt F) → (⟨S1x256, .f32⟩ : BufTy).Contents (Elt F)),
    StableHlo.TRef.nullary main_call1.cst (constant S_ .f32 0x00000000#32),
    StableHlo.TRef.unary main_call1.cst main_call1.v0 (broadcastInDim S1x256 ![] bcast_S_S1x256),
    StableHlo.TRef.binary (.of main_v15) main_call1.v0 main_call1.v1 maximumf,
    StableHlo.binary main_v16 main_arg5 main_v17 ((fun l r => Host.dotGeneral dot_S1x256_S256x128_S1x128_1_0_0_1_n_n none l r) : (⟨S1x256, .f32⟩ : BufTy).Contents (Elt F) → (⟨S256x128, .f32⟩ : BufTy).Contents (Elt F) → (⟨S1x128, .f32⟩ : BufTy).Contents (Elt F)),
    StableHlo.unary main_arg6 main_v18 (broadcastInDim S1x128 ![1] bcast_S128_S1x128_1 : (⟨S128, .f32⟩ : BufTy).Contents (Elt F) → (⟨S1x128, .f32⟩ : BufTy).Contents (Elt F)),
    StableHlo.binary main_v17 main_v18 main_v19 (addf : (⟨S1x128, .f32⟩ : BufTy).Contents (Elt F) → (⟨S1x128, .f32⟩ : BufTy).Contents (Elt F) → (⟨S1x128, .f32⟩ : BufTy).Contents (Elt F)) ]

/-- The reference's operations, stretch 2 of 13 (11 operations, the last writes main_v30). -/
abbrev ops2 : List (HloOp τ sig (Elt F)) :=
  [ StableHlo.binary main_arg0 main_arg7 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    StableHlo.reshape main_v23 main_v24 rfl shapeCasts_S100000x128_S100000x8x16,
    StableHlo.binary main_v19 main_arg9 main_v25 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    StableHlo.unary main_arg10 main_v26 (broadcastInDim S1x128 ![1] bcast_S128_S1x128_1 : (⟨S128, .f32⟩ : BufTy).Contents (Elt F) → (⟨S1x128, .f32⟩ : BufTy).Contents (Elt F)),
    StableHlo.binary main_v25 main_v26 main_v27 (addf : (⟨S1x128, .f32⟩ : BufTy).Contents (Elt F) → (⟨S1x128, .f32⟩ : BufTy).Contents (Elt F) → (⟨S1x128, .f32⟩ : BufTy).Contents (Elt F)),
    StableHlo.reshape main_v27 main_v28 rfl shapeCasts_S1x128_S1x8x16,
    StableHlo.unary main_v28 main_v29 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v24 main_v29 main_v30 (addf : (⟨S100000x8x16, .f32⟩ : BufTy).Contents (Elt F) → (⟨S100000x8x16, .f32⟩ : BufTy).Contents (Elt F) → (⟨S100000x8x16, .f32⟩ : BufTy).Contents (Elt F)) ]

/-- The reference's operations, stretch 3 of 13 (13 operations, the last writes main_v35). -/
abbrev ops3 : List (HloOp τ sig (Elt F)) :=
  [ StableHlo.nullary main_cst_2 (constant S_ .f32 0x3E4CCCCD#32),
    StableHlo.TRef.nullary main_call2.cst (constant S_ .f32 0x00000000#32),
    StableHlo.TRef.unary main_call2.cst main_call2.v0 (broadcastInDim S100000x8x16 ![] bcast_S_S100000x8x16),
    StableHlo.TRef.binary (.of main_v30) main_call2.v0 main_call2.v1 (cmpf .oge),
    StableHlo.TRef.unary (.of main_cst_2) main_call2.v2 id,
    StableHlo.TRef.unary main_call2.v2 main_call2.v3 (broadcastInDim S100000x8x16 ![] bcast_S_S100000x8x16),
    StableHlo.TRef.binary main_call2.v3 (.of main_v30) main_call2.v4 mulf,
    StableHlo.TRef.ternary main_call2.v1 (.of main_v30) main_call2.v4 main_call2.call0.v0 select,
    StableHlo.unary main_arg11 main_v32 (broadcastInDim S1x8x16 ![1, 2] bcast_S8x16_S1x8x16_1_2 : (⟨S8x16, .f32⟩ : BufTy).Contents (Elt F) → (⟨S1x8x16, .f32⟩ : BufTy).Contents (Elt F)),
    StableHlo.unary main_v32 main_v33 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v31 main_v33 main_v34 (mulf : (⟨S100000x8x16, .f32⟩ : BufTy).Contents (Elt F) → (⟨S100000x8x16, .f32⟩ : BufTy).Contents (Elt F) → (⟨S100000x8x16, .f32⟩ : BufTy).Contents (Elt F)),
    StableHlo.nullary main_cst_3 (constant S_ .f32 0x00000000#32),
    StableHlo.binary main_v34 main_cst_3 main_v35 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)) ]

/-- The reference's operations, stretch 4 of 13 (14 operations, the last writes main_v46). -/
abbrev ops4 : List (HloOp τ sig (Elt F)) :=
  [ StableHlo.nullary main_cst_4 (constant S_ .f32 0xFF800000#32),
    StableHlo.binary main_v35 main_cst_4 main_v36 ((fun x v => Host.reduce FloatOps.maximumf x v reducesTo_S100000x8_S8_d0 h_S_) : (⟨S100000x8, .f32⟩ : BufTy).Contents (Elt F) → (⟨S_, .f32⟩ : BufTy).Contents (Elt F) → (⟨S8, .f32⟩ : BufTy).Contents (Elt F)),
    StableHlo.nullary main_cst_5 (constant S_ .f32 0xFF800000#32),
    StableHlo.unary main_cst_5 main_v37 (broadcastInDim S8 ![] bcast_S_S8 : (⟨S_, .f32⟩ : BufTy).Contents (Elt F) → (⟨S8, .f32⟩ : BufTy).Contents (Elt F)),
    StableHlo.binary main_v37 main_v36 main_v38 (maximumf : (⟨S8, .f32⟩ : BufTy).Contents (Elt F) → (⟨S8, .f32⟩ : BufTy).Contents (Elt F) → (⟨S8, .f32⟩ : BufTy).Contents (Elt F)),
    StableHlo.unary main_v38 main_v39 (broadcastInDim S1x8 ![1] bcast_S8_S1x8_1 : (⟨S8, .f32⟩ : BufTy).Contents (Elt F) → (⟨S1x8, .f32⟩ : BufTy).Contents (Elt F)),
    StableHlo.unary main_v39 main_v40 (broadcastInDim S100000x8 ![0, 1] bcast_S1x8_S100000x8_0_1 : (⟨S1x8, .f32⟩ : BufTy).Contents (Elt F) → (⟨S100000x8, .f32⟩ : BufTy).Contents (Elt F)),
    StableHlo.binary main_v35 main_v40 main_v41 (subf : (⟨S100000x8, .f32⟩ : BufTy).Contents (Elt F) → (⟨S100000x8, .f32⟩ : BufTy).Contents (Elt F) → (⟨S100000x8, .f32⟩ : BufTy).Contents (Elt F)),
    StableHlo.unary main_v41 main_v42 (Host.exp : (⟨S100000x8, .f32⟩ : BufTy).Contents (Elt F) → (⟨S100000x8, .f32⟩ : BufTy).Contents (Elt F)),
    StableHlo.nullary main_cst_6 (constant S_ .f32 0x00000000#32),
    StableHlo.binary main_v42 main_cst_6 main_v43 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    StableHlo.unary main_v43 main_v44 (broadcastInDim S1x8 ![1] bcast_S8_S1x8_1 : (⟨S8, .f32⟩ : BufTy).Contents (Elt F) → (⟨S1x8, .f32⟩ : BufTy).Contents (Elt F)),
    StableHlo.unary main_v44 main_v45 (broadcastInDim S100000x8 ![0, 1] bcast_S1x8_S100000x8_0_1 : (⟨S1x8, .f32⟩ : BufTy).Contents (Elt F) → (⟨S100000x8, .f32⟩ : BufTy).Contents (Elt F)),
    StableHlo.binary main_v42 main_v45 main_v46 (Host.divf : (⟨S100000x8, .f32⟩ : BufTy).Contents (Elt F) → (⟨S100000x8, .f32⟩ : BufTy).Contents (Elt F) → (⟨S100000x8, .f32⟩ : BufTy).Contents (Elt F)) ]

/-- The reference's operations, stretch 5 of 13 (8 operations, the last writes main_v53). -/
abbrev ops5 : List (HloOp τ sig (Elt F)) :=
  [ StableHlo.unary main_v46 main_v47 (broadcastInDim S100000x8x1 ![0, 1] bcast_S100000x8_S100000x8x1_0_1 : (⟨S100000x8, .f32⟩ : BufTy).Contents (Elt F) → (⟨S100000x8x1, .f32⟩ : BufTy).Contents (Elt F)),
    StableHlo.unary main_v47 main_v48 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    StableHlo.binary main_v48 main_v24 main_v49 (mulf : (⟨S100000x8x16, .f32⟩ : BufTy).Contents (Elt F) → (⟨S100000x8x16, .f32⟩ : BufTy).Contents (Elt F) → (⟨S100000x8x16, .f32⟩ : BufTy).Contents (Elt F)),
    StableHlo.nullary main_cst_7 (constant S_ .f32 0x00000000#32),
    StableHlo.binary main_v49 main_cst_7 main_v50 ((fun x v => Host.reduceAdd x v reducesTo_S100000x8x16_S8x16_d0 h_S_) : (⟨S100000x8x16, .f32⟩ : BufTy).Contents (Elt F) → (⟨S_, .f32⟩ : BufTy).Contents (Elt F) → (⟨S8x16, .f32⟩ : BufTy).Contents (Elt F)),
    StableHlo.reshape main_v50 main_v51 rfl shapeCasts_S8x16_S1x128,
    StableHlo.unary main_arg12 main_v52 (broadcastInDim S1x128 ![1] bcast_S128_S1x128_1 : (⟨S128, .f32⟩ : BufTy).Contents (Elt F) → (⟨S1x128, .f32⟩ : BufTy).Contents (Elt F)),
    StableHlo.binary main_v51 main_v52 main_v53 (addf : (⟨S1x128, .f32⟩ : BufTy).Contents (Elt F) → (⟨S1x128, .f32⟩ : BufTy).Contents (Elt F) → (⟨S1x128, .f32⟩ : BufTy).Contents (Elt F)) ]

/-- The reference's operations, stretch 6 of 13 (48 operations, the last writes main_v73). -/
abbrev ops6 : List (HloOp τ sig (Elt F)) :=
  [ StableHlo.nullary main_cst_8 (constant S_ .f32 0x00000000#32),
    StableHlo.binary main_arg2 main_cst_8 main_v54 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    StableHlo.unary main_v54 main_v55 (broadcastInDim S1x1 ![0] bcast_S1_S1x1_0 : (⟨S1, .f32⟩ : BufTy).Contents (Elt F) → (⟨S1x1, .f32⟩ : BufTy).Contents (Elt F)),
    StableHlo.nullary main_cst_9 (constant S_ .f32 0x43800000#32),
    StableHlo.unary main_cst_9 main_v56 (broadcastInDim S1x1 ![] bcast_S_S1x1 : (⟨S_, .f32⟩ : BufTy).Contents (Elt F) → (⟨S1x1, .f32⟩ : BufTy).Contents (Elt F)),
    StableHlo.binary main_v55 main_v56 main_v57 (Host.divf : (⟨S1x1, .f32⟩ : BufTy).Contents (Elt F) → (⟨S1x1, .f32⟩ : BufTy).Contents (Elt F) → (⟨S1x1, .f32⟩ : BufTy).Contents (Elt F)),
    StableHlo.nullary main_c_10 (constantI S_ 32 0#32),
    StableHlo.TRef.nullary main_call3.cst (constant S_ .f32 0x00000000#32),
    StableHlo.TRef.binary (.of main_arg2) main_call3.cst main_call3.v0 (fun x v => Host.reduceAdd x v reducesTo_S1x256_S1_d1 h_S_),
    StableHlo.TRef.unary main_call3.v0 main_call3.v1 (broadcastInDim S1x1 ![0] bcast_S1_S1x1_0),
    StableHlo.TRef.nullary main_call3.cst_0 (constant S_ .f32 0x43800000#32),
    StableHlo.TRef.unary main_call3.cst_0 main_call3.v2 (broadcastInDim S1x1 ![] bcast_S_S1x1),
    StableHlo.TRef.binary main_call3.v1 main_call3.v2 main_call3.v3 Host.divf,
    StableHlo.TRef.unary main_call3.v3 main_call3.v4 (broadcastInDim S1x256 ![0, 1] bcast_S1x1_S1x256_0_1),
    StableHlo.TRef.binary (.of main_arg2) main_call3.v4 main_call3.v5 subf,
    StableHlo.TRef.binary main_call3.v5 main_call3.v5 main_call3.v6 mulf,
    StableHlo.TRef.unary (.of main_c_10) main_call3.v7 (sitofp .f32),
    StableHlo.TRef.nullary main_call3.cst_1 (constant S_ .f32 0x43800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S1x256_S1_d1 h_S_),
    StableHlo.TRef.unary main_call3.v9 main_call3.v10 (broadcastInDim S1x1 ![0] bcast_S1_S1x1_0),
    StableHlo.TRef.unary main_call3.v8 main_call3.v11 (broadcastInDim S1x1 ![] bcast_S_S1x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S1x1 ![] bcast_S_S1x1),
    StableHlo.TRef.ternary main_call3.v13 main_call3.v12 main_call3.call0.v1 main_call3.call0.v2 (fun p a b => select (broadcastInDim S1x1 ![] bcast_S_S1x1 p) a b),
    StableHlo.unary main_v57 main_v59 (broadcastInDim S1x256 ![0, 1] bcast_S1x1_S1x256_0_1 : (⟨S1x1, .f32⟩ : BufTy).Contents (Elt F) → (⟨S1x256, .f32⟩ : BufTy).Contents (Elt F)),
    StableHlo.binary main_arg2 main_v59 main_v60 (subf : (⟨S1x256, .f32⟩ : BufTy).Contents (Elt F) → (⟨S1x256, .f32⟩ : BufTy).Contents (Elt F) → (⟨S1x256, .f32⟩ : BufTy).Contents (Elt F)),
    StableHlo.nullary main_cst_11 (constant S_ .f32 0x3727C5AC#32),
    StableHlo.unary main_cst_11 main_v61 (broadcastInDim S1x1 ![] bcast_S_S1x1 : (⟨S_, .f32⟩ : BufTy).Contents (Elt F) → (⟨S1x1, .f32⟩ : BufTy).Contents (Elt F)),
    StableHlo.binary main_v58 main_v61 main_v62 (addf : (⟨S1x1, .f32⟩ : BufTy).Contents (Elt F) → (⟨S1x1, .f32⟩ : BufTy).Contents (Elt F) → (⟨S1x1, .f32⟩ : BufTy).Contents (Elt F)),
    StableHlo.unary main_v62 main_v63 (Host.rsqrt : (⟨S1x1, .f32⟩ : BufTy).Contents (Elt F) → (⟨S1x1, .f32⟩ : BufTy).Contents (Elt F)),
    StableHlo.unary main_v63 main_v64 (broadcastInDim S1x256 ![0, 1] bcast_S1x1_S1x256_0_1 : (⟨S1x1, .f32⟩ : BufTy).Contents (Elt F) → (⟨S1x256, .f32⟩ : BufTy).Contents (Elt F)),
    StableHlo.binary main_v60 main_v64 main_v65 (mulf : (⟨S1x256, .f32⟩ : BufTy).Contents (Elt F) → (⟨S1x256, .f32⟩ : BufTy).Contents (Elt F) → (⟨S1x256, .f32⟩ : BufTy).Contents (Elt F)),
    StableHlo.unary main_arg13 main_v66 (broadcastInDim S1x256 ![1] bcast_S256_S1x256_1 : (⟨S256, .f32⟩ : BufTy).Contents (Elt F) → (⟨S1x256, .f32⟩ : BufTy).Contents (Elt F)),
    StableHlo.binary main_v65 main_v66 main_v67 (mulf : (⟨S1x256, .f32⟩ : BufTy).Contents (Elt F) → (⟨S1x256, .f32⟩ : BufTy).Contents (Elt F) → (⟨S1x256, .f32⟩ : BufTy).Contents (Elt F)),
    StableHlo.unary main_arg14 main_v68 (broadcastInDim S1x256 ![1] bcast_S256_S1x256_1 : (⟨S256, .f32⟩ : BufTy).Contents (Elt F) → (⟨S1x256, .f32⟩ : BufTy).Contents (Elt F)),
    StableHlo.binary main_v67 main_v68 main_v69 (addf : (⟨S1x256, .f32⟩ : BufTy).Contents (Elt F) → (⟨S1x256, .f32⟩ : BufTy).Contents (Elt F) → (⟨S1x256, .f32⟩ : BufTy).Contents (Elt F)),
    StableHlo.TRef.nullary main_call4.cst (constant S_ .f32 0x00000000#32),
    StableHlo.TRef.unary main_call4.cst main_call4.v0 (broadcastInDim S1x256 ![] bcast_S_S1x256),
    StableHlo.TRef.binary (.of main_v69) main_call4.v0 main_call4.v1 maximumf,
    StableHlo.binary main_v70 main_arg15 main_v71 ((fun l r => Host.dotGeneral dot_S1x256_S256x128_S1x128_1_0_0_1_n_n none l r) : (⟨S1x256, .f32⟩ : BufTy).Contents (Elt F) → (⟨S256x128, .f32⟩ : BufTy).Contents (Elt F) → (⟨S1x128, .f32⟩ : BufTy).Contents (Elt F)),
    StableHlo.unary main_arg16 main_v72 (broadcastInDim S1x128 ![1] bcast_S128_S1x128_1 : (⟨S128, .f32⟩ : BufTy).Contents (Elt F) → (⟨S1x128, .f32⟩ : BufTy).Contents (Elt F)),
    StableHlo.binary main_v71 main_v72 main_v73 (addf : (⟨S1x128, .f32⟩ : BufTy).Contents (Elt F) → (⟨S1x128, .f32⟩ : BufTy).Contents (Elt F) → (⟨S1x128, .f32⟩ : BufTy).Contents (Elt F)) ]

/-- The reference's operations, stretch 7 of 13 (11 operations, the last writes main_v84). -/
abbrev ops7 : List (HloOp τ sig (Elt F)) :=
  [ StableHlo.binary main_arg1 main_arg17 main_v74 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg18 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v76 main_v77 (addf : (⟨S100000x128, .f32⟩ : BufTy).Contents (Elt F) → (⟨S100000x128, .f32⟩ : BufTy).Contents (Elt F) → (⟨S100000x128, .f32⟩ : BufTy).Contents (Elt F)),
    StableHlo.reshape main_v77 main_v78 rfl shapeCasts_S100000x128_S100000x8x16,
    StableHlo.binary main_v73 main_arg19 main_v79 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    StableHlo.unary main_arg20 main_v80 (broadcastInDim S1x128 ![1] bcast_S128_S1x128_1 : (⟨S128, .f32⟩ : BufTy).Contents (Elt F) → (⟨S1x128, .f32⟩ : BufTy).Contents (Elt F)),
    StableHlo.binary main_v79 main_v80 main_v81 (addf : (⟨S1x128, .f32⟩ : BufTy).Contents (Elt F) → (⟨S1x128, .f32⟩ : BufTy).Contents (Elt F) → (⟨S1x128, .f32⟩ : BufTy).Contents (Elt F)),
    StableHlo.reshape main_v81 main_v82 rfl shapeCasts_S1x128_S1x8x16,
    StableHlo.unary main_v82 main_v83 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v78 main_v83 main_v84 (addf : (⟨S100000x8x16, .f32⟩ : BufTy).Contents (Elt F) → (⟨S100000x8x16, .f32⟩ : BufTy).Contents (Elt F) → (⟨S100000x8x16, .f32⟩ : BufTy).Contents (Elt F)) ]

/-- The reference's operations, stretch 8 of 13 (13 operations, the last writes main_v89). -/
abbrev ops8 : List (HloOp τ sig (Elt F)) :=
  [ StableHlo.nullary main_cst_12 (constant S_ .f32 0x3E4CCCCD#32),
    StableHlo.TRef.nullary main_call5.cst (constant S_ .f32 0x00000000#32),
    StableHlo.TRef.unary main_call5.cst main_call5.v0 (broadcastInDim S100000x8x16 ![] bcast_S_S100000x8x16),
    StableHlo.TRef.binary (.of main_v84) main_call5.v0 main_call5.v1 (cmpf .oge),
    StableHlo.TRef.unary (.of main_cst_12) main_call5.v2 id,
    StableHlo.TRef.unary main_call5.v2 main_call5.v3 (broadcastInDim S100000x8x16 ![] bcast_S_S100000x8x16),
    StableHlo.TRef.binary main_call5.v3 (.of main_v84) main_call5.v4 mulf,
    StableHlo.TRef.ternary main_call5.v1 (.of main_v84) main_call5.v4 main_call5.call0.v0 select,
    StableHlo.unary main_arg21 main_v86 (broadcastInDim S1x8x16 ![1, 2] bcast_S8x16_S1x8x16_1_2 : (⟨S8x16, .f32⟩ : BufTy).Contents (Elt F) → (⟨S1x8x16, .f32⟩ : BufTy).Contents (Elt F)),
    StableHlo.unary main_v86 main_v87 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v85 main_v87 main_v88 (mulf : (⟨S100000x8x16, .f32⟩ : BufTy).Contents (Elt F) → (⟨S100000x8x16, .f32⟩ : BufTy).Contents (Elt F) → (⟨S100000x8x16, .f32⟩ : BufTy).Contents (Elt F)),
    StableHlo.nullary main_cst_13 (constant S_ .f32 0x00000000#32),
    StableHlo.binary main_v88 main_cst_13 main_v89 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)) ]

/-- The reference's operations, stretch 9 of 13 (14 operations, the last writes main_v100). -/
abbrev ops9 : List (HloOp τ sig (Elt F)) :=
  [ StableHlo.nullary main_cst_14 (constant S_ .f32 0xFF800000#32),
    StableHlo.binary main_v89 main_cst_14 main_v90 ((fun x v => Host.reduce FloatOps.maximumf x v reducesTo_S100000x8_S8_d0 h_S_) : (⟨S100000x8, .f32⟩ : BufTy).Contents (Elt F) → (⟨S_, .f32⟩ : BufTy).Contents (Elt F) → (⟨S8, .f32⟩ : BufTy).Contents (Elt F)),
    StableHlo.nullary main_cst_15 (constant S_ .f32 0xFF800000#32),
    StableHlo.unary main_cst_15 main_v91 (broadcastInDim S8 ![] bcast_S_S8 : (⟨S_, .f32⟩ : BufTy).Contents (Elt F) → (⟨S8, .f32⟩ : BufTy).Contents (Elt F)),
    StableHlo.binary main_v91 main_v90 main_v92 (maximumf : (⟨S8, .f32⟩ : BufTy).Contents (Elt F) → (⟨S8, .f32⟩ : BufTy).Contents (Elt F) → (⟨S8, .f32⟩ : BufTy).Contents (Elt F)),
    StableHlo.unary main_v92 main_v93 (broadcastInDim S1x8 ![1] bcast_S8_S1x8_1 : (⟨S8, .f32⟩ : BufTy).Contents (Elt F) → (⟨S1x8, .f32⟩ : BufTy).Contents (Elt F)),
    StableHlo.unary main_v93 main_v94 (broadcastInDim S100000x8 ![0, 1] bcast_S1x8_S100000x8_0_1 : (⟨S1x8, .f32⟩ : BufTy).Contents (Elt F) → (⟨S100000x8, .f32⟩ : BufTy).Contents (Elt F)),
    StableHlo.binary main_v89 main_v94 main_v95 (subf : (⟨S100000x8, .f32⟩ : BufTy).Contents (Elt F) → (⟨S100000x8, .f32⟩ : BufTy).Contents (Elt F) → (⟨S100000x8, .f32⟩ : BufTy).Contents (Elt F)),
    StableHlo.unary main_v95 main_v96 (Host.exp : (⟨S100000x8, .f32⟩ : BufTy).Contents (Elt F) → (⟨S100000x8, .f32⟩ : BufTy).Contents (Elt F)),
    StableHlo.nullary main_cst_16 (constant S_ .f32 0x00000000#32),
    StableHlo.binary main_v96 main_cst_16 main_v97 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    StableHlo.unary main_v97 main_v98 (broadcastInDim S1x8 ![1] bcast_S8_S1x8_1 : (⟨S8, .f32⟩ : BufTy).Contents (Elt F) → (⟨S1x8, .f32⟩ : BufTy).Contents (Elt F)),
    StableHlo.unary main_v98 main_v99 (broadcastInDim S100000x8 ![0, 1] bcast_S1x8_S100000x8_0_1 : (⟨S1x8, .f32⟩ : BufTy).Contents (Elt F) → (⟨S100000x8, .f32⟩ : BufTy).Contents (Elt F)),
    StableHlo.binary main_v96 main_v99 main_v100 (Host.divf : (⟨S100000x8, .f32⟩ : BufTy).Contents (Elt F) → (⟨S100000x8, .f32⟩ : BufTy).Contents (Elt F) → (⟨S100000x8, .f32⟩ : BufTy).Contents (Elt F)) ]

/-- The reference's operations, stretch 10 of 13 (8 operations, the last writes main_v107). -/
abbrev ops10 : List (HloOp τ sig (Elt F)) :=
  [ StableHlo.unary main_v100 main_v101 (broadcastInDim S100000x8x1 ![0, 1] bcast_S100000x8_S100000x8x1_0_1 : (⟨S100000x8, .f32⟩ : BufTy).Contents (Elt F) → (⟨S100000x8x1, .f32⟩ : BufTy).Contents (Elt F)),
    StableHlo.unary main_v101 main_v102 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    StableHlo.binary main_v102 main_v78 main_v103 (mulf : (⟨S100000x8x16, .f32⟩ : BufTy).Contents (Elt F) → (⟨S100000x8x16, .f32⟩ : BufTy).Contents (Elt F) → (⟨S100000x8x16, .f32⟩ : BufTy).Contents (Elt F)),
    StableHlo.nullary main_cst_17 (constant S_ .f32 0x00000000#32),
    StableHlo.binary main_v103 main_cst_17 main_v104 ((fun x v => Host.reduceAdd x v reducesTo_S100000x8x16_S8x16_d0 h_S_) : (⟨S100000x8x16, .f32⟩ : BufTy).Contents (Elt F) → (⟨S_, .f32⟩ : BufTy).Contents (Elt F) → (⟨S8x16, .f32⟩ : BufTy).Contents (Elt F)),
    StableHlo.reshape main_v104 main_v105 rfl shapeCasts_S8x16_S1x128,
    StableHlo.unary main_arg22 main_v106 (broadcastInDim S1x128 ![1] bcast_S128_S1x128_1 : (⟨S128, .f32⟩ : BufTy).Contents (Elt F) → (⟨S1x128, .f32⟩ : BufTy).Contents (Elt F)),
    StableHlo.binary main_v105 main_v106 main_v107 (addf : (⟨S1x128, .f32⟩ : BufTy).Contents (Elt F) → (⟨S1x128, .f32⟩ : BufTy).Contents (Elt F) → (⟨S1x128, .f32⟩ : BufTy).Contents (Elt F)) ]

/-- The reference's operations, stretch 11 of 13 (2 operations, the last writes main_v109). -/
abbrev ops11 : List (HloOp τ sig (Elt F)) :=
  [ StableHlo.binary main_v53 main_v107 main_v108 ((fun a b => concatenate S1x256 1 [⟨S1x128, a⟩, ⟨S1x128, b⟩] concatenates_S1x128_S1x128_S1x256_d1) : (⟨S1x128, .f32⟩ : BufTy).Contents (Elt F) → (⟨S1x128, .f32⟩ : BufTy).Contents (Elt F) → (⟨S1x256, .f32⟩ : BufTy).Contents (Elt F)),
    StableHlo.binary main_arg2 main_v108 main_v109 (addf : (⟨S1x256, .f32⟩ : BufTy).Contents (Elt F) → (⟨S1x256, .f32⟩ : BufTy).Contents (Elt F) → (⟨S1x256, .f32⟩ : BufTy).Contents (Elt F)) ]

/-- The reference's operations, stretch 12 of 13 (42 operations, the last writes main_v125). -/
abbrev ops12 : List (HloOp τ sig (Elt F)) :=
  [ StableHlo.nullary main_cst_18 (constant S_ .f32 0x00000000#32),
    StableHlo.binary main_v109 main_cst_18 main_v110 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    StableHlo.unary main_v110 main_v111 (broadcastInDim S1x1 ![0] bcast_S1_S1x1_0 : (⟨S1, .f32⟩ : BufTy).Contents (Elt F) → (⟨S1x1, .f32⟩ : BufTy).Contents (Elt F)),
    StableHlo.nullary main_cst_19 (constant S_ .f32 0x43800000#32),
    StableHlo.unary main_cst_19 main_v112 (broadcastInDim S1x1 ![] bcast_S_S1x1 : (⟨S_, .f32⟩ : BufTy).Contents (Elt F) → (⟨S1x1, .f32⟩ : BufTy).Contents (Elt F)),
    StableHlo.binary main_v111 main_v112 main_v113 (Host.divf : (⟨S1x1, .f32⟩ : BufTy).Contents (Elt F) → (⟨S1x1, .f32⟩ : BufTy).Contents (Elt F) → (⟨S1x1, .f32⟩ : BufTy).Contents (Elt F)),
    StableHlo.nullary main_c_20 (constantI S_ 32 0#32),
    StableHlo.TRef.nullary main_call6.cst (constant S_ .f32 0x00000000#32),
    StableHlo.TRef.binary (.of main_v109) main_call6.cst main_call6.v0 (fun x v => Host.reduceAdd x v reducesTo_S1x256_S1_d1 h_S_),
    StableHlo.TRef.unary main_call6.v0 main_call6.v1 (broadcastInDim S1x1 ![0] bcast_S1_S1x1_0),
    StableHlo.TRef.nullary main_call6.cst_0 (constant S_ .f32 0x43800000#32),
    StableHlo.TRef.unary main_call6.cst_0 main_call6.v2 (broadcastInDim S1x1 ![] bcast_S_S1x1),
    StableHlo.TRef.binary main_call6.v1 main_call6.v2 main_call6.v3 Host.divf,
    StableHlo.TRef.unary main_call6.v3 main_call6.v4 (broadcastInDim S1x256 ![0, 1] bcast_S1x1_S1x256_0_1),
    StableHlo.TRef.binary (.of main_v109) main_call6.v4 main_call6.v5 subf,
    StableHlo.TRef.binary main_call6.v5 main_call6.v5 main_call6.v6 mulf,
    StableHlo.TRef.unary (.of main_c_20) main_call6.v7 (sitofp .f32),
    StableHlo.TRef.nullary main_call6.cst_1 (constant S_ .f32 0x43800000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S1x256_S1_d1 h_S_),
    StableHlo.TRef.unary main_call6.v9 main_call6.v10 (broadcastInDim S1x1 ![0] bcast_S1_S1x1_0),
    StableHlo.TRef.unary main_call6.v8 main_call6.v11 (broadcastInDim S1x1 ![] bcast_S_S1x1),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S1x1 ![] bcast_S_S1x1),
    StableHlo.TRef.ternary main_call6.v13 main_call6.v12 main_call6.call0.v1 main_call6.call0.v2 (fun p a b => select (broadcastInDim S1x1 ![] bcast_S_S1x1 p) a b),
    StableHlo.unary main_v113 main_v115 (broadcastInDim S1x256 ![0, 1] bcast_S1x1_S1x256_0_1 : (⟨S1x1, .f32⟩ : BufTy).Contents (Elt F) → (⟨S1x256, .f32⟩ : BufTy).Contents (Elt F)),
    StableHlo.binary main_v109 main_v115 main_v116 (subf : (⟨S1x256, .f32⟩ : BufTy).Contents (Elt F) → (⟨S1x256, .f32⟩ : BufTy).Contents (Elt F) → (⟨S1x256, .f32⟩ : BufTy).Contents (Elt F)),
    StableHlo.nullary main_cst_21 (constant S_ .f32 0x3727C5AC#32),
    StableHlo.unary main_cst_21 main_v117 (broadcastInDim S1x1 ![] bcast_S_S1x1 : (⟨S_, .f32⟩ : BufTy).Contents (Elt F) → (⟨S1x1, .f32⟩ : BufTy).Contents (Elt F)),
    StableHlo.binary main_v114 main_v117 main_v118 (addf : (⟨S1x1, .f32⟩ : BufTy).Contents (Elt F) → (⟨S1x1, .f32⟩ : BufTy).Contents (Elt F) → (⟨S1x1, .f32⟩ : BufTy).Contents (Elt F)),
    StableHlo.unary main_v118 main_v119 (Host.rsqrt : (⟨S1x1, .f32⟩ : BufTy).Contents (Elt F) → (⟨S1x1, .f32⟩ : BufTy).Contents (Elt F)),
    StableHlo.unary main_v119 main_v120 (broadcastInDim S1x256 ![0, 1] bcast_S1x1_S1x256_0_1 : (⟨S1x1, .f32⟩ : BufTy).Contents (Elt F) → (⟨S1x256, .f32⟩ : BufTy).Contents (Elt F)),
    StableHlo.binary main_v116 main_v120 main_v121 (mulf : (⟨S1x256, .f32⟩ : BufTy).Contents (Elt F) → (⟨S1x256, .f32⟩ : BufTy).Contents (Elt F) → (⟨S1x256, .f32⟩ : BufTy).Contents (Elt F)),
    StableHlo.unary main_arg23 main_v122 (broadcastInDim S1x256 ![1] bcast_S256_S1x256_1 : (⟨S256, .f32⟩ : BufTy).Contents (Elt F) → (⟨S1x256, .f32⟩ : BufTy).Contents (Elt F)),
    StableHlo.binary main_v121 main_v122 main_v123 (mulf : (⟨S1x256, .f32⟩ : BufTy).Contents (Elt F) → (⟨S1x256, .f32⟩ : BufTy).Contents (Elt F) → (⟨S1x256, .f32⟩ : BufTy).Contents (Elt F)),
    StableHlo.unary main_arg24 main_v124 (broadcastInDim S1x256 ![1] bcast_S256_S1x256_1 : (⟨S256, .f32⟩ : BufTy).Contents (Elt F) → (⟨S1x256, .f32⟩ : BufTy).Contents (Elt F)),
    StableHlo.binary main_v123 main_v124 main_v125 (addf : (⟨S1x256, .f32⟩ : BufTy).Contents (Elt F) → (⟨S1x256, .f32⟩ : BufTy).Contents (Elt F) → (⟨S1x256, .f32⟩ : BufTy).Contents (Elt F)) ]

/-- The reference's operations, stretch 13 of 13 (7 operations, the last writes main_v130). -/
abbrev ops13 : List (HloOp τ sig (Elt F)) :=
  [ StableHlo.TRef.nullary main_call7.cst (constant S_ .f32 0x00000000#32),
    StableHlo.TRef.unary main_call7.cst main_call7.v0 (broadcastInDim S1x256 ![] bcast_S_S1x256),
    StableHlo.TRef.binary (.of main_v125) main_call7.v0 main_call7.v1 maximumf,
    StableHlo.binary main_v126 main_arg25 main_v127 ((fun l r => Host.dotGeneral dot_S1x256_S256x256_S1x256_1_0_0_1_n_n none l r) : (⟨S1x256, .f32⟩ : BufTy).Contents (Elt F) → (⟨S256x256, .f32⟩ : BufTy).Contents (Elt F) → (⟨S1x256, .f32⟩ : BufTy).Contents (Elt F)),
    StableHlo.unary main_arg26 main_v128 (broadcastInDim S1x256 ![1] bcast_S256_S1x256_1 : (⟨S256, .f32⟩ : BufTy).Contents (Elt F) → (⟨S1x256, .f32⟩ : BufTy).Contents (Elt F)),
    StableHlo.binary main_v127 main_v128 main_v129 (addf : (⟨S1x256, .f32⟩ : BufTy).Contents (Elt F) → (⟨S1x256, .f32⟩ : BufTy).Contents (Elt F) → (⟨S1x256, .f32⟩ : BufTy).Contents (Elt F)),
    StableHlo.binary main_v109 main_v129 main_v130 (addf : (⟨S1x256, .f32⟩ : BufTy).Contents (Elt F) → (⟨S1x256, .f32⟩ : BufTy).Contents (Elt F) → (⟨S1x256, .f32⟩ : BufTy).Contents (Elt F)) ]

/-- All 239 operations of the reference, in order. -/
abbrev ops : List (HloOp τ sig (Elt F)) :=
  ops1 ++ ops2 ++ ops3 ++ ops4 ++ ops5 ++ ops6 ++ ops7 ++ ops8 ++ ops9 ++ ops10 ++ ops11 ++ ops12 ++ ops13

theorem ops1_sub : (ops1 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., unary_bufs_sub .., binary_bufs_sub ..⟩

theorem ops2_sub : (ops2 : List (HloOp τ sig (Elt F))).Forall fun op => op.bufs ⊆ tcRefs τ sig :=
  ⟨binary_bufs_sub .., unary_bufs_sub .., unary_bufs_sub .., binary_bufs_sub .., reshape_bufs_sub .., binary_bufs_sub .., unary_bufs_sub .., binary_bufs_sub .., reshape_bufs_sub .., unary_bufs_sub .., binary_bufs_sub ..⟩

theorem ops3_sub : (ops3 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub .., unary_bufs_sub .., unary_bufs_sub .., binary_bufs_sub .., nullary_bufs_sub .., binary_bufs_sub ..⟩

theorem ops4_sub : (ops4 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem ops5_sub : (ops5 : List (HloOp τ sig (Elt F))).Forall fun op => op.bufs ⊆ tcRefs τ sig :=
  ⟨unary_bufs_sub .., unary_bufs_sub .., binary_bufs_sub .., nullary_bufs_sub .., binary_bufs_sub .., reshape_bufs_sub .., unary_bufs_sub .., binary_bufs_sub ..⟩

theorem ops6_sub : (ops6 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., binary_bufs_sub .., unary_bufs_sub .., binary_bufs_sub ..⟩

theorem ops7_sub : (ops7 : List (HloOp τ sig (Elt F))).Forall fun op => op.bufs ⊆ tcRefs τ sig :=
  ⟨binary_bufs_sub .., unary_bufs_sub .., unary_bufs_sub .., binary_bufs_sub .., reshape_bufs_sub .., binary_bufs_sub .., unary_bufs_sub .., binary_bufs_sub .., reshape_bufs_sub .., unary_bufs_sub .., binary_bufs_sub ..⟩

theorem ops8_sub : (ops8 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub .., unary_bufs_sub .., unary_bufs_sub .., binary_bufs_sub .., nullary_bufs_sub .., binary_bufs_sub ..⟩

theorem ops9_sub : (ops9 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem ops10_sub : (ops10 : List (HloOp τ sig (Elt F))).Forall fun op => op.bufs ⊆ tcRefs τ sig :=
  ⟨unary_bufs_sub .., unary_bufs_sub .., binary_bufs_sub .., nullary_bufs_sub .., binary_bufs_sub .., reshape_bufs_sub .., unary_bufs_sub .., binary_bufs_sub ..⟩

theorem ops11_sub : (ops11 : List (HloOp τ sig (Elt F))).Forall fun op => op.bufs ⊆ tcRefs τ sig :=
  ⟨binary_bufs_sub .., binary_bufs_sub ..⟩

theorem ops12_sub : (ops12 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub ..⟩

theorem ops13_sub : (ops13 : List (HloOp τ sig (Elt F))).Forall fun op => op.bufs ⊆ tcRefs τ sig :=
  ⟨nullary_bufs_sub .., unary_bufs_sub .., binary_bufs_sub .., binary_bufs_sub .., unary_bufs_sub .., binary_bufs_sub .., binary_bufs_sub ..⟩

/-- The buffer contents before the first stretch. -/
def val0 (V0 : Valuation τ sig (Elt F)) : Valuation τ sig (Elt F) := V0

/-- The buffer contents after stretch 1. -/
def val1 (V0 : Valuation τ sig (Elt F)) : Valuation τ sig (Elt F) := after ops1 (val0 V0)
/-- The buffers stretch 1 writes. -/
abbrev ops1_W : List (Ref sig .tc) := [main_cst, main_v0, main_v1, main_cst_0, main_v2, main_v3, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v4, main_v5, main_v6, main_cst_1, main_v7, main_v8, main_v9, main_v10, main_v11, main_v12, main_v13, main_v14, main_v15, main_call1_cst, main_call1_v0, main_v16, main_v17, main_v18, main_v19]
set_option maxRecDepth 8192 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer stretch 1 does not write keeps its contents through it. -/
theorem after_ops1_keep (W : Valuation τ sig (Elt F)) (r : Ref sig .tc) (h : r ∉ ops1_W) :
    after ops1 W (Proc.devRef .tc r) = W (Proc.devRef .tc r) :=
  after_of_writes_sub ops1 _ ops1_writes h

/-- The buffer contents after stretch 2. -/
def val2 (V0 : Valuation τ sig (Elt F)) : Valuation τ sig (Elt F) := after ops2 (val1 V0)
/-- The buffers stretch 2 writes. -/
abbrev ops2_W : List (Ref sig .tc) := [main_v20, main_v21, main_v22, main_v23, main_v24, main_v25, main_v26, main_v27, main_v28, main_v29, main_v30]
set_option maxRecDepth 8192 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer stretch 2 does not write keeps its contents through it. -/
theorem after_ops2_keep (W : Valuation τ sig (Elt F)) (r : Ref sig .tc) (h : r ∉ ops2_W) :
    after ops2 W (Proc.devRef .tc r) = W (Proc.devRef .tc r) :=
  after_of_writes_sub ops2 _ ops2_writes h

/-- The buffer contents after stretch 3. -/
def val3 (V0 : Valuation τ sig (Elt F)) : Valuation τ sig (Elt F) := after ops3 (val2 V0)
/-- The buffers stretch 3 writes. -/
abbrev ops3_W : List (Ref sig .tc) := [main_cst_2, main_call2_cst, main_call2_v0, main_call2_v1, main_call2_v2, main_call2_v3, main_call2_v4, main_v31, main_v32, main_v33, main_v34, main_cst_3, main_v35]
set_option maxRecDepth 8192 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer stretch 3 does not write keeps its contents through it. -/
theorem after_ops3_keep (W : Valuation τ sig (Elt F)) (r : Ref sig .tc) (h : r ∉ ops3_W) :
    after ops3 W (Proc.devRef .tc r) = W (Proc.devRef .tc r) :=
  after_of_writes_sub ops3 _ ops3_writes h

/-- The buffer contents after stretch 4. -/
def val4 (V0 : Valuation τ sig (Elt F)) : Valuation τ sig (Elt F) := after ops4 (val3 V0)
/-- The buffers stretch 4 writes. -/
abbrev ops4_W : List (Ref sig .tc) := [main_cst_4, main_v36, main_cst_5, main_v37, main_v38, main_v39, main_v40, main_v41, main_v42, main_cst_6, main_v43, main_v44, main_v45, main_v46]
set_option maxRecDepth 8192 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer stretch 4 does not write keeps its contents through it. -/
theorem after_ops4_keep (W : Valuation τ sig (Elt F)) (r : Ref sig .tc) (h : r ∉ ops4_W) :
    after ops4 W (Proc.devRef .tc r) = W (Proc.devRef .tc r) :=
  after_of_writes_sub ops4 _ ops4_writes h

/-- The buffer contents after stretch 5. -/
def val5 (V0 : Valuation τ sig (Elt F)) : Valuation τ sig (Elt F) := after ops5 (val4 V0)
/-- The buffers stretch 5 writes. -/
abbrev ops5_W : List (Ref sig .tc) := [main_v47, main_v48, main_v49, main_cst_7, main_v50, main_v51, main_v52, main_v53]
set_option maxRecDepth 8192 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer stretch 5 does not write keeps its contents through it. -/
theorem after_ops5_keep (W : Valuation τ sig (Elt F)) (r : Ref sig .tc) (h : r ∉ ops5_W) :
    after ops5 W (Proc.devRef .tc r) = W (Proc.devRef .tc r) :=
  after_of_writes_sub ops5 _ ops5_writes h

/-- The buffer contents after stretch 6. -/
def val6 (V0 : Valuation τ sig (Elt F)) : Valuation τ sig (Elt F) := after ops6 (val5 V0)
/-- The buffers stretch 6 writes. -/
abbrev ops6_W : List (Ref sig .tc) := [main_cst_8, main_v54, main_v55, main_cst_9, main_v56, main_v57, main_c_10, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v58, main_v59, main_v60, main_cst_11, main_v61, main_v62, main_v63, main_v64, main_v65, main_v66, main_v67, main_v68, main_v69, main_call4_cst, main_call4_v0, main_v70, main_v71, main_v72, main_v73]
set_option maxRecDepth 8192 in
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer stretch 6 does not write keeps its contents through it. -/
theorem after_ops6_keep (W : Valuation τ sig (Elt F)) (r : Ref sig .tc) (h : r ∉ ops6_W) :
    after ops6 W (Proc.devRef .tc r) = W (Proc.devRef .tc r) :=
  after_of_writes_sub ops6 _ ops6_writes h

/-- The buffer contents after stretch 7. -/
def val7 (V0 : Valuation τ sig (Elt F)) : Valuation τ sig (Elt F) := after ops7 (val6 V0)
/-- The buffers stretch 7 writes. -/
abbrev ops7_W : List (Ref sig .tc) := [main_v74, main_v75, main_v76, main_v77, main_v78, main_v79, main_v80, main_v81, main_v82, main_v83, main_v84]
set_option maxRecDepth 8192 in
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer stretch 7 does not write keeps its contents through it. -/
theorem after_ops7_keep (W : Valuation τ sig (Elt F)) (r : Ref sig .tc) (h : r ∉ ops7_W) :
    after ops7 W (Proc.devRef .tc r) = W (Proc.devRef .tc r) :=
  after_of_writes_sub ops7 _ ops7_writes h

/-- The buffer contents after stretch 8. -/
def val8 (V0 : Valuation τ sig (Elt F)) : Valuation τ sig (Elt F) := after ops8 (val7 V0)
/-- The buffers stretch 8 writes. -/
abbrev ops8_W : List (Ref sig .tc) := [main_cst_12, main_call5_cst, main_call5_v0, main_call5_v1, main_call5_v2, main_call5_v3, main_call5_v4, main_v85, main_v86, main_v87, main_v88, main_cst_13, main_v89]
set_option maxRecDepth 8192 in
theorem ops8_writes : (ops8 : List (HloOp τ sig (Elt F))).Forall fun op => op.writes ⊆ (ops8_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer stretch 8 does not write keeps its contents through it. -/
theorem after_ops8_keep (W : Valuation τ sig (Elt F)) (r : Ref sig .tc) (h : r ∉ ops8_W) :
    after ops8 W (Proc.devRef .tc r) = W (Proc.devRef .tc r) :=
  after_of_writes_sub ops8 _ ops8_writes h

/-- The buffer contents after stretch 9. -/
def val9 (V0 : Valuation τ sig (Elt F)) : Valuation τ sig (Elt F) := after ops9 (val8 V0)
/-- The buffers stretch 9 writes. -/
abbrev ops9_W : List (Ref sig .tc) := [main_cst_14, main_v90, main_cst_15, main_v91, main_v92, main_v93, main_v94, main_v95, main_v96, main_cst_16, main_v97, main_v98, main_v99, main_v100]
set_option maxRecDepth 8192 in
theorem ops9_writes : (ops9 : List (HloOp τ sig (Elt F))).Forall fun op => op.writes ⊆ (ops9_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer stretch 9 does not write keeps its contents through it. -/
theorem after_ops9_keep (W : Valuation τ sig (Elt F)) (r : Ref sig .tc) (h : r ∉ ops9_W) :
    after ops9 W (Proc.devRef .tc r) = W (Proc.devRef .tc r) :=
  after_of_writes_sub ops9 _ ops9_writes h

/-- The buffer contents after stretch 10. -/
def val10 (V0 : Valuation τ sig (Elt F)) : Valuation τ sig (Elt F) := after ops10 (val9 V0)
/-- The buffers stretch 10 writes. -/
abbrev ops10_W : List (Ref sig .tc) := [main_v101, main_v102, main_v103, main_cst_17, main_v104, main_v105, main_v106, main_v107]
set_option maxRecDepth 8192 in
theorem ops10_writes : (ops10 : List (HloOp τ sig (Elt F))).Forall fun op => op.writes ⊆ (ops10_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer stretch 10 does not write keeps its contents through it. -/
theorem after_ops10_keep (W : Valuation τ sig (Elt F)) (r : Ref sig .tc) (h : r ∉ ops10_W) :
    after ops10 W (Proc.devRef .tc r) = W (Proc.devRef .tc r) :=
  after_of_writes_sub ops10 _ ops10_writes h

/-- The buffer contents after stretch 11. -/
def val11 (V0 : Valuation τ sig (Elt F)) : Valuation τ sig (Elt F) := after ops11 (val10 V0)
/-- The buffers stretch 11 writes. -/
abbrev ops11_W : List (Ref sig .tc) := [main_v108, main_v109]
set_option maxRecDepth 8192 in
theorem ops11_writes : (ops11 : List (HloOp τ sig (Elt F))).Forall fun op => op.writes ⊆ (ops11_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer stretch 11 does not write keeps its contents through it. -/
theorem after_ops11_keep (W : Valuation τ sig (Elt F)) (r : Ref sig .tc) (h : r ∉ ops11_W) :
    after ops11 W (Proc.devRef .tc r) = W (Proc.devRef .tc r) :=
  after_of_writes_sub ops11 _ ops11_writes h

/-- The buffer contents after stretch 12. -/
def val12 (V0 : Valuation τ sig (Elt F)) : Valuation τ sig (Elt F) := after ops12 (val11 V0)
/-- The buffers stretch 12 writes. -/
abbrev ops12_W : List (Ref sig .tc) := [main_cst_18, main_v110, main_v111, main_cst_19, main_v112, main_v113, main_c_20, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v114, main_v115, main_v116, main_cst_21, main_v117, main_v118, main_v119, main_v120, main_v121, main_v122, main_v123, main_v124, main_v125]
set_option maxRecDepth 8192 in
theorem ops12_writes : (ops12 : List (HloOp τ sig (Elt F))).Forall fun op => op.writes ⊆ (ops12_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer stretch 12 does not write keeps its contents through it. -/
theorem after_ops12_keep (W : Valuation τ sig (Elt F)) (r : Ref sig .tc) (h : r ∉ ops12_W) :
    after ops12 W (Proc.devRef .tc r) = W (Proc.devRef .tc r) :=
  after_of_writes_sub ops12 _ ops12_writes h

/-- The buffer contents after stretch 13. -/
def val13 (V0 : Valuation τ sig (Elt F)) : Valuation τ sig (Elt F) := after ops13 (val12 V0)
/-- The buffers stretch 13 writes. -/
abbrev ops13_W : List (Ref sig .tc) := [main_call7_cst, main_call7_v0, main_v126, main_v127, main_v128, main_v129, main_v130]
set_option maxRecDepth 8192 in
theorem ops13_writes : (ops13 : List (HloOp τ sig (Elt F))).Forall fun op => op.writes ⊆ (ops13_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer stretch 13 does not write keeps its contents through it. -/
theorem after_ops13_keep (W : Valuation τ sig (Elt F)) (r : Ref sig .tc) (h : r ∉ ops13_W) :
    after ops13 W (Proc.devRef .tc r) = W (Proc.devRef .tc r) :=
  after_of_writes_sub ops13 _ ops13_writes h

end Cert.ReferenceIdeal.RefOps

end
-- ==== Proof.RefRun.lean ====
/-
  The reference program's run.

  The reference's @main is a straight line of 239 host operations (a called helper's operations stand at its call,
  over the call's own buffers). Every weakly fair execution terminates, and every buffer ends at the fold of the
  operations' results over the launch contents.
-/
import proofs.«162155_g33088428049086_cont_sun_c4_530_7_alg».proof.Proof.RefOps

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Running one line after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
/-- @main is that straight line: the helpers' bodies unfolded at their calls, sequencing re-associated. -/
theorem main_eq (c : Dev nD) : main (F := F) c = seq ops := by
  simp only [main, main_part0, main_part1, main_part2, fn_var.body, fn_var_1.body, fn_where.body, fn_where_0.body,
    fn_relu.body, fn_leaky_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefOps

end
-- ==== Proof.RefRun2.lean ====
/-
  The reference's 239 operations, as one list: each stays within the TensorCore's buffers, and each determines its
  results (none allocates).

  Both facts hold stretch by stretch; a property of every member of two lists holds of every member of their
  concatenation.
-/
import proofs.«162155_g33088428049086_cont_sun_c4_530_7_alg».proof.Proof.RefOps
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- What holds of every member of two lists holds of every member of their concatenation. -/
theorem forall_app {α : Type} {p : α → Prop} {l₁ l₂ : List α} (h₁ : l₁.Forall p) (h₂ : l₂.Forall p) :
    (l₁ ++ l₂).Forall p :=
  List.forall_append.2 ⟨h₁, h₂⟩

/-- Every operation of the line reads and writes TensorCore buffers only. -/
theorem ops_sub : (ops : List (HloOp τ sig (Elt F))).Forall fun op => op.bufs ⊆ tcRefs τ sig :=
  forall_app (forall_app (forall_app (forall_app (forall_app (forall_app (forall_app (forall_app (forall_app
    (forall_app (forall_app (forall_app ops1_sub ops2_sub) ops3_sub) ops4_sub) ops5_sub) ops6_sub) ops7_sub)
    ops8_sub) ops9_sub) ops10_sub) ops11_sub) ops12_sub) ops13_sub

theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops4_fresh : (ops4 : List (HloOp τ sig (Elt F))).Forall fun op => op.fresh = ∅ := by
  simp only [List.Forall]; repeat' constructor
theorem ops5_fresh : (ops5 : List (HloOp τ sig (Elt F))).Forall fun op => op.fresh = ∅ := by
  simp only [List.Forall]; repeat' constructor
theorem ops6_fresh : (ops6 : List (HloOp τ sig (Elt F))).Forall fun op => op.fresh = ∅ := by
  simp only [List.Forall]; repeat' constructor
theorem ops7_fresh : (ops7 : List (HloOp τ sig (Elt F))).Forall fun op => op.fresh = ∅ := by
  simp only [List.Forall]; repeat' constructor
theorem ops8_fresh : (ops8 : List (HloOp τ sig (Elt F))).Forall fun op => op.fresh = ∅ := by
  simp only [List.Forall]; repeat' constructor
theorem ops9_fresh : (ops9 : List (HloOp τ sig (Elt F))).Forall fun op => op.fresh = ∅ := by
  simp only [List.Forall]; repeat' constructor
theorem ops10_fresh : (ops10 : List (HloOp τ sig (Elt F))).Forall fun op => op.fresh = ∅ := by
  simp only [List.Forall]; repeat' constructor
theorem ops11_fresh : (ops11 : List (HloOp τ sig (Elt F))).Forall fun op => op.fresh = ∅ := by
  simp only [List.Forall]; repeat' constructor
theorem ops12_fresh : (ops12 : List (HloOp τ sig (Elt F))).Forall fun op => op.fresh = ∅ := by
  simp only [List.Forall]; repeat' constructor
theorem ops13_fresh : (ops13 : List (HloOp τ sig (Elt F))).Forall fun op => op.fresh = ∅ := by
  simp only [List.Forall]; repeat' constructor

/-- No operation of the line allocates: each determines its results. -/
theorem ops_fresh : ∀ op ∈ (ops : List (HloOp τ sig (Elt F))), op.fresh = ∅ :=
  List.forall_iff_forall_mem.1
    (forall_app (forall_app (forall_app (forall_app (forall_app (forall_app (forall_app (forall_app (forall_app
      (forall_app (forall_app (forall_app ops1_fresh ops2_fresh) ops3_fresh) ops4_fresh) ops5_fresh) ops6_fresh)
      ops7_fresh) ops8_fresh) ops9_fresh) ops10_fresh) ops11_fresh) ops12_fresh) ops13_fresh)

end Cert.ReferenceIdeal.RefOps

end
-- ==== Proof.RefArgs.lean ====
/-
  The reference's 27 argument arrays, read out of a buffer valuation as the curried arrays the specification takes.
-/
import proofs.«162155_g33088428049086_cont_sun_c4_530_7_alg».proof.Proof.RefOps
import proofs.«162155_g33088428049086_cont_sun_c4_530_7_alg».proof.Proof.Spec
import Idealize.ShloMosaic.Lib.ValueIdx

noncomputable section

namespace Cert.ReferenceIdeal.RefOps

open Cert.ReferenceIdeal Idealize.ShloMosaic Idealize.ShloMosaic.TcCoe Idealize.ShloMosaic.StableHlo Idealize.ShloMosaic.ValueIdx
open Cert.Hand.Spec

/-- A rank-two argument array, curried. -/
abbrev rd2 {a b : ℕ} (x : (⟨2, ![a, b]⟩ : Shape).Idx → EReal) (i : Fin a) (j : Fin b) : EReal := x (ix2 i j)
/-- A rank-one argument array. -/
abbrev rd1 {a : ℕ} (x : (⟨1, ![a]⟩ : Shape).Idx → EReal) (i : Fin a) : EReal := x (ix1 i)

/-- The view stream's arrays. -/
def gatV (V : Valuation τ sig (Elt Ideal)) : Gat where
  X := rd2 (V (Proc.devRef .tc main_arg0))
  lnS := rd1 (V (Proc.devRef .tc main_arg3))
  lnB := rd1 (V (Proc.devRef .tc main_arg4))
  Wg := rd2 (V (Proc.devRef .tc main_arg5))
  bg := rd1 (V (Proc.devRef .tc main_arg6))
  Wl := rd2 (V (Proc.devRef .tc main_arg7))
  bl := rd1 (V (Proc.devRef .tc main_arg8))
  Wr := rd2 (V (Proc.devRef .tc main_arg9))
  br := rd1 (V (Proc.devRef .tc main_arg10))
  att := rd2 (V (Proc.devRef .tc main_arg11))
  bias := rd1 (V (Proc.devRef .tc main_arg12))

/-- The scene-point stream's arrays. -/
def gatS (V : Valuation τ sig (Elt Ideal)) : Gat where
  X := rd2 (V (Proc.devRef .tc main_arg1))
  lnS := rd1 (V (Proc.devRef .tc main_arg13))
  lnB := rd1 (V (Proc.devRef .tc main_arg14))
  Wg := rd2 (V (Proc.devRef .tc main_arg15))
  bg := rd1 (V (Proc.devRef .tc main_arg16))
  Wl := rd2 (V (Proc.devRef .tc main_arg17))
  bl := rd1 (V (Proc.devRef .tc main_arg18))
  Wr := rd2 (V (Proc.devRef .tc main_arg19))
  br := rd1 (V (Proc.devRef .tc main_arg20))
  att := rd2 (V (Proc.devRef .tc main_arg21))
  bias := rd1 (V (Proc.devRef .tc main_arg22))

/-- All the argument arrays. -/
def argsOf (V : Valuation τ sig (Elt Ideal)) : Args where
  g := fun k => V (Proc.devRef .tc main_arg2) (ix2 (0 : Fin 1) k)
  v := gatV V
  s := gatS V
  lnS := rd1 (V (Proc.devRef .tc main_arg23))
  lnB := rd1 (V (Proc.devRef .tc main_arg24))
  Wm := rd2 (V (Proc.devRef .tc main_arg25))
  bm := rd1 (V (Proc.devRef .tc main_arg26))

end Cert.ReferenceIdeal.RefOps

end
-- ==== Proof.RefLN.lean ====
/-
  The reference's layer-norm stretches, read at an index.

  Stretch 1 (and its twin, stretch 6) takes the global row, normalises it (mean and variance over its 256 entries,
  the variance through a helper that divides by 256 − 0 and selects the quotient because 256 − 0 > 0), scales and
  offsets it, rectifies it and multiplies by a 256 × 128 matrix: at entry j the result is the specification's proj.
  Stretch 12 is the same normalisation of the updated row; stretch 13 rectifies it, multiplies by the 256 × 256
  matrix, adds the offset and the skip connection.
-/
import proofs.«162155_g33088428049086_cont_sun_c4_530_7_alg».proof.Proof.RefOps
import proofs.«162155_g33088428049086_cont_sun_c4_530_7_alg».proof.Proof.Spec
import Idealize.ShloMosaic.Lib.ValueIdx
import Idealize.ShloMosaic.PureOps.Ideal.Laws
import Idealize.ShloMosaic.Lib.Pipeline.Value
import Idealize.ShloMosaic.Lib.ValueLayout
import Idealize.ShloMosaic.Lib.IdealHost
import proofs.«162155_g33088428049086_cont_sun_c4_530_7_alg».proof.Proof.LibPlainDot

noncomputable section

namespace Cert.ReferenceIdeal.RefOps

open Cert.ReferenceIdeal Idealize.ShloMosaic Idealize.ShloMosaic.TcCoe Idealize.ShloMosaic.StableHlo Idealize.ShloMosaic.ValueIdx
open Cert.Hand.Spec

/-- An entry of a float buffer, as the extended real it is. -/
private abbrev er (x : EReal) : EReal := x

/-- A vector of n entries copied into the one row of a 1 × n matrix reads, at column j, the vector's entry j. -/
private theorem bcast_row_apply {n : Nat} {α : Type} (h : (⟨1, ![n]⟩ : Shape).BroadcastsInDim ⟨2, ![1, n]⟩ ![1])
    (x : (⟨1, ![n]⟩ : Shape).Idx → α) (j : Fin n) :
    broadcastInDim ⟨2, ![1, n]⟩ ![1] h x (ix2 (0 : Fin 1) j) = x (ix1 j) :=
  broadcastInDim_apply _ _ _ _ (ix1 j) (fun a => by
    match a with
    | ⟨0, _⟩ =>
      show j.val = if n = 1 then 0 else j.val
      have := j.isLt
      split
      · omega
      · rfl)

/-- A 1 × 1 matrix copied along a row of n reads its one entry everywhere. -/
private theorem bcast_one_row_apply {n : Nat} {α : Type} (h : (⟨2, ![1, 1]⟩ : Shape).BroadcastsInDim ⟨2, ![1, n]⟩ ![0, 1])
    (x : (⟨2, ![1, 1]⟩ : Shape).Idx → α) (j : Fin n) :
    broadcastInDim ⟨2, ![1, n]⟩ ![0, 1] h x (ix2 (0 : Fin 1) j) = x (ix2 (0 : Fin 1) (0 : Fin 1)) :=
  broadcastInDim_apply _ _ _ _ (ix2 (0 : Fin 1) (0 : Fin 1)) (fun a => by
    match a with
    | ⟨0, _⟩ => rfl
    | ⟨1, _⟩ => rfl)

/-- A vector of one entry as a 1 × 1 matrix reads that entry. -/
private theorem bcast_one_one_apply {α : Type} (h : (⟨1, ![1]⟩ : Shape).BroadcastsInDim ⟨2, ![1, 1]⟩ ![0])
    (x : (⟨1, ![1]⟩ : Shape).Idx → α) :
    broadcastInDim ⟨2, ![1, 1]⟩ ![0] h x (ix2 (0 : Fin 1) (0 : Fin 1)) = x (ix1 (0 : Fin 1)) :=
  broadcastInDim_apply _ _ _ _ (ix1 (0 : Fin 1)) (fun a => by
    match a with
    | ⟨0, _⟩ => rfl)

/-- The sum of the one row of a 1 × 256 matrix, accumulated from the literal zero, is the sum of its 256 entries. -/
private theorem rowSum_apply (x : FVec Ideal S1x256 .f32) :
    Host.reduceAdd x (constant S_ .f32 0x00000000#32) Gen.reducesTo_S1x256_S1_d1 Gen.h_S_ (ix1 (0 : Fin 1))
      = ∑ k : Fin 256, x (ix2 (0 : Fin 1) k) := by
  have h : S1x256.Reduces [1] S1 := by decide
  rw [hostReduceAdd_apply, Ideal.hostReduceAdd_single _ h]
  show Ideal.ofBits .f32 0x00000000#32 + ∑ k : Fin 256, x (h.lift (ix1 (0 : Fin 1)) k) = _
  rw [Ideal.ofBits_zero_f32, zero_add]
  refine Finset.sum_congr rfl fun k _ => congrArg x (funext fun a => Fin.ext ?_)
  match a with
  | ⟨0, _⟩ => rfl
  | ⟨1, _⟩ => rfl

/-- The word 0x43800000 is the real number 256. -/
private theorem c256_val : Ideal.ofBits .f32 0x43800000#32 = ((256 : ℝ) : EReal) := by
  simp [Ideal.ofBits, Ideal.ieee, -EReal.coe_mul]; norm_num

/-- The divisor 256 is positive. -/
private theorem c256_pos : (0 : EReal) < c256 := by
  unfold c256; rw [c256_val]; exact EReal.coe_pos.mpr (by norm_num)

/-- The row's mean as the program forms it: the row sum as a 1 × 1 matrix over the literal 256 as a 1 × 1 matrix. -/
private def meanT (x : FVec Ideal S1x256 .f32) : FVec Ideal S1x1 .f32 :=
  Host.divf
    (broadcastInDim S1x1 ![0] Gen.bcast_S1_S1x1_0
      (Host.reduceAdd x (constant S_ .f32 0x00000000#32) Gen.reducesTo_S1x256_S1_d1 Gen.h_S_))
    (broadcastInDim S1x1 ![] Gen.bcast_S_S1x1 (constant S_ .f32 0x43800000#32))

private theorem meanT_apply (x : FVec Ideal S1x256 .f32) :
    meanT x (ix2 (0 : Fin 1) (0 : Fin 1)) = mean (fun k => x (ix2 (0 : Fin 1) k)) := by
  unfold meanT mean c256
  rw [hostDivf_apply, bcast_one_one_apply, rowSum_apply, broadcastInDim_scalar_apply, constant_apply]

/-- The centred row: the row minus its mean copied along the row. -/
private def cenT (x : FVec Ideal S1x256 .f32) : FVec Ideal S1x256 .f32 :=
  subf x (broadcastInDim S1x256 ![0, 1] Gen.bcast_S1x1_S1x256_0_1 (meanT x))

private theorem cenT_apply (x : FVec Ideal S1x256 .f32) (k : Fin 256) :
    cenT x (ix2 (0 : Fin 1) k) = x (ix2 (0 : Fin 1) k) - mean (fun k => x (ix2 (0 : Fin 1) k)) := by
  unfold cenT
  rw [subf_apply, bcast_one_row_apply, meanT_apply]

/-- The variance helper's divisor: the literal 256 minus the integer 0 read as a float. -/
private def n256T : FVec Ideal S_ .f32 :=
  subf (constant S_ .f32 0x43800000#32) (sitofp .f32 (constantI S_ 32 0#32))

private theorem n256T_apply : n256T ix0 = c256 := by
  show Ideal.ofBits .f32 0x43800000#32 - (((0#32 : BitVec 32).toInt : ℝ) : EReal) = c256
  have h0 : (((0#32 : BitVec 32).toInt : ℝ) : EReal) = 0 := by
    rw [show (0#32 : BitVec 32).toInt = 0 from by decide]; simp
  rw [h0, sub_zero]; rfl

/-- 256 − 0 exceeds 0, so the helper's comparison holds. -/
private theorem gt_apply : cmpf .ogt n256T (constant S_ .f32 0x00000000#32) ix0 = 1#1 := by
  rw [cmpf_apply, Ideal.cmpf_def, n256T_apply, constant_apply, Ideal.ofBits_zero_f32]
  show BitVec.ofBool (decide ((0 : EReal) < c256)) = 1#1
  rw [decide_eq_true c256_pos]; rfl

/-- The variance as the helper forms it: where 256 − 0 exceeds 0, the sum of the squared centred row over 256 − 0;
    elsewhere a literal that is never selected. -/
private def varT (x : FVec Ideal S1x256 .f32) : FVec Ideal S1x1 .f32 :=
  select (broadcastInDim S1x1 ![] Gen.bcast_S_S1x1 (cmpf .ogt n256T (constant S_ .f32 0x00000000#32)))
    (Host.divf
      (broadcastInDim S1x1 ![0] Gen.bcast_S1_S1x1_0
        (Host.reduceAdd (mulf (cenT x) (cenT x)) (constant S_ .f32 0x00000000#32) Gen.reducesTo_S1x256_S1_d1 Gen.h_S_))
      (broadcastInDim S1x1 ![] Gen.bcast_S_S1x1 n256T))
    (broadcastInDim S1x1 ![] Gen.bcast_S_S1x1 (id (constant S_ .f32 0x7FC00000#32)))

private theorem varT_apply (x : FVec Ideal S1x256 .f32) :
    varT x (ix2 (0 : Fin 1) (0 : Fin 1)) = var (fun k => x (ix2 (0 : Fin 1) k)) := by
  unfold varT var
  rw [select_apply, broadcastInDim_scalar_apply _ (cmpf .ogt n256T (constant S_ .f32 0x00000000#32)), gt_apply, select_one,
    hostDivf_apply, bcast_one_one_apply, rowSum_apply, broadcastInDim_scalar_apply, n256T_apply]
  congr 1
  refine Finset.sum_congr rfl fun k _ => ?_
  rw [mulf_apply, cenT_apply]

/-- The layer norm as the program forms it: centred row times the reciprocal root of variance plus epsilon, copied along
    the row, times the scale, plus the offset. -/
private def lnT (x : FVec Ideal S1x256 .f32) (s b : FVec Ideal S256 .f32) : FVec Ideal S1x256 .f32 :=
  addf
    (mulf
      (mulf (cenT x)
        (broadcastInDim S1x256 ![0, 1] Gen.bcast_S1x1_S1x256_0_1
          (Host.rsqrt (addf (varT x) (broadcastInDim S1x1 ![] Gen.bcast_S_S1x1 (constant S_ .f32 0x3727C5AC#32))))))
      (broadcastInDim S1x256 ![1] Gen.bcast_S256_S1x256_1 s))
    (broadcastInDim S1x256 ![1] Gen.bcast_S256_S1x256_1 b)

private theorem lnT_apply (x : FVec Ideal S1x256 .f32) (s b : FVec Ideal S256 .f32) (k : Fin 256) :
    lnT x s b (ix2 (0 : Fin 1) k)
      = lnorm (fun k => x (ix2 (0 : Fin 1) k)) (fun i => s (ix1 i)) (fun i => b (ix1 i)) k := by
  unfold lnT lnorm ceps
  rw [addf_apply, mulf_apply, mulf_apply, cenT_apply, bcast_one_row_apply, bcast_row_apply, bcast_row_apply]
  show _ * Ideal.rsqrt (varT x (ix2 (0 : Fin 1) (0 : Fin 1))
      + broadcastInDim S1x1 ![] Gen.bcast_S_S1x1 (constant (F := Ideal) S_ .f32 0x3727C5AC#32) (ix2 (0 : Fin 1) (0 : Fin 1))) * _ + _ = _
  rw [varT_apply, broadcastInDim_scalar_apply, constant_apply]

/-- The all-zero row a rectifier compares against. -/
private theorem zeroRow_apply (k : Fin 256) :
    broadcastInDim S1x256 ![] Gen.bcast_S_S1x256 (constant (F := Ideal) S_ .f32 0x00000000#32) (ix2 (0 : Fin 1) k) = (0 : EReal) := by
  rw [broadcastInDim_scalar_apply, constant_apply, Ideal.ofBits_zero_f32]

/-- Stretch 1: the view stream's projected global row. -/
theorem ops1_v19 (W : Valuation τ sig (Elt Ideal)) (j : Fin 128) :
    after ops1 W (Proc.devRef .tc main_v19) (ix2 (0 : Fin 1) j)
      = proj (fun k => W (Proc.devRef .tc main_arg2) (ix2 (0 : Fin 1) k)) ((fun i => W (Proc.devRef .tc main_arg3) (ix1 i))) ((fun i => W (Proc.devRef .tc main_arg4) (ix1 i)))
          ((fun i j => W (Proc.devRef .tc main_arg5) (ix2 i j))) ((fun i => W (Proc.devRef .tc main_arg6) (ix1 i))) j := by
  have hp : PlainDot.IsPlain dot_S1x256_S256x128_S1x128_1_0_0_1_n_n := ⟨rfl, rfl, rfl, rfl, rfl, rfl⟩
  simp only [ops1]
  after_results_simp
  simp only [TRef.ofBuf, TRef.toBuf, cast_eq]
  show addf (Host.dotGeneral dot_S1x256_S256x128_S1x128_1_0_0_1_n_n none
      (maximumf (lnT (W (Proc.devRef .tc main_arg2)) (W (Proc.devRef .tc main_arg3)) (W (Proc.devRef .tc main_arg4)))
        (broadcastInDim S1x256 ![] Gen.bcast_S_S1x256 (constant (F := Ideal) S_ .f32 0x00000000#32)))
      (W (Proc.devRef .tc main_arg5)))
    (broadcastInDim S1x128 ![1] Gen.bcast_S128_S1x128_1 (W (Proc.devRef .tc main_arg6))) (ix2 (0 : Fin 1) j) = _
  unfold proj lnRelu
  rw [addf_apply, bcast_row_apply]
  simp only [Host.dotGeneral]
  rw [hp.dotGeneral_apply]
  congr 1
  refine Finset.sum_congr rfl fun k _ => ?_
  rw [maximumf_apply, lnT_apply, zeroRow_apply]

/-- Stretch 6: the scene-point stream's projected global row. -/
theorem ops6_v73 (W : Valuation τ sig (Elt Ideal)) (j : Fin 128) :
    after ops6 W (Proc.devRef .tc main_v73) (ix2 (0 : Fin 1) j)
      = proj (fun k => W (Proc.devRef .tc main_arg2) (ix2 (0 : Fin 1) k)) ((fun i => W (Proc.devRef .tc main_arg13) (ix1 i))) ((fun i => W (Proc.devRef .tc main_arg14) (ix1 i)))
          ((fun i j => W (Proc.devRef .tc main_arg15) (ix2 i j))) ((fun i => W (Proc.devRef .tc main_arg16) (ix1 i))) j := by
  have hp : PlainDot.IsPlain dot_S1x256_S256x128_S1x128_1_0_0_1_n_n := ⟨rfl, rfl, rfl, rfl, rfl, rfl⟩
  simp only [ops6]
  after_results_simp
  simp only [TRef.ofBuf, TRef.toBuf, cast_eq]
  show addf (Host.dotGeneral dot_S1x256_S256x128_S1x128_1_0_0_1_n_n none
      (maximumf (lnT (W (Proc.devRef .tc main_arg2)) (W (Proc.devRef .tc main_arg13)) (W (Proc.devRef .tc main_arg14)))
        (broadcastInDim S1x256 ![] Gen.bcast_S_S1x256 (constant (F := Ideal) S_ .f32 0x00000000#32)))
      (W (Proc.devRef .tc main_arg15)))
    (broadcastInDim S1x128 ![1] Gen.bcast_S128_S1x128_1 (W (Proc.devRef .tc main_arg16))) (ix2 (0 : Fin 1) j) = _
  unfold proj lnRelu
  rw [addf_apply, bcast_row_apply]
  simp only [Host.dotGeneral]
  rw [hp.dotGeneral_apply]
  congr 1
  refine Finset.sum_congr rfl fun k _ => ?_
  rw [maximumf_apply, lnT_apply, zeroRow_apply]

/-- Stretch 12: the layer norm of the updated global row. -/
theorem ops12_v125 (W : Valuation τ sig (Elt Ideal)) (k : Fin 256) :
    after ops12 W (Proc.devRef .tc main_v125) (ix2 (0 : Fin 1) k)
      = lnorm (fun k => W (Proc.devRef .tc main_v109) (ix2 (0 : Fin 1) k)) ((fun i => W (Proc.devRef .tc main_arg23) (ix1 i))) ((fun i => W (Proc.devRef .tc main_arg24) (ix1 i))) k := by
  simp only [ops12]
  after_results_simp
  simp only [TRef.ofBuf, TRef.toBuf, cast_eq]
  show lnT (W (Proc.devRef .tc main_v109)) (W (Proc.devRef .tc main_arg23)) (W (Proc.devRef .tc main_arg24)) (ix2 (0 : Fin 1) k) = _
  exact lnT_apply _ _ _ k

/-- Stretch 13: rectifier, the last linear map, and the skip connection. -/
theorem ops13_v130 (W : Valuation τ sig (Elt Ideal)) (j : Fin 256) :
    after ops13 W (Proc.devRef .tc main_v130) (ix2 (0 : Fin 1) j)
      = er (W (Proc.devRef .tc main_v109) (ix2 (0 : Fin 1) j))
        + ((∑ k : Fin 256, max (er (W (Proc.devRef .tc main_v125) (ix2 (0 : Fin 1) k))) 0
              * er (W (Proc.devRef .tc main_arg25) (ix2 k j)))
            + er (W (Proc.devRef .tc main_arg26) (ix1 j))) := by
  have hp : PlainDot.IsPlain dot_S1x256_S256x256_S1x256_1_0_0_1_n_n := ⟨rfl, rfl, rfl, rfl, rfl, rfl⟩
  simp only [ops13]
  after_results_simp
  simp only [TRef.ofBuf, TRef.toBuf, cast_eq, addf_apply, Host.dotGeneral]
  rw [hp.dotGeneral_apply, bcast_row_apply]
  congr 2
  refine Finset.sum_congr rfl fun k _ => ?_
  rw [maximumf_apply, zeroRow_apply]

end Cert.ReferenceIdeal.RefOps

end
-- ==== Proof.RefGat.lean ====
/-
  The reference's attention-logit stretches, read at an index.

  Stretch 2 (twin: 7) sends every source row through the left-hand map and views the 128 channels as 8 heads of 16
  (flat channel 16·h + c), sends the projected global row through the right-hand map, and adds the two.
  Stretch 3 (twin: 8) applies the leaky rectifier (a compare with 0 and a select between z and slope · z), multiplies
  by the attention vector and sums over a head's sixteen channels.
-/
import proofs.«162155_g33088428049086_cont_sun_c4_530_7_alg».proof.Proof.RefOps
import proofs.«162155_g33088428049086_cont_sun_c4_530_7_alg».proof.Proof.Spec
import Idealize.ShloMosaic.Lib.ValueIdx
import Idealize.ShloMosaic.PureOps.Ideal.Laws
import Idealize.ShloMosaic.Lib.Pipeline.Value
import Idealize.ShloMosaic.Lib.ValueLayout
import proofs.«162155_g33088428049086_cont_sun_c4_530_7_alg».proof.Proof.LibPlainDot
import Idealize.ShloMosaic.Lib.IdealHost

noncomputable section

namespace Cert.ReferenceIdeal.RefOps

open Cert.ReferenceIdeal Idealize.ShloMosaic Idealize.ShloMosaic.TcCoe Idealize.ShloMosaic.StableHlo Idealize.ShloMosaic.ValueIdx
open Cert.Hand.Spec

/-! ## The layout operations of the two stretches, read at an index -/

/-- An m × 128 array viewed as m × 8 × 16 reads, at (n, h, c), the operand at (n, 16·h + c). -/
private theorem heads_apply {α : Type} {m : ℕ} (x : (⟨2, ![m, 128]⟩ : Shape).Idx → α)
    (hs : (⟨2, ![m, 128]⟩ : Shape).ShapeCasts ⟨3, ![m, 8, 16]⟩) (n : Fin m) (h : Fin 8) (c : Fin 16) :
    shapeCast ⟨3, ![m, 8, 16]⟩ x hs (ix3 n h c) = x (ix2 n (hc h c)) :=
  shapeCast_apply x hs _ _ (by
    rw [Shape.rowMajor_val_two, Shape.rowMajor_val_three]
    show n.val * 128 + (16 * h.val + c.val) = (n.val * 8 + h.val) * 16 + c.val
    omega)

/-- A vector of 128 laid as one row reads its entry. -/
private theorem oneRow_apply {α : Type} (b : (⟨1, ![128]⟩ : Shape).Idx → α)
    (h1 : (⟨1, ![128]⟩ : Shape).BroadcastsInDim ⟨2, ![1, 128]⟩ ![1]) (u : Fin 1) (j : Fin 128) :
    broadcastInDim ⟨2, ![1, 128]⟩ ![1] h1 b (ix2 u j) = b (ix1 j) :=
  broadcastInDim_apply _ h1 b _ (ix1 j) fun a => match a with | ⟨0, _⟩ => rfl

/-- One row of 128 repeated over m rows reads the row's entry. -/
private theorem rows_apply {α : Type} {m : ℕ} (v : (⟨2, ![1, 128]⟩ : Shape).Idx → α)
    (h2 : (⟨2, ![1, 128]⟩ : Shape).BroadcastsInDim ⟨2, ![m, 128]⟩ ![0, 1]) (n : Fin m) (j : Fin 128) :
    broadcastInDim ⟨2, ![m, 128]⟩ ![0, 1] h2 v (ix2 n j) = v (ix2 (0 : Fin 1) j) :=
  broadcastInDim_apply _ h2 v _ (ix2 (0 : Fin 1) j) fun a => match a with | ⟨0, _⟩ => rfl | ⟨1, _⟩ => rfl

/-- One 1 × 8 × 16 block repeated over m rows reads the block's entry. -/
private theorem blocks_apply {α : Type} {m : ℕ} (v : (⟨3, ![1, 8, 16]⟩ : Shape).Idx → α)
    (h3 : (⟨3, ![1, 8, 16]⟩ : Shape).BroadcastsInDim ⟨3, ![m, 8, 16]⟩ ![0, 1, 2]) (n : Fin m) (h : Fin 8) (c : Fin 16) :
    broadcastInDim ⟨3, ![m, 8, 16]⟩ ![0, 1, 2] h3 v (ix3 n h c) = v (ix3 (0 : Fin 1) h c) :=
  broadcastInDim_apply _ h3 v _ (ix3 (0 : Fin 1) h c) fun a => match a with | ⟨0, _⟩ => rfl | ⟨1, _⟩ => rfl | ⟨2, _⟩ => rfl

/-- The host's product of an M × K by a K × N array, columns against rows, reads at (r, c) the sum over k of
    the left operand's (r, k) times the right operand's (k, c). -/
private theorem dot_apply {M K N : ℕ}
    {d : DotDims (⟨2, ![M, K]⟩ : Shape) (⟨2, ![K, N]⟩ : Shape) (⟨2, ![M, N]⟩ : Shape)} (hd : PlainDot.IsPlain d)
    (prec : Option ContractPrecision) (lhs : FVec Ideal (⟨2, ![M, K]⟩ : Shape) .f32) (rhs : FVec Ideal (⟨2, ![K, N]⟩ : Shape) .f32)
    (r : Fin M) (c : Fin N) :
    Host.dotGeneral d prec lhs rhs (ix2 r c) = ∑ k : Fin K, lhs (ix2 r k) * rhs (ix2 k c) :=
  hd.dotGeneral_apply prec .single lhs rhs r c

/-- An 8 × 16 array laid as one block reads its entry. -/
private theorem oneBlock_apply {α : Type} (a : (⟨2, ![8, 16]⟩ : Shape).Idx → α)
    (h1 : (⟨2, ![8, 16]⟩ : Shape).BroadcastsInDim ⟨3, ![1, 8, 16]⟩ ![1, 2]) (u : Fin 1) (h : Fin 8) (c : Fin 16) :
    broadcastInDim ⟨3, ![1, 8, 16]⟩ ![1, 2] h1 a (ix3 u h c) = a (ix2 h c) :=
  broadcastInDim_apply _ h1 a _ (ix2 h c) fun x => match x with | ⟨0, _⟩ => rfl | ⟨1, _⟩ => rfl

/-! ## The leaky rectifier as a compare and a select -/

/-- A select between z and slope · z on the bit of "z is at least 0" is the leaky rectifier at z. -/
private theorem leaky_select (z : EReal) : Scalar.select (Ideal.cmp .oge z 0) z (cslope * z) = leaky z := by
  by_cases hz : 0 ≤ z
  · have e : Ideal.cmp .oge z 0 = 1#1 := by simp [Ideal.cmp, hz]
    rw [e, select_one, leaky, if_pos hz]
  · have e : Ideal.cmp .oge z 0 = 0#1 := by simp [Ideal.cmp, hz]
    rw [e, select_zero, leaky, if_neg hz]

/-- The logit stretch on any array z of 100000 × 8 × 16 and any attention array a of 8 × 16: rectify, weigh by a, sum a head's sixteen
    channels. -/
private theorem logit_apply (z : FVec Ideal (⟨3, ![100000, 8, 16]⟩ : Shape) .f32) (a : FVec Ideal (⟨2, ![8, 16]⟩ : Shape) .f32)
    (hb0 : (⟨0, ![]⟩ : Shape).BroadcastsInDim ⟨3, ![100000, 8, 16]⟩ ![])
    (hb1 : (⟨2, ![8, 16]⟩ : Shape).BroadcastsInDim ⟨3, ![1, 8, 16]⟩ ![1, 2])
    (hb2 : (⟨3, ![1, 8, 16]⟩ : Shape).BroadcastsInDim ⟨3, ![100000, 8, 16]⟩ ![0, 1, 2])
    (hTo : (⟨3, ![100000, 8, 16]⟩ : Shape).ReducesTo [2] ⟨2, ![100000, 8]⟩) (hu : 0 < (⟨0, ![]⟩ : Shape).numel)
    (n : Fin 100000) (h : Fin 8) :
    Host.reduceAdd
        (mulf
          (select (cmpf .oge z (broadcastInDim ⟨3, ![100000, 8, 16]⟩ ![] hb0 (constant ⟨0, ![]⟩ .f32 0x00000000#32))) z
            (mulf (broadcastInDim ⟨3, ![100000, 8, 16]⟩ ![] hb0 (constant ⟨0, ![]⟩ .f32 0x3E4CCCCD#32)) z))
          (broadcastInDim ⟨3, ![100000, 8, 16]⟩ ![0, 1, 2] hb2 (broadcastInDim ⟨3, ![1, 8, 16]⟩ ![1, 2] hb1 a)))
        (constant ⟨0, ![]⟩ .f32 0x00000000#32) hTo hu (ix2 n h)
      = ∑ c : Fin 16, leaky (z (ix3 n h c)) * a (ix2 h c) := by
  have hR : (⟨3, ![100000, 8, 16]⟩ : Shape).Reduces [2] ⟨2, ![100000, 8]⟩ := by decide
  rw [hostReduceAdd_apply, Ideal.hostReduceAdd_single hTo hR, constant_apply, Ideal.ofBits_zero_f32, zero_add]
  refine Finset.sum_congr rfl fun (c : Fin 16) _ => ?_
  have hl : hR.lift (ix2 n h) c = ix3 n h c :=
    funext fun x => match x with | ⟨0, _⟩ => Fin.ext rfl | ⟨1, _⟩ => Fin.ext rfl | ⟨2, _⟩ => Fin.ext rfl
  rw [hl, mulf_apply, blocks_apply, oneBlock_apply, select_apply, cmpf_apply, mulf_apply,
    broadcastInDim_scalar_apply, broadcastInDim_scalar_apply, constant_apply, constant_apply, Ideal.ofBits_zero_f32,
    Ideal.cmpf_def]
  exact congrArg (· * a (ix2 h c)) (leaky_select (z (ix3 n h c)))

/-- Stretch 2: the source rows through the left-hand map, viewed as heads × channels. -/
theorem ops2_v24 (W : Valuation τ sig (Elt Ideal)) (n : Fin 100000) (h : Fin 8) (c : Fin 16) :
    after ops2 W (Proc.devRef .tc main_v24) (ix3 n h c)
      = rowLin ((fun i j => W (Proc.devRef .tc main_arg0) (ix2 i j))) ((fun i j => W (Proc.devRef .tc main_arg7) (ix2 i j))) ((fun i => W (Proc.devRef .tc main_arg8) (ix1 i))) n (hc h c) := by
  simp only [ops2]
  after_results_simp
  refine (heads_apply _ _ n h c).trans ?_
  rw [addf_apply, rows_apply, oneRow_apply, dot_apply ⟨rfl, rfl, rfl, rfl, rfl, rfl⟩]
  rfl

/-- Stretch 2: source term plus target term. -/
theorem ops2_v30 (W : Valuation τ sig (Elt Ideal)) (n : Fin 100000) (h : Fin 8) (c : Fin 16) :
    after ops2 W (Proc.devRef .tc main_v30) (ix3 n h c)
      = rowLin ((fun i j => W (Proc.devRef .tc main_arg0) (ix2 i j))) ((fun i j => W (Proc.devRef .tc main_arg7) (ix2 i j))) ((fun i => W (Proc.devRef .tc main_arg8) (ix1 i))) n (hc h c)
        + lin (fun k => W (Proc.devRef .tc main_v19) (ix2 (0 : Fin 1) k)) ((fun i j => W (Proc.devRef .tc main_arg9) (ix2 i j))) ((fun i => W (Proc.devRef .tc main_arg10) (ix1 i))) (hc h c) := by
  simp only [ops2]
  after_results_simp
  rw [addf_apply, blocks_apply]
  congr 1
  · refine (heads_apply _ _ n h c).trans ?_
    rw [addf_apply, rows_apply, oneRow_apply, dot_apply ⟨rfl, rfl, rfl, rfl, rfl, rfl⟩]
    rfl
  · refine (heads_apply _ _ (0 : Fin 1) h c).trans ?_
    rw [addf_apply, oneRow_apply, dot_apply ⟨rfl, rfl, rfl, rfl, rfl, rfl⟩]
    rfl

/-- Stretch 3: the logits. -/
theorem ops3_v35 (W : Valuation τ sig (Elt Ideal)) (n : Fin 100000) (h : Fin 8) :
    after ops3 W (Proc.devRef .tc main_v35) (ix2 n h)
      = ∑ c : Fin 16, leaky (W (Proc.devRef .tc main_v30) (ix3 n h c)) * W (Proc.devRef .tc main_arg11) (ix2 h c) := by
  simp only [ops3]
  after_results_simp
  simp only [TRef.ofBuf, TRef.toBuf, cast_eq, id_eq]
  exact logit_apply _ _ _ _ _ _ _ n h

/-- Stretch 7: as stretch 2, for the scene-point stream. -/
theorem ops7_v78 (W : Valuation τ sig (Elt Ideal)) (n : Fin 100000) (h : Fin 8) (c : Fin 16) :
    after ops7 W (Proc.devRef .tc main_v78) (ix3 n h c)
      = rowLin ((fun i j => W (Proc.devRef .tc main_arg1) (ix2 i j))) ((fun i j => W (Proc.devRef .tc main_arg17) (ix2 i j))) ((fun i => W (Proc.devRef .tc main_arg18) (ix1 i))) n (hc h c) := by
  simp only [ops7]
  after_results_simp
  refine (heads_apply _ _ n h c).trans ?_
  rw [addf_apply, rows_apply, oneRow_apply, dot_apply ⟨rfl, rfl, rfl, rfl, rfl, rfl⟩]
  rfl

theorem ops7_v84 (W : Valuation τ sig (Elt Ideal)) (n : Fin 100000) (h : Fin 8) (c : Fin 16) :
    after ops7 W (Proc.devRef .tc main_v84) (ix3 n h c)
      = rowLin ((fun i j => W (Proc.devRef .tc main_arg1) (ix2 i j))) ((fun i j => W (Proc.devRef .tc main_arg17) (ix2 i j))) ((fun i => W (Proc.devRef .tc main_arg18) (ix1 i))) n (hc h c)
        + lin (fun k => W (Proc.devRef .tc main_v73) (ix2 (0 : Fin 1) k)) ((fun i j => W (Proc.devRef .tc main_arg19) (ix2 i j))) ((fun i => W (Proc.devRef .tc main_arg20) (ix1 i))) (hc h c) := by
  simp only [ops7]
  after_results_simp
  rw [addf_apply, blocks_apply]
  congr 1
  · refine (heads_apply _ _ n h c).trans ?_
    rw [addf_apply, rows_apply, oneRow_apply, dot_apply ⟨rfl, rfl, rfl, rfl, rfl, rfl⟩]
    rfl
  · refine (heads_apply _ _ (0 : Fin 1) h c).trans ?_
    rw [addf_apply, oneRow_apply, dot_apply ⟨rfl, rfl, rfl, rfl, rfl, rfl⟩]
    rfl

/-- Stretch 8: as stretch 3. -/
theorem ops8_v89 (W : Valuation τ sig (Elt Ideal)) (n : Fin 100000) (h : Fin 8) :
    after ops8 W (Proc.devRef .tc main_v89) (ix2 n h)
      = ∑ c : Fin 16, leaky (W (Proc.devRef .tc main_v84) (ix3 n h c)) * W (Proc.devRef .tc main_arg21) (ix2 h c) := by
  simp only [ops8]
  after_results_simp
  simp only [TRef.ofBuf, TRef.toBuf, cast_eq, id_eq]
  exact logit_apply _ _ _ _ _ _ _ n h

end Cert.ReferenceIdeal.RefOps

end
-- ==== Proof.RefSoftmax.lean ====
/-
  The reference's soft-max and aggregation stretches, read at an index.

  Stretch 4 (twin: 9) takes the largest logit of each head over the 100000 rows (a maximum from −∞, then a maximum
  with −∞ again), subtracts it, exponentiates, sums over the rows and divides: the soft-max weights.
  Stretch 5 (twin: 10) multiplies the weights into the rows (heads × channels), sums over the rows, flattens
  8 × 16 to 128 and adds the output offset. Stretch 11 lays the two results side by side and adds the global row.
-/
import proofs.«162155_g33088428049086_cont_sun_c4_530_7_alg».proof.Proof.RefOps
import proofs.«162155_g33088428049086_cont_sun_c4_530_7_alg».proof.Proof.Spec
import Idealize.ShloMosaic.Lib.ValueIdx
import Idealize.ShloMosaic.PureOps.Ideal.Laws
import Idealize.ShloMosaic.Lib.Pipeline.Value
import Idealize.ShloMosaic.Lib.ValueLayout
import Idealize.ShloMosaic.Lib.IdealHost

noncomputable section

namespace Cert.ReferenceIdeal.RefOps

open Cert.ReferenceIdeal Idealize.ShloMosaic Idealize.ShloMosaic.TcCoe Idealize.ShloMosaic.StableHlo Idealize.ShloMosaic.ValueIdx
open Cert.Hand.Spec

/-- An entry of a float buffer, as the extended real it is. -/
private abbrev er (x : EReal) : EReal := x

/-! ### The pieces of the soft-max stretch, each read at an index -/

/-- The word 0xFF800000 is −∞. -/
private theorem ofBits_negInf : Ideal.ofBits .f32 0xFF800000#32 = (⊥ : EReal) := by simp [Ideal.ofBits, Ideal.ieee]

/-- A row of eight, made a 1 × 8 matrix and copied over the 100000 rows, reads the row's entry at the column. -/
private theorem bcastRows_apply (v : FVec Ideal S8 .f32) (n : Fin 100000) (h : Fin 8) :
    broadcastInDim S100000x8 ![0, 1] Gen.bcast_S1x8_S100000x8_0_1
      (broadcastInDim S1x8 ![1] Gen.bcast_S8_S1x8_1 v) (ix2 n h) = v (ix1 h) := by
  rw [broadcastInDim_apply _ _ _ (ix2 n h) (ix2 (0 : Fin 1) h) (fun a => match a with | ⟨0, _⟩ => rfl | ⟨1, _⟩ => rfl),
    broadcastInDim_apply _ _ _ (ix2 (0 : Fin 1) h) (ix1 h) (fun a => match a with | ⟨0, _⟩ => rfl)]

/-- The index of the 100000 × 8 array over column h with row k put back. -/
private theorem lift_col (hr : S100000x8.Reduces [0] S8) (h : Fin 8) (k : Fin 100000) :
    hr.lift (ix1 h) k = ix2 k h := by
  funext c
  match c with
  | ⟨0, _⟩ => rfl
  | ⟨1, _⟩ => rfl

/-- The largest entry of column h from −∞, taken once more against −∞: the specification's column maximum. -/
private theorem colMax_apply (X : FVec Ideal S100000x8 .f32) (h : Fin 8) :
    maximumf (broadcastInDim S8 ![] Gen.bcast_S_S8 (constant S_ .f32 0xFF800000#32))
      (Host.reduce FloatOps.maximumf X (constant S_ .f32 0xFF800000#32) Gen.reducesTo_S100000x8_S8_d0 Gen.h_S_) (ix1 h)
    = lmax (fun n h => X (ix2 n h)) h := by
  have hr : S100000x8.Reduces [0] S8 := by decide
  rw [maximumf_apply, broadcastInDim_scalar_apply, constant_apply, ofBits_negInf, bot_sup_eq,
    Host.reduce_eq_fold_single FloatOps.maximumf X _ Gen.reducesTo_S100000x8_S8_d0 hr Gen.h_S_ (ix1 h),
    constant_apply, ofBits_negInf]
  unfold lmax
  show Finset.univ.fold max ⊥ (fun k : Fin 100000 => X (hr.lift (ix1 h) k)) = _
  simp only [lift_col]

/-- The sum of column h from 0. -/
private theorem colSum_apply (E : FVec Ideal S100000x8 .f32) (h : Fin 8) :
    Host.reduceAdd E (constant S_ .f32 0x00000000#32) Gen.reducesTo_S100000x8_S8_d0 Gen.h_S_ (ix1 h)
      = ∑ n : Fin 100000, E (ix2 n h) := by
  have hr : S100000x8.Reduces [0] S8 := by decide
  rw [hostReduceAdd_apply, Ideal.hostReduceAdd_single Gen.reducesTo_S100000x8_S8_d0 hr, constant_apply,
    Ideal.ofBits_zero_f32, zero_add]
  exact Finset.sum_congr rfl fun k _ => congrArg E (lift_col hr h k)

/-- The exponential of an entry less its column's maximum: the specification's shifted exponential. -/
private theorem shiftExp_apply (X : FVec Ideal S100000x8 .f32) (n : Fin 100000) (h : Fin 8) :
    Host.exp (subf X (broadcastInDim S100000x8 ![0, 1] Gen.bcast_S1x8_S100000x8_0_1
      (broadcastInDim S1x8 ![1] Gen.bcast_S8_S1x8_1
        (maximumf (broadcastInDim S8 ![] Gen.bcast_S_S8 (constant S_ .f32 0xFF800000#32))
          (Host.reduce FloatOps.maximumf X (constant S_ .f32 0xFF800000#32) Gen.reducesTo_S100000x8_S8_d0 Gen.h_S_))))) (ix2 n h)
      = pexp (fun n h => X (ix2 n h)) n h := by
  show Ideal.exp (X (ix2 n h) - _) = _
  rw [bcastRows_apply, colMax_apply]
  rfl

/-- Stretch 4: the soft-max weights. -/
theorem ops4_v46 (W : Valuation τ sig (Elt Ideal)) (n : Fin 100000) (h : Fin 8) :
    after ops4 W (Proc.devRef .tc main_v46) (ix2 n h) = alpha (fun n h => W (Proc.devRef .tc main_v35) (ix2 n h)) n h := by
  simp only [ops4]
  after_results_simp
  rw [hostDivf_apply, bcastRows_apply, colSum_apply]
  unfold alpha psum
  exact congr (congrArg Ideal.div (shiftExp_apply (W (Proc.devRef .tc main_v35)) n h))
    (Finset.sum_congr rfl fun k _ => shiftExp_apply (W (Proc.devRef .tc main_v35)) k h)

/-! ### The pieces of the aggregation stretch, each read at an index -/

/-- A weight copied over the sixteen channels of its head reads the weight of the row and head. -/
private theorem bcastChan_apply (A : FVec Ideal S100000x8 .f32) (n : Fin 100000) (h : Fin 8) (c : Fin 16) :
    broadcastInDim S100000x8x16 ![0, 1, 2] Gen.bcast_S100000x8x1_S100000x8x16_0_1_2
      (broadcastInDim S100000x8x1 ![0, 1] Gen.bcast_S100000x8_S100000x8x1_0_1 A) (ix3 n h c) = A (ix2 n h) := by
  rw [broadcastInDim_apply _ _ _ (ix3 n h c) (ix3 n h (0 : Fin 1))
      (fun a => match a with | ⟨0, _⟩ => rfl | ⟨1, _⟩ => rfl | ⟨2, _⟩ => rfl),
    broadcastInDim_apply _ _ _ (ix3 n h (0 : Fin 1)) (ix2 n h) (fun a => match a with | ⟨0, _⟩ => rfl | ⟨1, _⟩ => rfl)]

/-- The index of the 100000 × 8 × 16 array over (h, c) with row k put back. -/
private theorem lift_headChan (hr : S100000x8x16.Reduces [0] S8x16) (h : Fin 8) (c : Fin 16) (k : Fin 100000) :
    hr.lift (ix2 h c) k = ix3 k h c := by
  funext a
  match a with
  | ⟨0, _⟩ => rfl
  | ⟨1, _⟩ => rfl
  | ⟨2, _⟩ => rfl

/-- The sum over the rows at head h, channel c, from 0. -/
private theorem rowsSum_apply (E : FVec Ideal S100000x8x16 .f32) (h : Fin 8) (c : Fin 16) :
    Host.reduceAdd E (constant S_ .f32 0x00000000#32) Gen.reducesTo_S100000x8x16_S8x16_d0 Gen.h_S_ (ix2 h c)
      = ∑ n : Fin 100000, E (ix3 n h c) := by
  have hr : S100000x8x16.Reduces [0] S8x16 := by decide
  rw [hostReduceAdd_apply, Ideal.hostReduceAdd_single Gen.reducesTo_S100000x8x16_S8x16_d0 hr, constant_apply,
    Ideal.ofBits_zero_f32, zero_add]
  exact Finset.sum_congr rfl fun k _ => congrArg E (lift_headChan hr h c k)

/-- The weighted sum of the rows, flattened: flat channel j is channel j % 16 of head j / 16. -/
private theorem agg_apply (A : FVec Ideal S100000x8 .f32) (V : FVec Ideal S100000x8x16 .f32) (j : Fin 128) :
    shapeCast S1x128
      (Host.reduceAdd
        (mulf
          (broadcastInDim S100000x8x16 ![0, 1, 2] Gen.bcast_S100000x8x1_S100000x8x16_0_1_2
            (broadcastInDim S100000x8x1 ![0, 1] Gen.bcast_S100000x8_S100000x8x1_0_1 A)) V)
        (constant S_ .f32 0x00000000#32) Gen.reducesTo_S100000x8x16_S8x16_d0 Gen.h_S_)
      Gen.shapeCasts_S8x16_S1x128 (ix2 (0 : Fin 1) j)
    = ∑ n : Fin 100000, A (ix2 n (hd j)) * V (ix3 n (hd j) (⟨j.val % 16, Nat.mod_lt _ (by decide)⟩ : Fin 16)) := by
  rw [shapeCast_apply _ Gen.shapeCasts_S8x16_S1x128 (ix2 (0 : Fin 1) j)
      (ix2 (hd j) (⟨j.val % 16, Nat.mod_lt _ (by decide)⟩ : Fin 16))
      (by rw [Shape.rowMajor_val_two, Shape.rowMajor_val_two]
          show (j.val / 16) * 16 + j.val % 16 = 0 * 128 + j.val
          omega),
    rowsSum_apply]
  exact Finset.sum_congr rfl fun n _ => by rw [mulf_apply, bcastChan_apply]

/-- Stretch 5: the weighted average of the rows at flat channel j, plus the offset. -/
theorem ops5_v53 (W : Valuation τ sig (Elt Ideal)) (j : Fin 128) :
    after ops5 W (Proc.devRef .tc main_v53) (ix2 (0 : Fin 1) j)
      = (∑ n : Fin 100000, er (W (Proc.devRef .tc main_v46) (ix2 n (hd j)))
            * er (W (Proc.devRef .tc main_v24) (ix3 n (hd j) (⟨j.val % 16, Nat.mod_lt _ (by decide)⟩ : Fin 16))))
        + er (W (Proc.devRef .tc main_arg12) (ix1 j)) := by
  simp only [ops5]
  after_results_simp
  rw [addf_apply]
  exact congrArg₂ (· + ·) (agg_apply (W (Proc.devRef .tc main_v46)) (W (Proc.devRef .tc main_v24)) j)
    (broadcastInDim_apply _ _ _ (ix2 (0 : Fin 1) j) (ix1 j) (fun a => match a with | ⟨0, _⟩ => rfl))

/-- Stretch 9: as stretch 4. -/
theorem ops9_v100 (W : Valuation τ sig (Elt Ideal)) (n : Fin 100000) (h : Fin 8) :
    after ops9 W (Proc.devRef .tc main_v100) (ix2 n h) = alpha (fun n h => W (Proc.devRef .tc main_v89) (ix2 n h)) n h := by
  simp only [ops9]
  after_results_simp
  rw [hostDivf_apply, bcastRows_apply, colSum_apply]
  unfold alpha psum
  exact congr (congrArg Ideal.div (shiftExp_apply (W (Proc.devRef .tc main_v89)) n h))
    (Finset.sum_congr rfl fun k _ => shiftExp_apply (W (Proc.devRef .tc main_v89)) k h)

/-- Stretch 10: as stretch 5. -/
theorem ops10_v107 (W : Valuation τ sig (Elt Ideal)) (j : Fin 128) :
    after ops10 W (Proc.devRef .tc main_v107) (ix2 (0 : Fin 1) j)
      = (∑ n : Fin 100000, er (W (Proc.devRef .tc main_v100) (ix2 n (hd j)))
            * er (W (Proc.devRef .tc main_v78) (ix3 n (hd j) (⟨j.val % 16, Nat.mod_lt _ (by decide)⟩ : Fin 16))))
        + er (W (Proc.devRef .tc main_arg22) (ix1 j)) := by
  simp only [ops10]
  after_results_simp
  rw [addf_apply]
  exact congrArg₂ (· + ·) (agg_apply (W (Proc.devRef .tc main_v100)) (W (Proc.devRef .tc main_v78)) j)
    (broadcastInDim_apply _ _ _ (ix2 (0 : Fin 1) j) (ix1 j) (fun a => match a with | ⟨0, _⟩ => rfl))

/-- Stretch 11: the two aggregated rows side by side, added to the global row. -/
theorem ops11_v109 (W : Valuation τ sig (Elt Ideal)) (j : Fin 256) :
    after ops11 W (Proc.devRef .tc main_v109) (ix2 (0 : Fin 1) j)
      = er (W (Proc.devRef .tc main_arg2) (ix2 (0 : Fin 1) j))
        + (if h : j.val < 128 then er (W (Proc.devRef .tc main_v53) (ix2 (0 : Fin 1) (⟨j.val, h⟩ : Fin 128)))
           else er (W (Proc.devRef .tc main_v107) (ix2 (0 : Fin 1) (⟨j.val - 128, by omega⟩ : Fin 128)))) := by
  simp only [ops11]
  after_results_simp
  rw [addf_apply]
  congr 1
  by_cases h : j.val < 128
  · rw [dif_pos h]
    exact concatenate_pair_apply_left _ _ _ Gen.concatenates_S1x128_S1x128_S1x256_d1 (ix2 0 j) rfl (ix2 (0 : Fin 1) ⟨j.val, h⟩)
      (fun b => match b with | ⟨0, _⟩ => rfl | ⟨1, _⟩ => rfl)
  · rw [dif_neg h]
    exact concatenate_pair_apply_right _ _ _ Gen.concatenates_S1x128_S1x128_S1x256_d1 (ix2 0 j) rfl rfl
      (ix2 (0 : Fin 1) ⟨j.val - 128, by omega⟩)
      (fun b hb => match b, hb with | ⟨0, _⟩, _ => rfl | ⟨1, _⟩, hb => absurd rfl hb)
      (by show (j.val - 128) + 128 = j.val; omega)

end Cert.ReferenceIdeal.RefOps

end
-- ==== Proof.RefValue.lean ====
/-
  The reference's result, read at an index: the specification's result row.

  The thirteen stretches are chained: each stretch's reading is stated over the valuation it starts from, and a buffer
  a stretch does not write passes through it unchanged, so the argument arrays and the intermediate rows reach the
  stretch that reads them as they were written.
-/
import proofs.«162155_g33088428049086_cont_sun_c4_530_7_alg».proof.Proof.RefRun
import proofs.«162155_g33088428049086_cont_sun_c4_530_7_alg».proof.Proof.RefRun2
import proofs.«162155_g33088428049086_cont_sun_c4_530_7_alg».proof.Proof.RefArgs
import proofs.«162155_g33088428049086_cont_sun_c4_530_7_alg».proof.Proof.RefLN
import proofs.«162155_g33088428049086_cont_sun_c4_530_7_alg».proof.Proof.RefGat
import proofs.«162155_g33088428049086_cont_sun_c4_530_7_alg».proof.Proof.RefSoftmax
import proofs.«162155_g33088428049086_cont_sun_c4_530_7_alg».proof.Proof.SpecArr

noncomputable section

namespace Cert.ReferenceIdeal.RefOps

open Cert.ReferenceIdeal Idealize.ShloMosaic Idealize.ShloMosaic.TcCoe Idealize.ShloMosaic.StableHlo Idealize.ShloMosaic.ValueIdx Idealize.SL.Sem
open Cert.Hand.Spec

variable (V0 : Valuation τ sig (Elt Ideal))

/-- The whole line is the thirteen stretches in turn. -/
theorem after_ops_eq : after ops V0 = val13 V0 := by
  simp only [ops, after_append, val13, val12, val11, val10, val9, val8, val7, val6, val5, val4, val3, val2, val1, val0]

/-- An argument array passes through every stretch: no stretch writes it. -/
theorem val_keep (r : Ref sig .tc)
    (h1 : r ∉ ops1_W) (h2 : r ∉ ops2_W) (h3 : r ∉ ops3_W) (h4 : r ∉ ops4_W) (h5 : r ∉ ops5_W) (h6 : r ∉ ops6_W)
    (h7 : r ∉ ops7_W) (h8 : r ∉ ops8_W) (h9 : r ∉ ops9_W) (h10 : r ∉ ops10_W) (h11 : r ∉ ops11_W)
    (h12 : r ∉ ops12_W) (h13 : r ∉ ops13_W) :
    val1 V0 (Proc.devRef .tc r) = V0 (Proc.devRef .tc r) ∧ val2 V0 (Proc.devRef .tc r) = V0 (Proc.devRef .tc r) ∧ val3 V0 (Proc.devRef .tc r) = V0 (Proc.devRef .tc r)
    ∧ val4 V0 (Proc.devRef .tc r) = V0 (Proc.devRef .tc r) ∧ val5 V0 (Proc.devRef .tc r) = V0 (Proc.devRef .tc r) ∧ val6 V0 (Proc.devRef .tc r) = V0 (Proc.devRef .tc r)
    ∧ val7 V0 (Proc.devRef .tc r) = V0 (Proc.devRef .tc r) ∧ val8 V0 (Proc.devRef .tc r) = V0 (Proc.devRef .tc r) ∧ val9 V0 (Proc.devRef .tc r) = V0 (Proc.devRef .tc r)
    ∧ val10 V0 (Proc.devRef .tc r) = V0 (Proc.devRef .tc r) ∧ val11 V0 (Proc.devRef .tc r) = V0 (Proc.devRef .tc r) ∧ val12 V0 (Proc.devRef .tc r) = V0 (Proc.devRef .tc r)
    ∧ val13 V0 (Proc.devRef .tc r) = V0 (Proc.devRef .tc r) := by
  have e1 : val1 V0 (Proc.devRef .tc r) = V0 (Proc.devRef .tc r) := after_ops1_keep _ r h1
  have e2 : val2 V0 (Proc.devRef .tc r) = V0 (Proc.devRef .tc r) := (after_ops2_keep _ r h2).trans e1
  have e3 : val3 V0 (Proc.devRef .tc r) = V0 (Proc.devRef .tc r) := (after_ops3_keep _ r h3).trans e2
  have e4 : val4 V0 (Proc.devRef .tc r) = V0 (Proc.devRef .tc r) := (after_ops4_keep _ r h4).trans e3
  have e5 : val5 V0 (Proc.devRef .tc r) = V0 (Proc.devRef .tc r) := (after_ops5_keep _ r h5).trans e4
  have e6 : val6 V0 (Proc.devRef .tc r) = V0 (Proc.devRef .tc r) := (after_ops6_keep _ r h6).trans e5
  have e7 : val7 V0 (Proc.devRef .tc r) = V0 (Proc.devRef .tc r) := (after_ops7_keep _ r h7).trans e6
  have e8 : val8 V0 (Proc.devRef .tc r) = V0 (Proc.devRef .tc r) := (after_ops8_keep _ r h8).trans e7
  have e9 : val9 V0 (Proc.devRef .tc r) = V0 (Proc.devRef .tc r) := (after_ops9_keep _ r h9).trans e8
  have e10 : val10 V0 (Proc.devRef .tc r) = V0 (Proc.devRef .tc r) := (after_ops10_keep _ r h10).trans e9
  have e11 : val11 V0 (Proc.devRef .tc r) = V0 (Proc.devRef .tc r) := (after_ops11_keep _ r h11).trans e10
  have e12 : val12 V0 (Proc.devRef .tc r) = V0 (Proc.devRef .tc r) := (after_ops12_keep _ r h12).trans e11
  have e13 : val13 V0 (Proc.devRef .tc r) = V0 (Proc.devRef .tc r) := (after_ops13_keep _ r h13).trans e12
  exact ⟨e1, e2, e3, e4, e5, e6, e7, e8, e9, e10, e11, e12, e13⟩

/-! ## Buffers no stretch writes -/

/-- No stretch writes the buffer r. -/
abbrev Unwritten (r : Ref sig .tc) : Prop :=
  r ∉ ops1_W ∧ r ∉ ops2_W ∧ r ∉ ops3_W ∧ r ∉ ops4_W ∧ r ∉ ops5_W ∧ r ∉ ops6_W ∧ r ∉ ops7_W ∧ r ∉ ops8_W
    ∧ r ∉ ops9_W ∧ r ∉ ops10_W ∧ r ∉ ops11_W ∧ r ∉ ops12_W ∧ r ∉ ops13_W

/-- A buffer no stretch writes holds its starting contents after each stretch. -/
theorem unwritten_keep (r : Ref sig .tc) (h : Unwritten r) :
    val1 V0 (Proc.devRef .tc r) = V0 (Proc.devRef .tc r) ∧ val2 V0 (Proc.devRef .tc r) = V0 (Proc.devRef .tc r) ∧ val3 V0 (Proc.devRef .tc r) = V0 (Proc.devRef .tc r)
    ∧ val4 V0 (Proc.devRef .tc r) = V0 (Proc.devRef .tc r) ∧ val5 V0 (Proc.devRef .tc r) = V0 (Proc.devRef .tc r) ∧ val6 V0 (Proc.devRef .tc r) = V0 (Proc.devRef .tc r)
    ∧ val7 V0 (Proc.devRef .tc r) = V0 (Proc.devRef .tc r) ∧ val8 V0 (Proc.devRef .tc r) = V0 (Proc.devRef .tc r) ∧ val9 V0 (Proc.devRef .tc r) = V0 (Proc.devRef .tc r)
    ∧ val10 V0 (Proc.devRef .tc r) = V0 (Proc.devRef .tc r) ∧ val11 V0 (Proc.devRef .tc r) = V0 (Proc.devRef .tc r) ∧ val12 V0 (Proc.devRef .tc r) = V0 (Proc.devRef .tc r)
    ∧ val13 V0 (Proc.devRef .tc r) = V0 (Proc.devRef .tc r) :=
  match h with
  | ⟨h1, h2, h3, h4, h5, h6, h7, h8, h9, h10, h11, h12, h13⟩ => val_keep V0 r h1 h2 h3 h4 h5 h6 h7 h8 h9 h10 h11 h12 h13

theorem keep1 (r : Ref sig .tc) (h : Unwritten r) : val1 V0 (Proc.devRef .tc r) = V0 (Proc.devRef .tc r) :=
  (unwritten_keep V0 r h).1
theorem keep2 (r : Ref sig .tc) (h : Unwritten r) : val2 V0 (Proc.devRef .tc r) = V0 (Proc.devRef .tc r) :=
  (unwritten_keep V0 r h).2.1
theorem keep4 (r : Ref sig .tc) (h : Unwritten r) : val4 V0 (Proc.devRef .tc r) = V0 (Proc.devRef .tc r) :=
  (unwritten_keep V0 r h).2.2.2.1
theorem keep5 (r : Ref sig .tc) (h : Unwritten r) : val5 V0 (Proc.devRef .tc r) = V0 (Proc.devRef .tc r) :=
  (unwritten_keep V0 r h).2.2.2.2.1
theorem keep6 (r : Ref sig .tc) (h : Unwritten r) : val6 V0 (Proc.devRef .tc r) = V0 (Proc.devRef .tc r) :=
  (unwritten_keep V0 r h).2.2.2.2.2.1
theorem keep7 (r : Ref sig .tc) (h : Unwritten r) : val7 V0 (Proc.devRef .tc r) = V0 (Proc.devRef .tc r) :=
  (unwritten_keep V0 r h).2.2.2.2.2.2.1
theorem keep9 (r : Ref sig .tc) (h : Unwritten r) : val9 V0 (Proc.devRef .tc r) = V0 (Proc.devRef .tc r) :=
  (unwritten_keep V0 r h).2.2.2.2.2.2.2.2.1
theorem keep10 (r : Ref sig .tc) (h : Unwritten r) : val10 V0 (Proc.devRef .tc r) = V0 (Proc.devRef .tc r) :=
  (unwritten_keep V0 r h).2.2.2.2.2.2.2.2.2.1
theorem keep11 (r : Ref sig .tc) (h : Unwritten r) : val11 V0 (Proc.devRef .tc r) = V0 (Proc.devRef .tc r) :=
  (unwritten_keep V0 r h).2.2.2.2.2.2.2.2.2.2.1
theorem keep12 (r : Ref sig .tc) (h : Unwritten r) : val12 V0 (Proc.devRef .tc r) = V0 (Proc.devRef .tc r) :=
  (unwritten_keep V0 r h).2.2.2.2.2.2.2.2.2.2.2.1

/-- Channel j is channel (j mod 16) of its head. -/
private theorem hc_hd_mod (j : Fin 128) : hc (hd j) ⟨j.val % 16, Nat.mod_lt _ (by decide)⟩ = j := by
  apply Fin.ext
  show 16 * (j.val / 16) + j.val % 16 = j.val
  omega

/-! ## The view stream -/

/-- Stretch 1 leaves the view stream's projection of the global row. -/
theorem val1_v19 (j : Fin 128) :
    val1 V0 (Proc.devRef .tc main_v19) (ix2 (0 : Fin 1) j) = (argsOf V0).v.xt (argsOf V0).g j :=
  ops1_v19 V0 j

/-- Stretch 2 leaves the view rows through the left-hand map, split by head. -/
theorem val2_v24 (n : Fin 100000) (h : Fin 8) (c : Fin 16) :
    val2 V0 (Proc.devRef .tc main_v24) (ix3 n h c) = (argsOf V0).v.xl n (hc h c) := by
  have e := ops2_v24 (val1 V0) n h c
  rw [keep1 V0 main_arg0 (by decide), keep1 V0 main_arg7 (by decide), keep1 V0 main_arg8 (by decide)] at e
  exact e

/-- Stretch 2 leaves those rows plus the target term. -/
theorem val2_v30 (n : Fin 100000) (h : Fin 8) (c : Fin 16) :
    val2 V0 (Proc.devRef .tc main_v30) (ix3 n h c)
      = (argsOf V0).v.xl n (hc h c) + (argsOf V0).v.xr (argsOf V0).g (hc h c) := by
  have e := ops2_v30 (val1 V0) n h c
  have e19 : (fun k => val1 V0 (Proc.devRef .tc main_v19) (ix2 (0 : Fin 1) k)) = (argsOf V0).v.xt (argsOf V0).g :=
    funext (val1_v19 V0)
  rw [e19, keep1 V0 main_arg0 (by decide), keep1 V0 main_arg7 (by decide), keep1 V0 main_arg8 (by decide),
    keep1 V0 main_arg9 (by decide), keep1 V0 main_arg10 (by decide)] at e
  exact e

/-- Stretch 3 leaves the view stream's logits. -/
theorem val3_v35 (n : Fin 100000) (h : Fin 8) :
    val3 V0 (Proc.devRef .tc main_v35) (ix2 n h) = (argsOf V0).v.lg (argsOf V0).g n h := by
  have e := ops3_v35 (val2 V0) n h
  rw [keep2 V0 main_arg11 (by decide)] at e
  simp only [val2_v30 V0] at e
  exact e

/-- Stretch 4 leaves the view stream's soft-max weights. -/
theorem val4_v46 (n : Fin 100000) (h : Fin 8) :
    val4 V0 (Proc.devRef .tc main_v46) (ix2 n h) = alpha ((argsOf V0).v.lg (argsOf V0).g) n h := by
  have e := ops4_v46 (val3 V0) n h
  have e35 : (fun n h => val3 V0 (Proc.devRef .tc main_v35) (ix2 n h)) = (argsOf V0).v.lg (argsOf V0).g :=
    funext fun n => funext fun h => val3_v35 V0 n h
  rw [e35] at e
  exact e

/-- The split view rows reach stretch 5 as stretch 2 left them. -/
theorem val4_v24 (n : Fin 100000) (h : Fin 8) (c : Fin 16) :
    val4 V0 (Proc.devRef .tc main_v24) (ix3 n h c) = (argsOf V0).v.xl n (hc h c) := by
  have k : val4 V0 (Proc.devRef .tc main_v24) = val2 V0 (Proc.devRef .tc main_v24) :=
    (after_ops4_keep (val3 V0) main_v24 (by decide)).trans (after_ops3_keep (val2 V0) main_v24 (by decide))
  rw [k]
  exact val2_v24 V0 n h c

/-- Stretch 5 leaves the view stream's 128 aggregated entries. -/
theorem val5_v53 (j : Fin 128) :
    val5 V0 (Proc.devRef .tc main_v53) (ix2 (0 : Fin 1) j) = (argsOf V0).v.agg (argsOf V0).g j := by
  have e := ops5_v53 (val4 V0) j
  rw [keep4 V0 main_arg12 (by decide)] at e
  simp only [val4_v46 V0, val4_v24 V0, hc_hd_mod] at e
  exact e

/-! ## The scene-point stream -/

/-- Stretch 6 leaves the scene-point stream's projection of the global row. -/
theorem val6_v73 (j : Fin 128) :
    val6 V0 (Proc.devRef .tc main_v73) (ix2 (0 : Fin 1) j) = (argsOf V0).s.xt (argsOf V0).g j := by
  have e := ops6_v73 (val5 V0) j
  rw [keep5 V0 main_arg2 (by decide), keep5 V0 main_arg13 (by decide), keep5 V0 main_arg14 (by decide),
    keep5 V0 main_arg15 (by decide), keep5 V0 main_arg16 (by decide)] at e
  exact e

/-- Stretch 7 leaves the scene-point rows through the left-hand map, split by head. -/
theorem val7_v78 (n : Fin 100000) (h : Fin 8) (c : Fin 16) :
    val7 V0 (Proc.devRef .tc main_v78) (ix3 n h c) = (argsOf V0).s.xl n (hc h c) := by
  have e := ops7_v78 (val6 V0) n h c
  rw [keep6 V0 main_arg1 (by decide), keep6 V0 main_arg17 (by decide), keep6 V0 main_arg18 (by decide)] at e
  exact e

/-- Stretch 7 leaves those rows plus the target term. -/
theorem val7_v84 (n : Fin 100000) (h : Fin 8) (c : Fin 16) :
    val7 V0 (Proc.devRef .tc main_v84) (ix3 n h c)
      = (argsOf V0).s.xl n (hc h c) + (argsOf V0).s.xr (argsOf V0).g (hc h c) := by
  have e := ops7_v84 (val6 V0) n h c
  have e73 : (fun k => val6 V0 (Proc.devRef .tc main_v73) (ix2 (0 : Fin 1) k)) = (argsOf V0).s.xt (argsOf V0).g :=
    funext (val6_v73 V0)
  rw [e73, keep6 V0 main_arg1 (by decide), keep6 V0 main_arg17 (by decide), keep6 V0 main_arg18 (by decide),
    keep6 V0 main_arg19 (by decide), keep6 V0 main_arg20 (by decide)] at e
  exact e

/-- Stretch 8 leaves the scene-point stream's logits. -/
theorem val8_v89 (n : Fin 100000) (h : Fin 8) :
    val8 V0 (Proc.devRef .tc main_v89) (ix2 n h) = (argsOf V0).s.lg (argsOf V0).g n h := by
  have e := ops8_v89 (val7 V0) n h
  rw [keep7 V0 main_arg21 (by decide)] at e
  simp only [val7_v84 V0] at e
  exact e

/-- Stretch 9 leaves the scene-point stream's soft-max weights. -/
theorem val9_v100 (n : Fin 100000) (h : Fin 8) :
    val9 V0 (Proc.devRef .tc main_v100) (ix2 n h) = alpha ((argsOf V0).s.lg (argsOf V0).g) n h := by
  have e := ops9_v100 (val8 V0) n h
  have e89 : (fun n h => val8 V0 (Proc.devRef .tc main_v89) (ix2 n h)) = (argsOf V0).s.lg (argsOf V0).g :=
    funext fun n => funext fun h => val8_v89 V0 n h
  rw [e89] at e
  exact e

/-- The split scene-point rows reach stretch 10 as stretch 7 left them. -/
theorem val9_v78 (n : Fin 100000) (h : Fin 8) (c : Fin 16) :
    val9 V0 (Proc.devRef .tc main_v78) (ix3 n h c) = (argsOf V0).s.xl n (hc h c) := by
  have k : val9 V0 (Proc.devRef .tc main_v78) = val7 V0 (Proc.devRef .tc main_v78) :=
    (after_ops9_keep (val8 V0) main_v78 (by decide)).trans (after_ops8_keep (val7 V0) main_v78 (by decide))
  rw [k]
  exact val7_v78 V0 n h c

/-- Stretch 10 leaves the scene-point stream's 128 aggregated entries. -/
theorem val10_v107 (j : Fin 128) :
    val10 V0 (Proc.devRef .tc main_v107) (ix2 (0 : Fin 1) j) = (argsOf V0).s.agg (argsOf V0).g j := by
  have e := ops10_v107 (val9 V0) j
  rw [keep9 V0 main_arg22 (by decide)] at e
  simp only [val9_v100 V0, val9_v78 V0, hc_hd_mod] at e
  exact e

/-! ## The last block -/

/-- The view stream's aggregated entries reach stretch 11 as stretch 5 left them. -/
theorem val10_v53 (j : Fin 128) :
    val10 V0 (Proc.devRef .tc main_v53) (ix2 (0 : Fin 1) j) = (argsOf V0).v.agg (argsOf V0).g j := by
  have k : val10 V0 (Proc.devRef .tc main_v53) = val5 V0 (Proc.devRef .tc main_v53) :=
    (after_ops10_keep (val9 V0) main_v53 (by decide)).trans <|
      (after_ops9_keep (val8 V0) main_v53 (by decide)).trans <|
        (after_ops8_keep (val7 V0) main_v53 (by decide)).trans <|
          (after_ops7_keep (val6 V0) main_v53 (by decide)).trans (after_ops6_keep (val5 V0) main_v53 (by decide))
  rw [k]
  exact val5_v53 V0 j

/-- Stretch 11 leaves the updated global row. -/
theorem val11_v109 (j : Fin 256) :
    val11 V0 (Proc.devRef .tc main_v109) (ix2 (0 : Fin 1) j) = (argsOf V0).x j := by
  have e := ops11_v109 (val10 V0) j
  rw [keep10 V0 main_arg2 (by decide)] at e
  simp only [val10_v53 V0, val10_v107 V0] at e
  exact e

/-- Stretch 12 leaves the layer norm of the updated global row. -/
theorem val12_v125 (k : Fin 256) :
    val12 V0 (Proc.devRef .tc main_v125) (ix2 (0 : Fin 1) k)
      = lnorm (argsOf V0).x (argsOf V0).lnS (argsOf V0).lnB k := by
  have e := ops12_v125 (val11 V0) k
  have e109 : (fun k => val11 V0 (Proc.devRef .tc main_v109) (ix2 (0 : Fin 1) k)) = (argsOf V0).x :=
    funext (val11_v109 V0)
  rw [e109, keep11 V0 main_arg23 (by decide), keep11 V0 main_arg24 (by decide)] at e
  exact e

/-- The updated global row reaches stretch 13 as stretch 11 left it. -/
theorem val12_v109 (j : Fin 256) :
    val12 V0 (Proc.devRef .tc main_v109) (ix2 (0 : Fin 1) j) = (argsOf V0).x j := by
  have k : val12 V0 (Proc.devRef .tc main_v109) = val11 V0 (Proc.devRef .tc main_v109) :=
    after_ops12_keep (val11 V0) main_v109 (by decide)
  rw [k]
  exact val11_v109 V0 j

/-- Stretch 13 leaves the result row. -/
theorem val13_v130 (j : Fin 256) :
    val13 V0 (Proc.devRef .tc main_v130) (ix2 (0 : Fin 1) j) = (argsOf V0).out j := by
  have e := ops13_v130 (val12 V0) j
  rw [keep12 V0 main_arg25 (by decide), keep12 V0 main_arg26 (by decide)] at e
  simp only [val12_v109 V0, val12_v125 V0] at e
  exact e

/-! ## The whole line -/

/-- The reference's result buffer ends at the specification's result row. -/
theorem ref_out : after ops V0 (Proc.devRef .tc main_v130) = outArr (argsOf V0) := by
  rw [after_ops_eq]
  exact eq_outArr (argsOf V0) _ (val13_v130 V0)

/-- A buffer no stretch writes ends as it started. -/
theorem ref_arg (r : Ref sig .tc)
    (h1 : r ∉ ops1_W) (h2 : r ∉ ops2_W) (h3 : r ∉ ops3_W) (h4 : r ∉ ops4_W) (h5 : r ∉ ops5_W) (h6 : r ∉ ops6_W)
    (h7 : r ∉ ops7_W) (h8 : r ∉ ops8_W) (h9 : r ∉ ops9_W) (h10 : r ∉ ops10_W) (h11 : r ∉ ops11_W)
    (h12 : r ∉ ops12_W) (h13 : r ∉ ops13_W) :
    after ops V0 (Proc.devRef .tc r) = V0 (Proc.devRef .tc r) := by
  rw [after_ops_eq]
  exact (val_keep V0 r h1 h2 h3 h4 h5 h6 h7 h8 h9 h10 h11 h12 h13).2.2.2.2.2.2.2.2.2.2.2.2

/-- The same, the thirteen non-memberships as one decidable statement. -/
theorem ref_arg' (r : Ref sig .tc) (h : Unwritten r) : after ops V0 (Proc.devRef .tc r) = V0 (Proc.devRef .tc r) :=
  match h with
  | ⟨h1, h2, h3, h4, h5, h6, h7, h8, h9, h10, h11, h12, h13⟩ => ref_arg V0 r h1 h2 h3 h4 h5 h6 h7 h8 h9 h10 h11 h12 h13

/-! ## The run -/

/-- On every device, from any memory with zero counters: every weakly fair execution of the reference's @main
    terminates with the result buffer at the specification's result row of the launch's argument arrays, and the 27
    argument arrays unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v130) = outArr (argsOf (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run _ _ _).mono (fun _ h c =>
      ⟨(h c main_v130).trans (ref_out _),
        (h c main_arg0).trans (ref_arg' _ main_arg0 (by decide)),
        (h c main_arg1).trans (ref_arg' _ main_arg1 (by decide)),
        (h c main_arg2).trans (ref_arg' _ main_arg2 (by decide)),
        (h c main_arg3).trans (ref_arg' _ main_arg3 (by decide)),
        (h c main_arg4).trans (ref_arg' _ main_arg4 (by decide)),
        (h c main_arg5).trans (ref_arg' _ main_arg5 (by decide)),
        (h c main_arg6).trans (ref_arg' _ main_arg6 (by decide)),
        (h c main_arg7).trans (ref_arg' _ main_arg7 (by decide)),
        (h c main_arg8).trans (ref_arg' _ main_arg8 (by decide)),
        (h c main_arg9).trans (ref_arg' _ main_arg9 (by decide)),
        (h c main_arg10).trans (ref_arg' _ main_arg10 (by decide)),
        (h c main_arg11).trans (ref_arg' _ main_arg11 (by decide)),
        (h c main_arg12).trans (ref_arg' _ main_arg12 (by decide)),
        (h c main_arg13).trans (ref_arg' _ main_arg13 (by decide)),
        (h c main_arg14).trans (ref_arg' _ main_arg14 (by decide)),
        (h c main_arg15).trans (ref_arg' _ main_arg15 (by decide)),
        (h c main_arg16).trans (ref_arg' _ main_arg16 (by decide)),
        (h c main_arg17).trans (ref_arg' _ main_arg17 (by decide)),
        (h c main_arg18).trans (ref_arg' _ main_arg18 (by decide)),
        (h c main_arg19).trans (ref_arg' _ main_arg19 (by decide)),
        (h c main_arg20).trans (ref_arg' _ main_arg20 (by decide)),
        (h c main_arg21).trans (ref_arg' _ main_arg21 (by decide)),
        (h c main_arg22).trans (ref_arg' _ main_arg22 (by decide)),
        (h c main_arg23).trans (ref_arg' _ main_arg23 (by decide)),
        (h c main_arg24).trans (ref_arg' _ main_arg24 (by decide)),
        (h c main_arg25).trans (ref_arg' _ main_arg25 (by decide)),
        (h c main_arg26).trans (ref_arg' _ main_arg26 (by decide))⟩)
    (run_seq scopedRefs_eq scopedSems_eq defs main (fun _ => ops) main_eq (fun _ => ops_sub) m ρ (fun _ => ops_fresh))

end Cert.ReferenceIdeal.RefOps

end
-- ==== Proof.lean ====
/-
  The certificate: the kernel (a one-pass, blocked, running soft-max over 25 blocks of 4000 rows for each of two
  attention streams, with the layer-norm prologue at the first grid step and the epilogue at the last) computes what
  the reference (plain soft-max over all 100000 rows) computes, over the extended reals, for real inputs.

  The three frames: the two kernel programs' are the generated frame certificates (in the copies under Patched/, whose
  headers say what they change); the reference's is its run with the result dropped. The idealization ledger is
  empty. The algebraic claim: both programs end with the specification's result row (Spec.lean) of the argument
  arrays — the reference by reading its operations stretch by stretch, the kernel by induction over the grid steps
  and the identity between the running and the plain soft-max — and the argument arrays agree.
-/
import proofs.«162155_g33088428049086_cont_sun_c4_530_7_alg».proof.Defs
import proofs.«162155_g33088428049086_cont_sun_c4_530_7_alg».proof.Proof.Gen.Pre_finite_inputs
import proofs.«162155_g33088428049086_cont_sun_c4_530_7_alg».proof.Proof.Patched.Kernel.Frame
import proofs.«162155_g33088428049086_cont_sun_c4_530_7_alg».proof.Proof.KFinal
import proofs.«162155_g33088428049086_cont_sun_c4_530_7_alg».proof.Proof.RefValue
import Idealize.ShloMosaic.Adequacy
import Idealize.ShloMosaic.Init

noncomputable section

namespace Cert.Proof

open Idealize.ShloMosaic Idealize.SL.Sem Idealize.ShloMosaic.TcCoe Idealize.ShloMosaic.StableHlo
open Cert.Hand.Spec

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.RefOps.ref_run m ρ)

theorem preserves : Cert.preserves_Kernel_KernelIdeal := trivial

/-- Memories that agree on the 27 argument arrays give the specification the same arrays. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    Cert.ReferenceIdeal.RefOps.argsOf (launchContents m' c) = Cert.KernelIdeal.Hand.kerArgs m c := by
  obtain ⟨e0, e1, e2, e3, e4, e5, e6, e7, e8, e9, e10, e11, e12, e13, e14, e15, e16, e17, e18, e19, e20, e21, e22, e23, e24, e25, e26⟩ := h
  have k2 : ∀ {a b : ℕ} (A B : (⟨2, ![a, b]⟩ : Shape).Idx → EReal), A = B →
      Cert.ReferenceIdeal.RefOps.rd2 A = Cert.KernelIdeal.Hand.kd2 B := fun A B h => by subst h; rfl
  have k1 : ∀ {a : ℕ} (A B : (⟨1, ![a]⟩ : Shape).Idx → EReal), A = B →
      Cert.ReferenceIdeal.RefOps.rd1 A = Cert.KernelIdeal.Hand.kd1 B := fun A B h => by subst h; rfl
  have kg : ∀ (A B : (⟨2, ![1, 256]⟩ : Shape).Idx → EReal), A = B →
      (fun k : Fin 256 => A (ValueIdx.ix2 (0 : Fin 1) k)) = (fun k : Fin 256 => B (ValueIdx.ix2 (0 : Fin 1) k)) :=
    fun A B h => by subst h; rfl
  unfold Cert.ReferenceIdeal.RefOps.argsOf Cert.KernelIdeal.Hand.kerArgs Cert.ReferenceIdeal.RefOps.gatV Cert.ReferenceIdeal.RefOps.gatS
    Cert.KernelIdeal.Hand.gatVK Cert.KernelIdeal.Hand.gatSK
  simp only [launchContents, Args.mk.injEq, Gat.mk.injEq]
  exact ⟨kg _ _ e2, ⟨(k2 _ _ e0), (k1 _ _ e3), (k1 _ _ e4), (k2 _ _ e5), (k1 _ _ e6), (k2 _ _ e7), (k1 _ _ e8), (k2 _ _ e9), (k1 _ _ e10), (k2 _ _ e11), (k1 _ _ e12)⟩, ⟨(k2 _ _ e1), (k1 _ _ e13), (k1 _ _ e14), (k2 _ _ e15), (k1 _ _ e16), (k2 _ _ e17), (k1 _ _ e18), (k2 _ _ e19), (k1 _ _ e20), (k2 _ _ e21), (k1 _ _ e22)⟩, (k1 _ _ e23), (k1 _ _ e24), (k2 _ _ e25), (k1 _ _ e26)⟩

theorem algebraic : Cert.algebraic_KernelIdeal_ReferenceIdeal := by
  intro m ρ m' ρ' hpre hagree
  refine ⟨fun c => outArr (Cert.KernelIdeal.Hand.kerArgs m c), Cert.KernelIdeal.Hand.kernel_run m hpre ρ, ?_⟩
  refine (θ_run Cert.ReferenceIdeal.defs _ _).mono (fun r h c => ⟨(h c).1.trans ?_, (h c).2⟩)
    (Cert.ReferenceIdeal.RefOps.ref_run m' ρ')
  exact congrArg outArr (args_agree m m' c (hagree c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
